-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S40000x3 : Shape := ⟨2, ![40000, 3]⟩
abbrev S2x640000 : Shape := ⟨2, ![2, 640000]⟩
abbrev S40000 : Shape := ⟨1, ![40000]⟩
abbrev S640000x8 : Shape := ⟨2, ![640000, 8]⟩
abbrev S284x128 : Shape := ⟨2, ![284, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩
abbrev S1x640000 : Shape := ⟨2, ![1, 640000]⟩
abbrev S640000 : Shape := ⟨1, ![640000]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S40000x3 : S_.BroadcastsInDim S40000x3 (![] : Fin 0 → Fin S40000x3.rank)
  reducesTo_S40000x3_S_d0_1 : S40000x3.ReducesTo [0, 1] S_
  bcast_S_S640000x8 : S_.BroadcastsInDim S640000x8 (![] : Fin 0 → Fin S640000x8.rank)
  reducesTo_S640000x8_S_d0_1 : S640000x8.ReducesTo [0, 1] S_
  bcast_S_S284x128 : S_.BroadcastsInDim S284x128 (![] : Fin 0 → Fin S284x128.rank)
  reducesTo_S284x128_S_d0_1 : S284x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part5 {F : FTy → Type} [FloatOps F] (main_v78 : IVec S_ 1) (main_v82 : IVec S640000 1) (main_v84 : IVec S640000 32) (main_v85 : IVec S640000 32) : IVec S_ 1 :=
  let main_v86 : IVec S640000 1 := cmpi .slt main_v84 main_v85
  let main_v87 : IVec S640000 1 := andi main_v82 main_v86
  let main_c_32 : IVec S_ 1 := constantI S_ 1 1#1
  let main_v88 : IVec S_ 1 := (fun x v => Host.reduce IntOp.andi x v reducesTo_S640000_S_d0 h_S_) main_v87 main_c_32
  let main_v89 : IVec S_ 1 := andi main_v78 main_v88
  main_v89

def fn_part4 {F : FTy → Type} [FloatOps F] (main_arg2 : IVec S2x640000 32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : IVec S1x640000 32 := (extractStridedSlice S1x640000 ![0, 0] · slices_S2x640000_S1x640000_0_0) main_arg2
  let main_v80 : IVec S640000 32 := shapeCast S640000 main_v79 shapeCasts_S1x640000_S640000
  let main_c_30 : IVec S_ 32 := constantI S_ 32 0#32
  let main_v81 : IVec S640000 32 := broadcastInDim S640000 ![] bcast_S_S640000 main_c_30
  let main_v82 : IVec S640000 1 := cmpi .sge main_v80 main_v81
  let main_v83 : IVec S1x640000 32 := (extractStridedSlice S1x640000 ![0, 0] · slices_S2x640000_S1x640000_0_0) main_arg2
  let main_v84 : IVec S640000 32 := shapeCast S640000 main_v83 shapeCasts_S1x640000_S640000
  let main_c_31 : IVec S_ 32 := constantI S_ 32 40000#32
  let main_v85 : IVec S640000 32 := broadcastInDim S640000 ![] bcast_S_S640000 main_c_31
  fn_part5 (F := F) main_v78 main_v82 main_v84 main_v85

def fn_part3 {F : FTy → Type} [FloatOps F] (main_arg2 : IVec S2x640000 32) (main_arg13 : FVec F S128x1 .f32) (main_arg14 : FVec F S256x128 .f32) (main_arg15 : FVec F S128 .f32) (main_arg16 : FVec F S128x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg16 main_arg17 main_v63 main_v67

def fn_part2 {F : FTy → Type} [FloatOps F] (main_arg2 : IVec S2x640000 32) (main_arg9 : FVec F S128x1 .f32) (main_arg10 : FVec F S1 .f32) (main_arg11 : FVec F S128x128 .f32) (main_arg12 : FVec F S128 .f32) (main_arg13 : FVec F S128x1 .f32) (main_arg14 : FVec F S256x128 .f32) (main_arg15 : FVec F S128 .f32) (main_arg16 : FVec F S128x128 .f32) (main_arg17 : FVec F S128 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg13 main_arg14 main_arg15 main_arg16 main_arg17 main_v48 main_v49 main_v50

def fn_part1 {F : FTy → Type} [FloatOps F] (main_arg2 : IVec S2x640000 32) (main_arg6 : FVec F S128 .f32) (main_arg7 : FVec F S128x128 .f32) (main_arg8 : FVec F S128 .f32) (main_arg9 : FVec F S128x1 .f32) (main_arg10 : FVec F S1 .f32) (main_arg11 : FVec F S128x128 .f32) (main_arg12 : FVec F S128 .f32) (main_arg13 : FVec F S128x1 .f32) (main_arg14 : FVec F S256x128 .f32) (main_arg15 : FVec F S128 .f32) (main_arg16 : FVec F S128x128 .f32) (main_arg17 : FVec F S128 .f32) (main_v13 : IVec S_ 1) (main_v16 : IVec S284x128 1) : IVec S_ 1 :=
  let main_c_5 : IVec S_ 1 := constantI S_ 1 1#1
  let main_v17 : IVec S_ 1 := (fun x v => Host.reduce IntOp.andi x v reducesTo_S284x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg9 main_arg10 main_arg11 main_arg12 main_arg13 main_arg14 main_arg15 main_arg16 main_arg17 main_v33

def fn {F : FTy → Type} [FloatOps F] (main_arg0 : FVec F S40000x128 .f32) (main_arg1 : FVec F S40000x3 .f32) (main_arg2 : IVec S2x640000 32) (main_arg3 : IVec S40000 32) (main_arg4 : FVec F S640000x8 .f32) (main_arg5 : FVec F S284x128 .f32) (main_arg6 : FVec F S128 .f32) (main_arg7 : FVec F S128x128 .f32) (main_arg8 : FVec F S128 .f32) (main_arg9 : FVec F S128x1 .f32) (main_arg10 : FVec F S1 .f32) (main_arg11 : FVec F S128x128 .f32) (main_arg12 : FVec F S128 .f32) (main_arg13 : FVec F S128x1 .f32) (main_arg14 : FVec F S256x128 .f32) (main_arg15 : FVec F S128 .f32) (main_arg16 : FVec F S128x128 .f32) (main_arg17 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x3 .f32 := Host.absf main_arg1
  let main_cst_0 : FVec F S_ .f32 := constant S_ .f32 0x7F800000#32
  let main_v5 : FVec F S40000x3 .f32 := broadcastInDim S40000x3 ![] bcast_S_S40000x3 main_cst_0
  let main_v6 : IVec S40000x3 1 := cmpf .olt main_v4 main_v5
  let main_c_1 : IVec S_ 1 := constantI S_ 1 1#1
  let main_v7 : IVec S_ 1 := (fun x v => Host.reduce IntOp.andi x v reducesTo_S40000x3_S_d0_1 h_S_) main_v6 main_c_1
  let main_v8 : IVec S_ 1 := andi main_v3 main_v7
  let main_v9 : FVec F S640000x8 .f32 := Host.absf main_arg4
  let main_cst_2 : FVec F S_ .f32 := constant S_ .f32 0x7F800000#32
  let main_v10 : FVec F S640000x8 .f32 := broadcastInDim S640000x8 ![] bcast_S_S640000x8 main_cst_2
  let main_v11 : IVec S640000x8 1 := cmpf .olt main_v9 main_v10
  let main_c_3 : IVec S_ 1 := constantI S_ 1 1#1
  let main_v12 : IVec S_ 1 := (fun x v => Host.reduce IntOp.andi x v reducesTo_S640000x8_S_d0_1 h_S_) main_v11 main_c_3
  let main_v13 : IVec S_ 1 := andi main_v8 main_v12
  let main_v14 : FVec F S284x128 .f32 := Host.absf main_arg5
  let main_cst_4 : FVec F S_ .f32 := constant S_ .f32 0x7F800000#32
  let main_v15 : FVec F S284x128 .f32 := broadcastInDim S284x128 ![] bcast_S_S284x128 main_cst_4
  let main_v16 : IVec S284x128 1 := cmpf .olt main_v14 main_v15
  fn_part1 (F := F) main_arg2 main_arg6 main_arg7 main_arg8 main_arg9 main_arg10 main_arg11 main_arg12 main_arg13 main_arg14 main_arg15 main_arg16 main_arg17 main_v13 main_v16
-- ==== Kernel.lean ====
abbrev S40000x128 : Shape := ⟨2, ![40000, 128]⟩
abbrev S40000x3 : Shape := ⟨2, ![40000, 3]⟩
abbrev S2x640000 : Shape := ⟨2, ![2, 640000]⟩
abbrev S40000 : Shape := ⟨1, ![40000]⟩
abbrev S640000x8 : Shape := ⟨2, ![640000, 8]⟩
abbrev S284x128 : Shape := ⟨2, ![284, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S20 : Shape := ⟨1, ![20]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x1 : Shape := ⟨2, ![1, 1]⟩
abbrev S640000x128 : Shape := ⟨2, ![640000, 128]⟩
abbrev S640000x3 : Shape := ⟨2, ![640000, 3]⟩
abbrev S1x20 : Shape := ⟨2, ![1, 20]⟩
abbrev S640000x20 : Shape := ⟨2, ![640000, 20]⟩
abbrev S640000x32 : Shape := ⟨2, ![640000, 32]⟩
abbrev S28x128 : Shape := ⟨2, ![28, 128]⟩
abbrev S640000x131 : Shape := ⟨2, ![640000, 131]⟩
abbrev S4000x128 : Shape := ⟨2, ![4000, 128]⟩
abbrev S4000x32 : Shape := ⟨2, ![4000, 32]⟩
abbrev S4000x131 : Shape := ⟨2, ![4000, 131]⟩
abbrev S4000x28 : Shape := ⟨2, ![4000, 28]⟩
abbrev S4000x3 : Shape := ⟨2, ![4000, 3]⟩
abbrev S4000x1 : Shape := ⟨2, ![4000, 1]⟩
abbrev S1x128 : Shape := ⟨2, ![1, 128]⟩
abbrev S40000x131 : Shape := ⟨2, ![40000, 131]⟩
abbrev S2000x128 : Shape := ⟨2, ![2000, 128]⟩
abbrev S2000x3 : Shape := ⟨2, ![2000, 3]⟩

abbrev nBuf : Space → Nat
  | .hbm => 158
  | .vmem => 36
  | .smem => 0
  | _ => 0

abbrev hbmTy0_0 (i : Nat) : BufTy := match i % 128 with
  | 0 => ⟨S40000x128, .f32⟩
  | 1 => ⟨S40000x3, .f32⟩
  | 2 => ⟨S2x640000, .i32⟩
  | 3 => ⟨S40000, .i32⟩
  | 4 => ⟨S640000x8, .f32⟩
  | 5 => ⟨S284x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S128x128, .f32⟩
  | 12 => ⟨S128, .f32⟩
  | 13 => ⟨S128x1, .f32⟩
  | 14 => ⟨S256x128, .f32⟩
  | 15 => ⟨S128, .f32⟩
  | 16 => ⟨S128x128, .f32⟩
  | 17 => ⟨S128, .f32⟩
  | 18 => ⟨S20, .f32⟩
  | 19 => ⟨S1x640000, .i32⟩
  | 20 => ⟨S640000, .i32⟩
  | 21 => ⟨S1x640000, .i32⟩
  | 22 => ⟨S640000, .i32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S1, .i32⟩
  | 32 => ⟨S_, .i32⟩
  | 33 => ⟨S640000x1, .i32⟩
  | 34 => ⟨S640000x1, .i1⟩
  | 35 => ⟨S1x1, .i32⟩
  | 36 => ⟨S640000x1, .i32⟩
  | 37 => ⟨S640000x1, .i1⟩
  | 38 => ⟨S640000x1, .i1⟩
  | 39 => ⟨S_, .i1⟩
  | 40 => ⟨S640000, .i1⟩
  | 41 => ⟨S640000x128, .f32⟩
  | 42 => ⟨S640000x128, .i1⟩
  | 43 => ⟨S_, .f32⟩
  | 44 => ⟨S640000x128, .f32⟩
  | 45 => ⟨S640000x128, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S1, .i32⟩
  | 55 => ⟨S_, .i32⟩
  | 56 => ⟨S640000x1, .i32⟩
  | 57 => ⟨S640000x1, .i1⟩
  | 58 => ⟨S1x1, .i32⟩
  | 59 => ⟨S640000x1, .i32⟩
  | 60 => ⟨S640000x1, .i1⟩
  | 61 => ⟨S640000x1, .i1⟩
  | 62 => ⟨S_, .i1⟩
  | 63 => ⟨S640000, .i1⟩
  | 64 => ⟨S640000x128, .f32⟩
  | 65 => ⟨S640000x128, .i1⟩
  | 66 => ⟨S_, .f32⟩
  | 67 => ⟨S640000x128, .f32⟩
  | 68 => ⟨S640000x128, .f32⟩
  | 69 => ⟨S_, .i32⟩
  | 70 => ⟨S640000, .i32⟩
  | 71 => ⟨S640000, .i1⟩
  | 72 => ⟨S_, .i32⟩
  | 73 => ⟨S640000, .i32⟩
  | 74 => ⟨S640000, .i32⟩
  | 75 => ⟨S640000, .i32⟩
  | 76 => ⟨S640000x1, .i32⟩
  | 77 => ⟨S1, .i32⟩
  | 78 => ⟨S_, .i32⟩
  | 79 => ⟨S640000x1, .i32⟩
  | 80 => ⟨S640000x1, .i1⟩
  | 81 => ⟨S1x1, .i32⟩
  | 82 => ⟨S640000x1, .i32⟩
  | 83 => ⟨S640000x1, .i1⟩
  | 84 => ⟨S640000x1, .i1⟩
  | 85 => ⟨S_, .i1⟩
  | 86 => ⟨S640000, .i1⟩
  | 87 => ⟨S640000x3, .f32⟩
  | 88 => ⟨S640000x3, .i1⟩
  | 89 => ⟨S_, .f32⟩
  | 90 => ⟨S640000x3, .f32⟩
  | 91 => ⟨S640000x3, .f32⟩
  | 92 => ⟨S_, .i32⟩
  | 93 => ⟨S640000, .i32⟩
  | 94 => ⟨S640000, .i1⟩
  | 95 => ⟨S_, .i32⟩
  | 96 => ⟨S640000, .i32⟩
  | 97 => ⟨S640000, .i32⟩
  | 98 => ⟨S640000, .i32⟩
  | 99 => ⟨S640000x1, .i32⟩
  | 100 => ⟨S1, .i32⟩
  | 101 => ⟨S_, .i32⟩
  | 102 => ⟨S640000x1, .i32⟩
  | 103 => ⟨S640000x1, .i1⟩
  | 104 => ⟨S1x1, .i32⟩
  | 105 => ⟨S640000x1, .i32⟩
  | 106 => ⟨S640000x1, .i1⟩
  | 107 => ⟨S640000x1, .i1⟩
  | 108 => ⟨S_, .i1⟩
  | 109 => ⟨S640000, .i1⟩
  | 110 => ⟨S640000x3, .f32⟩
  | 111 => ⟨S640000x3, .i1⟩
  | 112 => ⟨S_, .f32⟩
  | 113 => ⟨S640000x3, .f32⟩
  | 114 => ⟨S640000x3, .f32⟩
  | 115 => ⟨S640000x3, .f32⟩
  | 116 => ⟨S640000x3, .f32⟩
  | 117 => ⟨S_, .f32⟩
  | 118 => ⟨S640000, .f32⟩
  | 119 => ⟨S640000x1, .f32⟩
  | 120 => ⟨S_, .f32⟩
  | 121 => ⟨S640000x1, .f32⟩
  | 122 => ⟨S640000x1, .f32⟩
  | 123 => ⟨S640000x1, .f32⟩
  | 124 => ⟨S1x20, .f32⟩
  | 125 => ⟨S640000x20, .f32⟩
  | 126 => ⟨S640000x20, .f32⟩
  | 127 => ⟨S640000x20, .f32⟩
  | _ => ⟨S40000x128, .f32⟩

abbrev hbmTy0_1 (i : Nat) : BufTy := match i % 128 with
  | 0 => ⟨S640000x20, .f32⟩
  | 1 => ⟨S_, .f32⟩
  | 2 => ⟨S640000x20, .f32⟩
  | 3 => ⟨S640000x20, .f32⟩
  | 4 => ⟨S640000x20, .f32⟩
  | 5 => ⟨S640000x32, .f32⟩
  | 6 => ⟨S128x128, .f32⟩
  | 7 => ⟨S128x128, .bf16⟩
  | 8 => ⟨S128x128, .f32⟩
  | 9 => ⟨S128x128, .bf16⟩
  | 10 => ⟨S28x128, .f32⟩
  | 11 => ⟨S28x128, .bf16⟩
  | 12 => ⟨S128x128, .bf16⟩
  | 13 => ⟨S128x1, .bf16⟩
  | 14 => ⟨S128x128, .bf16⟩
  | 15 => ⟨S128x1, .bf16⟩
  | 16 => ⟨S640000x131, .f32⟩
  | 17 => ⟨S_, .f32⟩
  | 18 => ⟨S40000x131, .f32⟩
  | 19 => ⟨S640000x1, .i32⟩
  | 20 => ⟨S40000x131, .f32⟩
  | 21 => ⟨S40000x128, .f32⟩
  | 22 => ⟨S40000x3, .f32⟩
  | 23 => ⟨S128x128, .f32⟩
  | 24 => ⟨S128x128, .bf16⟩
  | 25 => ⟨S128x128, .f32⟩
  | 26 => ⟨S128x128, .bf16⟩
  | 27 => ⟨S128x128, .bf16⟩
  | 28 => ⟨S40000x128, .f32⟩
  | 29 => ⟨S40000x3, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x32, .f32⟩
  | .local _ .vmem, ⟨5, _⟩ => ⟨S4000x32, .f32⟩
  | .local _ .vmem, ⟨6, _⟩ => ⟨S128x128, .bf16⟩
  | .local _ .vmem, ⟨7, _⟩ => ⟨S128x128, .bf16⟩
  | .local _ .vmem, ⟨8, _⟩ => ⟨S28x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x1, .bf16⟩
  | .local _ .vmem, ⟨13, _⟩ => ⟨S1, .f32⟩
  | .local _ .vmem, ⟨14, _⟩ => ⟨S128x128, .bf16⟩
  | .local _ .vmem, ⟨15, _⟩ => ⟨S128, .f32⟩
  | .local _ .vmem, ⟨16, _⟩ => ⟨S128x1, .bf16⟩
  | .local _ .vmem, ⟨17, _⟩ => ⟨S4000x131, .f32⟩
  | .local _ .vmem, ⟨18, _⟩ => ⟨S4000x131, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x3, .f32⟩
  | .local _ .vmem, ⟨24, _⟩ => ⟨S2000x3, .f32⟩
  | .local _ .vmem, ⟨25, _⟩ => ⟨S2000x3, .f32⟩
  | .local _ .vmem, ⟨26, _⟩ => ⟨S2000x3, .f32⟩
  | .local _ .vmem, ⟨27, _⟩ => ⟨S128x128, .bf16⟩
  | .local _ .vmem, ⟨28, _⟩ => ⟨S128x128, .bf16⟩
  | .local _ .vmem, ⟨29, _⟩ => ⟨S128, .f32⟩
  | .local _ .vmem, ⟨30, _⟩ => ⟨S128x128, .bf16⟩
  | .local _ .vmem, ⟨31, _⟩ => ⟨S128, .f32⟩
  | .local _ .vmem, ⟨32, _⟩ => ⟨S2000x128, .f32⟩
  | .local _ .vmem, ⟨33, _⟩ => ⟨S2000x128, .f32⟩
  | .local _ .vmem, ⟨34, _⟩ => ⟨S2000x3, .f32⟩
  | .local _ .vmem, ⟨35, _⟩ => ⟨S2000x3, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v4 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v5 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v6 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v7 : Ref sig .tc := ⟨.hbm, 114, rfl⟩
abbrev main_v8 : Ref sig .tc := ⟨.hbm, 115, rfl⟩
abbrev main_v9 : Ref sig .tc := ⟨.hbm, 116, rfl⟩
abbrev main_cst_0 : Ref sig .tc := ⟨.hbm, 117, rfl⟩
abbrev main_v10 : Ref sig .tc := ⟨.hbm, 118, rfl⟩
abbrev main_v11 : Ref sig .tc := ⟨.hbm, 119, rfl⟩
abbrev main_cst_1 : Ref sig .tc := ⟨.hbm, 120, rfl⟩
abbrev main_v12 : Ref sig .tc := ⟨.hbm, 121, rfl⟩
abbrev main_v13 : Ref sig .tc := ⟨.hbm, 122, rfl⟩
abbrev main_v14 : Ref sig .tc := ⟨.hbm, 123, rfl⟩
abbrev main_v15 : Ref sig .tc := ⟨.hbm, 124, rfl⟩
abbrev main_v16 : Ref sig .tc := ⟨.hbm, 125, rfl⟩
abbrev main_v17 : Ref sig .tc := ⟨.hbm, 126, rfl⟩
abbrev main_v18 : Ref sig .tc := ⟨.hbm, 127, rfl⟩
abbrev main_v19 : Ref sig .tc := ⟨.hbm, 128, rfl⟩
abbrev main_cst_2 : Ref sig .tc := ⟨.hbm, 129, rfl⟩
abbrev main_v20 : Ref sig .tc := ⟨.hbm, 130, rfl⟩
abbrev main_v21 : Ref sig .tc := ⟨.hbm, 131, rfl⟩
abbrev main_v22 : Ref sig .tc := ⟨.hbm, 132, rfl⟩
abbrev main_v23 : Ref sig .tc := ⟨.hbm, 133, rfl⟩
abbrev main_v24 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_cst_3 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45_0 : Ref sig .tc := ⟨.hbm, 156, rfl⟩
abbrev main_v45_1 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem9_1 : DmaSem sig := 33
abbrev cc1_sem10_0 : DmaSem sig := 34
abbrev cc1_sem10_1 : DmaSem sig := 35

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S28x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4000x131 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x3 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000_S640000x3_0 : S640000.BroadcastsInDim S640000x3 (![0] : Fin 1 → Fin S640000x3.rank)
  bcast_S_S640000x3 : S_.BroadcastsInDim S640000x3 (![] : Fin 0 → Fin S640000x3.rank)
  reducesTo_S640000x3_S640000_d1 : S640000x3.ReducesTo [1] S640000
  bcast_S20_S1x20_1 : S20.BroadcastsInDim S1x20 (![1] : Fin 1 → Fin S1x20.rank)
  bcast_S640000x1_S640000x20_0_1 : S640000x1.BroadcastsInDim S640000x20 (![0, 1] : Fin 2 → Fin S640000x20.rank)
  bcast_S1x20_S640000x20_0_1 : S1x20.BroadcastsInDim S640000x20 (![0, 1] : Fin 2 → Fin S640000x20.rank)
  bcast_S_S640000x20 : S_.BroadcastsInDim S640000x20 (![] : Fin 0 → Fin S640000x20.rank)
  concatenates_S640000x20_S640000x8_S640000x3_S640000x1_S640000x32_d1 : Shape.Concatenates [S640000x20, S640000x8, S640000x3, S640000x1] S640000x32 1
  slices_S284x128_S128x128_0_0 : S284x128.Slices ![0, 0] S128x128
  bitsLt_bf16_f32 : FTy.bits .bf16 < FTy.bits .f32
  slices_S284x128_S128x128_128_0 : S284x128.Slices ![128, 0] S128x128
  slices_S284x128_S28x128_256_0 : S284x128.Slices ![256, 0] S28x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  slices_S4000x32_o0_0_S4000x28 : S4000x32.Slices ![0, 0] S4000x28
  slices_S4000x32_o0_28_S4000x3 : S4000x32.Slices ![0, 28] S4000x3
  slices_S4000x32_o0_31_S4000x1 : S4000x32.Slices ![0, 31] S4000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S28x128_S28x128_0_0 : ∀ a, (![0, 0] : Fin 2 → Nat) a + S28x128.size a ≤ S28x128.size a
  h_S28x128 : 0 < S28x128.numel
  shapeCasts_S28x128_S28x128 : S28x128.ShapeCasts S28x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  broadcasts_S4000x1_S4000x128 : S4000x1.Broadcasts S4000x128
  inb_S4000x131_S4000x128_0_0 : ∀ a, (![0, 0] : Fin 2 → Nat) a + S4000x128.size a ≤ S4000x131.size a
  broadcasts_S4000x1_S4000x3 : S4000x1.Broadcasts S4000x3
  inb_S4000x131_S4000x3_0_128 : ∀ a, (![0, 128] : Fin 2 → Nat) a + S4000x3.size a ≤ S4000x131.size a
  h_S4000x3 : 0 < S4000x3.numel
  bcast_S_S40000x131 : S_.BroadcastsInDim S40000x131 (![] : Fin 0 → Fin S40000x131.rank)
  slices_S40000x131_S40000x128_0_0 : S40000x131.Slices ![0, 0] S40000x128
  slices_S40000x131_S40000x3_0_128 : S40000x131.Slices ![0, 128] S40000x3
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  gather_S40000x128_S640000x1_S640000x128_1_0_n_n_0_1_1128_wf : GatherDims.WF S40000x128 S640000x1 S640000x128 [1] [0] [] [0] [] 1 ![1, 128]
  gather_S40000x3_S640000x1_S640000x3_1_0_n_n_0_1_13_wf : GatherDims.WF S40000x3 S640000x1 S640000x3 [1] [0] [] [0] [] 1 ![1, 3]
  dot_S4000x128_S128x128_S4000x128_1_0_0_1_n_n_wf : DotDims.WF S4000x128 S128x128 S4000x128 [1] [0] [0] [1] [] []
  dot_S4000x28_S28x128_S4000x128_1_0_0_1_n_n_wf : DotDims.WF S4000x28 S28x128 S4000x128 [1] [0] [0] [1] [] []
  dot_S4000x128_S128x1_S4000x1_1_0_0_1_n_n_wf : DotDims.WF S4000x128 S128x1 S4000x1 [1] [0] [0] [1] [] []
  scatter_S40000x131_S640000x1_S640000x131_1_0_0_1_wf : ScatterDims.WF S40000x131 S640000x1 S640000x131 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .f32 = 32 ∨ (Rect.block (s := S640000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S640000x32.size a
  hwx0_2 : ∀ i : grid0.Coords, EltTy.bits .f32 = 32 ∨ (Rect.block (s := S640000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S28x128.size a ≤ S28x128.size a
  hwx0_5 : ∀ i : grid0.Coords, EltTy.bits .bf16 = 32 ∨ (Rect.block (s := S28x128) S28x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .bf16 = 32 ∨ (Rect.block (s := S128x1) S128x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x1.size a ≤ S128x1.size a
  hwx0_13 : ∀ i : grid0.Coords, EltTy.bits .bf16 = 32 ∨ (Rect.block (s := S128x1) S128x1.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x131.size a ≤ S640000x131.size a
  hwx0_14 : ∀ i : grid0.Coords, EltTy.bits .f32 = 32 ∨ (Rect.block (s := S640000x131) S4000x131.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S40000x128.size a
  hwx1_1 : ∀ i : grid1.Coords, EltTy.bits .f32 = 32 ∨ (Rect.block (s := S40000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x3.size a ≤ S40000x3.size a
  hwx1_2 : ∀ i : grid1.Coords, EltTy.bits .f32 = 32 ∨ (Rect.block (s := S40000x3) S2000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S40000x3.size a
  hwx1_3 : ∀ i : grid1.Coords, EltTy.bits .f32 = 32 ∨ (Rect.block (s := S40000x3) S2000x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S40000x128.size a
  hwx1_9 : ∀ i : grid1.Coords, EltTy.bits .f32 = 32 ∨ (Rect.block (s := S40000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x3.size a ≤ S40000x3.size a
  hwx1_10 : ∀ i : grid1.Coords, EltTy.bits .f32 = 32 ∨ (Rect.block (s := S40000x3) S2000x3.size (cc1_transform_10 i) (hinb1_10 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def gather_S40000x3_S640000x1_S640000x3_1_0_n_n_0_1_13 : GatherDims S40000x3 S640000x1 S640000x3 where
  offsetDims := [1]
  collapsedSliceDims := [0]
  operandBatchingDims := []
  startIndicesBatchingDims := []
  startIndexMap := [0]
  indexVectorDim := 1
  sliceSizes := ![1, 3]
  wf := gather_S40000x3_S640000x1_S640000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x28_S28x128_S4000x128_1_0_0_1_n_n : DotDims S4000x28 S28x128 S4000x128 where
  lhsContracting := [1]
  rhsContracting := [0]
  lhsNonContracting := [0]
  rhsNonContracting := [1]
  lhsBatch := []
  rhsBatch := []
  wf := dot_S4000x28_S28x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S40000x131_S640000x1_S640000x131_1_0_0_1 : ScatterDims S40000x131 S640000x1 S640000x131 where
  updateWindowDims := [1]
  insertedWindowDims := [0]
  scatterDimsToOperandDims := [0]
  indexVectorDim := 1
  wf := scatter_S40000x131_S640000x1_S640000x131_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S28x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v33) S128x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v34) S4000x131.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v41) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v45_1) S2000x3.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S40000x128 : Shape := ⟨2, ![40000, 128]⟩
abbrev S40000x3 : Shape := ⟨2, ![40000, 3]⟩
abbrev S2x640000 : Shape := ⟨2, ![2, 640000]⟩
abbrev S40000 : Shape := ⟨1, ![40000]⟩
abbrev S640000x8 : Shape := ⟨2, ![640000, 8]⟩
abbrev S284x128 : Shape := ⟨2, ![284, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S20 : Shape := ⟨1, ![20]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x3 : Shape := ⟨2, ![640000, 3]⟩
abbrev S1x20 : Shape := ⟨2, ![1, 20]⟩
abbrev S640000x20 : Shape := ⟨2, ![640000, 20]⟩
abbrev S640000x28 : Shape := ⟨2, ![640000, 28]⟩
abbrev S640000x284 : Shape := ⟨2, ![640000, 284]⟩
abbrev S1x128 : Shape := ⟨2, ![1, 128]⟩
abbrev S1x1 : Shape := ⟨2, ![1, 1]⟩
abbrev S40000x256 : Shape := ⟨2, ![40000, 256]⟩

abbrev nBuf : Space → Nat
  | .hbm => 169
  | .vmem => 0
  | .smem => 0
  | _ => 0

abbrev hbmTy0_0 (i : Nat) : BufTy := match i % 128 with
  | 0 => ⟨S40000x128, .f32⟩
  | 1 => ⟨S40000x3, .f32⟩
  | 2 => ⟨S2x640000, .i32⟩
  | 3 => ⟨S40000, .i32⟩
  | 4 => ⟨S640000x8, .f32⟩
  | 5 => ⟨S284x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S128x128, .f32⟩
  | 12 => ⟨S128, .f32⟩
  | 13 => ⟨S128x1, .f32⟩
  | 14 => ⟨S256x128, .f32⟩
  | 15 => ⟨S128, .f32⟩
  | 16 => ⟨S128x128, .f32⟩
  | 17 => ⟨S128, .f32⟩
  | 18 => ⟨S20, .f32⟩
  | 19 => ⟨S1x640000, .i32⟩
  | 20 => ⟨S640000, .i32⟩
  | 21 => ⟨S1x640000, .i32⟩
  | 22 => ⟨S640000, .i32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x128, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000x128, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000x3, .f32⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000x3, .f32⟩
  | 59 => ⟨S640000x3, .f32⟩
  | 60 => ⟨S640000x3, .f32⟩
  | 61 => ⟨S_, .f32⟩
  | 62 => ⟨S640000, .f32⟩
  | 63 => ⟨S640000x1, .f32⟩
  | 64 => ⟨S_, .f32⟩
  | 65 => ⟨S640000x1, .f32⟩
  | 66 => ⟨S640000x1, .f32⟩
  | 67 => ⟨S640000x1, .f32⟩
  | 68 => ⟨S1x20, .f32⟩
  | 69 => ⟨S640000x20, .f32⟩
  | 70 => ⟨S640000x20, .f32⟩
  | 71 => ⟨S640000x20, .f32⟩
  | 72 => ⟨S640000x20, .f32⟩
  | 73 => ⟨S_, .f32⟩
  | 74 => ⟨S640000x20, .f32⟩
  | 75 => ⟨S640000x20, .f32⟩
  | 76 => ⟨S640000x20, .f32⟩
  | 77 => ⟨S640000x28, .f32⟩
  | 78 => ⟨S640000x284, .f32⟩
  | 79 => ⟨S640000x128, .f32⟩
  | 80 => ⟨S1x128, .f32⟩
  | 81 => ⟨S640000x128, .f32⟩
  | 82 => ⟨S640000x128, .f32⟩
  | 83 => ⟨S640000x128, .f32⟩
  | 84 => ⟨S640000x128, .f32⟩
  | 85 => ⟨S_, .f32⟩
  | 86 => ⟨S640000x128, .f32⟩
  | 87 => ⟨S640000x128, .f32⟩
  | 88 => ⟨S_, .f32⟩
  | 89 => ⟨S640000x128, .f32⟩
  | 90 => ⟨S640000x128, .f32⟩
  | 91 => ⟨S640000x128, .f32⟩
  | 92 => ⟨S640000x128, .f32⟩
  | 93 => ⟨S1x128, .f32⟩
  | 94 => ⟨S640000x128, .f32⟩
  | 95 => ⟨S640000x128, .f32⟩
  | 96 => ⟨S640000x128, .f32⟩
  | 97 => ⟨S640000x128, .f32⟩
  | 98 => ⟨S_, .f32⟩
  | 99 => ⟨S640000x128, .f32⟩
  | 100 => ⟨S640000x128, .f32⟩
  | 101 => ⟨S_, .f32⟩
  | 102 => ⟨S640000x128, .f32⟩
  | 103 => ⟨S640000x128, .f32⟩
  | 104 => ⟨S640000x128, .f32⟩
  | 105 => ⟨S640000x1, .f32⟩
  | 106 => ⟨S1x1, .f32⟩
  | 107 => ⟨S640000x1, .f32⟩
  | 108 => ⟨S640000x1, .f32⟩
  | 109 => ⟨S640000x1, .f32⟩
  | 110 => ⟨S640000x1, .f32⟩
  | 111 => ⟨S_, .f32⟩
  | 112 => ⟨S640000x1, .f32⟩
  | 113 => ⟨S640000x1, .f32⟩
  | 114 => ⟨S_, .f32⟩
  | 115 => ⟨S640000x1, .f32⟩
  | 116 => ⟨S640000x1, .f32⟩
  | 117 => ⟨S640000x128, .f32⟩
  | 118 => ⟨S640000x128, .f32⟩
  | 119 => ⟨S_, .f32⟩
  | 120 => ⟨S40000x128, .f32⟩
  | 121 => ⟨S640000x1, .i32⟩
  | 122 => ⟨S40000x128, .f32⟩
  | 123 => ⟨S40000x256, .f32⟩
  | 124 => ⟨S40000x128, .f32⟩
  | 125 => ⟨S1x128, .f32⟩
  | 126 => ⟨S40000x128, .f32⟩
  | 127 => ⟨S40000x128, .f32⟩
  | _ => ⟨S40000x128, .f32⟩

abbrev hbmTy0_1 (i : Nat) : BufTy := match i % 128 with
  | 0 => ⟨S40000x128, .f32⟩
  | 1 => ⟨S40000x128, .f32⟩
  | 2 => ⟨S_, .f32⟩
  | 3 => ⟨S40000x128, .f32⟩
  | 4 => ⟨S40000x128, .f32⟩
  | 5 => ⟨S_, .f32⟩
  | 6 => ⟨S40000x128, .f32⟩
  | 7 => ⟨S40000x128, .f32⟩
  | 8 => ⟨S40000x128, .f32⟩
  | 9 => ⟨S40000x128, .f32⟩
  | 10 => ⟨S1x128, .f32⟩
  | 11 => ⟨S40000x128, .f32⟩
  | 12 => ⟨S40000x128, .f32⟩
  | 13 => ⟨S40000x128, .f32⟩
  | 14 => ⟨S640000x128, .f32⟩
  | 15 => ⟨S1x128, .f32⟩
  | 16 => ⟨S640000x128, .f32⟩
  | 17 => ⟨S640000x128, .f32⟩
  | 18 => ⟨S640000x128, .f32⟩
  | 19 => ⟨S640000x128, .f32⟩
  | 20 => ⟨S_, .f32⟩
  | 21 => ⟨S640000x128, .f32⟩
  | 22 => ⟨S640000x128, .f32⟩
  | 23 => ⟨S_, .f32⟩
  | 24 => ⟨S640000x128, .f32⟩
  | 25 => ⟨S640000x128, .f32⟩
  | 26 => ⟨S640000x128, .f32⟩
  | 27 => ⟨S640000x1, .f32⟩
  | 28 => ⟨S640000x1, .f32⟩
  | 29 => ⟨S_, .f32⟩
  | 30 => ⟨S640000x1, .f32⟩
  | 31 => ⟨S640000x1, .f32⟩
  | 32 => ⟨S640000x3, .f32⟩
  | 33 => ⟨S640000x3, .f32⟩
  | 34 => ⟨S640000x3, .f32⟩
  | 35 => ⟨S640000x3, .f32⟩
  | 36 => ⟨S_, .f32⟩
  | 37 => ⟨S40000x3, .f32⟩
  | 38 => ⟨S640000x1, .i32⟩
  | 39 => ⟨S40000x3, .f32⟩
  | 40 => ⟨S40000x3, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_10 : Ref sig .tc := ⟨.hbm, 111, rfl⟩
abbrev main_v65 : Ref sig .tc := ⟨.hbm, 112, rfl⟩
abbrev main_v66 : Ref sig .tc := ⟨.hbm, 113, rfl⟩
abbrev main_cst_11 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_12 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_call2_v0 : Ref sig .tc := ⟨.hbm, 128, rfl⟩
abbrev main_call2_v1 : Ref sig .tc := ⟨.hbm, 129, rfl⟩
abbrev main_call2_cst : Ref sig .tc := ⟨.hbm, 130, rfl⟩
abbrev main_call2_v2 : Ref sig .tc := ⟨.hbm, 131, rfl⟩
abbrev main_call2_v3 : Ref sig .tc := ⟨.hbm, 132, rfl⟩
abbrev main_call2_cst_0 : Ref sig .tc := ⟨.hbm, 133, rfl⟩
abbrev main_call2_v4 : Ref sig .tc := ⟨.hbm, 134, rfl⟩
abbrev main_call2_v5 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_call3_v0 : Ref sig .tc := ⟨.hbm, 146, rfl⟩
abbrev main_call3_v1 : Ref sig .tc := ⟨.hbm, 147, rfl⟩
abbrev main_call3_cst : Ref sig .tc := ⟨.hbm, 148, rfl⟩
abbrev main_call3_v2 : Ref sig .tc := ⟨.hbm, 149, rfl⟩
abbrev main_call3_v3 : Ref sig .tc := ⟨.hbm, 150, rfl⟩
abbrev main_call3_cst_0 : Ref sig .tc := ⟨.hbm, 151, rfl⟩
abbrev main_call3_v4 : Ref sig .tc := ⟨.hbm, 152, rfl⟩
abbrev main_call3_v5 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_cst_13 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_cst_14 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  bcast_S_S640000x1 : S_.BroadcastsInDim S640000x1 (![] : Fin 0 → Fin S640000x1.rank)
  bcast_S20_S1x20_1 : S20.BroadcastsInDim S1x20 (![1] : Fin 1 → Fin S1x20.rank)
  bcast_S640000x1_S640000x20_0_1 : S640000x1.BroadcastsInDim S640000x20 (![0, 1] : Fin 2 → Fin S640000x20.rank)
  bcast_S1x20_S640000x20_0_1 : S1x20.BroadcastsInDim S640000x20 (![0, 1] : Fin 2 → Fin S640000x20.rank)
  bcast_S_S640000x20 : S_.BroadcastsInDim S640000x20 (![] : Fin 0 → Fin S640000x20.rank)
  concatenates_S640000x20_S640000x8_S640000x28_d1 : Shape.Concatenates [S640000x20, S640000x8] S640000x28 1
  concatenates_S640000x128_S640000x128_S640000x28_S640000x284_d1 : Shape.Concatenates [S640000x128, S640000x128, S640000x28] S640000x284 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  concatenates_S40000x128_S40000x128_S40000x256_d1 : Shape.Concatenates [S40000x128, S40000x128] S40000x256 1
  bcast_S1x128_S40000x128_0_1 : S1x128.BroadcastsInDim S40000x128 (![0, 1] : Fin 2 → Fin S40000x128.rank)
  bcast_S640000x1_S640000x3_0_1 : S640000x1.BroadcastsInDim S640000x3 (![0, 1] : Fin 2 → Fin S640000x3.rank)
  bcast_S_S40000x3 : S_.BroadcastsInDim S40000x3 (![] : Fin 0 → Fin S40000x3.rank)
  gather_S40000x128_S640000x1_S640000x128_1_0_n_n_0_1_1128_wf : GatherDims.WF S40000x128 S640000x1 S640000x128 [1] [0] [] [0] [] 1 ![1, 128]
  gather_S40000x3_S640000x1_S640000x3_1_0_n_n_0_1_13_wf : GatherDims.WF S40000x3 S640000x1 S640000x3 [1] [0] [] [0] [] 1 ![1, 3]
  dot_S640000x284_S284x128_S640000x128_1_0_0_1_n_n_wf : DotDims.WF S640000x284 S284x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  scatter_S40000x128_S640000x1_S640000x128_1_0_0_1_wf : ScatterDims.WF S40000x128 S640000x1 S640000x128 [1] [0] [0] 1
  dot_S40000x256_S256x128_S40000x128_1_0_0_1_n_n_wf : DotDims.WF S40000x256 S256x128 S40000x128 [1] [0] [0] [1] [] []
  dot_S40000x128_S128x128_S40000x128_1_0_0_1_n_n_wf : DotDims.WF S40000x128 S128x128 S40000x128 [1] [0] [0] [1] [] []
  scatter_S40000x3_S640000x1_S640000x3_1_0_0_1_wf : ScatterDims.WF S40000x3 S640000x1 S640000x3 [1] [0] [0] 1

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def gather_S40000x3_S640000x1_S640000x3_1_0_n_n_0_1_13 : GatherDims S40000x3 S640000x1 S640000x3 where
  offsetDims := [1]
  collapsedSliceDims := [0]
  operandBatchingDims := []
  startIndicesBatchingDims := []
  startIndexMap := [0]
  indexVectorDim := 1
  sliceSizes := ![1, 3]
  wf := gather_S40000x3_S640000x1_S640000x3_1_0_n_n_0_1_13_wf
def dot_S640000x284_S284x128_S640000x128_1_0_0_1_n_n : DotDims S640000x284 S284x128 S640000x128 where
  lhsContracting := [1]
  rhsContracting := [0]
  lhsNonContracting := [0]
  rhsNonContracting := [1]
  lhsBatch := []
  rhsBatch := []
  wf := dot_S640000x284_S284x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S40000x3_S640000x1_S640000x3_1_0_0_1 : ScatterDims S40000x3 S640000x1 S640000x3 where
  updateWindowDims := [1]
  insertedWindowDims := [0]
  scatterDimsToOperandDims := [0]
  indexVectorDim := 1
  wf := scatter_S40000x3_S640000x1_S640000x3_1_0_0_1_wf

class Facts : Prop extends Facts₀ where

variable [Facts]
-- ==== Proof.KI.EdgeOut.lean ====
/- What one run of the edge kernel's body leaves in its output block, as a function of its fourteen input blocks:
   columns 0..127 hold the gated message mij · eij, columns 128..130 the coordinate contribution
   rel / (dist + 1) · xw; the two stores tile the 4000 × 131 block. -/
import proofs.«418897_j48576080117843_2_alg».proof.Proof.Gen.KernelIdeal.Skeleton
import Idealize.ShloMosaic.Lib.Pipeline.FrameBody
set_option maxRecDepth 16384

noncomputable section

namespace Cert.KernelIdeal.Hand

open Idealize.ShloMosaic Idealize.ShloMosaic.TcCoe
open Cert.KernelIdeal Cert.KernelIdeal.Gen

variable {F : FTy → Type} [FloatOps F]

/-! ## The rectangles the body reads and writes -/

/-- The whole of a 4000 × 128 block. -/
abbrev rE128 : Rect S4000x128 := Rect.unit (s := S4000x128) ![0, 0] S4000x128.size inb_S4000x128_S4000x128_0_0
/-- The whole of the 4000 × 32 feature block. -/
abbrev rE32 : Rect S4000x32 := Rect.unit (s := S4000x32) ![0, 0] S4000x32.size inb_S4000x32_S4000x32_0_0
/-- The whole of a 128 × 128 weight. -/
abbrev rW128 : Rect S128x128 := Rect.unit (s := S128x128) ![0, 0] S128x128.size inb_S128x128_S128x128_0_0
/-- The whole of the 28 × 128 weight. -/
abbrev rW28 : Rect S28x128 := Rect.unit (s := S28x128) ![0, 0] S28x128.size inb_S28x128_S28x128_0_0
/-- The whole of a 128 × 1 weight column. -/
abbrev rC128 : Rect S128x1 := Rect.unit (s := S128x1) ![0, 0] S128x1.size inb_S128x1_S128x1_0_0
/-- The whole of a 128-entry bias. -/
abbrev rB128 : Rect S128 := Rect.unit (s := S128) ![0] S128.size inb_S128_S128_0
/-- The whole of the 1-entry bias. -/
abbrev rB1 : Rect S1 := Rect.unit (s := S1) ![0] S1.size inb_S1_S1_0
/-- Columns 0..127 of the output block. -/
abbrev rOutA : Rect S4000x131 := Rect.unit (s := S4000x131) ![0, 0] S4000x128.size inb_S4000x131_S4000x128_0_0
/-- Columns 128..130 of the output block. -/
abbrev rOutB : Rect S4000x131 := Rect.unit (s := S4000x131) ![0, 128] S4000x3.size inb_S4000x131_S4000x3_0_128

/-! ## The block the body leaves -/

/-- The message rows before the gate, from the blocks of hi, hj, feat and the first two layers' weights. -/
def mijBlk (x0 x1 : Vec F S4000x128 .f32) (x2 : Vec F S4000x32 .f32) (x3 x4 : Vec F S128x128 .bf16) (x5 : Vec F S28x128 .bf16)
    (x6 : Vec F S128 .f32) (x7 : Vec F S128x128 .bf16) (x8 : Vec F S128 .f32) : FVec F S4000x128 .f32 :=
  k0_pay6 (View.ld x0 rE128) (View.ld x1 rE128) (View.ld x2 rE32) (View.ld x3 rW128) (View.ld x4 rW128) (View.ld x5 rW28)
    (View.ld x6 rB128) (View.ld x7 rW128) (View.ld x8 rB128)

/-- The output block after the body: its two stores as pieces, the later one first. -/
def out0_14 (x0 x1 : Vec F S4000x128 .f32) (x2 : Vec F S4000x32 .f32) (x3 x4 : Vec F S128x128 .bf16) (x5 : Vec F S28x128 .bf16)
    (x6 : Vec F S128 .f32) (x7 : Vec F S128x128 .bf16) (x8 : Vec F S128 .f32) (x9 : Vec F S128x1 .bf16) (x10 : Vec F S1 .f32)
    (x11 : Vec F S128x128 .bf16) (x12 : Vec F S128 .f32) (x13 : Vec F S128x1 .bf16) : Vec F S4000x131 .f32 :=
  View.canon [⟨rOutB, k0_pay2 (k0_pay4 (View.ld x2 rE32)) (k0_pay5 (View.ld x2 rE32)) (mijBlk x0 x1 x2 x3 x4 x5 x6 x7 x8)
                  (View.ld x11 rW128) (View.ld x12 rB128) (View.ld x13 rC128)⟩,
              ⟨rOutA, k0_pay1 (mijBlk x0 x1 x2 x3 x4 x5 x6 x7 x8) (View.ld x9 rC128) (View.ld x10 rB1)⟩]

end Cert.KernelIdeal.Hand

end
-- ==== Proof.KI.EdgeBody.lean ====
/- The edge kernel's region (grid of 160 points, 4000 edges each): each window's block at a point, the proof data of its
   pipeline at entry contents V, and the body's obligation at every point: run on the staged blocks it leaves each input
   block in place and the output block at out0_14 of the fourteen input blocks. -/
import proofs.«418897_j48576080117843_2_alg».proof.Proof.KI.EdgeOut
import proofs.«418897_j48576080117843_2_alg».proof.Proof.Gen.KernelIdeal.Launch
import proofs.«418897_j48576080117843_2_alg».proof.Proof.Gen.KernelIdeal.Skeleton
import proofs.«418897_j48576080117843_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the edge kernel's pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-! ## What the body finds in each input window's staging buffer -/

/-- Input window 0's current staging buffer holds its block at every point, fetched there or not: unfetched, the
    block index has not moved; the window is uncut and never idle, and the body leaves the block in place. -/
theorem staged0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input window 1's current staging buffer holds its block at every point, fetched there or not: unfetched, the
    block index has not moved; the window is uncut and never idle, and the body leaves the block in place. -/
theorem staged0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input window 2's current staging buffer holds its block at every point, fetched there or not: unfetched, the
    block index has not moved; the window is uncut and never idle, and the body leaves the block in place. -/
theorem staged0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Input window 3's current staging buffer holds its block at every point, fetched there or not: unfetched, the
    block index has not moved; the window is uncut and never idle, and the body leaves the block in place. -/
theorem staged0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
/-- Input window 4's current staging buffer holds its block at every point, fetched there or not: unfetched, the
    block index has not moved; the window is uncut and never idle, and the body leaves the block in place. -/
theorem staged0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
/-- Input window 5's current staging buffer holds its block at every point, fetched there or not: unfetched, the
    block index has not moved; the window is uncut and never idle, and the body leaves the block in place. -/
theorem staged0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
/-- Input window 6's current staging buffer holds its block at every point, fetched there or not: unfetched, the
    block index has not moved; the window is uncut and never idle, and the body leaves the block in place. -/
theorem staged0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
/-- Input window 7's current staging buffer holds its block at every point, fetched there or not: unfetched, the
    block index has not moved; the window is uncut and never idle, and the body leaves the block in place. -/
theorem staged0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
/-- Input window 8's current staging buffer holds its block at every point, fetched there or not: unfetched, the
    block index has not moved; the window is uncut and never idle, and the body leaves the block in place. -/
theorem staged0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
/-- Input window 9's current staging buffer holds its block at every point, fetched there or not: unfetched, the
    block index has not moved; the window is uncut and never idle, and the body leaves the block in place. -/
theorem staged0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
/-- Input window 10's current staging buffer holds its block at every point, fetched there or not: unfetched, the
    block index has not moved; the window is uncut and never idle, and the body leaves the block in place. -/
theorem staged0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
/-- Input window 11's current staging buffer holds its block at every point, fetched there or not: unfetched, the
    block index has not moved; the window is uncut and never idle, and the body leaves the block in place. -/
theorem staged0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)
/-- Input window 12's current staging buffer holds its block at every point, fetched there or not: unfetched, the
    block index has not moved; the window is uncut and never idle, and the body leaves the block in place. -/
theorem staged0_12 (c : Dev nD) (t : Fin cfg0.N) (d) : (dat0 V c).before 12 t d = iblk0 V c 12 t :=
  ((dat0 V c).before_in_eq_fetched 12 rfl (fun _ => rfl) (fun _ _ _ => rfl)
    (fun t => by rw [after0_12]; unfold Dat.blockOf iblk0; rw [A_eq0]; try rfl) t d).trans
    (by unfold Dat.fetched Dat.blockOf iblk0; rw [A_eq0]; try rfl)
/-- Input window 13's current staging buffer holds its block at every point, fetched there or not: unfetched, the
    block index has not moved; the window is uncut and never idle, and the body leaves the block in place. -/
theorem staged0_13 (c : Dev nD) (t : Fin cfg0.N) (d) : (dat0 V c).before 13 t d = iblk0 V c 13 t :=
  ((dat0 V c).before_in_eq_fetched 13 rfl (fun _ => rfl) (fun _ _ _ => rfl)
    (fun t => by rw [after0_13]; unfold Dat.blockOf iblk0; rw [A_eq0]; try rfl) t d).trans
    (by unfold Dat.fetched Dat.blockOf iblk0; rw [A_eq0]; try rfl)

/-! ## The output block's two stores cover it -/

/-- Columns 0..127 and columns 128..130 tile the 4000 × 131 block: cut into single columns, they tile. -/
theorem outCols_cover (p0 : Vec F S4000x3 .f32) (p1 : Vec F S4000x128 .f32) (y : S4000x131.Idx) :
    ∃ pc ∈ ([⟨rOutB, p0⟩, ⟨rOutA, p1⟩] : List (View.Piece (Elt F) S4000x131 .f32)), y ∈ pc.1.set :=
  View.cover_of_tiledBy _ ![4000, 1] (by sl_kernel_rfl) y

/-! ## The body's triple -/

set_option maxHeartbeats 4000000 in
/-- The edge kernel on whole staging memrefs, the fourteen inputs' at read contents and the output's at anything, runs
    to the continuation holding the inputs' as they were and the output's at out0_14 of the inputs'. -/
theorem edgeKernel_triple (c : Dev nD) (E : Set ℕ) (i : grid0.Coords) (arg0 : Memref sig .tc .vmem S4000x128 .f32) (harg0 : arg0.IsWhole) (arg1 : Memref sig .tc .vmem S4000x128 .f32) (harg1 : arg1.IsWhole) (arg2 : Memref sig .tc .vmem S4000x32 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S28x128 .bf16) (harg5 : arg5.IsWhole) (arg6 : Memref sig .tc .vmem S128 .f32) (harg6 : arg6.IsWhole) (arg7 : Memref sig .tc .vmem S128x128 .bf16) (harg7 : arg7.IsWhole) (arg8 : Memref sig .tc .vmem S128 .f32) (harg8 : arg8.IsWhole) (arg9 : Memref sig .tc .vmem S128x1 .bf16) (harg9 : arg9.IsWhole) (arg10 : Memref sig .tc .vmem S1 .f32) (harg10 : arg10.IsWhole) (arg11 : Memref sig .tc .vmem S128x128 .bf16) (harg11 : arg11.IsWhole) (arg12 : Memref sig .tc .vmem S128 .f32) (harg12 : arg12.IsWhole) (arg13 : Memref sig .tc .vmem S128x1 .bf16) (harg13 : arg13.IsWhole) (arg14 : Memref sig .tc .vmem S4000x131 .f32) (harg14 : arg14.IsWhole)
    (x0 : Vec F S4000x128 .f32) (x1 : Vec F S4000x128 .f32) (x2 : Vec F S4000x32 .f32) (x3 : Vec F S128x128 .bf16) (x4 : Vec F S128x128 .bf16) (x5 : Vec F S28x128 .bf16) (x6 : Vec F S128 .f32) (x7 : Vec F S128x128 .bf16) (x8 : Vec F S128 .f32) (x9 : Vec F S128x1 .bf16) (x10 : Vec F S1 .f32) (x11 : Vec F S128x128 .bf16) (x12 : Vec F S128 .f32) (x13 : Vec F S128x1 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (out0_14 x0 x1 x2 x3 x4 x5 x6 x7 x8 x9 x10 x11 x12 x13)) -∗ K ⟨⟩))
      ⊢ wp frame (wpE (defs₀ (F := F)) Variants.none c none) E (cc0__edge_kernel i arg0 harg0 arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  try dsimp only
  exact View.read_writes_eq_canon _ _ _ (outCols_cover _ _)

/-! ## The body obligation, at a generic point -/

/-- What the body is called with at point t, the windows one by one, -/
def edgePre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def edgePost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

set_option maxHeartbeats 1000000 in
/-- The body at any point: the inputs' memrefs hold their blocks, so the kernel's triple applies; the invariant and the
    core's debts pass through unread. -/
theorem edgeBody_triple (c : Dev nD) (t : Fin cfg0.N) :
    edgePre V c t ⊢ wp frame (wpE (defs₀ (F := F)) Variants.none c none) Set.univ (bodyAt0 t) (fun _ => edgePost V c t) := by
  unfold edgePre edgePost bodyAt0
  simp only [staged0_0, staged0_1, staged0_2, staged0_3, staged0_4, staged0_5, staged0_6, staged0_7, staged0_8, staged0_9, staged0_10, staged0_11, staged0_12, staged0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (edgeKernel_triple c Set.univ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body's obligation at every point of the grid. -/
theorem body_obligation0 (c : Dev nD) : BodyObligation (dat0 (F := F) V c) (defs₀ (F := F)) Variants.none () Set.univ := by
  intro t
  rw [bigSep_W0, bigSep_W0]
  exact edgeBody_triple V c t

end Cert.KernelIdeal.Hand

end
-- ==== Proof.KI.NodeOut.lean ====
/- What one run of the node kernel's body leaves in its two output blocks, as functions of its nine input blocks:
   the new features h + (silu(mi·Wn1a + h·Wn1b + bn1)·Wn2 + bn2) and the new coordinates x + dx. -/
import proofs.«418897_j48576080117843_2_alg».proof.Proof.Gen.KernelIdeal.Skeleton
import Idealize.ShloMosaic.Lib.Pipeline.FrameBody
set_option maxRecDepth 16384

noncomputable section

namespace Cert.KernelIdeal.Hand

open Idealize.ShloMosaic Idealize.ShloMosaic.TcCoe
open Cert.KernelIdeal Cert.KernelIdeal.Gen

variable {F : FTy → Type} [FloatOps F]

/-- The whole of a 2000 × 128 block. -/
abbrev rN128 : Rect S2000x128 := Rect.unit (s := S2000x128) ![0, 0] S2000x128.size inb_S2000x128_S2000x128_0_0
/-- The whole of a 2000 × 3 block. -/
abbrev rN3 : Rect S2000x3 := Rect.unit (s := S2000x3) ![0, 0] S2000x3.size inb_S2000x3_S2000x3_0_0
/-- The whole of a 128 × 128 weight. -/
abbrev rNW : Rect S128x128 := Rect.unit (s := S128x128) ![0, 0] S128x128.size inb_S128x128_S128x128_0_0
/-- The whole of a 128-entry bias. -/
abbrev rNB : Rect S128 := Rect.unit (s := S128) ![0] S128.size inb_S128_S128_0

/-- The feature output block after the body (one store of the whole block). -/
def out1_9 (x0 x1 : Vec F S2000x128 .f32) (x4 x5 : Vec F S128x128 .bf16) (x6 : Vec F S128 .f32) (x7 : Vec F S128x128 .bf16)
    (x8 : Vec F S128 .f32) : Vec F S2000x128 .f32 :=
  View.canon [⟨rN128, k1_pay1 (View.ld x0 rN128) (View.ld x1 rN128) (View.ld x4 rNW) (View.ld x5 rNW) (View.ld x6 rNB)
                  (View.ld x7 rNW) (View.ld x8 rNB)⟩]

/-- The coordinate output block after the body (one store of the whole block). -/
def out1_10 (x2 x3 : Vec F S2000x3 .f32) : Vec F S2000x3 .f32 :=
  View.canon [⟨rN3, k1_pay2 (View.ld x2 rN3) (View.ld x3 rN3)⟩]

end Cert.KernelIdeal.Hand

end
-- ==== Proof.KI.NodeBody.lean ====
/- The node kernel's region (grid of 20 points, 2000 nodes each): each window's block at a point, the proof data of its
   pipeline at entry contents V, and the body's obligation at every point: run on the staged blocks it leaves each input
   block in place and the two output blocks at out1_9 and out1_10 of the input blocks. -/
import proofs.«418897_j48576080117843_2_alg».proof.Proof.KI.NodeOut
import proofs.«418897_j48576080117843_2_alg».proof.Proof.Gen.KernelIdeal.Launch
import proofs.«418897_j48576080117843_2_alg».proof.Proof.Gen.KernelIdeal.Skeleton
import proofs.«418897_j48576080117843_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the node kernel's pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 4 t) (iblk1 V c 5 t) (iblk1 V c 6 t) (iblk1 V c 7 t) (iblk1 V c 8 t)
    | ⟨10, _⟩ => out1_10 (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 2 t) (iblk1 V c 3 t) := by dsimp only [dat1]

/-- Input window 0 (the aggregated messages): its current staging buffer holds its block at every point, fetched there or not
    (unfetched, the block index has not moved), for any proof data whose array is the entry contents and whose body
    leaves the block in place. -/
theorem staged1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the node features): its current staging buffer holds its block at every point, fetched there or not
    (unfetched, the block index has not moved), for any proof data whose array is the entry contents and whose body
    leaves the block in place. -/
theorem staged1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the coordinates): its current staging buffer holds its block at every point, fetched there or not
    (unfetched, the block index has not moved), for any proof data whose array is the entry contents and whose body
    leaves the block in place. -/
theorem staged1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the coordinate updates): its current staging buffer holds its block at every point, fetched there or not
    (unfetched, the block index has not moved), for any proof data whose array is the entry contents and whose body
    leaves the block in place. -/
theorem staged1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the first layer's message weight): its current staging buffer holds its block at every point, fetched there or not
    (unfetched, the block index has not moved), for any proof data whose array is the entry contents and whose body
    leaves the block in place. -/
theorem staged1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the first layer's feature weight): its current staging buffer holds its block at every point, fetched there or not
    (unfetched, the block index has not moved), for any proof data whose array is the entry contents and whose body
    leaves the block in place. -/
theorem staged1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 (the first layer's bias): its current staging buffer holds its block at every point, fetched there or not
    (unfetched, the block index has not moved), for any proof data whose array is the entry contents and whose body
    leaves the block in place. -/
theorem staged1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7 (the second layer's weight): its current staging buffer holds its block at every point, fetched there or not
    (unfetched, the block index has not moved), for any proof data whose array is the entry contents and whose body
    leaves the block in place. -/
theorem staged1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8 (the second layer's bias): its current staging buffer holds its block at every point, fetched there or not
    (unfetched, the block index has not moved), for any proof data whose array is the entry contents and whose body
    leaves the block in place. -/
theorem staged1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- One store of the whole block covers the feature block. -/
theorem cover1_9 (p0 : Vec F S2000x128 .f32) (y : S2000x128.Idx) :
    ∃ pc ∈ ([⟨rN128, p0⟩] : List (View.Piece (Elt F) S2000x128 .f32)), y ∈ pc.1.set :=
  View.cover_of_tiled [⟨rN128, p0⟩] S2000x128.size (by rfl) y

/-- One store of the whole block covers the coordinate block. -/
theorem cover1_10 (p0 : Vec F S2000x3 .f32) (y : S2000x3.Idx) :
    ∃ pc ∈ ([⟨rN3, p0⟩] : List (View.Piece (Elt F) S2000x3 .f32)), y ∈ pc.1.set :=
  View.cover_of_tiled [⟨rN3, p0⟩] S2000x3.size (by rfl) y

/-- The node kernel's body on whole staging memrefs, the nine inputs' at read contents x0 … x8 and the two outputs' at
    anything, runs to the continuation holding the inputs' as they were, the feature output's at out1_9 of the inputs
    and the coordinate output's at out1_10 of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x3 .f32) (harg3 : arg3.IsWhole) (arg4 : Memref sig .tc .vmem S2000x3 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S2000x128 .f32) (harg10 : arg10.IsWhole) (arg11 : Memref sig .tc .vmem S2000x3 .f32) (harg11 : arg11.IsWhole)
    (x0 : Vec F S2000x128 .f32) (x1 : Vec F S2000x128 .f32) (x2 : Vec F S2000x3 .f32) (x3 : Vec F S2000x3 .f32) (x4 : Vec F S128x128 .bf16) (x5 : Vec F S128x128 .bf16) (x6 : Vec F S128 .f32) (x7 : Vec F S128x128 .bf16) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x4 x5 x6 x7 x8) ∗ owns (c : Thread nD τ) arg11 fullShare (out1_10 x2 x3)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9 arg10 harg10 arg11 harg11) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover1_9 _)
  iexists _; isplitr
  swap; · iexact H10
  ipureintro
  exact View.read_writes_eq_canon _ _ _ (cover1_10 _)

theorem staged1_0 (c : Dev nD) (t : Fin cfg1.N) (d) : (dat1 V c).before 0 t d = iblk1 V c 0 t :=
  staged1_0_of V (dat1 V c) (A_eq1 V c 0) (after1_0 V c) t d
theorem staged1_1 (c : Dev nD) (t : Fin cfg1.N) (d) : (dat1 V c).before 1 t d = iblk1 V c 1 t :=
  staged1_1_of V (dat1 V c) (A_eq1 V c 1) (after1_1 V c) t d
theorem staged1_2 (c : Dev nD) (t : Fin cfg1.N) (d) : (dat1 V c).before 2 t d = iblk1 V c 2 t :=
  staged1_2_of V (dat1 V c) (A_eq1 V c 2) (after1_2 V c) t d
theorem staged1_3 (c : Dev nD) (t : Fin cfg1.N) (d) : (dat1 V c).before 3 t d = iblk1 V c 3 t :=
  staged1_3_of V (dat1 V c) (A_eq1 V c 3) (after1_3 V c) t d
theorem staged1_4 (c : Dev nD) (t : Fin cfg1.N) (d) : (dat1 V c).before 4 t d = iblk1 V c 4 t :=
  staged1_4_of V (dat1 V c) (A_eq1 V c 4) (after1_4 V c) t d
theorem staged1_5 (c : Dev nD) (t : Fin cfg1.N) (d) : (dat1 V c).before 5 t d = iblk1 V c 5 t :=
  staged1_5_of V (dat1 V c) (A_eq1 V c 5) (after1_5 V c) t d
theorem staged1_6 (c : Dev nD) (t : Fin cfg1.N) (d) : (dat1 V c).before 6 t d = iblk1 V c 6 t :=
  staged1_6_of V (dat1 V c) (A_eq1 V c 6) (after1_6 V c) t d
theorem staged1_7 (c : Dev nD) (t : Fin cfg1.N) (d) : (dat1 V c).before 7 t d = iblk1 V c 7 t :=
  staged1_7_of V (dat1 V c) (A_eq1 V c 7) (after1_7 V c) t d
theorem staged1_8 (c : Dev nD) (t : Fin cfg1.N) (d) : (dat1 V c).before 8 t d = iblk1 V c 8 t :=
  staged1_8_of V (dat1 V c) (A_eq1 V c 8) (after1_8 V c) t d

/-- What the body is called with at point t: the invariant, the core's owed transfers, and every window's current
    staging buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' staging buffers hold their blocks, so the kernel's triple applies; the invariant
    and the owed transfers pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [staged1_0, staged1_1, staged1_2, staged1_3, staged1_4, staged1_5, staged1_6, staged1_7, staged1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body's obligation at every point of the grid. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Fold.lean ====
/- The buffers' contents on core c at each boundary of the program's nine items: the launch memory, then each stretch of
   host operations applied in turn, the edge region's arrays at what its pipeline leaves, the stretch between the regions,
   and the node region's arrays at what its pipeline leaves. -/
import proofs.«418897_j48576080117843_2_alg».proof.Proof.KI.EdgeBody
import proofs.«418897_j48576080117843_2_alg».proof.Proof.KI.NodeBody

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first stretch (the two index rows cut out of edge_index, the offset table). -/
abbrev W1 : Dev nD → Valuation τ sig (Elt F) := fun c => StableHlo.after hostOps0 (W0 m ρ c)
/-- After the gather of receiver feature rows. -/
abbrev W2 : Dev nD → Valuation τ sig (Elt F) := fun c => StableHlo.after hostOps0_1 (W1 m ρ c)
/-- After the gather of sender feature rows. -/
abbrev W3 : Dev nD → Valuation τ sig (Elt F) := fun c => StableHlo.after hostOps0_2 (W2 m ρ c)
/-- After the gather of receiver coordinate rows. -/
abbrev W4 : Dev nD → Valuation τ sig (Elt F) := fun c => StableHlo.after hostOps0_3 (W3 m ρ c)
/-- After the gather of sender coordinate rows. -/
abbrev W5 : Dev nD → Valuation τ sig (Elt F) := fun c => StableHlo.after hostOps0_4 (W4 m ρ c)
/-- After the distance features and the weight slices (the edge region's entry). -/
abbrev W6 : Dev nD → Valuation τ sig (Elt F) := fun c => StableHlo.after hostOps0_5 (W5 m ρ c)
/-- The same read at the TensorCore's references (what the edge region's proof data take). -/
abbrev V6 : (c : Dev nD) → (b : Ref sig .tc) → Buf (Elt F) ((c : Thread nD τ).loc b) := fun c b => W6 m ρ c b
/-- At the edge region's exit: its arrays at what the pipeline leaves, every other buffer as entered. -/
def W7 (c : Dev nD) : Valuation τ sig (Elt F) :=
  Pipeline.withArrays spec0 c (W6 m ρ c) fun w => (dat0 (V6 m ρ) c).arrAt w cfg0.N
/-- The same read at the TensorCore's references. -/
abbrev V7 : (c : Dev nD) → (b : Ref sig .tc) → Buf (Elt F) ((c : Thread nD τ).loc b) := fun c b => W7 m ρ c b
/-- After the segment sum and the node weights' slices (the node region's entry). -/
abbrev W8 : Dev nD → Valuation τ sig (Elt F) := fun c => StableHlo.after hostOps1 (W7 m ρ c)
/-- The same read at the TensorCore's references (what the node region's proof data take). -/
abbrev V8 : (c : Dev nD) → (b : Ref sig .tc) → Buf (Elt F) ((c : Thread nD τ).loc b) := fun c b => W8 m ρ c b
/-- At the node region's exit: its arrays at what the pipeline leaves, every other buffer as entered. -/
def W9 (c : Dev nD) : Valuation τ sig (Elt F) :=
  Pipeline.withArrays spec1 c (W8 m ρ c) fun w => (dat1 (V8 m ρ) c).arrAt w cfg1.N
/-- The same read at the TensorCore's references. -/
abbrev V9 : (c : Dev nD) → (b : Ref sig .tc) → Buf (Elt F) ((c : Thread nD τ).loc b) := fun c b => W9 m ρ c b

theorem W7_arr (c : Dev nD) (w : Fin cfg0.W) :
    W7 m ρ c (Proc.devRef .tc (Pipeline.arrRef spec0 w)) = (dat0 (V6 m ρ) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m ρ c (Proc.devRef .tc b) = W6 m ρ c (Proc.devRef .tc b) := by
  unfold W7; exact Pipeline.withArrays_of_ne spec0 c _ _ b hb
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb

end Cert.KernelIdeal.Hand

end
-- ==== Proof.KI.Run.lean ====
/- The launch of the whole program: its nine items as segments over one thread state per boundary (every unscoped
   buffer at that boundary's contents, the generator register, nothing owed), the run of all of them from the launch
   memory, and each argument array read back through the boundaries to its launch contents. -/
import proofs.«418897_j48576080117843_2_alg».proof.Proof.KI.Fold
import proofs.«418897_j48576080117843_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each region's exit contents: its arrays at what the pipeline leaves, every other buffer as entered -/

theorem hF0 (c : Dev nD) (w : Fin cfg0.W) : (dat0 (V6 m ρ) c).arrAt w cfg0.N = V7 m ρ c (Pipeline.arrRef spec0 w) :=
  (W7_arr m ρ c w).symm
theorem hrest0 (c : Dev nD) : ∀ b, b ∉ Finset.univ.image (Pipeline.arrRef spec0) → V7 m ρ c b = V6 m ρ c b :=
  fun b hb => W7_of_ne m ρ c b fun w e => hb (Finset.mem_image.mpr ⟨w, Finset.mem_univ _, e⟩)
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)

/-! ## The arguments end as launched: no host operation writes one, and a region reads it through an input window
    (whose array the pipeline leaves as entered) or does not touch it -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := (W9_arr m ρ c 1).trans (((dat1 (V8 m ρ) c).arrAt_in 1 rfl _).trans (A_eq1 (V8 m ρ) c 1))
    _ = W7 m ρ c (Proc.devRef .tc main_arg0) := StableHlo.after_of_writes_sub hostOps1 _ hostOps1_writes (by decide)
    _ = W6 m ρ c (Proc.devRef .tc main_arg0) := W7_of_ne m ρ c main_arg0 (by decide)
    _ = W5 m ρ c (Proc.devRef .tc main_arg0) := StableHlo.after_of_writes_sub hostOps0_5 _ hostOps0_5_writes (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := (W9_arr m ρ c 2).trans (((dat1 (V8 m ρ) c).arrAt_in 2 rfl _).trans (A_eq1 (V8 m ρ) c 2))
    _ = W7 m ρ c (Proc.devRef .tc main_arg1) := StableHlo.after_of_writes_sub hostOps1 _ hostOps1_writes (by decide)
    _ = W6 m ρ c (Proc.devRef .tc main_arg1) := W7_of_ne m ρ c main_arg1 (by decide)
    _ = W5 m ρ c (Proc.devRef .tc main_arg1) := StableHlo.after_of_writes_sub hostOps0_5 _ hostOps0_5_writes (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := StableHlo.after_of_writes_sub hostOps1 _ hostOps1_writes (by decide)
    _ = W6 m ρ c (Proc.devRef .tc main_arg2) := W7_of_ne m ρ c main_arg2 (by decide)
    _ = W5 m ρ c (Proc.devRef .tc main_arg2) := StableHlo.after_of_writes_sub hostOps0_5 _ hostOps0_5_writes (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := StableHlo.after_of_writes_sub hostOps1 _ hostOps1_writes (by decide)
    _ = W6 m ρ c (Proc.devRef .tc main_arg3) := W7_of_ne m ρ c main_arg3 (by decide)
    _ = W5 m ρ c (Proc.devRef .tc main_arg3) := StableHlo.after_of_writes_sub hostOps0_5 _ hostOps0_5_writes (by decide)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := StableHlo.after_of_writes_sub hostOps1 _ hostOps1_writes (by decide)
    _ = W6 m ρ c (Proc.devRef .tc main_arg4) := W7_of_ne m ρ c main_arg4 (by decide)
    _ = W5 m ρ c (Proc.devRef .tc main_arg4) := StableHlo.after_of_writes_sub hostOps0_5 _ hostOps0_5_writes (by decide)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := StableHlo.after_of_writes_sub hostOps1 _ hostOps1_writes (by decide)
    _ = W6 m ρ c (Proc.devRef .tc main_arg5) := W7_of_ne m ρ c main_arg5 (by decide)
    _ = W5 m ρ c (Proc.devRef .tc main_arg5) := StableHlo.after_of_writes_sub hostOps0_5 _ hostOps0_5_writes (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_writes_sub hostOps1 _ hostOps1_writes (by decide)
    _ = W6 m ρ c (Proc.devRef .tc main_arg6) := (W7_arr m ρ c 6).trans (((dat0 (V6 m ρ) c).arrAt_in 6 rfl _).trans (A_eq0 (V6 m ρ) c 6))
    _ = W5 m ρ c (Proc.devRef .tc main_arg6) := StableHlo.after_of_writes_sub hostOps0_5 _ hostOps0_5_writes (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_writes_sub hostOps1 _ hostOps1_writes (by decide)
    _ = W6 m ρ c (Proc.devRef .tc main_arg7) := W7_of_ne m ρ c main_arg7 (by decide)
    _ = W5 m ρ c (Proc.devRef .tc main_arg7) := StableHlo.after_of_writes_sub hostOps0_5 _ hostOps0_5_writes (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_writes_sub hostOps1 _ hostOps1_writes (by decide)
    _ = W6 m ρ c (Proc.devRef .tc main_arg8) := (W7_arr m ρ c 8).trans (((dat0 (V6 m ρ) c).arrAt_in 8 rfl _).trans (A_eq0 (V6 m ρ) c 8))
    _ = W5 m ρ c (Proc.devRef .tc main_arg8) := StableHlo.after_of_writes_sub hostOps0_5 _ hostOps0_5_writes (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := StableHlo.after_of_writes_sub hostOps1 _ hostOps1_writes (by decide)
    _ = W6 m ρ c (Proc.devRef .tc main_arg9) := W7_of_ne m ρ c main_arg9 (by decide)
    _ = W5 m ρ c (Proc.devRef .tc main_arg9) := StableHlo.after_of_writes_sub hostOps0_5 _ hostOps0_5_writes (by decide)
    _ = W4 m ρ c (Proc.devRef .tc main_arg9) := StableHlo.after_of_writes_sub hostOps0_4 _ hostOps0_4_writes (by decide)
    _ = W3 m ρ c (Proc.devRef .tc main_arg9) := StableHlo.after_of_writes_sub hostOps0_3 _ hostOps0_3_writes (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of_ne m ρ c main_arg10 (by decide)
    _ = W7 m ρ c (Proc.devRef .tc main_arg10) := StableHlo.after_of_writes_sub hostOps1 _ hostOps1_writes (by decide)
    _ = W6 m ρ c (Proc.devRef .tc main_arg10) := (W7_arr m ρ c 10).trans (((dat0 (V6 m ρ) c).arrAt_in 10 rfl _).trans (A_eq0 (V6 m ρ) c 10))
    _ = W5 m ρ c (Proc.devRef .tc main_arg10) := StableHlo.after_of_writes_sub hostOps0_5 _ hostOps0_5_writes (by decide)
    _ = W4 m ρ c (Proc.devRef .tc main_arg10) := StableHlo.after_of_writes_sub hostOps0_4 _ hostOps0_4_writes (by decide)
    _ = W3 m ρ c (Proc.devRef .tc main_arg10) := StableHlo.after_of_writes_sub hostOps0_3 _ hostOps0_3_writes (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl

theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of_ne m ρ c main_arg11 (by decide)
    _ = W7 m ρ c (Proc.devRef .tc main_arg11) := StableHlo.after_of_writes_sub hostOps1 _ hostOps1_writes (by decide)
    _ = W6 m ρ c (Proc.devRef .tc main_arg11) := W7_of_ne m ρ c main_arg11 (by decide)
    _ = W5 m ρ c (Proc.devRef .tc main_arg11) := StableHlo.after_of_writes_sub hostOps0_5 _ hostOps0_5_writes (by decide)
    _ = W4 m ρ c (Proc.devRef .tc main_arg11) := StableHlo.after_of_writes_sub hostOps0_4 _ hostOps0_4_writes (by decide)
    _ = W3 m ρ c (Proc.devRef .tc main_arg11) := StableHlo.after_of_writes_sub hostOps0_3 _ hostOps0_3_writes (by decide)
    _ = W2 m ρ c (Proc.devRef .tc main_arg11) := StableHlo.after_of_writes_sub hostOps0_2 _ hostOps0_2_writes (by decide)
    _ = W1 m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)
    _ = m ((c : Thread nD τ).loc main_arg11) := rfl

theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := W9_of_ne m ρ c main_arg12 (by decide)
    _ = W7 m ρ c (Proc.devRef .tc main_arg12) := StableHlo.after_of_writes_sub hostOps1 _ hostOps1_writes (by decide)
    _ = W6 m ρ c (Proc.devRef .tc main_arg12) := (W7_arr m ρ c 12).trans (((dat0 (V6 m ρ) c).arrAt_in 12 rfl _).trans (A_eq0 (V6 m ρ) c 12))
    _ = W5 m ρ c (Proc.devRef .tc main_arg12) := StableHlo.after_of_writes_sub hostOps0_5 _ hostOps0_5_writes (by decide)
    _ = W4 m ρ c (Proc.devRef .tc main_arg12) := StableHlo.after_of_writes_sub hostOps0_4 _ hostOps0_4_writes (by decide)
    _ = W3 m ρ c (Proc.devRef .tc main_arg12) := StableHlo.after_of_writes_sub hostOps0_3 _ hostOps0_3_writes (by decide)
    _ = W2 m ρ c (Proc.devRef .tc main_arg12) := StableHlo.after_of_writes_sub hostOps0_2 _ hostOps0_2_writes (by decide)
    _ = W1 m ρ c (Proc.devRef .tc main_arg12) := StableHlo.after_of_writes_sub hostOps0_1 _ hostOps0_1_writes (by decide)
    _ = W0 m ρ c (Proc.devRef .tc main_arg12) := StableHlo.after_of_writes_sub hostOps0 _ hostOps0_writes (by decide)
    _ = m ((c : Thread nD τ).loc main_arg12) := rfl

theorem W9_main_arg13 (c : Dev nD) : W9 m ρ c (Proc.devRef .tc main_arg13) = m ((c : Thread nD τ).loc main_arg13) :=
  calc W9 m ρ c (Proc.devRef .tc main_arg13)
    _ = W8 m ρ c (Proc.devRef .tc main_arg13) := W9_of_ne m ρ c main_arg13 (by decide)
    _ = W7 m ρ c (Proc.devRef .tc main_arg13) := StableHlo.after_of_writes_sub hostOps1 _ hostOps1_writes (by decide)
    _ = W6 m ρ c (Proc.devRef .tc main_arg13) := W7_of_ne m ρ c main_arg13 (by decide)
    _ = W5 m ρ c (Proc.devRef .tc main_arg13) := StableHlo.after_of_writes_sub hostOps0_5 _ hostOps0_5_writes (by decide)
    _ = W4 m ρ c (Proc.devRef .tc main_arg13) := StableHlo.after_of_writes_sub hostOps0_4 _ hostOps0_4_writes (by decide)
    _ = W3 m ρ c (Proc.devRef .tc main_arg13) := StableHlo.after_of_writes_sub hostOps0_3 _ hostOps0_3_writes (by decide)
    _ = W2 m ρ c (Proc.devRef .tc main_arg13) := StableHlo.after_of_writes_sub hostOps0_2 _ hostOps0_2_writes (by decide)
    _ = W1 m ρ c (Proc.devRef .tc main_arg13) := StableHlo.after_of_writes_sub hostOps0_1 _ hostOps0_1_writes (by decide)
    _ = W0 m ρ c (Proc.devRef .tc main_arg13) := StableHlo.after_of_writes_sub hostOps0 _ hostOps0_writes (by decide)
    _ = m ((c : Thread nD τ).loc main_arg13) := rfl

theorem W9_main_arg14 (c : Dev nD) : W9 m ρ c (Proc.devRef .tc main_arg14) = m ((c : Thread nD τ).loc main_arg14) :=
  calc W9 m ρ c (Proc.devRef .tc main_arg14)
    _ = W8 m ρ c (Proc.devRef .tc main_arg14) := W9_of_ne m ρ c main_arg14 (by decide)
    _ = W7 m ρ c (Proc.devRef .tc main_arg14) := StableHlo.after_of_writes_sub hostOps1 _ hostOps1_writes (by decide)
    _ = W6 m ρ c (Proc.devRef .tc main_arg14) := W7_of_ne m ρ c main_arg14 (by decide)
    _ = W5 m ρ c (Proc.devRef .tc main_arg14) := StableHlo.after_of_writes_sub hostOps0_5 _ hostOps0_5_writes (by decide)
    _ = W4 m ρ c (Proc.devRef .tc main_arg14) := StableHlo.after_of_writes_sub hostOps0_4 _ hostOps0_4_writes (by decide)
    _ = W3 m ρ c (Proc.devRef .tc main_arg14) := StableHlo.after_of_writes_sub hostOps0_3 _ hostOps0_3_writes (by decide)
    _ = W2 m ρ c (Proc.devRef .tc main_arg14) := StableHlo.after_of_writes_sub hostOps0_2 _ hostOps0_2_writes (by decide)
    _ = W1 m ρ c (Proc.devRef .tc main_arg14) := StableHlo.after_of_writes_sub hostOps0_1 _ hostOps0_1_writes (by decide)
    _ = W0 m ρ c (Proc.devRef .tc main_arg14) := StableHlo.after_of_writes_sub hostOps0 _ hostOps0_writes (by decide)
    _ = m ((c : Thread nD τ).loc main_arg14) := rfl

theorem W9_main_arg15 (c : Dev nD) : W9 m ρ c (Proc.devRef .tc main_arg15) = m ((c : Thread nD τ).loc main_arg15) :=
  calc W9 m ρ c (Proc.devRef .tc main_arg15)
    _ = W8 m ρ c (Proc.devRef .tc main_arg15) := (W9_arr m ρ c 6).trans (((dat1 (V8 m ρ) c).arrAt_in 6 rfl _).trans (A_eq1 (V8 m ρ) c 6))
    _ = W7 m ρ c (Proc.devRef .tc main_arg15) := StableHlo.after_of_writes_sub hostOps1 _ hostOps1_writes (by decide)
    _ = W6 m ρ c (Proc.devRef .tc main_arg15) := W7_of_ne m ρ c main_arg15 (by decide)
    _ = W5 m ρ c (Proc.devRef .tc main_arg15) := StableHlo.after_of_writes_sub hostOps0_5 _ hostOps0_5_writes (by decide)
    _ = W4 m ρ c (Proc.devRef .tc main_arg15) := StableHlo.after_of_writes_sub hostOps0_4 _ hostOps0_4_writes (by decide)
    _ = W3 m ρ c (Proc.devRef .tc main_arg15) := StableHlo.after_of_writes_sub hostOps0_3 _ hostOps0_3_writes (by decide)
    _ = W2 m ρ c (Proc.devRef .tc main_arg15) := StableHlo.after_of_writes_sub hostOps0_2 _ hostOps0_2_writes (by decide)
    _ = W1 m ρ c (Proc.devRef .tc main_arg15) := StableHlo.after_of_writes_sub hostOps0_1 _ hostOps0_1_writes (by decide)
    _ = W0 m ρ c (Proc.devRef .tc main_arg15) := StableHlo.after_of_writes_sub hostOps0 _ hostOps0_writes (by decide)
    _ = m ((c : Thread nD τ).loc main_arg15) := rfl

theorem W9_main_arg16 (c : Dev nD) : W9 m ρ c (Proc.devRef .tc main_arg16) = m ((c : Thread nD τ).loc main_arg16) :=
  calc W9 m ρ c (Proc.devRef .tc main_arg16)
    _ = W8 m ρ c (Proc.devRef .tc main_arg16) := W9_of_ne m ρ c main_arg16 (by decide)
    _ = W7 m ρ c (Proc.devRef .tc main_arg16) := StableHlo.after_of_writes_sub hostOps1 _ hostOps1_writes (by decide)
    _ = W6 m ρ c (Proc.devRef .tc main_arg16) := W7_of_ne m ρ c main_arg16 (by decide)
    _ = W5 m ρ c (Proc.devRef .tc main_arg16) := StableHlo.after_of_writes_sub hostOps0_5 _ hostOps0_5_writes (by decide)
    _ = W4 m ρ c (Proc.devRef .tc main_arg16) := StableHlo.after_of_writes_sub hostOps0_4 _ hostOps0_4_writes (by decide)
    _ = W3 m ρ c (Proc.devRef .tc main_arg16) := StableHlo.after_of_writes_sub hostOps0_3 _ hostOps0_3_writes (by decide)
    _ = W2 m ρ c (Proc.devRef .tc main_arg16) := StableHlo.after_of_writes_sub hostOps0_2 _ hostOps0_2_writes (by decide)
    _ = W1 m ρ c (Proc.devRef .tc main_arg16) := StableHlo.after_of_writes_sub hostOps0_1 _ hostOps0_1_writes (by decide)
    _ = W0 m ρ c (Proc.devRef .tc main_arg16) := StableHlo.after_of_writes_sub hostOps0 _ hostOps0_writes (by decide)
    _ = m ((c : Thread nD τ).loc main_arg16) := rfl

theorem W9_main_arg17 (c : Dev nD) : W9 m ρ c (Proc.devRef .tc main_arg17) = m ((c : Thread nD τ).loc main_arg17) :=
  calc W9 m ρ c (Proc.devRef .tc main_arg17)
    _ = W8 m ρ c (Proc.devRef .tc main_arg17) := (W9_arr m ρ c 8).trans (((dat1 (V8 m ρ) c).arrAt_in 8 rfl _).trans (A_eq1 (V8 m ρ) c 8))
    _ = W7 m ρ c (Proc.devRef .tc main_arg17) := StableHlo.after_of_writes_sub hostOps1 _ hostOps1_writes (by decide)
    _ = W6 m ρ c (Proc.devRef .tc main_arg17) := W7_of_ne m ρ c main_arg17 (by decide)
    _ = W5 m ρ c (Proc.devRef .tc main_arg17) := StableHlo.after_of_writes_sub hostOps0_5 _ hostOps0_5_writes (by decide)
    _ = W4 m ρ c (Proc.devRef .tc main_arg17) := StableHlo.after_of_writes_sub hostOps0_4 _ hostOps0_4_writes (by decide)
    _ = W3 m ρ c (Proc.devRef .tc main_arg17) := StableHlo.after_of_writes_sub hostOps0_3 _ hostOps0_3_writes (by decide)
    _ = W2 m ρ c (Proc.devRef .tc main_arg17) := StableHlo.after_of_writes_sub hostOps0_2 _ hostOps0_2_writes (by decide)
    _ = W1 m ρ c (Proc.devRef .tc main_arg17) := StableHlo.after_of_writes_sub hostOps0_1 _ hostOps0_1_writes (by decide)
    _ = W0 m ρ c (Proc.devRef .tc main_arg17) := StableHlo.after_of_writes_sub hostOps0 _ hostOps0_writes (by decide)
    _ = m ((c : Thread nD τ).loc main_arg17) := rfl

/-! ## The proof data of both pipelines and the thread state -/

/-- The prefetched tables' admissible contents: neither pipeline has a table. -/
abbrev adm : (p : Fin 2) → (pcfgs (F := F) p).Adm := fun p => (cfgs p).toPCfg_adm
/-- Each pipeline's proof data at its region's entry contents: the edge region's at what the six stretches before it
    leave, the node region's at what the segment sum leaves. -/
def pdats : (p : Fin 2) → (c : Dev nD) → Dat τ (Elt F) Unit ℕ (UR sig nD τ) ℕ (Pipeline.pin (pcfgs (F := F)) adm p) c
  | ⟨0, _⟩ => fun c => dat0 (V6 m ρ) c
  | ⟨1, _⟩ => fun c => dat1 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment over the unscoped references from the contents W, R riding along: it
    leaves those references at the stretch applied to W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-! ## The two regions as segments -/

-- a library lemma stated over the pinned configuration unifies with the printed one only when unification may unfold
-- plain definitions in a metavariable's type
set_option backward.isDefEq.respectTransparency.types false in
/-- The edge region over the thread state: entered from every unscoped buffer at W6, left at W7. Its arrays are split
    out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V6 m ρ) c).loose
  hwaits := Pipeline.hwaits_of_owed_zero _ _ _ _ L lv 0 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec0 c (V6 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V6 m ρ c) (V7 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The node region over the thread state: entered from every unscoped buffer at W8, left at W9. Its arrays are split
    out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as nine segments, and the launch -/

/-- The nine segments in order: six stretches of host operations, the edge region, the segment sum's stretch, the node
    region; each stretch entered from its boundary's contents. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .region (reg0 m ρ),
    .host (hseg hostOps1 hostOps1_sub hostOps1_fresh (W7 m ρ)),
    .region (reg1 m ρ) ]
/-- The program is the run of the segments: it is the chain of its nine items, and so is the segments' run. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- The run of the whole program from any memory with zero counters: every weakly fair execution on the TensorCores
    terminates, nothing faulting, and in every final state each core's unscoped buffers hold the last boundary's
    contents. -/
theorem run_all : θ_run defs (onTc (τ := τ) (main (F := F))) ⟨m, fun _ => 0, ρ⟩ (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- Every argument array ends as launched: the run of the whole program, each argument read off the last boundary's
    contents and walked back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨
    (h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c),
    (h c _ (mem_uc main_arg11 (by decide))).trans (W9_main_arg11 m ρ c),
    (h c _ (mem_uc main_arg12 (by decide))).trans (W9_main_arg12 m ρ c),
    (h c _ (mem_uc main_arg13 (by decide))).trans (W9_main_arg13 m ρ c),
    (h c _ (mem_uc main_arg14 (by decide))).trans (W9_main_arg14 m ρ c),
    (h c _ (mem_uc main_arg15 (by decide))).trans (W9_main_arg15 m ρ c),
    (h c _ (mem_uc main_arg16 (by decide))).trans (W9_main_arg16 m ρ c),
    (h c _ (mem_uc main_arg17 (by decide))).trans (W9_main_arg17 m ρ c)⟩) (run_all m ρ)

end Cert.KernelIdeal.Hand

end
-- ==== Proof.Spec.lean ====
/- The layer's mathematics, entry by entry, on the extended reals.

   One edge e with receiver row hi, sender row hj, coordinate rows xi, xj and attribute row ea:
     rel = xi − xj,  dist = sqrt(Σ rel² + ε),  dfeat k = exp(c · (dist − off k)²),
     ef = dfeat ++ ea,  h1 = silu([hi, hj, ef]·We1 + be1),  mij = silu(h1·We2 + be2),
     eij = sigmoid(mij·Winf + binf),  msg = mij · eij,
     xw = tanh(silu(mij·Wx1 + bx1)·Wx2),  xc = rel / (dist + 1) · xw.
   One node n with aggregated message row mi, feature row h:
     hout = h + (silu([mi, h]·Wn1 + bn1)·Wn2 + bn2).
   The float literals stay as their words: the same word stands on both sides and is never evaluated. -/
import Idealize.ShloMosaic.PureOps.Ideal
import Mathlib.Algebra.BigOperators.Fin

noncomputable section

namespace Cert.Spec

open Idealize.ShloMosaic
open scoped BigOperators

/-- x · sigmoid x. -/
def silu (v : EReal) : EReal := v * Ideal.logistic v

/-- Entry j of a row through a linear layer: Σ_k x k · W k j + b j. -/
def lin {K M : Nat} (x : Fin K → EReal) (W : Fin K → Fin M → EReal) (b : Fin M → EReal) (j : Fin M) : EReal :=
  (∑ k, x k * W k j) + b j

/-- Two rows side by side. -/
def cat2 {A B : Nat} (a : Fin A → EReal) (b : Fin B → EReal) : Fin (A + B) → EReal :=
  fun k => if h : k.val < A then a ⟨k.val, h⟩ else b ⟨k.val - A, by omega⟩

/-- Three rows side by side. -/
def cat3 {A B C : Nat} (a : Fin A → EReal) (b : Fin B → EReal) (c : Fin C → EReal) : Fin (A + B + C) → EReal :=
  cat2 (cat2 a b) c

/-- A sum over two rows side by side splits. -/
theorem sum_cat2 {A B : Nat} (a : Fin A → EReal) (b : Fin B → EReal) (w : Fin (A + B) → EReal) :
    ∑ k, cat2 a b k * w k = (∑ k : Fin A, a k * w (Fin.castAdd B k)) + ∑ k : Fin B, b k * w (Fin.natAdd A k) := by
  rw [Fin.sum_univ_add]
  congr 1
  · refine Finset.sum_congr rfl fun k _ => ?_
    unfold cat2
    rw [dif_pos (by simp : (Fin.castAdd B k).val < A)]
    rfl
  · refine Finset.sum_congr rfl fun k _ => ?_
    unfold cat2
    rw [dif_neg (by simp : ¬ (Fin.natAdd A k).val < A)]
    congr 2
    apply Fin.ext
    simp

/-! ## The distance features of one edge -/

/-- The coordinate difference. -/
def rel (xi xj : Fin 3 → EReal) (d : Fin 3) : EReal := xi d - xj d

/-- The squared length, summed from the zero word. -/
def dsq (xi xj : Fin 3 → EReal) : EReal :=
  Ideal.ofBits .f32 0x00000000#32 + ∑ d, rel xi xj d * rel xi xj d

/-- The regularised distance: the square root of the squared length plus the word of 1e-8. -/
def dist (xi xj : Fin 3 → EReal) : EReal := Ideal.sqrt (dsq xi xj + Ideal.ofBits .f32 0x322BCC77#32)

/-- The radial feature k: exp(−1/2 · (dist − off k)²), the factor −1/2 as its word. -/
def dfeat (off : Fin 20 → EReal) (xi xj : Fin 3 → EReal) (k : Fin 20) : EReal :=
  Ideal.exp (Ideal.ofBits .f32 0xBF000000#32 * ((dist xi xj - off k) * (dist xi xj - off k)))

/-! ## The edge network -/

/-- The edge network's weights, as functions of their indices. -/
structure EdgeW where
  We1 : Fin (128 + 128 + 28) → Fin 128 → EReal
  be1 : Fin 128 → EReal
  We2 : Fin 128 → Fin 128 → EReal
  be2 : Fin 128 → EReal
  Winf : Fin 128 → EReal
  binf : EReal
  Wx1 : Fin 128 → Fin 128 → EReal
  bx1 : Fin 128 → EReal
  Wx2 : Fin 128 → EReal

variable (P : EdgeW) (hi hj : Fin 128 → EReal) (ef : Fin 28 → EReal)

/-- The first hidden row. -/
def h1 (j : Fin 128) : EReal := silu (lin (cat3 hi hj ef) P.We1 P.be1 j)
/-- The message row before the gate. -/
def mij (j : Fin 128) : EReal := silu (lin (h1 P hi hj ef) P.We2 P.be2 j)
/-- The gate. -/
def eij : EReal := Ideal.logistic ((∑ k, mij P hi hj ef k * P.Winf k) + P.binf)
/-- The gated message row. -/
def msg (j : Fin 128) : EReal := mij P hi hj ef j * eij P hi hj ef
/-- The coordinate network's hidden row. -/
def hx (j : Fin 128) : EReal := silu (lin (mij P hi hj ef) P.Wx1 P.bx1 j)
/-- The coordinate weight. -/
def xw : EReal := Ideal.tanh (∑ k, hx P hi hj ef k * P.Wx2 k)
/-- The coordinate contribution: rel / (dist + 1) · xw, the 1 as its word. -/
def xc (rx : Fin 3 → EReal) (ds : EReal) (d : Fin 3) : EReal :=
  Ideal.div (rx d) (ds + Ideal.ofBits .f32 0x3F800000#32) * xw P hi hj ef

/-! ## The node network -/

/-- The node network's weights. -/
structure NodeW where
  Wn1 : Fin (128 + 128) → Fin 128 → EReal
  bn1 : Fin 128 → EReal
  Wn2 : Fin 128 → Fin 128 → EReal
  bn2 : Fin 128 → EReal

/-- The node's hidden row. -/
def nh1 (Q : NodeW) (mi h : Fin 128 → EReal) (j : Fin 128) : EReal := silu (lin (cat2 mi h) Q.Wn1 Q.bn1 j)
/-- The node's new feature j. -/
def hout (Q : NodeW) (mi h : Fin 128 → EReal) (j : Fin 128) : EReal := h j + lin (nh1 Q mi h) Q.Wn2 Q.bn2 j

end Cert.Spec

end
-- ==== Proof.SpecArr.lean ====
/- The layer's weights as index functions of the arrays that carry them: the kernel's side takes the first layers' weight
   matrices in row slices (three slices of We1 for the receiver row, the sender row and the edge features; two slices of
   Wn1 for the aggregated messages and the node features), the reference's side takes them whole. -/
import proofs.«418897_j48576080117843_2_alg».proof.Proof.Spec
import Idealize.ShloMosaic.Lib.ValueIdx

noncomputable section

namespace Cert.Spec

open Idealize.ShloMosaic Idealize.ShloMosaic.ValueIdx

/-- A matrix of extended reals over a literal rank-2 shape. -/
abbrev Mat (n k : Nat) : Type := (⟨2, ![n, k]⟩ : Shape).Idx → EReal
/-- A vector of extended reals over a literal rank-1 shape. -/
abbrev Vc (n : Nat) : Type := (⟨1, ![n]⟩ : Shape).Idx → EReal

/-- Row i of a matrix. -/
def row {n k : Nat} (a : Mat n k) (i : Fin n) : Fin k → EReal := fun j => a (ix2 i j)

/-- The edge network's weights from the kernel's operands: We1 in three row slices. -/
def edgeWK (a3 a4 : Mat 128 128) (a5 : Mat 28 128) (a6 : Vc 128) (a7 : Mat 128 128) (a8 : Vc 128) (a9 : Mat 128 1) (a10 : Vc 1)
    (a11 : Mat 128 128) (a12 : Vc 128) (a13 : Mat 128 1) : EdgeW where
  We1 k j := cat3 (fun k' => a3 (ix2 k' j)) (fun k' => a4 (ix2 k' j)) (fun k' => a5 (ix2 k' j)) k
  be1 j := a6 (ix1 j)
  We2 k j := a7 (ix2 k j)
  be2 j := a8 (ix1 j)
  Winf k := a9 (ix2 k 0)
  binf := a10 (ix1 0)
  Wx1 k j := a11 (ix2 k j)
  bx1 j := a12 (ix1 j)
  Wx2 k := a13 (ix2 k 0)

/-- The edge network's weights from the reference's arguments: We1 whole. -/
def edgeWR (We1 : Mat 284 128) (be1 : Vc 128) (We2 : Mat 128 128) (be2 : Vc 128) (Winf : Mat 128 1) (binf : Vc 1)
    (Wx1 : Mat 128 128) (bx1 : Vc 128) (Wx2 : Mat 128 1) : EdgeW where
  We1 k j := We1 (ix2 (Fin.cast (by decide) k) j)
  be1 j := be1 (ix1 j)
  We2 k j := We2 (ix2 k j)
  be2 j := be2 (ix1 j)
  Winf k := Winf (ix2 k 0)
  binf := binf (ix1 0)
  Wx1 k j := Wx1 (ix2 k j)
  bx1 j := bx1 (ix1 j)
  Wx2 k := Wx2 (ix2 k 0)

/-- The node network's weights from the kernel's operands: Wn1 in two row slices. -/
def nodeWK (a4 a5 : Mat 128 128) (a6 : Vc 128) (a7 : Mat 128 128) (a8 : Vc 128) : NodeW where
  Wn1 k j := cat2 (fun k' => a4 (ix2 k' j)) (fun k' => a5 (ix2 k' j)) k
  bn1 j := a6 (ix1 j)
  Wn2 k j := a7 (ix2 k j)
  bn2 j := a8 (ix1 j)

/-- The node network's weights from the reference's arguments: Wn1 whole. -/
def nodeWR (Wn1 : Mat 256 128) (bn1 : Vc 128) (Wn2 : Mat 128 128) (bn2 : Vc 128) : NodeW where
  Wn1 k j := Wn1 (ix2 (Fin.cast (by decide) k) j)
  bn1 j := bn1 (ix1 j)
  Wn2 k j := Wn2 (ix2 k j)
  bn2 j := bn2 (ix1 j)

end Cert.Spec

end
-- ==== Proof.LibScatterGather.lean ====
/- The host's accumulating scatter and its row gather, read at one index, for the shapes that a segment sum
   over a list of edges and a row lookup by a list of edges take: a vector or a matrix of rows indexed by an
   [E × 1] column of signed index words.

   An update whose index word, read signed, lies in [0, N) is added into that row; any other update is dropped.
   A gathered row is the row at the index word read signed and clamped into [0, N − 1]. -/
import Idealize.ShloMosaic.PureOps.Ideal
import Idealize.ShloMosaic.Lib.ValueIdx
import Idealize.ShloMosaic.Lib.StableHlo.Predicate

noncomputable section

namespace Cert.ScatterGather

open Idealize.ShloMosaic Idealize.ShloMosaic.ValueIdx
open scoped BigOperators

/-- The row an index word names for a scatter into `N` rows: the word read signed, when it lies in [0, N);
    no row otherwise (the update is dropped). -/
def tgtW (N : Nat) {w : Nat} (x : BitVec w) : Option (Fin N) :=
  if h : 0 ≤ x.toInt ∧ x.toInt < (N : Int) then some ⟨x.toInt.toNat, by omega⟩ else none

/-- The row an index word names for a gather from `N` rows: the word read signed and clamped into [0, N − 1]. -/
def rowW (N : Nat) (hN : 0 < N) {w : Nat} (x : BitVec w) : Fin N := ⟨min x.toInt.toNat (N - 1), by omega⟩

/-- A word that names row `i` for the scatter names the same row for the gather. -/
theorem rowW_of_tgtW {N : Nat} (hN : 0 < N) {w : Nat} (x : BitVec w) (i : Fin N) (h : tgtW N x = some i) :
    rowW N hN x = i := by
  unfold tgtW at h
  split at h
  · next hx =>
    have hi : (⟨x.toInt.toNat, by omega⟩ : Fin N) = i := Option.some.inj h
    subst hi
    apply Fin.ext
    show min x.toInt.toNat (N - 1) = x.toInt.toNat
    omega
  · exact absurd h (by simp)

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter into a vector -/

section Vec

variable {N E w : Nat} (d : ScatterDims ⟨1, ![N]⟩ ⟨2, ![E, 1]⟩ ⟨1, ![E]⟩)

/-- The start of update `e`'s window on the operand's one axis: the e-th index word, read signed. -/
theorem start_vec (hs : d.scatterDimsToOperandDims = [0]) (hv : d.indexVectorDim = 1)
    (idx : IVec ⟨2, ![E, 1]⟩ w) (e : Fin E) :
    d.start (ix1 e) idx 0 = (idx (ix2 e 0)).toInt := by
  have hm : (0 : Fin 1) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    have e' : ∀ X : Fin 1, ((ix1 e : (⟨1, ![E]⟩ : Shape).Idx) X).val = e.val := fun X => by
      have hX : X = 0 := Subsingleton.elim _ _
      subst hX; rfl
    exact e' _
  | ⟨1, _⟩ =>
    unfold ScatterDims.siIdx
    rw [dif_pos (by rw [hv])]
    apply Fin.ext
    show List.idxOf (0 : Fin 1) d.scatterDimsToOperandDims = 0
    rw [hs]; simp

/-- The operand's one axis is inserted: the window coordinate there is 0. -/
theorem window_vec (hi : d.insertedWindowDims = [0]) (j : (⟨1, ![E]⟩ : Shape).Idx) : d.window j 0 = 0 := by
  have hk : (0 : Fin 1) ∉ d.sKept := by simp [ScatterDims.sKept, Shape.kept, hi]
  unfold ScatterDims.window
  rw [dif_neg hk]

/-- Where update `e` lands: the row its index word names, when it names one. -/
theorem resultIdx?_vec (hi : d.insertedWindowDims = [0])
    (hs : d.scatterDimsToOperandDims = [0]) (hv : d.indexVectorDim = 1)
    (idx : IVec ⟨2, ![E, 1]⟩ w) (e : Fin E) :
    d.resultIdx? (ix1 e) idx = (tgtW N (idx (ix2 e 0))).map ix1 := by
  have hst := start_vec d hs hv idx e
  have hwi := window_vec d hi (ix1 e)
  unfold ScatterDims.resultIdx? tgtW
  by_cases hx : 0 ≤ (idx (ix2 e 0)).toInt ∧ (idx (ix2 e 0)).toInt < (N : Int)
  · have hall : ∀ a : Fin 1, 0 ≤ d.start (ix1 e) idx a + d.window (ix1 e) a ∧
        d.start (ix1 e) idx a + d.window (ix1 e) a < (⟨1, ![N]⟩ : Shape).size a := fun a => by
      obtain rfl : a = 0 := Subsingleton.elim _ _
      rw [hst, hwi]
      show 0 ≤ (idx (ix2 e 0)).toInt + ((0 : Nat) : Int) ∧ (idx (ix2 e 0)).toInt + ((0 : Nat) : Int) < (N : Int)
      omega
    rw [dif_pos hall, dif_pos hx]
    show some _ = some _
    congr 1
    funext a
    obtain rfl : a = 0 := Subsingleton.elim _ _
    apply Fin.ext
    show (d.start (ix1 e) idx 0 + d.window (ix1 e) 0).toNat = (idx (ix2 e 0)).toInt.toNat
    rw [hst, hwi]
    simp
  · have hnall : ¬ ∀ a : Fin 1, 0 ≤ d.start (ix1 e) idx a + d.window (ix1 e) a ∧
        d.start (ix1 e) idx a + d.window (ix1 e) a < (⟨1, ![N]⟩ : Shape).size a := fun hall => by
      have h0 := hall 0
      rw [hst, hwi] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Vec

/-- The scatter-add into a vector, at row `i`: the operand there plus the updates whose index word names row `i`. -/
theorem scatterAdd_vec_apply {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e ∈ Finset.univ.filter (fun e : Fin E => tgtW N (idx (ix2 e 0)) = some i), upd (ix1 e) := by
  show x (ix1 i) + ∑ j ∈ Finset.univ.filter (fun j => d.resultIdx? j idx = some (ix1 i)), upd j = _
  congr 1
  rw [Finset.sum_filter, Finset.sum_filter, sum_idx1]
  refine Finset.sum_congr rfl fun e _ => ?_
  have hiff : d.resultIdx? (ix1 e) idx = some (ix1 i) ↔ tgtW N (idx (ix2 e 0)) = some i := by
    rw [resultIdx?_vec d hi hs hv idx e]
    cases tgtW N (idx (ix2 e 0)) with
    | none => simp
    | some r =>
      simp only [Option.map_some, Option.some.injEq]
      constructor
      · intro h'
        exact congrFun h' 0
      · intro h'
        rw [h']
  exact if_congr hiff rfl rfl

/-! ## The scatter of rows into a matrix -/

/-- The first coordinate of a rank-2 index, read on an axis known to be axis 0. -/
theorem ix2_val_axis0 {n0 n1 : Nat} (a : Fin n0) (b : Fin n1) (X : Fin 2) (hX : X = 0) :
    ((ix2 a b : (⟨2, ![n0, n1]⟩ : Shape).Idx) X).val = a.val := by
  subst hX; rfl

/-- The second coordinate of a rank-2 index, read on an axis known to be axis 1. -/
theorem ix2_val_axis1 {n0 n1 : Nat} (a : Fin n0) (b : Fin n1) (X : Fin 2) (hX : X = 1) :
    ((ix2 a b : (⟨2, ![n0, n1]⟩ : Shape).Idx) X).val = b.val := by
  subst hX; rfl

section Rows

variable {N H E w : Nat} (d : ScatterDims ⟨2, ![N, H]⟩ ⟨2, ![E, 1]⟩ ⟨2, ![E, H]⟩)

/-- The updates' scatter axis is axis 0 (axis 1 is the window axis). -/
theorem uScatter_rows (hu : d.updateWindowDims = [1]) : d.uScatter = [0] := by
  show (List.finRange 2).filter (fun a => a ∉ d.updateWindowDims) = [0]
  rw [hu]
  exact (by decide : (List.finRange 2).filter (fun a : Fin 2 => a ∉ [(1 : Fin 2)]) = [(0 : Fin 2)])

/-- The operand's kept axis is axis 1 (axis 0 is inserted). -/
theorem sKept_rows (hi : d.insertedWindowDims = [0]) : d.sKept = [1] := by
  show (List.finRange 2).filter (fun a => a ∉ d.insertedWindowDims) = [1]
  rw [hi]
  exact (by decide : (List.finRange 2).filter (fun a : Fin 2 => a ∉ [(0 : Fin 2)]) = [(1 : Fin 2)])

/-- The start of update (e, c)'s window on the operand's row axis: the e-th index word, read signed. -/
theorem start_rows0 (hu : d.updateWindowDims = [1])
    (hs : d.scatterDimsToOperandDims = [0]) (hv : d.indexVectorDim = 1)
    (idx : IVec ⟨2, ![E, 1]⟩ w) (e : Fin E) (c : Fin H) :
    d.start (ix2 e c) idx 0 = (idx (ix2 e 0)).toInt := by
  have hm : (0 : Fin 2) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    refine ix2_val_axis0 e c _ ?_
    have hall : ∀ X ∈ d.uScatter, X = 0 := by
      rw [uScatter_rows d hu]; intro X hX; exact List.mem_singleton.mp hX
    exact hall _ (List.getElem_mem _)
  | ⟨1, _⟩ =>
    unfold ScatterDims.siIdx
    rw [dif_pos (by rw [hv])]
    apply Fin.ext
    show List.idxOf (0 : Fin 2) d.scatterDimsToOperandDims = 0
    rw [hs]; simp

/-- The start index names no column: the window starts at column 0. -/
theorem start_rows1 (hs : d.scatterDimsToOperandDims = [0])
    (idx : IVec ⟨2, ![E, 1]⟩ w) (j : (⟨2, ![E, H]⟩ : Shape).Idx) : d.start j idx 1 = 0 := by
  have hm : (1 : Fin 2) ∉ d.scatterDimsToOperandDims := by
    rw [hs]; exact (by decide : (1 : Fin 2) ∉ [(0 : Fin 2)])
  unfold ScatterDims.start
  rw [dif_neg hm]

/-- The operand's row axis is inserted: the window coordinate there is 0. -/
theorem window_rows0 (hi : d.insertedWindowDims = [0]) (j : (⟨2, ![E, H]⟩ : Shape).Idx) : d.window j 0 = 0 := by
  have hk : (0 : Fin 2) ∉ d.sKept := by
    rw [sKept_rows d hi]; exact (by decide : (0 : Fin 2) ∉ [(1 : Fin 2)])
  unfold ScatterDims.window
  rw [dif_neg hk]

/-- The operand's column axis is the window axis: the window coordinate there is the update's column. -/
theorem window_rows1 (hu : d.updateWindowDims = [1]) (hi : d.insertedWindowDims = [0]) (e : Fin E) (c : Fin H) :
    d.window (ix2 e c) 1 = c.val := by
  have hk : (1 : Fin 2) ∈ d.sKept := by rw [sKept_rows d hi]; exact List.mem_singleton.mpr rfl
  unfold ScatterDims.window
  rw [dif_pos hk]
  refine ix2_val_axis1 e c _ ?_
  have hall : ∀ X ∈ d.updateWindowDims, X = 1 := by
    rw [hu]; intro X hX; exact List.mem_singleton.mp hX
  exact hall _ (List.getElem_mem _)

/-- Where update (e, c) lands: column `c` of the row its index word names, when it names one. -/
theorem resultIdx?_rows (hu : d.updateWindowDims = [1]) (hi : d.insertedWindowDims = [0])
    (hs : d.scatterDimsToOperandDims = [0]) (hv : d.indexVectorDim = 1)
    (idx : IVec ⟨2, ![E, 1]⟩ w) (e : Fin E) (c : Fin H) :
    d.resultIdx? (ix2 e c) idx = (tgtW N (idx (ix2 e 0))).map (fun r => ix2 r c) := by
  have hst0 := start_rows0 d hu hs hv idx e c
  have hst1 := start_rows1 d hs idx (ix2 e c)
  have hwi0 := window_rows0 d hi (ix2 e c)
  have hwi1 := window_rows1 d hu hi e c
  have hc := c.isLt
  unfold ScatterDims.resultIdx? tgtW
  by_cases hx : 0 ≤ (idx (ix2 e 0)).toInt ∧ (idx (ix2 e 0)).toInt < (N : Int)
  · have hall : ∀ a : Fin 2, 0 ≤ d.start (ix2 e c) idx a + d.window (ix2 e c) a ∧
        d.start (ix2 e c) idx a + d.window (ix2 e c) a < (⟨2, ![N, H]⟩ : Shape).size a := by
      refine Fin.forall_fin_two.2 ⟨?_, ?_⟩
      · rw [hst0, hwi0]
        show 0 ≤ (idx (ix2 e 0)).toInt + ((0 : Nat) : Int) ∧ (idx (ix2 e 0)).toInt + ((0 : Nat) : Int) < (N : Int)
        omega
      · rw [hst1, hwi1]
        show 0 ≤ (0 : Int) + (c.val : Int) ∧ (0 : Int) + (c.val : Int) < (H : Int)
        omega
    rw [dif_pos hall, dif_pos hx]
    show some _ = some _
    congr 1
    have hpt : ∀ a : Fin 2,
        (⟨(d.start (ix2 e c) idx a + d.window (ix2 e c) a).toNat, by have := hall a; omega⟩ :
          Fin ((⟨2, ![N, H]⟩ : Shape).size a))
        = (ix2 (⟨(idx (ix2 e 0)).toInt.toNat, by omega⟩ : Fin N) c : (⟨2, ![N, H]⟩ : Shape).Idx) a := by
      refine Fin.forall_fin_two.2 ⟨?_, ?_⟩
      · apply Fin.ext
        show (d.start (ix2 e c) idx 0 + d.window (ix2 e c) 0).toNat = (idx (ix2 e 0)).toInt.toNat
        rw [hst0, hwi0]
        simp
      · apply Fin.ext
        show (d.start (ix2 e c) idx 1 + d.window (ix2 e c) 1).toNat = c.val
        rw [hst1, hwi1]
        simp
    funext a
    exact hpt a
  · have hnall : ¬ ∀ a : Fin 2, 0 ≤ d.start (ix2 e c) idx a + d.window (ix2 e c) a ∧
        d.start (ix2 e c) idx a + d.window (ix2 e c) a < (⟨2, ![N, H]⟩ : Shape).size a := fun hall => by
      have h0 := hall 0
      rw [hst0, hwi0] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Rows

/-- The scatter-add of rows into a matrix, at (i, j): the operand there plus column `j` of the update rows whose
    index word names row `i`. -/
theorem scatterAdd_rows_apply {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : (⟨2, ![N, H]⟩ : Shape).Idx → EReal) (idx : IVec ⟨2, ![E, 1]⟩ w) (upd : (⟨2, ![E, H]⟩ : Shape).Idx → EReal)
    (i : Fin N) (j : Fin H) :
    Ideal.hostScatterAdd d x idx upd (ix2 i j)
      = x (ix2 i j) + ∑ e ∈ Finset.univ.filter (fun e : Fin E => tgtW N (idx (ix2 e 0)) = some i), upd (ix2 e j) := by
  show x (ix2 i j) + ∑ u ∈ Finset.univ.filter (fun u => d.resultIdx? u idx = some (ix2 i j)), upd u = _
  congr 1
  rw [Finset.sum_filter, Finset.sum_filter, sum_idx2]
  refine Finset.sum_congr rfl fun e _ => ?_
  have hiff : ∀ c : Fin H, d.resultIdx? (ix2 e c) idx = some (ix2 i j) ↔ (tgtW N (idx (ix2 e 0)) = some i ∧ c = j) := by
    intro c
    rw [resultIdx?_rows d hu hi hs hv idx e c]
    cases tgtW N (idx (ix2 e 0)) with
    | none => simp
    | some r =>
      simp only [Option.map_some, Option.some.injEq]
      constructor
      · intro h'
        exact ⟨congrFun h' 0, congrFun h' 1⟩
      · rintro ⟨h1, h2⟩
        rw [h1, h2]
  by_cases hq : tgtW N (idx (ix2 e 0)) = some i
  · rw [if_pos hq]
    rw [Finset.sum_eq_single j]
    · rw [if_pos ((hiff j).2 ⟨hq, rfl⟩)]
    · intro c _ hcj
      rw [if_neg (fun h => hcj ((hiff c).1 h).2)]
    · intro hj
      exact absurd (Finset.mem_univ j) hj
  · rw [if_neg hq]
    refine Finset.sum_eq_zero fun c _ => ?_
    rw [if_neg (fun h => hq ((hiff c).1 h).1)]

/-! ## The row gather -/

section GatherRows

variable {N H E w : Nat} (d : GatherDims ⟨2, ![N, H]⟩ ⟨2, ![E, 1]⟩ ⟨2, ![E, H]⟩)

/-- The operand's kept axis is the column axis (the row axis is collapsed). -/
theorem gather_sKept_rows (hcoll : d.collapsedSliceDims = [0]) (hob : d.operandBatchingDims = []) : d.sKept = [1] := by
  show (List.finRange 2).filter (fun a => a ∉ d.collapsedSliceDims ++ d.operandBatchingDims) = [1]
  rw [hcoll, hob]
  exact (by decide : (List.finRange 2).filter (fun a : Fin 2 => a ∉ [(0 : Fin 2)] ++ []) = [(1 : Fin 2)])

/-- The result's batch axis is axis 0 (axis 1 is the offset axis). -/
theorem gather_batchDims_rows (hoff : d.offsetDims = [1]) : d.batchDims = [0] := by
  show (List.finRange 2).filter (fun a => a ∉ d.offsetDims) = [0]
  rw [hoff]
  exact (by decide : (List.finRange 2).filter (fun a : Fin 2 => a ∉ [(1 : Fin 2)]) = [(0 : Fin 2)])

/-- Result index (e, j) reads its start index at row `e` of the column of index words. -/
theorem gather_siIdx_rows (hoff : d.offsetDims = [1]) (hsim : d.startIndexMap = [0]) (hivd : d.indexVectorDim = 1)
    (e : Fin E) (j : Fin H) (c : Fin d.startIndexMap.length) :
    d.siIdx (ix2 e j) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis0 e j _ ?_
    have hall : ∀ X ∈ d.batchDims, X = 0 := by
      rw [gather_batchDims_rows d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

/-- The start of the slice on the row axis: the e-th index word read signed and clamped into [0, N − 1]. -/
theorem gather_start_rows0 (hoff : d.offsetDims = [1]) (hcoll : d.collapsedSliceDims = [0])
    (hsim : d.startIndexMap = [0]) (hivd : d.indexVectorDim = 1)
    (idx : IVec ⟨2, ![E, 1]⟩ w) (e : Fin E) (j : Fin H) :
    d.start (ix2 e j) idx 0 = min (idx (ix2 e 0)).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, gather_siIdx_rows d hoff hsim hivd e j]
  show min (idx (ix2 e 0)).toInt.toNat (N - d.sliceSizes 0) = _
  rw [hsl]

/-- The start index names no column: the slice starts at column 0. -/
theorem gather_start_rows1 (hsim : d.startIndexMap = [0])
    (idx : IVec ⟨2, ![E, 1]⟩ w) (y : (⟨2, ![E, H]⟩ : Shape).Idx) : d.start y idx 1 = 0 := by
  have hm : (1 : Fin 2) ∉ d.startIndexMap := by
    rw [hsim]; exact (by decide : (1 : Fin 2) ∉ [(0 : Fin 2)])
  unfold GatherDims.start
  rw [dif_neg hm]

/-- The offset coordinate on the column axis is the result's column. -/
theorem gather_offCoord_rows1 (hoff : d.offsetDims = [1]) (hcoll : d.collapsedSliceDims = [0])
    (hob : d.operandBatchingDims = []) (e : Fin E) (j : Fin H) :
    d.offCoord (ix2 e j) 1 = j.val := by
  have hk : (1 : Fin 2) ∈ d.sKept := by rw [gather_sKept_rows d hcoll hob]; exact List.mem_singleton.mpr rfl
  unfold GatherDims.offCoord
  rw [dif_pos hk]
  refine ix2_val_axis1 e j _ ?_
  have hall : ∀ X ∈ d.offsetDims, X = 1 := by
    rw [hoff]; intro X hX; exact List.mem_singleton.mp hX
  exact hall _ (List.getElem_mem _)

end GatherRows

/-- The gather of rows of a matrix, at (e, j): column `j` of the row the e-th index word names. -/
theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  unfold Host.gather
  congr 1
  have hb : ∀ a : Fin 2, a ∉ d.operandBatchingDims := fun a => by rw [hob]; exact List.not_mem_nil
  have hk0 : (0 : Fin 2) ∉ d.sKept := by
    rw [gather_sKept_rows d hcoll hob]; exact (by decide : (0 : Fin 2) ∉ [(1 : Fin 2)])
  have hpt : ∀ a : Fin 2, d.operandIdx (ix2 e j) idx a
      = (ix2 (rowW N hN (idx (ix2 e 0))) j : (⟨2, ![N, H]⟩ : Shape).Idx) a := by
    refine Fin.forall_fin_two.2 ⟨?_, ?_⟩
    · apply Fin.ext
      show d.start (ix2 e j) idx 0 + d.batchCoord (ix2 e j) 0 + d.offCoord (ix2 e j) 0
        = min (idx (ix2 e 0)).toInt.toNat (N - 1)
      rw [GatherDims.batchCoord_eq_zero _ _ _ (hb 0), GatherDims.offCoord_eq_zero _ _ _ hk0,
        gather_start_rows0 d hoff hcoll hsim hivd idx e j]
      simp only [Nat.add_zero]
    · apply Fin.ext
      show d.start (ix2 e j) idx 1 + d.batchCoord (ix2 e j) 1 + d.offCoord (ix2 e j) 1 = j.val
      rw [GatherDims.batchCoord_eq_zero _ _ _ (hb 1), gather_offCoord_rows1 d hoff hcoll hob e j,
        gather_start_rows1 d hsim idx (ix2 e j)]
      omega
  funext a
  exact hpt a

/-- The gather of entries of a vector, at `e`: the entry the e-th index word names (the library's take, restated
    with `rowW`). -/
theorem gather_vec_apply {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (rowW N hN (idx (ix2 e 0)))) := by
  have h := StableHlo.Predicate.gather_take d hcoll hob hsim hivd x idx e hN
  have h1 : (Shape.Idx.ofFin e : (⟨1, ![E]⟩ : Shape).Idx) = ix1 e := by
    funext a
    match a with
    | ⟨0, _⟩ => rfl
  have h2 : (StableHlo.Predicate.ixP e : (⟨2, ![E, 1]⟩ : Shape).Idx) = ix2 e 0 := by
    funext a
    match a with
    | ⟨0, _⟩ => rfl
    | ⟨1, _⟩ => rfl
  rw [h1] at h
  rw [h]
  congr 1
  funext a
  match a with
  | ⟨0, _⟩ =>
    apply Fin.ext
    show min (idx (StableHlo.Predicate.ixP e)).toInt.toNat (N - 1) = min (idx (ix2 e 0)).toInt.toNat (N - 1)
    rw [h2]

end Cert.ScatterGather

end
-- ==== Proof.Layer.lean ====
/- The whole layer as one function of its argument arrays, entry by entry.

   Edge e has the sender word src e = edge_index[0, e] and the receiver word dst e = edge_index[1, e]. A row lookup wraps
   a negative word by the row count and clamps it into range; the segment sum adds edge e's row into node n exactly when
   dst e, read signed, is n. Node n's new features are hout of its aggregated messages and its own features; its new
   coordinates are its own plus the aggregated coordinate contributions. -/
import proofs.«418897_j48576080117843_2_alg».proof.Proof.SpecArr
import proofs.«418897_j48576080117843_2_alg».proof.Proof.LibScatterGather

noncomputable section

namespace Cert.Layer

open Idealize.ShloMosaic Idealize.ShloMosaic.ValueIdx Cert.Spec Cert.ScatterGather
open scoped BigOperators

/-- A negative index word counts from the end: 40000 is added to it. -/
def wrapW (w : BitVec 32) : BitVec 32 := if w.slt 0#32 then w + 40000#32 else w

/-- The row a lookup by the word w reads: the wrapped word, read signed and clamped into [0, 39999]. -/
def rowOf (w : BitVec 32) : Fin 40000 := rowW 40000 (by decide) (wrapW w)

/-- An index word that, read signed, names a row. -/
def InRange (w : BitVec 32) : Prop := 0 ≤ w.toInt ∧ w.toInt < 40000

/-- The layer's argument arrays (the unused mask left out). -/
structure Args where
  h : Mat 40000 128
  x : Mat 40000 3
  ei : (⟨2, ![2, 640000]⟩ : Shape).Idx → BitVec 32
  ea : Mat 640000 8
  We1 : Mat 284 128
  be1 : Vc 128
  We2 : Mat 128 128
  be2 : Vc 128
  Winf : Mat 128 1
  binf : Vc 1
  Wx1 : Mat 128 128
  bx1 : Vc 128
  Wx2 : Mat 128 1
  Wn1 : Mat 256 128
  bn1 : Vc 128
  Wn2 : Mat 128 128
  bn2 : Vc 128

variable (A : Args) (off : Fin 20 → EReal)

/-- Edge e's sender word. -/
def srcW (e : Fin 640000) : BitVec 32 := A.ei (ix2 0 e)
/-- Edge e's receiver word. -/
def dstW (e : Fin 640000) : BitVec 32 := A.ei (ix2 1 e)

/-- The receiver's and the sender's feature rows, and their coordinate rows. -/
def hi (e : Fin 640000) : Fin 128 → EReal := row A.h (rowOf (dstW A e))
def hj (e : Fin 640000) : Fin 128 → EReal := row A.h (rowOf (srcW A e))
def xi (e : Fin 640000) : Fin 3 → EReal := row A.x (rowOf (dstW A e))
def xj (e : Fin 640000) : Fin 3 → EReal := row A.x (rowOf (srcW A e))

/-- The edge features fed to the first layer: the twenty radial features, then the eight edge attributes. -/
def ef (e : Fin 640000) : Fin (20 + 8) → EReal := cat2 (dfeat off (xi A e) (xj A e)) (row A.ea e)

/-- The edge network's weights. -/
def eW : EdgeW := edgeWR A.We1 A.be1 A.We2 A.be2 A.Winf A.binf A.Wx1 A.bx1 A.Wx2
/-- The node network's weights. -/
def nW : NodeW := nodeWR A.Wn1 A.bn1 A.Wn2 A.bn2

/-- Edge e's gated message, entry j. -/
def msgE (e : Fin 640000) (j : Fin 128) : EReal := msg (eW A) (hi A e) (hj A e) (ef A off e) j
/-- Edge e's coordinate contribution, entry d. -/
def xcE (e : Fin 640000) (d : Fin 3) : EReal :=
  xc (eW A) (hi A e) (hj A e) (ef A off e) (rel (xi A e) (xj A e)) (dist (xi A e) (xj A e)) d

/-- The edges whose receiver word names node n. -/
def into (n : Fin 40000) : Finset (Fin 640000) := Finset.univ.filter fun e => tgtW 40000 (dstW A e) = some n

/-- Node n's aggregated message, entry k: the zero word plus the messages of the edges into n. -/
def mi (n : Fin 40000) (k : Fin 128) : EReal := Ideal.ofBits .f32 0x00000000#32 + ∑ e ∈ into A n, msgE A off e k
/-- Node n's aggregated coordinate contribution, entry d. -/
def dx (n : Fin 40000) (d : Fin 3) : EReal := Ideal.ofBits .f32 0x00000000#32 + ∑ e ∈ into A n, xcE A off e d

/-- The first result, entry (n, j): node n's new feature j. -/
def out0 (n : Fin 40000) (j : Fin 128) : EReal := hout (nW A) (mi A off n) (row A.h n) j
/-- The second result, entry (n, d): node n's new coordinate d. -/
def out1 (n : Fin 40000) (d : Fin 3) : EReal := A.x (ix2 n d) + dx A off n d

end Cert.Layer

end
-- ==== Proof.KI.Args.lean ====
/- The layer's argument arrays as the idealized kernel program's memory holds them on core c. -/
import proofs.«418897_j48576080117843_2_alg».proof.KernelIdeal
import proofs.«418897_j48576080117843_2_alg».proof.Proof.Layer

noncomputable section

namespace Cert.KernelIdeal.Hand

open Idealize.ShloMosaic Idealize.ShloMosaic.TcCoe Idealize.SL.Sem
open Cert.KernelIdeal

/-- The argument arrays in the memory m on core c. -/
def argsOf (m : (ℓ : Loc nD τ sig) → Buf (Elt Ideal) ℓ) (c : Dev nD) : Cert.Layer.Args where
  h := m ((c : Thread nD τ).loc main_arg0)
  x := m ((c : Thread nD τ).loc main_arg1)
  ei := m ((c : Thread nD τ).loc main_arg2)
  ea := m ((c : Thread nD τ).loc main_arg4)
  We1 := m ((c : Thread nD τ).loc main_arg5)
  be1 := m ((c : Thread nD τ).loc main_arg6)
  We2 := m ((c : Thread nD τ).loc main_arg7)
  be2 := m ((c : Thread nD τ).loc main_arg8)
  Winf := m ((c : Thread nD τ).loc main_arg9)
  binf := m ((c : Thread nD τ).loc main_arg10)
  Wx1 := m ((c : Thread nD τ).loc main_arg11)
  bx1 := m ((c : Thread nD τ).loc main_arg12)
  Wx2 := m ((c : Thread nD τ).loc main_arg13)
  Wn1 := m ((c : Thread nD τ).loc main_arg14)
  bn1 := m ((c : Thread nD τ).loc main_arg15)
  Wn2 := m ((c : Thread nD τ).loc main_arg16)
  bn2 := m ((c : Thread nD τ).loc main_arg17)

/-- The offset table of the radial features, as the program's literal table spells it. -/
def offK (k : Fin 20) : EReal := Ideal.ofBits .f32 (lit0 (S20.rowMajor (Idealize.ShloMosaic.ValueIdx.ix1 k)))

end Cert.KernelIdeal.Hand

end
-- ==== Proof.KI.EdgePayload.lean ====
/- The edge kernel's arithmetic at one entry of its blocks, on the extended reals: each product of matrices into a zero
   accumulator as the sum over the contracted coordinate, each bias copied down the rows as its entry, each slice of the
   feature block as the column it starts at; then the three stored values at an entry (r, j) as the layer's formulas of
   row r — the message row before the gate, the gated message, the coordinate contribution. The first layer's product is
   taken in three parts (receiver row, sender row, edge features), which is the product of the three rows laid side by
   side with the three weight slices laid side by side. -/
import proofs.«418897_j48576080117843_2_alg».proof.Proof.KI.EdgeOut
import proofs.«418897_j48576080117843_2_alg».proof.Proof.SpecArr
import Idealize.ShloMosaic.PureOps.Ideal.Laws
import Idealize.ShloMosaic.Lib.IdealHost
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx
open Cert.KernelIdeal Cert.KernelIdeal.Gen
open scoped BigOperators

namespace Edge

/-! ## A product of two matrices into a zero accumulator, at an entry -/

/-- Entry (a, b) of an m×k by k×n product into the zero accumulator is the sum over the contracted coordinate. -/
theorem matmul_zero_entry {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) none A B (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The 4000×128 by 128×128 product of the body. -/
theorem mm128_entry {φ₁ φ₂ : FTy} (A : FVec Ideal S4000x128 φ₁) (B : FVec Ideal S128x128 φ₂) (r : Fin 4000) (j : Fin 128) :
    matmul dot_S4000x128_S128x128_S4000x128_1_0_0_1_n_n none A B (constant (F := Ideal) S4000x128 .f32 0x00000000#32) (ix2 r j)
      = ∑ c : Fin 128, A (ix2 r c) * B (ix2 c j) :=
  matmul_zero_entry dot_S4000x128_S128x128_S4000x128_1_0_0_1_n_n_wf A B r j

/-- The 4000×28 by 28×128 product of the body. -/
theorem mm28_entry {φ₁ φ₂ : FTy} (A : FVec Ideal S4000x28 φ₁) (B : FVec Ideal S28x128 φ₂) (r : Fin 4000) (j : Fin 128) :
    matmul dot_S4000x28_S28x128_S4000x128_1_0_0_1_n_n none A B (constant (F := Ideal) S4000x128 .f32 0x00000000#32) (ix2 r j)
      = ∑ c : Fin 28, A (ix2 r c) * B (ix2 c j) :=
  matmul_zero_entry dot_S4000x28_S28x128_S4000x128_1_0_0_1_n_n_wf A B r j

/-- The 4000×128 by 128×1 product of the body. -/
theorem mm1_entry {φ₁ φ₂ : FTy} (A : FVec Ideal S4000x128 φ₁) (B : FVec Ideal S128x1 φ₂) (r : Fin 4000) (u : Fin 1) :
    matmul dot_S4000x128_S128x1_S4000x1_1_0_0_1_n_n none A B (constant (F := Ideal) S4000x1 .f32 0x00000000#32) (ix2 r u)
      = ∑ c : Fin 128, A (ix2 r c) * B (ix2 c u) :=
  matmul_zero_entry dot_S4000x128_S128x1_S4000x1_1_0_0_1_n_n_wf A B r u

/-! ## The body's layout operations at an entry -/

/-- A 128-entry bias cast to one row and copied down the 4000 rows reads its entry j in every row. -/
theorem bias_row_entry (b : FVec Ideal S128 .f32) (h1 : S128.ShapeCasts S1x128) (h2 : S1x128.Broadcasts S4000x128) (r : Fin 4000) (j : Fin 128) :
    broadcastTo S4000x128 (shapeCast S1x128 b h1) h2 (ix2 r j) = b (ix1 j) := by
  rw [broadcastTo_1b_ab_apply, shapeCast_a_1a_apply]

/-- The one-entry bias cast to 1×1 and copied down the 4000 rows reads its entry in every row. -/
theorem bias_one_entry (b : FVec Ideal S1 .f32) (h1 : S1.ShapeCasts S1x1) (h2 : S1x1.Broadcasts S4000x1) (r : Fin 4000) (u : Fin 1) :
    broadcastTo S4000x1 (shapeCast S1x1 b h1) h2 (ix2 r u) = b (ix1 0) := by
  rw [broadcastTo_1b_ab_apply, shapeCast_a_1a_apply]
  exact congrArg b (congrArg ix1 (Subsingleton.elim _ _))

/-- A 4000×1 column copied across n columns reads the column's entry of the row. -/
theorem col_bcast_entry {n : Nat} {α : Type} (v : (⟨2, ![4000, 1]⟩ : Shape).Idx → α) (h : (⟨2, ![4000, 1]⟩ : Shape).Broadcasts ⟨2, ![4000, n]⟩) (r : Fin 4000) (j : Fin n) :
    broadcastTo ⟨2, ![4000, n]⟩ v h (ix2 r j) = v (ix2 r (0 : Fin 1)) := by
  refine broadcastTo_apply v h (ix2 r j) (ix2 r (0 : Fin 1)) fun ax => ?_
  match ax with
  | ⟨0, _⟩ => rfl
  | ⟨1, _⟩ => rfl

/-! ## Sums over rows laid side by side -/

theorem cat2_castAdd {A B : Nat} (a : Fin A → EReal) (b : Fin B → EReal) (k : Fin A) : Spec.cat2 a b (Fin.castAdd B k) = a k := by
  unfold Spec.cat2
  rw [dif_pos (by simp : (Fin.castAdd B k).val < A)]
  rfl

theorem cat2_natAdd {A B : Nat} (a : Fin A → EReal) (b : Fin B → EReal) (k : Fin B) : Spec.cat2 a b (Fin.natAdd A k) = b k := by
  unfold Spec.cat2
  rw [dif_neg (by simp : ¬ (Fin.natAdd A k).val < A)]
  congr 1
  apply Fin.ext
  simp

/-- Two rows side by side against two rows side by side: the two products' sums added. -/
theorem sum_cat2_cat2 {A B : Nat} (a a' : Fin A → EReal) (b b' : Fin B → EReal) :
    ∑ k, Spec.cat2 a b k * Spec.cat2 a' b' k = (∑ k, a k * a' k) + ∑ k, b k * b' k := by
  rw [Spec.sum_cat2]
  congr 1
  · exact Finset.sum_congr rfl fun k _ => by rw [cat2_castAdd]
  · exact Finset.sum_congr rfl fun k _ => by rw [cat2_natAdd]

/-- Three rows side by side against three: the three products' sums added, the first two first. -/
theorem sum_cat3_cat3 {A B C : Nat} (a a' : Fin A → EReal) (b b' : Fin B → EReal) (c c' : Fin C → EReal) :
    ∑ k, Spec.cat3 a b c k * Spec.cat3 a' b' c' k = ((∑ k, a k * a' k) + ∑ k, b k * b' k) + ∑ k, c k * c' k := by
  unfold Spec.cat3
  rw [sum_cat2_cat2, sum_cat2_cat2]

/-! ## The message rows before the gate, at an entry -/

/-- Columns 0..27 of the feature block at row r. -/
def featRow (x2 : FVec Ideal S4000x32 .f32) (r : Fin 4000) : Fin 28 → EReal := fun k => x2 (ix2 r ⟨k.val, by omega⟩)

theorem slice28_entry (x2 : FVec Ideal S4000x32 .f32) (h : S4000x32.Slices ![0, 0] S4000x28) (r : Fin 4000) (k : Fin 28) :
    extractStridedSlice S4000x28 ![0, 0] x2 h (ix2 r k) = x2 (ix2 r ⟨k.val, by omega⟩) := by
  refine extractStridedSlice_apply _ _ _ _ _ fun a => ?_
  match a with
  | ⟨0, _⟩ => show r.val = 0 + r.val; omega
  | ⟨1, _⟩ => show k.val = 0 + k.val; omega

theorem pay6_entry (x0 x1 : FVec Ideal S4000x128 .f32) (x2 : FVec Ideal S4000x32 .f32) (x3 x4 : FVec Ideal S128x128 .bf16) (x5 : FVec Ideal S28x128 .bf16)
    (x6 : FVec Ideal S128 .f32) (x7 : FVec Ideal S128x128 .bf16) (x8 : FVec Ideal S128 .f32) (x9 : FVec Ideal S128x1 .bf16) (x10 : FVec Ideal S1 .f32)
    (x11 : FVec Ideal S128x128 .bf16) (x12 : FVec Ideal S128 .f32) (x13 : FVec Ideal S128x1 .bf16) (r : Fin 4000) (j : Fin 128) :
    k0_pay6 (F := Ideal) x0 x1 x2 x3 x4 x5 x6 x7 x8 (ix2 r j)
      = Spec.mij (Spec.edgeWK x3 x4 x5 x6 x7 x8 x9 x10 x11 x12 x13) (Spec.row x0 r) (Spec.row x1 r) (featRow x2 r) j := by
  unfold k0_pay6 k0_pay3
  simp only [mulf_apply, addf_apply, logistic, mm128_entry, mm28_entry, bias_row_entry, truncf_apply, shapeCast_self, slice28_entry]
  unfold Spec.mij Spec.h1 Spec.silu Spec.lin
  simp only [Spec.edgeWK, sum_cat3_cat3, Spec.row, featRow]
  rfl

/-! ## The two stored values at an entry -/

/-- The gated message: the row before the gate times the logistic of its product with the gate's column plus the gate's bias. -/
theorem pay1_entry (M : FVec Ideal S4000x128 .f32) (x9 : FVec Ideal S128x1 .bf16) (x10 : FVec Ideal S1 .f32) (r : Fin 4000) (j : Fin 128) :
    k0_pay1 (F := Ideal) M x9 x10 (ix2 r j)
      = M (ix2 r j) * Ideal.logistic ((∑ c : Fin 128, M (ix2 r c) * x9 (ix2 c 0)) + x10 (ix1 0)) := by
  unfold k0_pay1
  simp only [mulf_apply, addf_apply, logistic, col_bcast_entry, mm1_entry, bias_one_entry, truncf_apply, shapeCast_self]
  rfl

/-- The coordinate contribution: the difference over (distance + 1), times the tanh of the coordinate network's output. -/
theorem pay2_entry (v10 : FVec Ideal S4000x3 .f32) (v11 : FVec Ideal S4000x1 .f32) (M : FVec Ideal S4000x128 .f32)
    (x11 : FVec Ideal S128x128 .bf16) (x12 : FVec Ideal S128 .f32) (x13 : FVec Ideal S128x1 .bf16) (r : Fin 4000) (d : Fin 3) :
    k0_pay2 (F := Ideal) v10 v11 M x11 x12 x13 (ix2 r d)
      = Ideal.div (v10 (ix2 r d)) (v11 (ix2 r 0) + Ideal.ofBits .f32 0x3F800000#32)
        * Ideal.tanh (∑ c : Fin 128, Spec.silu ((∑ c' : Fin 128, M (ix2 r c') * x11 (ix2 c' c)) + x12 (ix1 c)) * x13 (ix2 c 0)) := by
  unfold k0_pay2
  simp only [mulf_apply, divf_apply, addf_apply, logistic, Idealize.ShloMosaic.tanh, col_bcast_entry, broadcast_apply, mm1_entry, mm128_entry,
    bias_row_entry, truncf_apply, shapeCast_self]
  rfl

theorem slice3_entry (x2 : FVec Ideal S4000x32 .f32) (h : S4000x32.Slices ![0, 28] S4000x3) (r : Fin 4000) (d : Fin 3) :
    extractStridedSlice S4000x3 ![0, 28] x2 h (ix2 r d) = x2 (ix2 r ⟨28 + d.val, by omega⟩) := by
  refine extractStridedSlice_apply _ _ _ _ _ fun a => ?_
  match a with
  | ⟨0, _⟩ => show r.val = 0 + r.val; omega
  | ⟨1, _⟩ => rfl

theorem slice1_entry (x2 : FVec Ideal S4000x32 .f32) (h : S4000x32.Slices ![0, 31] S4000x1) (r : Fin 4000) (u : Fin 1) :
    extractStridedSlice S4000x1 ![0, 31] x2 h (ix2 r u) = x2 (ix2 r ⟨31, by omega⟩) := by
  refine extractStridedSlice_apply _ _ _ _ _ fun a => ?_
  match a with
  | ⟨0, _⟩ => show r.val = 0 + r.val; omega
  | ⟨1, _⟩ => show 31 = 31 + u.val; omega

/-- Columns 28..30 of the feature block at row r: the coordinate difference. -/
def relRow (x2 : FVec Ideal S4000x32 .f32) (r : Fin 4000) : Fin 3 → EReal := fun d => x2 (ix2 r ⟨28 + d.val, by omega⟩)

/-- Entry (r, j) of what the first store writes is the gated message of row r. -/
theorem msg_entry (x0 x1 : FVec Ideal S4000x128 .f32) (x2 : FVec Ideal S4000x32 .f32) (x3 x4 : FVec Ideal S128x128 .bf16) (x5 : FVec Ideal S28x128 .bf16)
    (x6 : FVec Ideal S128 .f32) (x7 : FVec Ideal S128x128 .bf16) (x8 : FVec Ideal S128 .f32) (x9 : FVec Ideal S128x1 .bf16) (x10 : FVec Ideal S1 .f32)
    (x11 : FVec Ideal S128x128 .bf16) (x12 : FVec Ideal S128 .f32) (x13 : FVec Ideal S128x1 .bf16) (r : Fin 4000) (j : Fin 128) :
    k0_pay1 (F := Ideal) (k0_pay6 (F := Ideal) x0 x1 x2 x3 x4 x5 x6 x7 x8) x9 x10 (ix2 r j)
      = Spec.msg (Spec.edgeWK x3 x4 x5 x6 x7 x8 x9 x10 x11 x12 x13) (Spec.row x0 r) (Spec.row x1 r) (featRow x2 r) j := by
  rw [pay1_entry]
  simp only [pay6_entry x0 x1 x2 x3 x4 x5 x6 x7 x8 x9 x10 x11 x12 x13]
  rfl

/-- Entry (r, d) of what the second store writes is the coordinate contribution of row r. -/
theorem xc_entry (x0 x1 : FVec Ideal S4000x128 .f32) (x2 : FVec Ideal S4000x32 .f32) (x3 x4 : FVec Ideal S128x128 .bf16) (x5 : FVec Ideal S28x128 .bf16)
    (x6 : FVec Ideal S128 .f32) (x7 : FVec Ideal S128x128 .bf16) (x8 : FVec Ideal S128 .f32) (x9 : FVec Ideal S128x1 .bf16) (x10 : FVec Ideal S1 .f32)
    (x11 : FVec Ideal S128x128 .bf16) (x12 : FVec Ideal S128 .f32) (x13 : FVec Ideal S128x1 .bf16) (r : Fin 4000) (d : Fin 3) :
    k0_pay2 (F := Ideal) (k0_pay4 (F := Ideal) x2) (k0_pay5 (F := Ideal) x2) (k0_pay6 (F := Ideal) x0 x1 x2 x3 x4 x5 x6 x7 x8) x11 x12 x13 (ix2 r d)
      = Spec.xc (Spec.edgeWK x3 x4 x5 x6 x7 x8 x9 x10 x11 x12 x13) (Spec.row x0 r) (Spec.row x1 r) (featRow x2 r) (relRow x2 r) (x2 (ix2 r ⟨31, by omega⟩)) d := by
  rw [pay2_entry]
  simp only [pay6_entry x0 x1 x2 x3 x4 x5 x6 x7 x8 x9 x10 x11 x12 x13]
  unfold k0_pay4 k0_pay5 k0_pay3
  simp only [shapeCast_self, slice3_entry, slice1_entry]
  rfl

end Edge

end Cert.KernelIdeal.Hand

end
-- ==== Proof.KI.EdgeValue.lean ====
/- The edge region's output array main_v34 : [640000, 131] as ONE function of the fourteen arrays its input windows read:
   row e holds, in columns 0..127, the gated message of edge e (from receiver row e, sender row e and the feature row e)
   and, in columns 128..130, its coordinate contribution. One run of the body leaves a 4000 × 131 block whose two stores tile
   it by columns; entry (r, col) of that block is row r's entry col. Block row r of grid point t is array row 4000·t + r
   for the three edge windows and the output window, and each weight's block is its whole array; so what point t writes
   back is block t of the array function, the 160 blocks cover the 640000 rows (row e lies in block e / 4000), and the
   array ends holding the function. -/
import proofs.«418897_j48576080117843_2_alg».proof.Proof.KI.EdgeBody
import proofs.«418897_j48576080117843_2_alg».proof.Proof.KI.EdgePayload
import proofs.«418897_j48576080117843_2_alg».proof.Proof.SpecArr
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

namespace Edge

/-! ## One row of the output, and the whole array -/

/-- Row e of the edge region's output from the receiver row, the sender row and the feature row of edge e: columns 0..127
    the gated message, columns 128..130 the coordinate contribution. -/
def edgeRow (W : Spec.EdgeW) (hi hj : Fin 128 → EReal) (f : Fin 32 → EReal) (col : Fin 131) : EReal :=
  if h : col.val < 128 then Spec.msg W hi hj (fun k : Fin 28 => f ⟨k.val, by omega⟩) ⟨col.val, h⟩
  else Spec.xc W hi hj (fun k : Fin 28 => f ⟨k.val, by omega⟩) (fun d : Fin 3 => f ⟨28 + d.val, by omega⟩) (f ⟨31, by omega⟩)
    ⟨col.val - 128, by have := col.isLt; omega⟩

end Edge

open Edge

/-- The edge region's output array as one function of the fourteen arrays its input windows read. -/
def edgeG (a0 a1 : FVec Ideal S640000x128 .f32) (a2 : FVec Ideal S640000x32 .f32) (a3 a4 : FVec Ideal S128x128 .bf16) (a5 : FVec Ideal S28x128 .bf16)
    (a6 : FVec Ideal S128 .f32) (a7 : FVec Ideal S128x128 .bf16) (a8 : FVec Ideal S128 .f32) (a9 : FVec Ideal S128x1 .bf16) (a10 : FVec Ideal S1 .f32)
    (a11 : FVec Ideal S128x128 .bf16) (a12 : FVec Ideal S128 .f32) (a13 : FVec Ideal S128x1 .bf16) : FVec Ideal S640000x131 .f32 :=
  fun i => edgeRow (Spec.edgeWK a3 a4 a5 a6 a7 a8 a9 a10 a11 a12 a13)
    (Spec.row (n := 640000) (k := 128) a0 ⟨(i 0).val, idx2_lt0 i⟩) (Spec.row (n := 640000) (k := 128) a1 ⟨(i 0).val, idx2_lt0 i⟩)
    (Spec.row (n := 640000) (k := 32) a2 ⟨(i 0).val, idx2_lt0 i⟩) ⟨(i 1).val, idx2_lt1 i⟩

/-- Columns 0..127 of row e: the gated message of edge e. -/
theorem edgeG_msg (a0 a1 : FVec Ideal S640000x128 .f32) (a2 : FVec Ideal S640000x32 .f32) (a3 a4 : FVec Ideal S128x128 .bf16) (a5 : FVec Ideal S28x128 .bf16)
    (a6 : FVec Ideal S128 .f32) (a7 : FVec Ideal S128x128 .bf16) (a8 : FVec Ideal S128 .f32) (a9 : FVec Ideal S128x1 .bf16) (a10 : FVec Ideal S1 .f32)
    (a11 : FVec Ideal S128x128 .bf16) (a12 : FVec Ideal S128 .f32) (a13 : FVec Ideal S128x1 .bf16) (e : Fin 640000) (j : Fin 128) :
    edgeG a0 a1 a2 a3 a4 a5 a6 a7 a8 a9 a10 a11 a12 a13 (ix2 e ⟨j.val, by omega⟩)
      = Spec.msg (Spec.edgeWK a3 a4 a5 a6 a7 a8 a9 a10 a11 a12 a13) (Spec.row a0 e) (Spec.row a1 e) (fun k : Fin 28 => a2 (ix2 e ⟨k.val, by omega⟩)) j := by
  unfold edgeG edgeRow
  split
  · rfl
  · rename_i h; exact absurd j.isLt h

/-- Columns 128..130 of row e: the coordinate contribution of edge e. -/
theorem edgeG_xc (a0 a1 : FVec Ideal S640000x128 .f32) (a2 : FVec Ideal S640000x32 .f32) (a3 a4 : FVec Ideal S128x128 .bf16) (a5 : FVec Ideal S28x128 .bf16)
    (a6 : FVec Ideal S128 .f32) (a7 : FVec Ideal S128x128 .bf16) (a8 : FVec Ideal S128 .f32) (a9 : FVec Ideal S128x1 .bf16) (a10 : FVec Ideal S1 .f32)
    (a11 : FVec Ideal S128x128 .bf16) (a12 : FVec Ideal S128 .f32) (a13 : FVec Ideal S128x1 .bf16) (e : Fin 640000) (d : Fin 3) :
    edgeG a0 a1 a2 a3 a4 a5 a6 a7 a8 a9 a10 a11 a12 a13 (ix2 e ⟨128 + d.val, by omega⟩)
      = Spec.xc (Spec.edgeWK a3 a4 a5 a6 a7 a8 a9 a10 a11 a12 a13) (Spec.row a0 e) (Spec.row a1 e) (fun k : Fin 28 => a2 (ix2 e ⟨k.val, by omega⟩))
          (fun d' : Fin 3 => a2 (ix2 e ⟨28 + d'.val, by omega⟩)) (a2 (ix2 e ⟨31, by omega⟩)) d := by
  unfold edgeG edgeRow
  split
  · rename_i h; exact absurd h (by show ¬ (128 + d.val < 128); omega)
  · refine congrArg (Spec.xc _ _ _ _ _ _) (Fin.ext ?_)
    show 128 + d.val - 128 = d.val
    omega

namespace Edge

/-! ## The block one run of the body leaves, entry by entry -/

theorem hz2 : (![0, 0] : Fin 2 → Nat) = fun _ => 0 := funext fun a => by fin_cases a <;> rfl
theorem hz1 : (![0] : Fin 1 → Nat) = fun _ => 0 := funext fun a => by fin_cases a <;> rfl

/-- Entry (r, col) of the output block is row r's entry col, of the rows r of the three edge blocks and the whole weights. -/
theorem out_entry (x0 x1 : FVec Ideal S4000x128 .f32) (x2 : FVec Ideal S4000x32 .f32) (x3 x4 : FVec Ideal S128x128 .bf16) (x5 : FVec Ideal S28x128 .bf16)
    (x6 : FVec Ideal S128 .f32) (x7 : FVec Ideal S128x128 .bf16) (x8 : FVec Ideal S128 .f32) (x9 : FVec Ideal S128x1 .bf16) (x10 : FVec Ideal S1 .f32)
    (x11 : FVec Ideal S128x128 .bf16) (x12 : FVec Ideal S128 .f32) (x13 : FVec Ideal S128x1 .bf16) (r : Fin 4000) (col : Fin 131) :
    out0_14 (F := Ideal) x0 x1 x2 x3 x4 x5 x6 x7 x8 x9 x10 x11 x12 x13 (ix2 r col)
      = edgeRow (Spec.edgeWK x3 x4 x5 x6 x7 x8 x9 x10 x11 x12 x13) (Spec.row (n := 4000) (k := 128) x0 r) (Spec.row (n := 4000) (k := 128) x1 r)
          (Spec.row (n := 4000) (k := 32) x2 r) col := by
  unfold out0_14 mijBlk
  simp only [rE128, rE32, rW128, rW28, rC128, rB128, rB1, View.ld_unit_zero (S := S4000x128) hz2, View.ld_unit_zero (S := S4000x32) hz2,
    View.ld_unit_zero (S := S128x128) hz2, View.ld_unit_zero (S := S28x128) hz2, View.ld_unit_zero (S := S128x1) hz2,
    View.ld_unit_zero (S := S128) hz1, View.ld_unit_zero (S := S1) hz1]
  unfold edgeRow
  split
  · rename_i h
    have hn : ix2 r col ∉ rOutB.set := by
      rw [Rect.mem_set_unit]
      intro hm
      have h1 := (hm 1).1
      have h1' : 128 ≤ col.val := h1
      omega
    rw [View.canon_cons_of_not_mem ⟨rOutB, _⟩ _ hn]
    have e : ix2 r col = rOutA.emb (ix2 r (⟨col.val, h⟩ : Fin 128)) := by
      funext a; apply Fin.ext
      match a with
      | ⟨0, _⟩ => show r.val = 0 + 1 * r.val; omega
      | ⟨1, _⟩ => show col.val = 0 + 1 * col.val; omega
    rw [e, View.canon_cons_emb]
    exact msg_entry x0 x1 x2 x3 x4 x5 x6 x7 x8 x9 x10 x11 x12 x13 r ⟨col.val, h⟩
  · rename_i h
    have hc : col.val < 131 := col.isLt
    have e : ix2 r col = rOutB.emb (ix2 r (⟨col.val - 128, by omega⟩ : Fin 3)) := by
      funext a; apply Fin.ext
      match a with
      | ⟨0, _⟩ => show r.val = 0 + 1 * r.val; omega
      | ⟨1, _⟩ => show col.val = 128 + 1 * (col.val - 128); omega
    rw [e, View.canon_cons_emb]
    exact xc_entry x0 x1 x2 x3 x4 x5 x6 x7 x8 x9 x10 x11 x12 x13 r ⟨col.val - 128, by omega⟩

/-! ## From the blocks to the array -/

/-- The same row, the same weights, the same entry. -/
theorem edgeRow_blk_eq (x0 x1 : FVec Ideal S4000x128 .f32) (x2 : FVec Ideal S4000x32 .f32) (x3 x4 : FVec Ideal S128x128 .bf16) (x5 : FVec Ideal S28x128 .bf16)
    (x6 : FVec Ideal S128 .f32) (x7 : FVec Ideal S128x128 .bf16) (x8 : FVec Ideal S128 .f32) (x9 : FVec Ideal S128x1 .bf16) (x10 : FVec Ideal S1 .f32)
    (x11 : FVec Ideal S128x128 .bf16) (x12 : FVec Ideal S128 .f32) (x13 : FVec Ideal S128x1 .bf16)
    (a0 a1 : FVec Ideal S640000x128 .f32) (a2 : FVec Ideal S640000x32 .f32) (a3 a4 : FVec Ideal S128x128 .bf16) (a5 : FVec Ideal S28x128 .bf16)
    (a6 : FVec Ideal S128 .f32) (a7 : FVec Ideal S128x128 .bf16) (a8 : FVec Ideal S128 .f32) (a9 : FVec Ideal S128x1 .bf16) (a10 : FVec Ideal S1 .f32)
    (a11 : FVec Ideal S128x128 .bf16) (a12 : FVec Ideal S128 .f32) (a13 : FVec Ideal S128x1 .bf16) (r : Fin 4000) (e : Fin 640000) (col : Fin 131)
    (h0 : Spec.row (n := 4000) (k := 128) x0 r = Spec.row (n := 640000) (k := 128) a0 e)
    (h1 : Spec.row (n := 4000) (k := 128) x1 r = Spec.row (n := 640000) (k := 128) a1 e)
    (h2 : Spec.row (n := 4000) (k := 32) x2 r = Spec.row (n := 640000) (k := 32) a2 e)
    (h3 : x3 = a3) (h4 : x4 = a4) (h5 : x5 = a5) (h6 : x6 = a6) (h7 : x7 = a7) (h8 : x8 = a8) (h9 : x9 = a9) (h10 : x10 = a10)
    (h11 : x11 = a11) (h12 : x12 = a12) (h13 : x13 = a13) :
    edgeRow (Spec.edgeWK x3 x4 x5 x6 x7 x8 x9 x10 x11 x12 x13) (Spec.row (n := 4000) (k := 128) x0 r) (Spec.row (n := 4000) (k := 128) x1 r)
        (Spec.row (n := 4000) (k := 32) x2 r) col
      = edgeRow (Spec.edgeWK a3 a4 a5 a6 a7 a8 a9 a10 a11 a12 a13) (Spec.row (n := 640000) (k := 128) a0 e) (Spec.row (n := 640000) (k := 128) a1 e)
        (Spec.row (n := 640000) (k := 32) a2 e) col := by
  subst h3 h4 h5 h6 h7 h8 h9 h10 h11 h12 h13
  rw [h0, h1, h2]

/-- The array at an index whose coordinates are e and col is row e's entry col. -/
theorem edgeG_at (a0 a1 : FVec Ideal S640000x128 .f32) (a2 : FVec Ideal S640000x32 .f32) (a3 a4 : FVec Ideal S128x128 .bf16) (a5 : FVec Ideal S28x128 .bf16)
    (a6 : FVec Ideal S128 .f32) (a7 : FVec Ideal S128x128 .bf16) (a8 : FVec Ideal S128 .f32) (a9 : FVec Ideal S128x1 .bf16) (a10 : FVec Ideal S1 .f32)
    (a11 : FVec Ideal S128x128 .bf16) (a12 : FVec Ideal S128 .f32) (a13 : FVec Ideal S128x1 .bf16) (i : S640000x131.Idx) (e : Fin 640000) (col : Fin 131) (he : (i 0).val = e.val) (hc : (i 1).val = col.val) :
    edgeG a0 a1 a2 a3 a4 a5 a6 a7 a8 a9 a10 a11 a12 a13 i
      = edgeRow (Spec.edgeWK a3 a4 a5 a6 a7 a8 a9 a10 a11 a12 a13) (Spec.row (n := 640000) (k := 128) a0 e) (Spec.row (n := 640000) (k := 128) a1 e)
        (Spec.row (n := 640000) (k := 32) a2 e) col := by
  have e0 : (⟨(i 0).val, idx2_lt0 i⟩ : Fin 640000) = e := Fin.ext he
  have e1 : (⟨(i 1).val, idx2_lt1 i⟩ : Fin 131) = col := Fin.ext hc
  unfold edgeG
  rw [e0, e1]

/-- Two blocks of 4000 × 131 entries are equal when they are equal entry by entry. -/
theorem blk_ext (X Y : Vec Ideal S4000x131 .f32) (h : ∀ (r : Fin 4000) (col : Fin 131), X (ix2 r col) = Y (ix2 r col)) : X = Y :=
  funext fun y => by rw [eq_ix2 y]; exact h _ _

variable (V : (c : Dev nD) → (b : Ref sig .tc) → Buf (Elt Ideal) ((c : Thread nD τ).loc b))

/-- The windows that move with the point: block index (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_14.index t (0 : Fin 2) = t.val ∧ win0_14.index t (1 : Fin 2) = 0 :=
  (by decide +kernel : ∀ t : Fin grid0.N, _)

/-- The weights' windows: block index zero at every point. -/
theorem idx_weights : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = 0 ∧ win0_13.index t (1 : Fin 2) = 0 :=
  (by decide +kernel : ∀ t : Fin grid0.N, _)

/-- Row r of window 0's block at point t is row 4000·t + r of its array. -/
theorem rows0 (c : Dev nD) (t : Fin cfg0.N) (r : Fin 4000) (e : Fin 640000) (he : e.val = 4000 * t.val + r.val) :
    Spec.row (n := 4000) (k := 128) (iblk0 V c 0 t) r = Spec.row (n := 640000) (k := 128) (V c main_v4) e := by
  obtain ⟨h0, h1, -⟩ := idx_rows t
  funext j
  show (iblk0 V c 0 t : Vec Ideal S4000x128 .f32) (ix2 r j) = (V c main_v4 : Vec Ideal S640000x128 .f32) (ix2 e j)
  unfold iblk0
  rw [View.read_apply]
  show V c main_v4 (((cfg0.win 0).blk t).view.emb (ix2 r j)) = V c main_v4 (ix2 e j)
  congr 1
  funext a; apply Fin.ext
  match a with
  | ⟨0, _⟩ => show win0_0.index t (0 : Fin 2) * 4000 + 1 * r.val = e.val; omega
  | ⟨1, _⟩ => show win0_0.index t (1 : Fin 2) * 128 + 1 * j.val = j.val; omega

/-- Row r of window 1's block at point t is row 4000·t + r of its array. -/
theorem rows1 (c : Dev nD) (t : Fin cfg0.N) (r : Fin 4000) (e : Fin 640000) (he : e.val = 4000 * t.val + r.val) :
    Spec.row (n := 4000) (k := 128) (iblk0 V c 1 t) r = Spec.row (n := 640000) (k := 128) (V c main_v5) e := by
  obtain ⟨-, -, h0, h1, -⟩ := idx_rows t
  funext j
  show (iblk0 V c 1 t : Vec Ideal S4000x128 .f32) (ix2 r j) = (V c main_v5 : Vec Ideal S640000x128 .f32) (ix2 e j)
  unfold iblk0
  rw [View.read_apply]
  show V c main_v5 (((cfg0.win 1).blk t).view.emb (ix2 r j)) = V c main_v5 (ix2 e j)
  congr 1
  funext a; apply Fin.ext
  match a with
  | ⟨0, _⟩ => show win0_1.index t (0 : Fin 2) * 4000 + 1 * r.val = e.val; omega
  | ⟨1, _⟩ => show win0_1.index t (1 : Fin 2) * 128 + 1 * j.val = j.val; omega

/-- Row r of window 2's block at point t is row 4000·t + r of its array. -/
theorem rows2 (c : Dev nD) (t : Fin cfg0.N) (r : Fin 4000) (e : Fin 640000) (he : e.val = 4000 * t.val + r.val) :
    Spec.row (n := 4000) (k := 32) (iblk0 V c 2 t) r = Spec.row (n := 640000) (k := 32) (V c main_v23) e := by
  obtain ⟨-, -, -, -, h0, h1, -⟩ := idx_rows t
  funext j
  show (iblk0 V c 2 t : Vec Ideal S4000x32 .f32) (ix2 r j) = (V c main_v23 : Vec Ideal S640000x32 .f32) (ix2 e j)
  unfold iblk0
  rw [View.read_apply]
  show V c main_v23 (((cfg0.win 2).blk t).view.emb (ix2 r j)) = V c main_v23 (ix2 e j)
  congr 1
  funext a; apply Fin.ext
  match a with
  | ⟨0, _⟩ => show win0_2.index t (0 : Fin 2) * 4000 + 1 * r.val = e.val; omega
  | ⟨1, _⟩ => show win0_2.index t (1 : Fin 2) * 32 + 1 * j.val = j.val; omega

/-- Window 3's block at every point is its whole array. -/
theorem wblk3 (c : Dev nD) (t : Fin cfg0.N) : (iblk0 V c 3 t : Vec Ideal S128x128 .bf16) = (V c main_v25 : Vec Ideal S128x128 .bf16) := by
  obtain ⟨h0, h1, -⟩ := idx_weights t
  funext y
  unfold iblk0
  rw [View.read_apply]
  show V c main_v25 (((cfg0.win 3).blk t).view.emb y) = V c main_v25 y
  congr 1
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block at every point is its whole array. -/
theorem wblk4 (c : Dev nD) (t : Fin cfg0.N) : (iblk0 V c 4 t : Vec Ideal S128x128 .bf16) = (V c main_v27 : Vec Ideal S128x128 .bf16) := by
  obtain ⟨-, -, h0, h1, -⟩ := idx_weights t
  funext y
  unfold iblk0
  rw [View.read_apply]
  show V c main_v27 (((cfg0.win 4).blk t).view.emb y) = V c main_v27 y
  congr 1
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block at every point is its whole array. -/
theorem wblk5 (c : Dev nD) (t : Fin cfg0.N) : (iblk0 V c 5 t : Vec Ideal S28x128 .bf16) = (V c main_v29 : Vec Ideal S28x128 .bf16) := by
  obtain ⟨-, -, -, -, h0, h1, -⟩ := idx_weights t
  funext y
  unfold iblk0
  rw [View.read_apply]
  show V c main_v29 (((cfg0.win 5).blk t).view.emb y) = V c main_v29 y
  congr 1
  funext a; apply Fin.ext
  match a with
  | ⟨0, _⟩ => show win0_5.index t (0 : Fin 2) * 28 + 1 * (y 0).val = (y 0).val; omega
  | ⟨1, _⟩ => show win0_5.index t (1 : Fin 2) * 128 + 1 * (y 1).val = (y 1).val; omega

/-- Window 6's block at every point is its whole array. -/
theorem wblk6 (c : Dev nD) (t : Fin cfg0.N) : (iblk0 V c 6 t : Vec Ideal S128 .f32) = (V c main_arg6 : Vec Ideal S128 .f32) := by
  obtain ⟨-, -, -, -, -, -, h0, -⟩ := idx_weights t
  funext y
  unfold iblk0
  rw [View.read_apply]
  show V c main_arg6 (((cfg0.win 6).blk t).view.emb y) = V c main_arg6 y
  congr 1
  funext a; apply Fin.ext
  match a with
  | ⟨0, _⟩ => show win0_6.index t (0 : Fin 1) * 128 + 1 * (y 0).val = (y 0).val; omega

/-- Window 7's block at every point is its whole array. -/
theorem wblk7 (c : Dev nD) (t : Fin cfg0.N) : (iblk0 V c 7 t : Vec Ideal S128x128 .bf16) = (V c main_v30 : Vec Ideal S128x128 .bf16) := by
  obtain ⟨-, -, -, -, -, -, -, h0, h1, -⟩ := idx_weights t
  funext y
  unfold iblk0
  rw [View.read_apply]
  show V c main_v30 (((cfg0.win 7).blk t).view.emb y) = V c main_v30 y
  congr 1
  funext a; apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's block at every point is its whole array. -/
theorem wblk8 (c : Dev nD) (t : Fin cfg0.N) : (iblk0 V c 8 t : Vec Ideal S128 .f32) = (V c main_arg8 : Vec Ideal S128 .f32) := by
  obtain ⟨-, -, -, -, -, -, -, -, -, h0, -⟩ := idx_weights t
  funext y
  unfold iblk0
  rw [View.read_apply]
  show V c main_arg8 (((cfg0.win 8).blk t).view.emb y) = V c main_arg8 y
  congr 1
  funext a; apply Fin.ext
  match a with
  | ⟨0, _⟩ => show win0_8.index t (0 : Fin 1) * 128 + 1 * (y 0).val = (y 0).val; omega

/-- Window 9's block at every point is its whole array. -/
theorem wblk9 (c : Dev nD) (t : Fin cfg0.N) : (iblk0 V c 9 t : Vec Ideal S128x1 .bf16) = (V c main_v31 : Vec Ideal S128x1 .bf16) := by
  obtain ⟨-, -, -, -, -, -, -, -, -, -, h0, h1, -⟩ := idx_weights t
  funext y
  unfold iblk0
  rw [View.read_apply]
  show V c main_v31 (((cfg0.win 9).blk t).view.emb y) = V c main_v31 y
  congr 1
  funext a; apply Fin.ext
  match a with
  | ⟨0, _⟩ => show win0_9.index t (0 : Fin 2) * 128 + 1 * (y 0).val = (y 0).val; omega
  | ⟨1, _⟩ => show win0_9.index t (1 : Fin 2) * 1 + 1 * (y 1).val = (y 1).val; omega

/-- Window 10's block at every point is its whole array. -/
theorem wblk10 (c : Dev nD) (t : Fin cfg0.N) : (iblk0 V c 10 t : Vec Ideal S1 .f32) = (V c main_arg10 : Vec Ideal S1 .f32) := by
  obtain ⟨-, -, -, -, -, -, -, -, -, -, -, -, h0, -⟩ := idx_weights t
  funext y
  unfold iblk0
  rw [View.read_apply]
  show V c main_arg10 (((cfg0.win 10).blk t).view.emb y) = V c main_arg10 y
  congr 1
  funext a; apply Fin.ext
  match a with
  | ⟨0, _⟩ => show win0_10.index t (0 : Fin 1) * 1 + 1 * (y 0).val = (y 0).val; omega

/-- Window 11's block at every point is its whole array. -/
theorem wblk11 (c : Dev nD) (t : Fin cfg0.N) : (iblk0 V c 11 t : Vec Ideal S128x128 .bf16) = (V c main_v32 : Vec Ideal S128x128 .bf16) := by
  obtain ⟨-, -, -, -, -, -, -, -, -, -, -, -, -, h0, h1, -⟩ := idx_weights t
  funext y
  unfold iblk0
  rw [View.read_apply]
  show V c main_v32 (((cfg0.win 11).blk t).view.emb y) = V c main_v32 y
  congr 1
  funext a; apply Fin.ext
  match a with
  | ⟨0, _⟩ => show win0_11.index t (0 : Fin 2) * 128 + 1 * (y 0).val = (y 0).val; omega
  | ⟨1, _⟩ => show win0_11.index t (1 : Fin 2) * 128 + 1 * (y 1).val = (y 1).val; omega

/-- Window 12's block at every point is its whole array. -/
theorem wblk12 (c : Dev nD) (t : Fin cfg0.N) : (iblk0 V c 12 t : Vec Ideal S128 .f32) = (V c main_arg12 : Vec Ideal S128 .f32) := by
  obtain ⟨-, -, -, -, -, -, -, -, -, -, -, -, -, -, -, h0, -⟩ := idx_weights t
  funext y
  unfold iblk0
  rw [View.read_apply]
  show V c main_arg12 (((cfg0.win 12).blk t).view.emb y) = V c main_arg12 y
  congr 1
  funext a; apply Fin.ext
  match a with
  | ⟨0, _⟩ => show win0_12.index t (0 : Fin 1) * 128 + 1 * (y 0).val = (y 0).val; omega

/-- Window 13's block at every point is its whole array. -/
theorem wblk13 (c : Dev nD) (t : Fin cfg0.N) : (iblk0 V c 13 t : Vec Ideal S128x1 .bf16) = (V c main_v33 : Vec Ideal S128x1 .bf16) := by
  obtain ⟨-, -, -, -, -, -, -, -, -, -, -, -, -, -, -, -, h0, h1⟩ := idx_weights t
  funext y
  unfold iblk0
  rw [View.read_apply]
  show V c main_v33 (((cfg0.win 13).blk t).view.emb y) = V c main_v33 y
  congr 1
  funext a; apply Fin.ext
  match a with
  | ⟨0, _⟩ => show win0_13.index t (0 : Fin 2) * 128 + 1 * (y 0).val = (y 0).val; omega
  | ⟨1, _⟩ => show win0_13.index t (1 : Fin 2) * 1 + 1 * (y 1).val = (y 1).val; omega

/-- What point t writes back is block t of the array function. -/
theorem flushed_eq (c : Dev nD) (t : Fin cfg0.N) :
    (dat0 (F := Ideal) V c).flushed 14 t
      = ((cfg0.win 14).blk t).view.read (Elt Ideal) (edgeG (V c main_v4) (V c main_v5) (V c main_v23) (V c main_v25) (V c main_v27) (V c main_v29) (V c main_arg6) (V c main_v30) (V c main_arg8) (V c main_v31) (V c main_arg10) (V c main_v32) (V c main_arg12) (V c main_v33)) := by
  show (cfg0.win 14).cut (grid0.coords t) ((dat0 V c).after 14 t) = _
  rw [after0_14]
  have hN : t.val < 160 := lt_of_lt_of_eq t.isLt N_0
  obtain ⟨-, -, -, -, -, -, h140, h141⟩ := idx_rows t
  refine blk_ext _ _ fun r col => ?_
  show out0_14 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (ix2 r col)
    = edgeG (V c main_v4) (V c main_v5) (V c main_v23) (V c main_v25) (V c main_v27) (V c main_v29) (V c main_arg6) (V c main_v30) (V c main_arg8) (V c main_v31) (V c main_arg10) (V c main_v32) (V c main_arg12) (V c main_v33) (((cfg0.win 14).blk t).view.emb (ix2 r col))
  refine (out_entry (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) r col).trans ?_
  refine (edgeRow_blk_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    (V c main_v4) (V c main_v5) (V c main_v23) (V c main_v25) (V c main_v27) (V c main_v29) (V c main_arg6) (V c main_v30) (V c main_arg8) (V c main_v31) (V c main_arg10) (V c main_v32) (V c main_arg12) (V c main_v33) r ⟨4000 * t.val + r.val, by omega⟩ col
    (rows0 V c t r _ rfl) (rows1 V c t r _ rfl) (rows2 V c t r _ rfl)
    (wblk3 V c t) (wblk4 V c t) (wblk5 V c t) (wblk6 V c t) (wblk7 V c t) (wblk8 V c t) (wblk9 V c t) (wblk10 V c t) (wblk11 V c t)
    (wblk12 V c t) (wblk13 V c t)).trans ?_
  refine (edgeG_at (V c main_v4) (V c main_v5) (V c main_v23) (V c main_v25) (V c main_v27) (V c main_v29) (V c main_arg6) (V c main_v30) (V c main_arg8) (V c main_v31) (V c main_arg10) (V c main_v32) (V c main_arg12) (V c main_v33) _ _ _ ?_ ?_).symm
  · show win0_14.index t (0 : Fin 2) * 4000 + 1 * r.val = 4000 * t.val + r.val
    omega
  · show win0_14.index t (1 : Fin 2) * 131 + 1 * col.val = col.val
    omega

/-- An index of the array is in point t's block iff each coordinate is in the block's range on its axis. -/
theorem mem_blk (t : Fin cfg0.N) (i : S640000x131.Idx) :
    i ∈ ((cfg0.win 14).blk t).view.set ↔ ∀ a : Fin 2, win0_14.index t a * S4000x131.size a ≤ (i a).val ∧ (i a).val < win0_14.index t a * S4000x131.size a + S4000x131.size a := by
  show i ∈ ((View.whole main_v34).slice (win0_14.rect t)).set ↔ _
  rw [View.set_slice_whole, Rect.mem_set_unit]
  exact Iff.rfl

/-- Row e is in the block of point e / 4000, which writes back. -/
theorem cover (i : S640000x131.Idx) : ∃ t : Fin cfg0.N, (cfg0.win 14).flush t = true ∧ i ∈ ((cfg0.win 14).blk t).view.set := by
  have hi0 : (i 0).val < 640000 := (i 0).isLt
  have hi1 : (i 1).val < 131 := (i 1).isLt
  have hN : cfg0.N = 160 := N_0
  have hq : (i 0).val / 4000 < cfg0.N := by rw [hN]; omega
  obtain ⟨t, ht⟩ : ∃ t : Fin cfg0.N, t.val = (i 0).val / 4000 := ⟨⟨_, hq⟩, rfl⟩
  obtain ⟨-, -, -, -, -, -, h140, h141⟩ := idx_rows t
  refine ⟨t, flush0_14 t, ?_⟩
  rw [mem_blk]
  intro a
  match a with
  | ⟨0, _⟩ => show win0_14.index t (0 : Fin 2) * 4000 ≤ (i 0).val ∧ (i 0).val < win0_14.index t (0 : Fin 2) * 4000 + 4000; omega
  | ⟨1, _⟩ => show win0_14.index t (1 : Fin 2) * 131 ≤ (i 1).val ∧ (i 1).val < win0_14.index t (1 : Fin 2) * 131 + 131; omega

end Edge

/-- The output array after the edge region: the array function of the arrays its input windows read. -/
theorem edge_final (V : (c : Dev nD) → (b : Ref sig .tc) → Buf (Elt Ideal) ((c : Thread nD τ).loc b)) (c : Dev nD) :
    (dat0 (F := Ideal) V c).arrAt 14 cfg0.N
      = edgeG (V c main_v4) (V c main_v5) (V c main_v23) (V c main_v25) (V c main_v27) (V c main_v29) (V c main_arg6) (V c main_v30) (V c main_arg8) (V c main_v31) (V c main_arg10) (V c main_v32) (V c main_arg12) (V c main_v33) :=
  (dat0 (F := Ideal) V c).arrAt_eq_of_cover 14 (edgeG (V c main_v4) (V c main_v5) (V c main_v23) (V c main_v25) (V c main_v27) (V c main_v29) (V c main_arg6) (V c main_v30) (V c main_arg8) (V c main_v31) (V c main_arg10) (V c main_v32) (V c main_arg12) (V c main_v33))
    (fun t _ => flushed_eq V c t) (fun i => cover i)

end Cert.KernelIdeal.Hand

end
-- ==== Proof.KI.NodeValue.lean ====
/- The node region (grid of 20 points, 2000 nodes each) read as two whole-array functions: after it the feature array
   holds, in row n, h n + (silu([mi n, h n]·Wn1 + bn1)·Wn2 + bn2) of row n of the aggregated messages mi and of the
   features h, and the coordinate array holds x + dx entry by entry. First the body's two payloads at an index (the
   three matrix products as sums over the contracted coordinate, the first layer over the two row slices of Wn1 by
   the split of a sum over two rows side by side), then each input block as rows of its array (block row r of point t
   is array row 2000·t + r; a weight's block is the weight), what each point writes back as block t of the whole-array
   function, the cover (row r lies in the block of point r / 2000), and the two arrays after the last point. -/
import proofs.«418897_j48576080117843_2_alg».proof.Proof.KI.NodeBody
import proofs.«418897_j48576080117843_2_alg».proof.Proof.SpecArr
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

/-! ## The node region's two results as whole-array functions -/

/-- The new features: row n is the node network on row n of the aggregated messages and of the features. -/
def nodeG9 (a0 a1 : FVec Ideal S40000x128 .f32) (a4 a5 : FVec Ideal S128x128 .bf16) (a6 : FVec Ideal S128 .f32)
    (a7 : FVec Ideal S128x128 .bf16) (a8 : FVec Ideal S128 .f32) : FVec Ideal S40000x128 .f32 :=
  fun i => Spec.hout (Spec.nodeWK a4 a5 a6 a7 a8) (Spec.row a0 (i 0)) (Spec.row a1 (i 0)) (i 1)

theorem nodeG9_apply (a0 a1 : FVec Ideal S40000x128 .f32) (a4 a5 : FVec Ideal S128x128 .bf16) (a6 : FVec Ideal S128 .f32)
    (a7 : FVec Ideal S128x128 .bf16) (a8 : FVec Ideal S128 .f32) (n : Fin 40000) (j : Fin 128) :
    nodeG9 a0 a1 a4 a5 a6 a7 a8 (ix2 n j)
      = Spec.hout (Spec.nodeWK a4 a5 a6 a7 a8) (Spec.row a0 n) (Spec.row a1 n) j := rfl

/-- The new coordinates: x + dx, entry by entry. -/
def nodeG10 (a2 a3 : FVec Ideal S40000x3 .f32) : FVec Ideal S40000x3 .f32 := fun i => a2 i + a3 i

theorem nodeG10_apply (a2 a3 : FVec Ideal S40000x3 .f32) (n : Fin 40000) (d : Fin 3) :
    nodeG10 a2 a3 (ix2 n d) = a2 (ix2 n d) + a3 (ix2 n d) := rfl

/-! ## The node kernel's matrix product at an index -/

theorem nodeDot_lhs_0 (p : Fin 2000) (q : Fin 128) (k : dot_S2000x128_S128x128_S2000x128_1_0_0_1_n_n.contr.Idx) :
    (dot_S2000x128_S128x128_S2000x128_1_0_0_1_n_n.lhsIdx (ix2 p q) k 0).val = p.val := by
  simp [DotDims.lhsIdx, dot_S2000x128_S128x128_S2000x128_1_0_0_1_n_n]; rfl

theorem nodeDot_lhs_1 (p : Fin 2000) (q : Fin 128) (k : dot_S2000x128_S128x128_S2000x128_1_0_0_1_n_n.contr.Idx) :
    (dot_S2000x128_S128x128_S2000x128_1_0_0_1_n_n.lhsIdx (ix2 p q) k 1).val = (k ⟨0, by decide⟩).val :=
  DotDims.lhsIdx_val_of_single _ rfl _ _

theorem nodeDot_rhs_0 (p : Fin 2000) (q : Fin 128) (k : dot_S2000x128_S128x128_S2000x128_1_0_0_1_n_n.contr.Idx) :
    (dot_S2000x128_S128x128_S2000x128_1_0_0_1_n_n.rhsIdx (ix2 p q) k 0).val = (k ⟨0, by decide⟩).val :=
  DotDims.rhsIdx_val_of_single _ rfl _ _

theorem nodeDot_rhs_1 (p : Fin 2000) (q : Fin 128) (k : dot_S2000x128_S128x128_S2000x128_1_0_0_1_n_n.contr.Idx) :
    (dot_S2000x128_S128x128_S2000x128_1_0_0_1_n_n.rhsIdx (ix2 p q) k 1).val = q.val := by
  simp [DotDims.rhsIdx, dot_S2000x128_S128x128_S2000x128_1_0_0_1_n_n]; rfl

/-- A 2000 × 128 by 128 × 128 product into the zero accumulator, at (p, q): Σ_k x p k · w k q. -/
theorem nodeDot_apply (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  show FloatOps.matmul dot_S2000x128_S128x128_S2000x128_1_0_0_1_n_n none x w (constant (F := Ideal) S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun c _ => ?_
  have c2 := contrEquiv1_symm_val dot_S2000x128_S128x128_S2000x128_1_0_0_1_n_n 128 rfl rfl c
  have l2 : dot_S2000x128_S128x128_S2000x128_1_0_0_1_n_n.lhsIdx (ix2 p q) ((contrEquiv1 _ 128 rfl rfl).symm c) = ix2 p c := by
    funext ax; apply Fin.ext
    match ax with
    | ⟨0, _⟩ => exact nodeDot_lhs_0 _ _ _
    | ⟨1, _⟩ => exact (nodeDot_lhs_1 _ _ _).trans c2
  have r2 : dot_S2000x128_S128x128_S2000x128_1_0_0_1_n_n.rhsIdx (ix2 p q) ((contrEquiv1 _ 128 rfl rfl).symm c) = ix2 c q := by
    funext ax; apply Fin.ext
    match ax with
    | ⟨0, _⟩ => exact (nodeDot_rhs_0 _ _ _).trans c2
    | ⟨1, _⟩ => exact nodeDot_rhs_1 _ _ _
  rw [l2, r2]

/-! ## The node network's first layer over the two row slices of its weight -/

/-- Two rows side by side, read in the first. -/
theorem node_cat2_castAdd {A B : Nat} (a : Fin A → EReal) (b : Fin B → EReal) (k : Fin A) :
    Spec.cat2 a b (Fin.castAdd B k) = a k := by
  unfold Spec.cat2
  rw [dif_pos (by simp : (Fin.castAdd B k).val < A)]
  rfl

/-- Two rows side by side, read in the second. -/
theorem node_cat2_natAdd {A B : Nat} (a : Fin A → EReal) (b : Fin B → EReal) (k : Fin B) :
    Spec.cat2 a b (Fin.natAdd A k) = b k := by
  unfold Spec.cat2
  rw [dif_neg (by simp : ¬ (Fin.natAdd A k).val < A)]
  congr 1
  apply Fin.ext
  simp

/-- [mi, h]·Wn1 + bn1 at j, the weight in its two row slices: (Σ mi k · a4 k j + Σ h k · a5 k j) + a6 j. -/
theorem lin_nodeWK (a4 a5 : Spec.Mat 128 128) (a6 : Spec.Vc 128) (a7 : Spec.Mat 128 128) (a8 : Spec.Vc 128)
    (mi h : Fin 128 → EReal) (j : Fin 128) :
    Spec.lin (Spec.cat2 mi h) (Spec.nodeWK a4 a5 a6 a7 a8).Wn1 (Spec.nodeWK a4 a5 a6 a7 a8).bn1 j
      = ((∑ k : Fin 128, mi k * a4 (ix2 k j)) + ∑ k : Fin 128, h k * a5 (ix2 k j)) + a6 (ix1 j) := by
  have e1 : ∀ k : Fin 128, (Spec.nodeWK a4 a5 a6 a7 a8).Wn1 (Fin.castAdd 128 k) j = a4 (ix2 k j) :=
    fun k => node_cat2_castAdd (fun k' => a4 (ix2 k' j)) (fun k' => a5 (ix2 k' j)) k
  have e2 : ∀ k : Fin 128, (Spec.nodeWK a4 a5 a6 a7 a8).Wn1 (Fin.natAdd 128 k) j = a5 (ix2 k j) :=
    fun k => node_cat2_natAdd (fun k' => a4 (ix2 k' j)) (fun k' => a5 (ix2 k' j)) k
  unfold Spec.lin
  rw [Spec.sum_cat2]
  simp only [e1, e2]
  rfl

/-- The logistic function of a vector at an index. -/
theorem node_logistic_apply {s : Shape} {φ : FTy} (a : FVec Ideal s φ) (i : s.Idx) : logistic a i = Ideal.logistic (a i) := rfl

/-- The first layer's row p before the activation, entry k. -/
theorem nodeLin1_apply (x0 x1 : FVec Ideal S2000x128 .f32) (x4 x5 : FVec Ideal S128x128 .bf16) (x6 : FVec Ideal S128 .f32)
    (x7 : FVec Ideal S128x128 .bf16) (x8 : FVec Ideal S128 .f32) (p : Fin 2000) (k : Fin 128) :
    addf (addf (matmul dot_S2000x128_S128x128_S2000x128_1_0_0_1_n_n none (truncf .bf16 x0 bitsLt_bf16_f32) x4
                  (constant (F := Ideal) S2000x128 .f32 0x00000000#32))
               (matmul dot_S2000x128_S128x128_S2000x128_1_0_0_1_n_n none (truncf .bf16 x1 bitsLt_bf16_f32) x5
                  (constant (F := Ideal) S2000x128 .f32 0x00000000#32)))
         (broadcastTo S2000x128 (shapeCast S1x128 x6 shapeCasts_S128_S1x128) broadcasts_S1x128_S2000x128) (ix2 p k)
      = Spec.lin (Spec.cat2 (fun k' => x0 (ix2 p k')) (fun k' => x1 (ix2 p k'))) (Spec.nodeWK x4 x5 x6 x7 x8).Wn1
          (Spec.nodeWK x4 x5 x6 x7 x8).bn1 k := by
  rw [addf_apply, addf_apply, nodeDot_apply, nodeDot_apply, broadcastTo_1b_ab_apply, shapeCast_a_1a_apply, lin_nodeWK]
  rfl

/-- The feature payload at (p, q): the node's new feature q from row p of the two row blocks. -/
theorem nodePay1_apply (x0 x1 : Vec Ideal S2000x128 .f32) (x4 x5 : Vec Ideal S128x128 .bf16) (x6 : Vec Ideal S128 .f32)
    (x7 : Vec Ideal S128x128 .bf16) (x8 : Vec Ideal S128 .f32) (p : Fin 2000) (q : Fin 128) :
    k1_pay1 x0 x1 x4 x5 x6 x7 x8 (ix2 p q)
      = Spec.hout (Spec.nodeWK x4 x5 x6 x7 x8) (fun k => x0 (ix2 p k)) (fun k => x1 (ix2 p k)) q := by
  unfold k1_pay1
  simp only [shapeCast_self]
  rw [addf_apply, addf_apply, nodeDot_apply, broadcastTo_1b_ab_apply, shapeCast_a_1a_apply]
  show _ = x1 (ix2 p q) + ((∑ k : Fin 128, Spec.nh1 (Spec.nodeWK x4 x5 x6 x7 x8) (fun k => x0 (ix2 p k)) (fun k => x1 (ix2 p k)) k
      * x7 (ix2 k q)) + x8 (ix1 q))
  refine congrArg (x1 (ix2 p q) + ·) (congrArg (· + x8 (ix1 q)) (Finset.sum_congr rfl fun k _ => ?_))
  refine congrArg (· * x7 (ix2 k q)) ?_
  rw [truncf_apply, mulf_apply, node_logistic_apply, nodeLin1_apply x0 x1 x4 x5 x6 x7 x8 p k]
  rfl

/-- The coordinate payload at an index: x + dx. -/
theorem nodePay2_apply (x2 x3 : Vec Ideal S2000x3 .f32) (j : S2000x3.Idx) : k1_pay2 x2 x3 j = x2 j + x3 j := by
  unfold k1_pay2
  simp only [shapeCast_self]
  rfl

/-! ## From the blocks to the arrays -/

theorem node_zero_off2 : (![0, 0] : Fin 2 → Nat) = fun _ => 0 :=
  funext fun a => by match a with | ⟨0, _⟩ => rfl | ⟨1, _⟩ => rfl

theorem node_zero_off1 : (![0] : Fin 1 → Nat) = fun _ => 0 :=
  funext fun a => by match a with | ⟨0, _⟩ => rfl

/-- Point t's block of a row window is block row t, column block 0. -/
theorem node_idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- Point t's block of a weight window is the whole weight. -/
theorem node_idx_weights : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

variable (V : (c : Dev nD) → (b : Ref sig .tc) → Buf (Elt Ideal) ((c : Thread nD τ).loc b))

/-- Row p of point t's block of the aggregated messages is row 2000·t + p of the array. -/
theorem node_iblk0 (c : Dev nD) (t : Fin cfg1.N) (p : Fin 2000) (k : Fin 128) (n : Fin 40000) (hn : n.val = t.val * 2000 + p.val) :
    (iblk1 V c 0 t : Vec Ideal S2000x128 .f32) (ix2 p k) = (V c main_v38 : FVec Ideal S40000x128 .f32) (ix2 n k) := by
  obtain ⟨e0, e1, -⟩ := node_idx_rows t
  unfold iblk1
  rw [View.read_apply]
  show V c main_v38 _ = V c main_v38 _
  congr 1
  funext a; apply Fin.ext
  match a with
  | ⟨0, _⟩ => show win1_0.index t (0 : Fin 2) * 2000 + 1 * p.val = n.val; omega
  | ⟨1, _⟩ => show win1_0.index t (1 : Fin 2) * 128 + 1 * k.val = k.val; omega

/-- Row p of point t's block of the features is row 2000·t + p of the array. -/
theorem node_iblk1 (c : Dev nD) (t : Fin cfg1.N) (p : Fin 2000) (k : Fin 128) (n : Fin 40000) (hn : n.val = t.val * 2000 + p.val) :
    (iblk1 V c 1 t : Vec Ideal S2000x128 .f32) (ix2 p k) = (V c main_arg0 : FVec Ideal S40000x128 .f32) (ix2 n k) := by
  obtain ⟨-, -, e0, e1, -⟩ := node_idx_rows t
  unfold iblk1
  rw [View.read_apply]
  show V c main_arg0 _ = V c main_arg0 _
  congr 1
  funext a; apply Fin.ext
  match a with
  | ⟨0, _⟩ => show win1_1.index t (0 : Fin 2) * 2000 + 1 * p.val = n.val; omega
  | ⟨1, _⟩ => show win1_1.index t (1 : Fin 2) * 128 + 1 * k.val = k.val; omega

/-- Row p of point t's block of the coordinates is row 2000·t + p of the array. -/
theorem node_iblk2 (c : Dev nD) (t : Fin cfg1.N) (p : Fin 2000) (d : Fin 3) (n : Fin 40000) (hn : n.val = t.val * 2000 + p.val) :
    (iblk1 V c 2 t : Vec Ideal S2000x3 .f32) (ix2 p d) = (V c main_arg1 : FVec Ideal S40000x3 .f32) (ix2 n d) := by
  obtain ⟨-, -, -, -, e0, e1, -⟩ := node_idx_rows t
  unfold iblk1
  rw [View.read_apply]
  show V c main_arg1 _ = V c main_arg1 _
  congr 1
  funext a; apply Fin.ext
  match a with
  | ⟨0, _⟩ => show win1_2.index t (0 : Fin 2) * 2000 + 1 * p.val = n.val; omega
  | ⟨1, _⟩ => show win1_2.index t (1 : Fin 2) * 3 + 1 * d.val = d.val; omega

/-- Row p of point t's block of the aggregated coordinate contributions is row 2000·t + p of the array. -/
theorem node_iblk3 (c : Dev nD) (t : Fin cfg1.N) (p : Fin 2000) (d : Fin 3) (n : Fin 40000) (hn : n.val = t.val * 2000 + p.val) :
    (iblk1 V c 3 t : Vec Ideal S2000x3 .f32) (ix2 p d) = (V c main_v39 : FVec Ideal S40000x3 .f32) (ix2 n d) := by
  obtain ⟨-, -, -, -, -, -, e0, e1, -⟩ := node_idx_rows t
  unfold iblk1
  rw [View.read_apply]
  show V c main_v39 _ = V c main_v39 _
  congr 1
  funext a; apply Fin.ext
  match a with
  | ⟨0, _⟩ => show win1_3.index t (0 : Fin 2) * 2000 + 1 * p.val = n.val; omega
  | ⟨1, _⟩ => show win1_3.index t (1 : Fin 2) * 3 + 1 * d.val = d.val; omega

/-- Every point's block of the first slice of Wn1 is the slice. -/
theorem node_iblk4 (c : Dev nD) (t : Fin cfg1.N) :
    (iblk1 V c 4 t : Vec Ideal S128x128 .bf16) = (V c main_v41 : FVec Ideal S128x128 .bf16) := by
  obtain ⟨e0, e1, -⟩ := node_idx_weights t
  funext y
  unfold iblk1
  rw [View.read_apply]
  show V c main_v41 _ = V c main_v41 _
  congr 1
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Every point's block of the second slice of Wn1 is the slice. -/
theorem node_iblk5 (c : Dev nD) (t : Fin cfg1.N) :
    (iblk1 V c 5 t : Vec Ideal S128x128 .bf16) = (V c main_v43 : FVec Ideal S128x128 .bf16) := by
  obtain ⟨-, -, e0, e1, -⟩ := node_idx_weights t
  funext y
  unfold iblk1
  rw [View.read_apply]
  show V c main_v43 _ = V c main_v43 _
  congr 1
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Every point's block of bn1 is bn1. -/
theorem node_iblk6 (c : Dev nD) (t : Fin cfg1.N) :
    (iblk1 V c 6 t : Vec Ideal S128 .f32) = (V c main_arg15 : FVec Ideal S128 .f32) := by
  obtain ⟨-, -, -, -, e0, -⟩ := node_idx_weights t
  funext y
  unfold iblk1
  rw [View.read_apply]
  show V c main_arg15 _ = V c main_arg15 _
  congr 1
  funext a; apply Fin.ext
  match a with
  | ⟨0, _⟩ => show win1_6.index t (0 : Fin 1) * 128 + 1 * (y 0).val = (y 0).val; omega

/-- Every point's block of Wn2 is Wn2. -/
theorem node_iblk7 (c : Dev nD) (t : Fin cfg1.N) :
    (iblk1 V c 7 t : Vec Ideal S128x128 .bf16) = (V c main_v44 : FVec Ideal S128x128 .bf16) := by
  obtain ⟨-, -, -, -, -, e0, e1, -⟩ := node_idx_weights t
  funext y
  unfold iblk1
  rw [View.read_apply]
  show V c main_v44 _ = V c main_v44 _
  congr 1
  funext a; apply Fin.ext
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- Every point's block of bn2 is bn2. -/
theorem node_iblk8 (c : Dev nD) (t : Fin cfg1.N) :
    (iblk1 V c 8 t : Vec Ideal S128 .f32) = (V c main_arg17 : FVec Ideal S128 .f32) := by
  obtain ⟨-, -, -, -, -, -, -, e0⟩ := node_idx_weights t
  funext y
  unfold iblk1
  rw [View.read_apply]
  show V c main_arg17 _ = V c main_arg17 _
  congr 1
  funext a; apply Fin.ext
  match a with
  | ⟨0, _⟩ => show win1_8.index t (0 : Fin 1) * 128 + 1 * (y 0).val = (y 0).val; omega

/-- The feature payload on blocks that are rows of the arrays is the whole-array function at the array's row. -/
theorem node_block9 (x0 x1 : Vec Ideal S2000x128 .f32) (x4 x5 : Vec Ideal S128x128 .bf16) (x6 : Vec Ideal S128 .f32)
    (x7 : Vec Ideal S128x128 .bf16) (x8 : Vec Ideal S128 .f32)
    (a0 a1 : FVec Ideal S40000x128 .f32) (a4 a5 : FVec Ideal S128x128 .bf16) (a6 : FVec Ideal S128 .f32)
    (a7 : FVec Ideal S128x128 .bf16) (a8 : FVec Ideal S128 .f32) (p : Fin 2000) (q : Fin 128) (n : Fin 40000)
    (h0 : ∀ k : Fin 128, x0 (ix2 p k) = a0 (ix2 n k)) (h1 : ∀ k : Fin 128, x1 (ix2 p k) = a1 (ix2 n k))
    (h4 : x4 = a4) (h5 : x5 = a5) (h6 : x6 = a6) (h7 : x7 = a7) (h8 : x8 = a8) :
    k1_pay1 x0 x1 x4 x5 x6 x7 x8 (ix2 p q) = nodeG9 a0 a1 a4 a5 a6 a7 a8 (ix2 n q) := by
  subst h4 h5 h6 h7 h8
  have e0 : (fun k => x0 (ix2 p k)) = Spec.row a0 n := funext h0
  have e1 : (fun k => x1 (ix2 p k)) = Spec.row a1 n := funext h1
  rw [nodePay1_apply, nodeG9_apply, e0, e1]

/-- What point t writes back of the features is block t of the whole-array function. -/
theorem node_flushed9 (c : Dev nD) (t : Fin cfg1.N) :
    (dat1 (F := Ideal) V c).flushed 9 t = ((cfg1.win 9).blk t).view.read (Elt Ideal)
      (nodeG9 (V c main_v38) (V c main_arg0) (V c main_v41) (V c main_v43) (V c main_arg15) (V c main_v44) (V c main_arg17)) := by
  show (cfg1.win 9).cut (grid1.coords t) ((dat1 V c).after 9 t) = _
  rw [after1_9]
  unfold out1_9
  rw [View.canon_unit_zero node_zero_off2]
  simp only [View.ld_unit_zero (S := S2000x128) node_zero_off2, View.ld_unit_zero (S := S128x128) node_zero_off2,
    View.ld_unit_zero (S := S128) node_zero_off1]
  obtain ⟨-, -, -, -, -, -, -, -, e0, e1, -⟩ := node_idx_rows t
  have ht : t.val < 20 := Nat.lt_of_lt_of_eq t.isLt N_1
  refine funext fun (j : S2000x128.Idx) => ?_
  obtain ⟨p, q, rfl⟩ : ∃ (p : Fin 2000) (q : Fin 128), j = ix2 p q := ⟨j 0, j 1, eq_ix2 j⟩
  have hn : t.val * 2000 + p.val < 40000 := by have := p.isLt; omega
  have hemb : ((cfg1.win 9).blk t).view.emb (ix2 p q) = ix2 (⟨t.val * 2000 + p.val, hn⟩ : Fin 40000) q := by
    funext a; apply Fin.ext
    match a with
    | ⟨0, _⟩ => show win1_9.index t (0 : Fin 2) * 2000 + 1 * p.val = t.val * 2000 + p.val; omega
    | ⟨1, _⟩ => show win1_9.index t (1 : Fin 2) * 128 + 1 * q.val = q.val; omega
  show k1_pay1 (iblk1 V c 0 t) (iblk1 V c 1 t) (iblk1 V c 4 t) (iblk1 V c 5 t) (iblk1 V c 6 t) (iblk1 V c 7 t) (iblk1 V c 8 t) (ix2 p q)
    = nodeG9 (V c main_v38) (V c main_arg0) (V c main_v41) (V c main_v43) (V c main_arg15) (V c main_v44) (V c main_arg17)
        (((cfg1.win 9).blk t).view.emb (ix2 p q))
  rw [hemb]
  exact node_block9 _ _ _ _ _ _ _ _ _ _ _ _ _ _ p q ⟨_, hn⟩ (fun k => node_iblk0 V c t p k _ rfl) (fun k => node_iblk1 V c t p k _ rfl)
    (node_iblk4 V c t) (node_iblk5 V c t) (node_iblk6 V c t) (node_iblk7 V c t) (node_iblk8 V c t)

/-- What point t writes back of the coordinates is block t of the whole-array function. -/
theorem node_flushed10 (c : Dev nD) (t : Fin cfg1.N) :
    (dat1 (F := Ideal) V c).flushed 10 t = ((cfg1.win 10).blk t).view.read (Elt Ideal) (nodeG10 (V c main_arg1) (V c main_v39)) := by
  show (cfg1.win 10).cut (grid1.coords t) ((dat1 V c).after 10 t) = _
  rw [after1_10]
  unfold out1_10
  rw [View.canon_unit_zero node_zero_off2]
  simp only [View.ld_unit_zero (S := S2000x3) node_zero_off2]
  obtain ⟨-, -, -, -, -, -, -, -, -, -, e0, e1⟩ := node_idx_rows t
  have ht : t.val < 20 := Nat.lt_of_lt_of_eq t.isLt N_1
  refine funext fun (j : S2000x3.Idx) => ?_
  obtain ⟨p, d, rfl⟩ : ∃ (p : Fin 2000) (d : Fin 3), j = ix2 p d := ⟨j 0, j 1, eq_ix2 j⟩
  have hn : t.val * 2000 + p.val < 40000 := by have := p.isLt; omega
  have hemb : ((cfg1.win 10).blk t).view.emb (ix2 p d) = ix2 (⟨t.val * 2000 + p.val, hn⟩ : Fin 40000) d := by
    funext a; apply Fin.ext
    match a with
    | ⟨0, _⟩ => show win1_10.index t (0 : Fin 2) * 2000 + 1 * p.val = t.val * 2000 + p.val; omega
    | ⟨1, _⟩ => show win1_10.index t (1 : Fin 2) * 3 + 1 * d.val = d.val; omega
  show k1_pay2 (iblk1 V c 2 t) (iblk1 V c 3 t) (ix2 p d)
    = nodeG10 (V c main_arg1) (V c main_v39) (((cfg1.win 10).blk t).view.emb (ix2 p d))
  rw [hemb, nodePay2_apply, nodeG10_apply, node_iblk2 V c t p d ⟨_, hn⟩ rfl, node_iblk3 V c t p d ⟨_, hn⟩ rfl]

/-- An index of the feature array is in point t's block iff each coordinate is in the block's range. -/
theorem node_mem_blk9 (t : Fin cfg1.N) (i : S40000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v45_0).slice (win1_9.rect t)).set ↔ _
  rw [View.set_slice_whole, Rect.mem_set_unit]
  exact Iff.rfl

/-- An index of the coordinate array is in point t's block iff each coordinate is in the block's range. -/
theorem node_mem_blk10 (t : Fin cfg1.N) (i : S40000x3.Idx) :
    i ∈ ((cfg1.win 10).blk t).view.set ↔ ∀ a : Fin 2, win1_10.index t a * S2000x3.size a ≤ (i a).val
      ∧ (i a).val < win1_10.index t a * S2000x3.size a + S2000x3.size a := by
  show i ∈ ((View.whole main_v45_1).slice (win1_10.rect t)).set ↔ _
  rw [View.set_slice_whole, Rect.mem_set_unit]
  exact Iff.rfl

/-- Row r of the feature array is in the block of point r / 2000. -/
theorem node_cover9 (i : S40000x128.Idx) :
    ∃ t : Fin cfg1.N, (cfg1.win 9).flush t = true ∧ i ∈ ((cfg1.win 9).blk t).view.set := by
  have hi0 : (i 0).val < 40000 := idx2_lt0 i
  have hi1 : (i 1).val < 128 := idx2_lt1 i
  have hlt : (i 0).val / 2000 < cfg1.N := by rw [show cfg1.N = 20 from N_1]; omega
  obtain ⟨-, -, -, -, -, -, -, -, e0, e1, -⟩ := node_idx_rows ⟨(i 0).val / 2000, hlt⟩
  have e0' : win1_9.index ⟨(i 0).val / 2000, hlt⟩ (0 : Fin 2) = (i 0).val / 2000 := e0
  refine ⟨⟨(i 0).val / 2000, hlt⟩, flush1_9 _, ?_⟩
  rw [node_mem_blk9]
  intro a
  match a with
  | ⟨0, _⟩ =>
    show win1_9.index ⟨(i 0).val / 2000, hlt⟩ (0 : Fin 2) * 2000 ≤ (i 0).val
      ∧ (i 0).val < win1_9.index ⟨(i 0).val / 2000, hlt⟩ (0 : Fin 2) * 2000 + 2000
    omega
  | ⟨1, _⟩ =>
    show win1_9.index ⟨(i 0).val / 2000, hlt⟩ (1 : Fin 2) * 128 ≤ (i 1).val
      ∧ (i 1).val < win1_9.index ⟨(i 0).val / 2000, hlt⟩ (1 : Fin 2) * 128 + 128
    omega

/-- Row r of the coordinate array is in the block of point r / 2000. -/
theorem node_cover10 (i : S40000x3.Idx) :
    ∃ t : Fin cfg1.N, (cfg1.win 10).flush t = true ∧ i ∈ ((cfg1.win 10).blk t).view.set := by
  have hi0 : (i 0).val < 40000 := idx2_lt0 i
  have hi1 : (i 1).val < 3 := idx2_lt1 i
  have hlt : (i 0).val / 2000 < cfg1.N := by rw [show cfg1.N = 20 from N_1]; omega
  obtain ⟨-, -, -, -, -, -, -, -, -, -, e0, e1⟩ := node_idx_rows ⟨(i 0).val / 2000, hlt⟩
  have e0' : win1_10.index ⟨(i 0).val / 2000, hlt⟩ (0 : Fin 2) = (i 0).val / 2000 := e0
  refine ⟨⟨(i 0).val / 2000, hlt⟩, flush1_10 _, ?_⟩
  rw [node_mem_blk10]
  intro a
  match a with
  | ⟨0, _⟩ =>
    show win1_10.index ⟨(i 0).val / 2000, hlt⟩ (0 : Fin 2) * 2000 ≤ (i 0).val
      ∧ (i 0).val < win1_10.index ⟨(i 0).val / 2000, hlt⟩ (0 : Fin 2) * 2000 + 2000
    omega
  | ⟨1, _⟩ =>
    show win1_10.index ⟨(i 0).val / 2000, hlt⟩ (1 : Fin 2) * 3 ≤ (i 1).val
      ∧ (i 1).val < win1_10.index ⟨(i 0).val / 2000, hlt⟩ (1 : Fin 2) * 3 + 3
    omega

/-- The feature array after the node region. -/
theorem node_final9 (c : Dev nD) :
    (dat1 (F := Ideal) V c).arrAt 9 cfg1.N
      = nodeG9 (V c main_v38) (V c main_arg0) (V c main_v41) (V c main_v43) (V c main_arg15) (V c main_v44) (V c main_arg17) :=
  (dat1 (F := Ideal) V c).arrAt_eq_of_cover 9 _ (fun t _ => node_flushed9 V c t) node_cover9

/-- The coordinate array after the node region. -/
theorem node_final10 (c : Dev nD) :
    (dat1 (F := Ideal) V c).arrAt 10 cfg1.N = nodeG10 (V c main_arg1) (V c main_v39) :=
  (dat1 (F := Ideal) V c).arrAt_eq_of_cover 10 _ (fun t _ => node_flushed10 V c t) node_cover10

end Cert.KernelIdeal.Hand

end
-- ==== Proof.KI.HostPreTake.lean ====
/- One row lookup (a take) read at one lane: the index word is wrapped when negative, the row is gathered with the
   wrapped word clamped into range, and the gathered row is kept where the wrapped word already names a row; elsewhere
   the lookup yields the not-a-number word. Stated over any index vector and any matrix of 40000 rows, so that each of
   the four lookups of the layer is an instance. -/
import proofs.«418897_j48576080117843_2_alg».proof.Proof.Layer
import Idealize.ShloMosaic.Lib.Pipeline.Value
import Idealize.ShloMosaic.Lib.IdealHost
import Idealize.ShloMosaic.Lib.ValueLayout
import Idealize.ShloMosaic.PureOps.Reduce

noncomputable section

namespace Cert.KernelIdeal.Hand.Take

open Idealize.ShloMosaic Idealize.ShloMosaic.ValueIdx Cert.Layer Cert.ScatterGather

/-- The edges' index vector, the same as one column, the scalars. -/
abbrev SE : Shape := ⟨1, ![640000]⟩
abbrev SE1 : Shape := ⟨2, ![640000, 1]⟩
abbrev S0 : Shape := ⟨0, ![]⟩
abbrev SU : Shape := ⟨1, ![1]⟩
abbrev SUU : Shape := ⟨2, ![1, 1]⟩

/-- A negative word has 40000 added to it: the printed select of a signed comparison with zero, at one lane. -/
theorem wrap_apply (h0 : S0.BroadcastsInDim SE ![]) (w : IVec SE 32) (e : Fin 640000) :
    select (cmpi .slt w (broadcastInDim SE ![] h0 (constantI S0 32 0#32)))
      (addi w (broadcastInDim SE ![] h0 (constantI S0 32 40000#32))) w (ix1 e) = wrapW (w (ix1 e)) := by
  show Scalar.select (IntOp.cmpi .slt (w (ix1 e)) 0#32) (IntOp.addi (w (ix1 e)) 40000#32) (w (ix1 e)) = wrapW (w (ix1 e))
  unfold Scalar.select IntOp.cmpi IntOp.addi wrapW
  cases h : (w (ix1 e)).slt 0#32 <;> simp

/-- The index vector as one column, at row e. -/
theorem col_apply {α : Type} (hc : SE.BroadcastsInDim SE1 ![0]) (v : SE.Idx → α) (e : Fin 640000) :
    broadcastInDim SE1 ![0] hc v (ix2 e 0) = v (ix1 e) :=
  broadcastInDim_apply _ hc v (ix2 e 0) (ix1 e) (fun a => match a with | ⟨0, _⟩ => rfl)

/-- A word in range passes both bounds tests. -/
theorem bounds_word (x : BitVec 32) (hx : InRange x) :
    IntOp.andi (IntOp.cmpi .sge x 0#32) (IntOp.cmpi .sle x 39999#32) = 1#1 := by
  obtain ⟨h0, h1⟩ := hx
  have a : (0#32 : BitVec 32).sle x = true := by
    rw [BitVec.sle_iff_toInt_le]; simpa using h0
  have b : x.sle 39999#32 = true := by
    rw [BitVec.sle_iff_toInt_le]
    have : (39999#32 : BitVec 32).toInt = 39999 := by decide
    omega
  unfold IntOp.andi IntOp.cmpi
  simp only [a, b]
  decide

/-- A fold by and, from the true word, over words that are all true is true. -/
theorem fold_andi_all {ι : Type} [DecidableEq ι] (s : Finset ι) (f : ι → BitVec 1) (h : ∀ k ∈ s, f k = 1#1) :
    s.fold IntOp.andi 1#1 f = 1#1 := by
  induction s using Finset.induction_on with
  | empty => rfl
  | insert a s ha ih =>
    rw [Finset.fold_insert ha, h a (Finset.mem_insert_self _ _), ih (fun k hk => h k (Finset.mem_insert_of_mem hk))]
    decide

/-- The all-of-one-column reduction at row e is the column's one entry there, when the initial word is true. -/
theorem allCol_apply (hred : SE1.ReducesTo [1] SE) (hS : 0 < S0.numel) (p : IVec SE1 1) (e : Fin 640000)
    (hp : p (ix2 e 0) = 1#1) :
    Host.reduce IntOp.andi p (constantI S0 1 1#1) hred hS (ix1 e) = 1#1 := by
  have hR : SE1.Reduces [1] SE := by decide
  rw [Host.reduce_eq_fold_single IntOp.andi p _ hred hR hS (ix1 e)]
  refine fold_andi_all _ _ fun k _ => ?_
  have hl : hR.lift (ix1 e) k = ix2 e 0 := by
    funext a
    match a with
    | ⟨0, _⟩ => exact Fin.ext rfl
    | ⟨1, _⟩ =>
      apply Fin.ext
      show k.val = 0
      have : k.val < 1 := k.isLt
      omega
  show p (hR.lift (ix1 e) k) = 1#1
  rw [hl, hp]

/-- Where the wrapped word names a row, the lookup's mask is true at every entry of the row. -/
theorem mask_apply {H : Nat} (hb1 : S0.BroadcastsInDim SE1 ![]) (hb2 : SU.BroadcastsInDim SUU ![1])
    (hb3 : SUU.BroadcastsInDim SE1 ![0, 1]) (hred : SE1.ReducesTo [1] SE) (hS : 0 < S0.numel)
    (hbm : SE.BroadcastsInDim ⟨2, ![640000, H]⟩ ![0])
    (col : IVec SE1 32) (e : Fin 640000) (k : Fin H) (hr : InRange (col (ix2 e 0))) :
    broadcastInDim ⟨2, ![640000, H]⟩ ![0] hbm
      (Host.reduce IntOp.andi
        (andi (cmpi .sge col (broadcastInDim SE1 ![] hb1 (constantI S0 32 0#32)))
          (cmpi .sle col (broadcastInDim SE1 ![0, 1] hb3 (broadcastInDim SUU ![1] hb2 (constantI SU 32 39999#32)))))
        (constantI S0 1 1#1) hred hS) (ix2 e k) = 1#1 := by
  rw [broadcastInDim_apply _ hbm _ (ix2 e k) (ix1 e) (fun a => match a with | ⟨0, _⟩ => rfl)]
  exact allCol_apply hred hS _ e (bounds_word _ hr)

/-- The lookup at entry (e, k): where the wrapped word names a row, entry k of the row it names. -/
theorem take_apply {H : Nat} (h0 : S0.BroadcastsInDim SE ![]) (hc : SE.BroadcastsInDim SE1 ![0])
    (hb1 : S0.BroadcastsInDim SE1 ![]) (hb2 : SU.BroadcastsInDim SUU ![1])
    (hb3 : SUU.BroadcastsInDim SE1 ![0, 1]) (hred : SE1.ReducesTo [1] SE) (hS : 0 < S0.numel)
    (hbm : SE.BroadcastsInDim ⟨2, ![640000, H]⟩ ![0]) (hbn : S0.BroadcastsInDim ⟨2, ![640000, H]⟩ ![])
    (d : GatherDims ⟨2, ![40000, H]⟩ SE1 ⟨2, ![640000, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![40000, H]⟩ : Shape).Idx → EReal) (w : IVec SE 32) (nanw : BitVec 32) (e : Fin 640000) (k : Fin H)
    (hr : InRange (wrapW (w (ix1 e)))) :
    select
      (broadcastInDim ⟨2, ![640000, H]⟩ ![0] hbm
        (Host.reduce IntOp.andi
          (andi
            (cmpi .sge
              (broadcastInDim SE1 ![0] hc
                (select (cmpi .slt w (broadcastInDim SE ![] h0 (constantI S0 32 0#32)))
                  (addi w (broadcastInDim SE ![] h0 (constantI S0 32 40000#32))) w))
              (broadcastInDim SE1 ![] hb1 (constantI S0 32 0#32)))
            (cmpi .sle
              (broadcastInDim SE1 ![0] hc
                (select (cmpi .slt w (broadcastInDim SE ![] h0 (constantI S0 32 0#32)))
                  (addi w (broadcastInDim SE ![] h0 (constantI S0 32 40000#32))) w))
              (broadcastInDim SE1 ![0, 1] hb3 (broadcastInDim SUU ![1] hb2 (constantI SU 32 39999#32)))))
          (constantI S0 1 1#1) hred hS))
      (Host.gather d x
        (broadcastInDim SE1 ![0] hc
          (select (cmpi .slt w (broadcastInDim SE ![] h0 (constantI S0 32 0#32)))
            (addi w (broadcastInDim SE ![] h0 (constantI S0 32 40000#32))) w)))
      (broadcastInDim ⟨2, ![640000, H]⟩ ![] hbn (constant (F := Ideal) S0 .f32 nanw)) (ix2 e k)
      = x (ix2 (rowOf (w (ix1 e))) k) := by
  have hcol : broadcastInDim SE1 ![0] hc
      (select (cmpi .slt w (broadcastInDim SE ![] h0 (constantI S0 32 0#32)))
        (addi w (broadcastInDim SE ![] h0 (constantI S0 32 40000#32))) w) (ix2 e 0) = wrapW (w (ix1 e)) := by
    rw [col_apply, wrap_apply]
  rw [select_apply, mask_apply hb1 hb2 hb3 hred hS hbm _ e k (by rw [hcol]; exact hr), select_one,
    gather_rows_apply (by decide) d hoff hcoll hob hsb hsim hivd hss x _ e k, hcol]
  rfl

end Cert.KernelIdeal.Hand.Take

end
-- ==== Proof.KI.HostPreFeat.lean ====
/- The edge features read at one edge: the coordinate difference, the regularised distance, the twenty radial features,
   and the four-piece row [radial features (20), edge attributes (8), difference (3), distance (1)]. Stated over any
   two arrays of coordinate rows, any attribute array and any offset table, so that the layer's arrays are an instance. -/
import proofs.«418897_j48576080117843_2_alg».proof.Proof.Layer
import Idealize.ShloMosaic.Lib.Pipeline.Value
import Idealize.ShloMosaic.Lib.IdealHost
import Idealize.ShloMosaic.Lib.ValueLayout
import Idealize.ShloMosaic.PureOps.Ideal.Laws

noncomputable section

namespace Cert.KernelIdeal.Hand.Feat

open Idealize.ShloMosaic Idealize.ShloMosaic.ValueIdx Cert.Layer Cert.Spec
open scoped BigOperators

abbrev SE : Shape := ⟨1, ![640000]⟩
abbrev SE1 : Shape := ⟨2, ![640000, 1]⟩
abbrev SE3 : Shape := ⟨2, ![640000, 3]⟩
abbrev SE8 : Shape := ⟨2, ![640000, 8]⟩
abbrev SE20 : Shape := ⟨2, ![640000, 20]⟩
abbrev SE32 : Shape := ⟨2, ![640000, 32]⟩
abbrev S0 : Shape := ⟨0, ![]⟩
abbrev S20 : Shape := ⟨1, ![20]⟩
abbrev S1x20 : Shape := ⟨2, ![1, 20]⟩

/-- The host's square root and exponential at an entry. -/
theorem hostSqrt_apply {s : Shape} {φ : FTy} (x : FVec Ideal s φ) (i : s.Idx) : Host.sqrt x i = Ideal.sqrt (x i) := rfl
theorem hostExp_apply {s : Shape} {φ : FTy} (x : FVec Ideal s φ) (i : s.Idx) : Host.exp x i = Ideal.exp (x i) := rfl

section Dist

variable (hred : SE3.ReducesTo [1] SE) (hS : 0 < S0.numel) (hc : SE.BroadcastsInDim SE1 ![0])
  (hb1 : S0.BroadcastsInDim SE1 ![])

/-- The distance column: the square root of the summed squares of the difference plus the small word. -/
def distCol (v6 v7 : FVec Ideal SE3 .f32) : FVec Ideal SE1 .f32 :=
  Host.sqrt (addf
    (broadcastInDim SE1 ![0] hc
      (Host.reduceAdd (mulf (subf v6 v7) (subf v6 v7)) (constant (F := Ideal) S0 .f32 0x00000000#32) hred hS))
    (broadcastInDim SE1 ![] hb1 (constant (F := Ideal) S0 .f32 0x322BCC77#32)))

/-- The host's sum along a row of three, from its initial word. -/
theorem rowSum3 (x : FVec Ideal SE3 .f32) (init : S0.Idx → Ideal .f32) (e : Fin 640000) :
    Host.reduceAdd x init hred hS (ix1 e) = init (Shape.Idx.first hS) + ∑ d : Fin 3, x (ix2 e d) := by
  have hR : SE3.Reduces [1] SE := by decide
  have hl : ∀ k : Fin 3, hR.lift (ix1 e) k = ix2 e k := fun k => by
    funext a
    match a with
    | ⟨0, _⟩ => exact Fin.ext rfl
    | ⟨1, _⟩ => exact Fin.ext rfl
  rw [hostReduceAdd_apply, Ideal.hostReduceAdd_single hred hR]
  exact congrArg (_ + ·) (Finset.sum_congr rfl fun k _ => congrArg x (hl k))

/-- The difference at (e, d). -/
theorem rel_apply (v6 v7 : FVec Ideal SE3 .f32) (xi xj : Fin 3 → EReal) (e : Fin 640000)
    (h6 : ∀ d, v6 (ix2 e d) = xi d) (h7 : ∀ d, v7 (ix2 e d) = xj d) (d : Fin 3) :
    subf v6 v7 (ix2 e d) = rel xi xj d := by
  rw [subf_apply, h6, h7]; rfl

/-- The distance of edge e. -/
theorem dist_apply (v6 v7 : FVec Ideal SE3 .f32) (xi xj : Fin 3 → EReal) (e : Fin 640000)
    (h6 : ∀ d, v6 (ix2 e d) = xi d) (h7 : ∀ d, v7 (ix2 e d) = xj d) :
    distCol hred hS hc hb1 v6 v7 (ix2 e 0) = Spec.dist xi xj := by
  unfold distCol
  rw [hostSqrt_apply, addf_apply, broadcastInDim_apply _ hc _ (ix2 e 0) (ix1 e) (fun a => match a with | ⟨0, _⟩ => rfl),
    broadcastInDim_scalar_apply, rowSum3 hred hS, constant_apply, constant_apply]
  unfold Spec.dist Spec.dsq
  refine congrArg Ideal.sqrt (congrArg (· + _) (congrArg (_ + ·) (Finset.sum_congr rfl fun k _ => ?_)))
  rw [mulf_apply, rel_apply v6 v7 xi xj e h6 h7]

end Dist

section Radial

variable (hred : SE3.ReducesTo [1] SE) (hS : 0 < S0.numel) (hc : SE.BroadcastsInDim SE1 ![0])
  (hb1 : S0.BroadcastsInDim SE1 ![]) (hb15 : S20.BroadcastsInDim S1x20 ![1])
  (hb16 : SE1.BroadcastsInDim SE20 ![0, 1]) (hb17 : S1x20.BroadcastsInDim SE20 ![0, 1])
  (hb20 : S0.BroadcastsInDim SE20 ![])

/-- The radial features: exp of the half-negated squared difference between the distance and each offset. -/
def radial (cst : FVec Ideal S20 .f32) (v6 v7 : FVec Ideal SE3 .f32) : FVec Ideal SE20 .f32 :=
  Host.exp (mulf (broadcastInDim SE20 ![] hb20 (constant (F := Ideal) S0 .f32 0xBF000000#32))
    (mulf
      (subf (broadcastInDim SE20 ![0, 1] hb16 (distCol hred hS hc hb1 v6 v7))
        (broadcastInDim SE20 ![0, 1] hb17 (broadcastInDim S1x20 ![1] hb15 cst)))
      (subf (broadcastInDim SE20 ![0, 1] hb16 (distCol hred hS hc hb1 v6 v7))
        (broadcastInDim SE20 ![0, 1] hb17 (broadcastInDim S1x20 ![1] hb15 cst)))))

/-- Radial feature k of edge e. -/
theorem radial_apply (cst : FVec Ideal S20 .f32) (v6 v7 : FVec Ideal SE3 .f32) (xi xj : Fin 3 → EReal) (e : Fin 640000)
    (h6 : ∀ d, v6 (ix2 e d) = xi d) (h7 : ∀ d, v7 (ix2 e d) = xj d) (k : Fin 20) :
    radial hred hS hc hb1 hb15 hb16 hb17 hb20 cst v6 v7 (ix2 e k) = dfeat (fun k => cst (ix1 k)) xi xj k := by
  unfold radial
  rw [hostExp_apply, mulf_apply, mulf_apply, subf_apply, broadcastInDim_scalar_apply, constant_apply,
    broadcastInDim_apply _ hb16 _ (ix2 e k) (ix2 e 0) (fun a => match a with | ⟨0, _⟩ => rfl | ⟨1, _⟩ => rfl),
    broadcastInDim_apply _ hb17 _ (ix2 e k) (ix2 0 k) (fun a => match a with | ⟨0, _⟩ => rfl | ⟨1, _⟩ => rfl),
    broadcastInDim_apply _ hb15 _ (ix2 0 k) (ix1 k) (fun a => match a with | ⟨0, _⟩ => rfl),
    dist_apply hred hS hc hb1 v6 v7 xi xj e h6 h7]
  rfl

end Radial

section Row

variable (hcat : Shape.Concatenates [SE20, SE8, SE3, SE1] SE32 1)
  (a : SE20.Idx → EReal) (b : SE8.Idx → EReal) (r : SE3.Idx → EReal) (d : SE1.Idx → EReal) (e : Fin 640000)

/-- The feature row's first twenty entries are the radial features. -/
theorem row_radial (k : Fin 20) :
    concatenate SE32 1 [⟨SE20, a⟩, ⟨SE8, b⟩, ⟨SE3, r⟩, ⟨SE1, d⟩] hcat (ix2 e ⟨k.val, by omega⟩) = a (ix2 e k) :=
  concatenate_apply_piece (t := SE32) (α := EReal) 1 [⟨SE20, a⟩, ⟨SE8, b⟩, ⟨SE3, r⟩, ⟨SE1, d⟩] hcat _ 0 (by show _ < 4; omega) SE20 a rfl rfl 0 rfl (ix2 e k)
    (fun q hq => match q, hq with | ⟨0, _⟩, _ => rfl | ⟨1, _⟩, hq => absurd rfl hq)
    (by show 0 + k.val = k.val; omega)

/-- The next eight are the edge attributes. -/
theorem row_attr (k : Fin 8) :
    concatenate SE32 1 [⟨SE20, a⟩, ⟨SE8, b⟩, ⟨SE3, r⟩, ⟨SE1, d⟩] hcat (ix2 e ⟨20 + k.val, by omega⟩) = b (ix2 e k) :=
  concatenate_apply_piece (t := SE32) (α := EReal) 1 [⟨SE20, a⟩, ⟨SE8, b⟩, ⟨SE3, r⟩, ⟨SE1, d⟩] hcat _ 1 (by show _ < 4; omega) SE8 b rfl rfl 20 rfl (ix2 e k)
    (fun q hq => match q, hq with | ⟨0, _⟩, _ => rfl | ⟨1, _⟩, hq => absurd rfl hq)
    rfl

/-- The next three are the coordinate difference. -/
theorem row_rel (k : Fin 3) :
    concatenate SE32 1 [⟨SE20, a⟩, ⟨SE8, b⟩, ⟨SE3, r⟩, ⟨SE1, d⟩] hcat (ix2 e ⟨28 + k.val, by omega⟩) = r (ix2 e k) :=
  concatenate_apply_piece (t := SE32) (α := EReal) 1 [⟨SE20, a⟩, ⟨SE8, b⟩, ⟨SE3, r⟩, ⟨SE1, d⟩] hcat _ 2 (by show _ < 4; omega) SE3 r rfl rfl 28 rfl (ix2 e k)
    (fun q hq => match q, hq with | ⟨0, _⟩, _ => rfl | ⟨1, _⟩, hq => absurd rfl hq)
    rfl

/-- The last is the distance. -/
theorem row_dist :
    concatenate SE32 1 [⟨SE20, a⟩, ⟨SE8, b⟩, ⟨SE3, r⟩, ⟨SE1, d⟩] hcat (ix2 e ⟨31, by omega⟩) = d (ix2 e 0) :=
  concatenate_apply_piece (t := SE32) (α := EReal) 1 [⟨SE20, a⟩, ⟨SE8, b⟩, ⟨SE3, r⟩, ⟨SE1, d⟩] hcat _ 3 (by show _ < 4; omega) SE1 d rfl rfl 31 rfl (ix2 e 0)
    (fun q hq => match q, hq with | ⟨0, _⟩, _ => rfl | ⟨1, _⟩, hq => absurd rfl hq)
    rfl

end Row

end Cert.KernelIdeal.Hand.Feat

end
-- ==== Proof.LibTypedRead.lean ====
/-
  Host operations on typed references, read back at the value's type.

  A module-local function's operations are stated over typed references (`TRef sig T`: a buffer with a proof that its type
  is `T`), and read and write the buffer through the transport along that proof. Reading a buffer back through the same
  transport (`rd x W`: the contents `W` holds at `x`'s buffer, at the type `T`) undoes it: after a typed operation the
  result reference reads as the operation's function of its operands' typed reads, with no transport left, and every
  other reference reads as before. These are the operations' `result` facts restated for typed reads, for any function
  `f` — so that evaluating a list of typed operations never has to compare a transported term with an untransported one.
-/
import Idealize.ShloMosaic.Lib.StableHlo.Run

noncomputable section

namespace Idealize.ShloMosaic.StableHlo.TRef

open Idealize.ShloMosaic Idealize.ShloMosaic.StableHlo

variable {τ : Topo} {sig : RefSig} {Val : EltTy → Type}
variable {T Tx Ta Tb Tc Ty : BufTy}

/-- The contents `W` holds at a typed reference's buffer, at the value's type. -/
def rd (x : TRef sig T) (W : Valuation τ sig Val) : T.Contents Val := x.ofBuf (W (Proc.devRef .tc x.ref))

/-- Writing at the value's type and reading back is the identity. -/
theorem ofBuf_toBuf (x : TRef sig T) (z : T.Contents Val) : x.ofBuf (Val := Val) (x.toBuf z) = z := by
  obtain ⟨r, h, h2, h3⟩ := x
  subst h
  rfl

/-- A constant: its reference reads as the constant … -/
theorem rd_nullary (y : TRef sig Ty) (v : Ty.Contents Val) (W : Valuation τ sig Val) :
    rd y ((no_index (TRef.nullary (τ := τ) y v)).result W) = v :=
  (congrArg y.ofBuf (nullary_result y.ref (y.toBuf v) y.dev W)).trans (ofBuf_toBuf y v)
/-- … and every other reference as before. -/
theorem rd_nullary_ne (y : TRef sig Ty) (v : Ty.Contents Val) (z : TRef sig T) (W : Valuation τ sig Val) (h : z.ref ≠ y.ref) :
    rd z ((no_index (TRef.nullary (τ := τ) y v)).result W) = rd z W :=
  congrArg z.ofBuf (nullary_result_ne y.ref (y.toBuf v) y.dev W h)

/-- A one-operand operation: its result reads as the function of the operand's read. -/
theorem rd_unary (x : TRef sig Tx) (y : TRef sig Ty) (f : Tx.Contents Val → Ty.Contents Val) (W : Valuation τ sig Val) :
    rd y ((no_index (TRef.unary (τ := τ) x y f)).result W) = f (rd x W) :=
  (congrArg y.ofBuf (unary_result x.ref y.ref (fun u => y.toBuf (f (x.ofBuf u))) x.dev y.dev W)).trans (ofBuf_toBuf y _)
theorem rd_unary_ne (x : TRef sig Tx) (y : TRef sig Ty) (f : Tx.Contents Val → Ty.Contents Val) (z : TRef sig T)
    (W : Valuation τ sig Val) (h : z.ref ≠ y.ref) :
    rd z ((no_index (TRef.unary (τ := τ) x y f)).result W) = rd z W :=
  congrArg z.ofBuf (unary_result_ne x.ref y.ref (fun u => y.toBuf (f (x.ofBuf u))) x.dev y.dev W h)

/-- A two-operand operation. -/
theorem rd_binary (a : TRef sig Ta) (b : TRef sig Tb) (y : TRef sig Ty) (f : Ta.Contents Val → Tb.Contents Val → Ty.Contents Val)
    (W : Valuation τ sig Val) :
    rd y ((no_index (TRef.binary (τ := τ) a b y f)).result W) = f (rd a W) (rd b W) :=
  (congrArg y.ofBuf (binary_result a.ref b.ref y.ref (fun u v => y.toBuf (f (a.ofBuf u) (b.ofBuf v))) a.dev b.dev y.dev W)).trans
    (ofBuf_toBuf y _)
theorem rd_binary_ne (a : TRef sig Ta) (b : TRef sig Tb) (y : TRef sig Ty) (f : Ta.Contents Val → Tb.Contents Val → Ty.Contents Val)
    (z : TRef sig T) (W : Valuation τ sig Val) (h : z.ref ≠ y.ref) :
    rd z ((no_index (TRef.binary (τ := τ) a b y f)).result W) = rd z W :=
  congrArg z.ofBuf (binary_result_ne a.ref b.ref y.ref (fun u v => y.toBuf (f (a.ofBuf u) (b.ofBuf v))) a.dev b.dev y.dev W h)

/-- A three-operand operation. -/
theorem rd_ternary (c : TRef sig Tc) (a : TRef sig Ta) (b : TRef sig Tb) (y : TRef sig Ty)
    (f : Tc.Contents Val → Ta.Contents Val → Tb.Contents Val → Ty.Contents Val) (W : Valuation τ sig Val) :
    rd y ((no_index (TRef.ternary (τ := τ) c a b y f)).result W) = f (rd c W) (rd a W) (rd b W) :=
  (congrArg y.ofBuf (ternary_result c.ref a.ref b.ref y.ref (fun w u v => y.toBuf (f (c.ofBuf w) (a.ofBuf u) (b.ofBuf v)))
    c.dev a.dev b.dev y.dev W)).trans (ofBuf_toBuf y _)
theorem rd_ternary_ne (c : TRef sig Tc) (a : TRef sig Ta) (b : TRef sig Tb) (y : TRef sig Ty)
    (f : Tc.Contents Val → Ta.Contents Val → Tb.Contents Val → Ty.Contents Val) (z : TRef sig T) (W : Valuation τ sig Val)
    (h : z.ref ≠ y.ref) :
    rd z ((no_index (TRef.ternary (τ := τ) c a b y f)).result W) = rd z W :=
  congrArg z.ofBuf (ternary_result_ne a.ref b.ref c.ref y.ref (fun w u v => y.toBuf (f (c.ofBuf w) (a.ofBuf u) (b.ofBuf v)))
    c.dev a.dev b.dev y.dev W h)

end Idealize.ShloMosaic.StableHlo.TRef

end
-- ==== Proof.KI.HostPreStages.lean ====
/- The host operations before the edge region, stretch by stretch, as terms of whatever contents a stretch finds: the two
   index rows and the offset table; each of the four row lookups; the feature row of 32 and the weight slices. The
   lookups' operations name typed references and are read back at the value's type. -/
import proofs.«418897_j48576080117843_2_alg».proof.Proof.Gen.KernelIdeal.Launch
import proofs.«418897_j48576080117843_2_alg».proof.Proof.KI.HostPreTake
import proofs.«418897_j48576080117843_2_alg».proof.Proof.KI.HostPreFeat
import proofs.«418897_j48576080117843_2_alg».proof.Proof.LibTypedRead

set_option maxRecDepth 16384

noncomputable section

namespace Cert.KernelIdeal.Hand.Pre

open Idealize.ShloMosaic Idealize.ShloMosaic.TcCoe Idealize.ShloMosaic.ValueIdx
open Idealize.SL Idealize.SL.Sem
open Cert.KernelIdeal Cert.KernelIdeal.Gen Cert.Spec Cert.Layer

/-! ## The operations' terms, for any contents found at a stretch's start -/

/-- The wrapped index words as one column. -/
def wrapCol (w : IVec S640000 32) : IVec S640000x1 32 :=
  broadcastInDim S640000x1 ![0] Gen.bcast_S640000_S640000x1_0
    (select (cmpi .slt w (broadcastInDim S640000 ![] Gen.bcast_S_S640000 (constantI S_ 32 0#32)))
      (addi w (broadcastInDim S640000 ![] Gen.bcast_S_S640000 (constantI S_ 32 40000#32))) w)

/-- Whether each wrapped word names a row: at least 0 and at most 39999. -/
def inRows (col : IVec S640000x1 32) : IVec S640000 1 :=
  Host.reduce IntOp.andi
    (andi (cmpi .sge col (broadcastInDim S640000x1 ![] Gen.bcast_S_S640000x1 (constantI S_ 32 0#32)))
      (cmpi .sle col (broadcastInDim S640000x1 ![0, 1] Gen.bcast_S1x1_S640000x1_0_1
        (broadcastInDim S1x1 ![1] Gen.bcast_S1_S1x1_1 (constantI S1 32 39999#32)))))
    (constantI S_ 1 1#1) Gen.reducesTo_S640000x1_S640000_d1 Gen.h_S_

/-- A lookup of feature rows. -/
def lookup128 (x : FVec Ideal S40000x128 .f32) (w : IVec S640000 32) : FVec Ideal S640000x128 .f32 :=
  select (broadcastInDim S640000x128 ![0] Gen.bcast_S640000_S640000x128_0 (inRows (wrapCol w)))
    (Host.gather gather_S40000x128_S640000x1_S640000x128_1_0_n_n_0_1_1128 x (wrapCol w))
    (broadcastInDim S640000x128 ![] Gen.bcast_S_S640000x128 (constant (F := Ideal) S_ .f32 0x7FC00000#32))

/-- A lookup of coordinate rows. -/
def lookup3 (x : FVec Ideal S40000x3 .f32) (w : IVec S640000 32) : FVec Ideal S640000x3 .f32 :=
  select (broadcastInDim S640000x3 ![0] Gen.bcast_S640000_S640000x3_0 (inRows (wrapCol w)))
    (Host.gather gather_S40000x3_S640000x1_S640000x3_1_0_n_n_0_1_13 x (wrapCol w))
    (broadcastInDim S640000x3 ![] Gen.bcast_S_S640000x3 (constant (F := Ideal) S_ .f32 0x7FC00000#32))

variable (V : Valuation τ sig (Elt Ideal))

/-- The first stretch leaves the sender words, the receiver words and the offset table. -/
theorem src_eq : (StableHlo.after hostOps0 V main_v1 : S640000.Idx → BitVec 32)
    = shapeCast S640000 (extractStridedSlice S1x640000 ![0, 0] (V main_arg2 : S2x640000.Idx → BitVec 32)
        Gen.slices_S2x640000_S1x640000_0_0) Gen.shapeCasts_S1x640000_S640000 := by
  dsimp only [hostOps0]; after_results_simp; rfl
theorem dst_eq : (StableHlo.after hostOps0 V main_v3 : S640000.Idx → BitVec 32)
    = shapeCast S640000 (extractStridedSlice S1x640000 ![1, 0] (V main_arg2 : S2x640000.Idx → BitVec 32)
        Gen.slices_S2x640000_S1x640000_1_0) Gen.shapeCasts_S1x640000_S640000 := by
  dsimp only [hostOps0]; after_results_simp; rfl
theorem off_eq : (StableHlo.after hostOps0 V main_cst : S20.Idx → EReal)
    = fun i => Ideal.ofBits .f32 (lit0 (S20.rowMajor i)) := by
  dsimp only [hostOps0]; after_results_simp; rfl

/-! ### The four lookups: their operations name typed references, read back at the value's type -/

open Idealize.ShloMosaic.StableHlo.TRef (rd rd_nullary rd_unary rd_binary rd_ternary rd_nullary_ne rd_unary_ne rd_binary_ne rd_ternary_ne)

abbrev tArg0 : StableHlo.TRef sig ⟨S40000x128, .f32⟩ := .of main_arg0
abbrev tArg1 : StableHlo.TRef sig ⟨S40000x3, .f32⟩ := .of main_arg1
abbrev tV1 : StableHlo.TRef sig ⟨S640000, .i32⟩ := .of main_v1
abbrev tV3 : StableHlo.TRef sig ⟨S640000, .i32⟩ := .of main_v3
abbrev tV4 : StableHlo.TRef sig ⟨S640000x128, .f32⟩ := .of main_v4
abbrev tV5 : StableHlo.TRef sig ⟨S640000x128, .f32⟩ := .of main_v5
abbrev tV6 : StableHlo.TRef sig ⟨S640000x3, .f32⟩ := .of main_v6
abbrev tV7 : StableHlo.TRef sig ⟨S640000x3, .f32⟩ := .of main_v7

theorem rd_tArg0 (W : Valuation τ sig (Elt Ideal)) : rd tArg0 W = W main_arg0 := rfl
theorem rd_tArg1 (W : Valuation τ sig (Elt Ideal)) : rd tArg1 W = W main_arg1 := rfl
theorem rd_tV1 (W : Valuation τ sig (Elt Ideal)) : rd tV1 W = W main_v1 := rfl
theorem rd_tV3 (W : Valuation τ sig (Elt Ideal)) : rd tV3 W = W main_v3 := rfl
theorem rd_tV4 (W : Valuation τ sig (Elt Ideal)) : rd tV4 W = W main_v4 := rfl
theorem rd_tV5 (W : Valuation τ sig (Elt Ideal)) : rd tV5 W = W main_v5 := rfl
theorem rd_tV6 (W : Valuation τ sig (Elt Ideal)) : rd tV6 W = W main_v6 := rfl
theorem rd_tV7 (W : Valuation τ sig (Elt Ideal)) : rd tV7 W = W main_v7 := rfl

theorem hi_rd : rd tV4 (StableHlo.after hostOps0_1 V) = lookup128 (rd tArg0 V) (rd tV3 V) := by
  dsimp only [hostOps0_1]
  simp (disch := decide) only [StableHlo.after_cons, StableHlo.after_nil, rd_nullary, rd_unary, rd_binary, rd_ternary,
    rd_nullary_ne, rd_unary_ne, rd_binary_ne, rd_ternary_ne]
  rfl
theorem hi_eq : (StableHlo.after hostOps0_1 V main_v4 : S640000x128.Idx → EReal)
    = lookup128 (V main_arg0) (V main_v3) := by
  have h := hi_rd V
  rwa [rd_tV4, rd_tArg0, rd_tV3] at h

theorem hj_rd : rd tV5 (StableHlo.after hostOps0_2 V) = lookup128 (rd tArg0 V) (rd tV1 V) := by
  dsimp only [hostOps0_2]
  simp (disch := decide) only [StableHlo.after_cons, StableHlo.after_nil, rd_nullary, rd_unary, rd_binary, rd_ternary,
    rd_nullary_ne, rd_unary_ne, rd_binary_ne, rd_ternary_ne]
  rfl
theorem hj_eq : (StableHlo.after hostOps0_2 V main_v5 : S640000x128.Idx → EReal)
    = lookup128 (V main_arg0) (V main_v1) := by
  have h := hj_rd V
  rwa [rd_tV5, rd_tArg0, rd_tV1] at h

theorem xi_rd : rd tV6 (StableHlo.after hostOps0_3 V) = lookup3 (rd tArg1 V) (rd tV3 V) := by
  dsimp only [hostOps0_3]
  simp (disch := decide) only [StableHlo.after_cons, StableHlo.after_nil, rd_nullary, rd_unary, rd_binary, rd_ternary,
    rd_nullary_ne, rd_unary_ne, rd_binary_ne, rd_ternary_ne]
  rfl
theorem xi_eq : (StableHlo.after hostOps0_3 V main_v6 : S640000x3.Idx → EReal)
    = lookup3 (V main_arg1) (V main_v3) := by
  have h := xi_rd V
  rwa [rd_tV6, rd_tArg1, rd_tV3] at h

theorem xj_rd : rd tV7 (StableHlo.after hostOps0_4 V) = lookup3 (rd tArg1 V) (rd tV1 V) := by
  dsimp only [hostOps0_4]
  simp (disch := decide) only [StableHlo.after_cons, StableHlo.after_nil, rd_nullary, rd_unary, rd_binary, rd_ternary,
    rd_nullary_ne, rd_unary_ne, rd_binary_ne, rd_ternary_ne]
  rfl
theorem xj_eq : (StableHlo.after hostOps0_4 V main_v7 : S640000x3.Idx → EReal)
    = lookup3 (V main_arg1) (V main_v1) := by
  have h := xj_rd V
  rwa [rd_tV7, rd_tArg1, rd_tV1] at h

/-! ### A lookup at one entry -/

theorem lookup128_apply (x : FVec Ideal S40000x128 .f32) (w : IVec S640000 32) (e : Fin 640000) (k : Fin 128)
    (hr : InRange (wrapW (w (ix1 e)))) : lookup128 x w (ix2 e k) = x (ix2 (rowOf (w (ix1 e))) k) := by
  unfold lookup128 inRows wrapCol
  exact Take.take_apply Gen.bcast_S_S640000 Gen.bcast_S640000_S640000x1_0 Gen.bcast_S_S640000x1 Gen.bcast_S1_S1x1_1
    Gen.bcast_S1x1_S640000x1_0_1 Gen.reducesTo_S640000x1_S640000_d1 Gen.h_S_ Gen.bcast_S640000_S640000x128_0
    Gen.bcast_S_S640000x128 gather_S40000x128_S640000x1_S640000x128_1_0_n_n_0_1_1128 rfl rfl rfl rfl rfl rfl rfl
    x w _ e k hr

theorem lookup3_apply (x : FVec Ideal S40000x3 .f32) (w : IVec S640000 32) (e : Fin 640000) (k : Fin 3)
    (hr : InRange (wrapW (w (ix1 e)))) : lookup3 x w (ix2 e k) = x (ix2 (rowOf (w (ix1 e))) k) := by
  unfold lookup3 inRows wrapCol
  exact Take.take_apply Gen.bcast_S_S640000 Gen.bcast_S640000_S640000x1_0 Gen.bcast_S_S640000x1 Gen.bcast_S1_S1x1_1
    Gen.bcast_S1x1_S640000x1_0_1 Gen.reducesTo_S640000x1_S640000_d1 Gen.h_S_ Gen.bcast_S640000_S640000x3_0
    Gen.bcast_S_S640000x3 gather_S40000x3_S640000x1_S640000x3_1_0_n_n_0_1_13 rfl rfl rfl rfl rfl rfl rfl
    x w _ e k hr

end Cert.KernelIdeal.Hand.Pre

end
-- ==== Proof.KI.HostPreRow.lean ====
/- The last stretch before the edge region, as terms of whatever contents it finds: the feature row of 32 (radial features,
   edge attributes, coordinate difference, distance) and the first layer's weight matrix in three row slices; the other
   weight matrices pass unchanged (a change of float format is the identity on the extended reals). The stretch is read
   in three parts, each from the contents the part before it leaves. -/
import proofs.«418897_j48576080117843_2_alg».proof.Proof.Gen.KernelIdeal.Launch
import proofs.«418897_j48576080117843_2_alg».proof.Proof.KI.HostPreFeat

set_option maxRecDepth 16384

noncomputable section

namespace Cert.KernelIdeal.Hand.Pre

open Idealize.ShloMosaic Idealize.ShloMosaic.TcCoe Idealize.ShloMosaic.ValueIdx
open Idealize.SL Idealize.SL.Sem
open Cert.KernelIdeal Cert.KernelIdeal.Gen Cert.Spec Cert.Layer

/-- Operations run one list after another are their concatenation run as one. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

section Parts

variable {F : FTy → Type} [FloatOps F]

/-- The difference, its squared length and the distance. -/
abbrev opsDist : List (HloOp τ sig (Elt F)) :=
  [ StableHlo.binary main_v6 main_v7 main_v8 (subf : (⟨S640000x3, .f32⟩ : BufTy).Contents (Elt F) → (⟨S640000x3, .f32⟩ : BufTy).Contents (Elt F) → (⟨S640000x3, .f32⟩ : BufTy).Contents (Elt F)),
    StableHlo.binary main_v8 main_v8 main_v9 (mulf : (⟨S640000x3, .f32⟩ : BufTy).Contents (Elt F) → (⟨S640000x3, .f32⟩ : BufTy).Contents (Elt F) → (⟨S640000x3, .f32⟩ : BufTy).Contents (Elt F)),
    StableHlo.nullary main_cst_0 (constant S_ .f32 0x00000000#32),
    StableHlo.binary main_v9 main_cst_0 main_v10 ((fun x v => Host.reduceAdd x v reducesTo_S640000x3_S640000_d1 h_S_) : (⟨S640000x3, .f32⟩ : BufTy).Contents (Elt F) → (⟨S_, .f32⟩ : BufTy).Contents (Elt F) → (⟨S640000, .f32⟩ : BufTy).Contents (Elt F)),
    StableHlo.unary main_v10 main_v11 (broadcastInDim S640000x1 ![0] bcast_S640000_S640000x1_0 : (⟨S640000, .f32⟩ : BufTy).Contents (Elt F) → (⟨S640000x1, .f32⟩ : BufTy).Contents (Elt F)),
    StableHlo.nullary main_cst_1 (constant S_ .f32 0x322BCC77#32),
    StableHlo.unary main_cst_1 main_v12 (broadcastInDim S640000x1 ![] bcast_S_S640000x1 : (⟨S_, .f32⟩ : BufTy).Contents (Elt F) → (⟨S640000x1, .f32⟩ : BufTy).Contents (Elt F)),
    StableHlo.binary main_v11 main_v12 main_v13 (addf : (⟨S640000x1, .f32⟩ : BufTy).Contents (Elt F) → (⟨S640000x1, .f32⟩ : BufTy).Contents (Elt F) → (⟨S640000x1, .f32⟩ : BufTy).Contents (Elt F)),
    StableHlo.unary main_v13 main_v14 (Host.sqrt : (⟨S640000x1, .f32⟩ : BufTy).Contents (Elt F) → (⟨S640000x1, .f32⟩ : BufTy).Contents (Elt F)) ]

/-- The radial features of the distance. -/
abbrev opsRadial : List (HloOp τ sig (Elt F)) :=
  [ StableHlo.unary main_cst main_v15 (broadcastInDim S1x20 ![1] bcast_S20_S1x20_1 : (⟨S20, .f32⟩ : BufTy).Contents (Elt F) → (⟨S1x20, .f32⟩ : BufTy).Contents (Elt F)),
    StableHlo.unary main_v14 main_v16 (broadcastInDim S640000x20 ![0, 1] bcast_S640000x1_S640000x20_0_1 : (⟨S640000x1, .f32⟩ : BufTy).Contents (Elt F) → (⟨S640000x20, .f32⟩ : BufTy).Contents (Elt F)),
    StableHlo.unary main_v15 main_v17 (broadcastInDim S640000x20 ![0, 1] bcast_S1x20_S640000x20_0_1 : (⟨S1x20, .f32⟩ : BufTy).Contents (Elt F) → (⟨S640000x20, .f32⟩ : BufTy).Contents (Elt F)),
    StableHlo.binary main_v16 main_v17 main_v18 (subf : (⟨S640000x20, .f32⟩ : BufTy).Contents (Elt F) → (⟨S640000x20, .f32⟩ : BufTy).Contents (Elt F) → (⟨S640000x20, .f32⟩ : BufTy).Contents (Elt F)),
    StableHlo.binary main_v18 main_v18 main_v19 (mulf : (⟨S640000x20, .f32⟩ : BufTy).Contents (Elt F) → (⟨S640000x20, .f32⟩ : BufTy).Contents (Elt F) → (⟨S640000x20, .f32⟩ : BufTy).Contents (Elt F)),
    StableHlo.nullary main_cst_2 (constant S_ .f32 0xBF000000#32),
    StableHlo.unary main_cst_2 main_v20 (broadcastInDim S640000x20 ![] bcast_S_S640000x20 : (⟨S_, .f32⟩ : BufTy).Contents (Elt F) → (⟨S640000x20, .f32⟩ : BufTy).Contents (Elt F)),
    StableHlo.binary main_v20 main_v19 main_v21 (mulf : (⟨S640000x20, .f32⟩ : BufTy).Contents (Elt F) → (⟨S640000x20, .f32⟩ : BufTy).Contents (Elt F) → (⟨S640000x20, .f32⟩ : BufTy).Contents (Elt F)),
    StableHlo.unary main_v21 main_v22 (Host.exp : (⟨S640000x20, .f32⟩ : BufTy).Contents (Elt F) → (⟨S640000x20, .f32⟩ : BufTy).Contents (Elt F)) ]

/-- The feature row, the weight slices and the weights' change of format. -/
abbrev opsRow : List (HloOp τ sig (Elt F)) :=
  [ StableHlo.nary ![main_v22, main_arg4, main_v8, main_v14] main_v23 (fun u => concatenate S640000x32 1 [⟨S640000x20, u 0⟩, ⟨S640000x8, u 1⟩, ⟨S640000x3, u 2⟩, ⟨S640000x1, u 3⟩] concatenates_S640000x20_S640000x8_S640000x3_S640000x1_S640000x32_d1),
    StableHlo.unary main_arg5 main_v24 ((extractStridedSlice S128x128 ![0, 0] · slices_S284x128_S128x128_0_0) : (⟨S284x128, .f32⟩ : BufTy).Contents (Elt F) → (⟨S128x128, .f32⟩ : BufTy).Contents (Elt F)),
    StableHlo.unary main_v24 main_v25 ((truncf .bf16 · bitsLt_bf16_f32) : (⟨S128x128, .f32⟩ : BufTy).Contents (Elt F) → (⟨S128x128, .bf16⟩ : BufTy).Contents (Elt F)),
    StableHlo.unary main_arg5 main_v26 ((extractStridedSlice S128x128 ![128, 0] · slices_S284x128_S128x128_128_0) : (⟨S284x128, .f32⟩ : BufTy).Contents (Elt F) → (⟨S128x128, .f32⟩ : BufTy).Contents (Elt F)),
    StableHlo.unary main_v26 main_v27 ((truncf .bf16 · bitsLt_bf16_f32) : (⟨S128x128, .f32⟩ : BufTy).Contents (Elt F) → (⟨S128x128, .bf16⟩ : BufTy).Contents (Elt F)),
    StableHlo.unary main_arg5 main_v28 ((extractStridedSlice S28x128 ![256, 0] · slices_S284x128_S28x128_256_0) : (⟨S284x128, .f32⟩ : BufTy).Contents (Elt F) → (⟨S28x128, .f32⟩ : BufTy).Contents (Elt F)),
    StableHlo.unary main_v28 main_v29 ((truncf .bf16 · bitsLt_bf16_f32) : (⟨S28x128, .f32⟩ : BufTy).Contents (Elt F) → (⟨S28x128, .bf16⟩ : BufTy).Contents (Elt F)),
    StableHlo.unary main_arg7 main_v30 ((truncf .bf16 · bitsLt_bf16_f32) : (⟨S128x128, .f32⟩ : BufTy).Contents (Elt F) → (⟨S128x128, .bf16⟩ : BufTy).Contents (Elt F)),
    StableHlo.unary main_arg9 main_v31 ((truncf .bf16 · bitsLt_bf16_f32) : (⟨S128x1, .f32⟩ : BufTy).Contents (Elt F) → (⟨S128x1, .bf16⟩ : BufTy).Contents (Elt F)),
    StableHlo.unary main_arg11 main_v32 ((truncf .bf16 · bitsLt_bf16_f32) : (⟨S128x128, .f32⟩ : BufTy).Contents (Elt F) → (⟨S128x128, .bf16⟩ : BufTy).Contents (Elt F)),
    StableHlo.unary main_arg13 main_v33 ((truncf .bf16 · bitsLt_bf16_f32) : (⟨S128x1, .f32⟩ : BufTy).Contents (Elt F) → (⟨S128x1, .bf16⟩ : BufTy).Contents (Elt F)) ]

/-- The stretch is the three parts in order. -/
theorem hostOps0_5_parts : (hostOps0_5 : List (HloOp τ sig (Elt F))) = opsDist ++ (opsRadial ++ opsRow) := rfl

end Parts

variable (V : Valuation τ sig (Elt Ideal))

/-- The radial features of the distance between the looked-up coordinate rows. -/
abbrev radialOf (cst : FVec Ideal S20 .f32) (v6 v7 : FVec Ideal S640000x3 .f32) : FVec Ideal S640000x20 .f32 :=
  Feat.radial Gen.reducesTo_S640000x3_S640000_d1 Gen.h_S_ Gen.bcast_S640000_S640000x1_0 Gen.bcast_S_S640000x1
    Gen.bcast_S20_S1x20_1 Gen.bcast_S640000x1_S640000x20_0_1 Gen.bcast_S1x20_S640000x20_0_1 Gen.bcast_S_S640000x20 cst v6 v7

/-- The coordinate difference. -/
abbrev relOf (v6 v7 : FVec Ideal S640000x3 .f32) : FVec Ideal S640000x3 .f32 := subf v6 v7

/-- The distance column. -/
abbrev distOf (v6 v7 : FVec Ideal S640000x3 .f32) : FVec Ideal S640000x1 .f32 :=
  Feat.distCol Gen.reducesTo_S640000x3_S640000_d1 Gen.h_S_ Gen.bcast_S640000_S640000x1_0 Gen.bcast_S_S640000x1 v6 v7

/-- The radial features from a distance column. -/
def radialFrom (cst : FVec Ideal S20 .f32) (dcol : FVec Ideal S640000x1 .f32) : FVec Ideal S640000x20 .f32 :=
  Host.exp (mulf (broadcastInDim S640000x20 ![] Gen.bcast_S_S640000x20 (constant (F := Ideal) S_ .f32 0xBF000000#32))
    (mulf
      (subf (broadcastInDim S640000x20 ![0, 1] Gen.bcast_S640000x1_S640000x20_0_1 dcol)
        (broadcastInDim S640000x20 ![0, 1] Gen.bcast_S1x20_S640000x20_0_1 (broadcastInDim S1x20 ![1] Gen.bcast_S20_S1x20_1 cst)))
      (subf (broadcastInDim S640000x20 ![0, 1] Gen.bcast_S640000x1_S640000x20_0_1 dcol)
        (broadcastInDim S640000x20 ![0, 1] Gen.bcast_S1x20_S640000x20_0_1 (broadcastInDim S1x20 ![1] Gen.bcast_S20_S1x20_1 cst)))))

theorem radialFrom_dist (cst : FVec Ideal S20 .f32) (v6 v7 : FVec Ideal S640000x3 .f32) :
    radialFrom cst (distOf v6 v7) = radialOf cst v6 v7 := rfl

/-! ### The first part: difference and distance -/

theorem dist_v8 : (StableHlo.after opsDist V main_v8 : S640000x3.Idx → EReal)
    = relOf (V main_v6) (V main_v7) := by
  dsimp only [opsDist]; after_results_simp
theorem dist_v14 : (StableHlo.after opsDist V main_v14 : S640000x1.Idx → EReal) = distOf (V main_v6) (V main_v7) := by
  dsimp only [opsDist]; after_results_simp; rfl
theorem dist_cst : StableHlo.after opsDist V main_cst = V main_cst := by
  dsimp only [opsDist]; after_results_simp
theorem dist_arg4 : StableHlo.after opsDist V main_arg4 = V main_arg4 := by
  dsimp only [opsDist]; after_results_simp

/-! ### The second part: radial features -/

theorem radial_v22 : (StableHlo.after opsRadial V main_v22 : S640000x20.Idx → EReal)
    = radialFrom (V main_cst) (V main_v14) := by
  dsimp only [opsRadial]; after_results_simp; rfl
theorem radial_v8 : StableHlo.after opsRadial V main_v8 = V main_v8 := by
  dsimp only [opsRadial]; after_results_simp
theorem radial_v14 : StableHlo.after opsRadial V main_v14 = V main_v14 := by
  dsimp only [opsRadial]; after_results_simp
theorem radial_arg4 : StableHlo.after opsRadial V main_arg4 = V main_arg4 := by
  dsimp only [opsRadial]; after_results_simp

/-! ### The third part: the row and the weights -/

theorem row_v23 : (StableHlo.after opsRow V main_v23 : S640000x32.Idx → EReal)
    = concatenate S640000x32 1
        [⟨S640000x20, (V main_v22 : S640000x20.Idx → EReal)⟩, ⟨S640000x8, (V main_arg4 : S640000x8.Idx → EReal)⟩,
          ⟨S640000x3, (V main_v8 : S640000x3.Idx → EReal)⟩, ⟨S640000x1, (V main_v14 : S640000x1.Idx → EReal)⟩]
        Gen.concatenates_S640000x20_S640000x8_S640000x3_S640000x1_S640000x32_d1 := by
  dsimp only [opsRow]; after_results; rfl

theorem we1a_eq : (StableHlo.after opsRow V main_v25 : S128x128.Idx → EReal)
    = extractStridedSlice S128x128 ![0, 0] (V main_arg5 : S284x128.Idx → EReal) Gen.slices_S284x128_S128x128_0_0 := by
  dsimp only [opsRow]; after_results_simp; rfl
theorem we1b_eq : (StableHlo.after opsRow V main_v27 : S128x128.Idx → EReal)
    = extractStridedSlice S128x128 ![128, 0] (V main_arg5 : S284x128.Idx → EReal) Gen.slices_S284x128_S128x128_128_0 := by
  dsimp only [opsRow]; after_results_simp; rfl
theorem we1c_eq : (StableHlo.after opsRow V main_v29 : S28x128.Idx → EReal)
    = extractStridedSlice S28x128 ![256, 0] (V main_arg5 : S284x128.Idx → EReal) Gen.slices_S284x128_S28x128_256_0 := by
  dsimp only [opsRow]; after_results_simp; rfl
theorem we2_eq : (StableHlo.after opsRow V main_v30 : S128x128.Idx → EReal) = V main_arg7 := by
  dsimp only [opsRow]; after_results_simp; rfl
theorem winf_eq : (StableHlo.after opsRow V main_v31 : S128x1.Idx → EReal) = V main_arg9 := by
  dsimp only [opsRow]; after_results_simp; rfl
theorem wx1_eq : (StableHlo.after opsRow V main_v32 : S128x128.Idx → EReal) = V main_arg11 := by
  dsimp only [opsRow]; after_results_simp; rfl
theorem wx2_eq : (StableHlo.after opsRow V main_v33 : S128x1.Idx → EReal) = V main_arg13 := by
  dsimp only [opsRow]; after_results_simp; rfl

/-- The first two parts write none of the weights. -/
theorem pre_arg (r : Ref sig .tc)
    (h : r ∉ ([main_v8, main_v9, main_cst_0, main_v10, main_v11, main_cst_1, main_v12, main_v13, main_v14, main_v15,
      main_v16, main_v17, main_v18, main_v19, main_cst_2, main_v20, main_v21, main_v22] : List (Ref sig .tc))) :
    StableHlo.after opsRadial (StableHlo.after opsDist V) r = V r := by
  rw [← after_append]
  refine StableHlo.after_of_forall_not_mem _ V fun op hop hb => ?_
  simp only [opsDist, opsRadial, List.cons_append, List.nil_append, List.mem_cons, List.not_mem_nil, or_false] at hop
  rcases hop with rfl | rfl | rfl | rfl | rfl | rfl | rfl | rfl | rfl | rfl | rfl | rfl | rfl | rfl | rfl | rfl | rfl | rfl <;>
    · simp only [StableHlo.nullary_writes, StableHlo.unary_writes, StableHlo.binary_writes, Finset.mem_singleton] at hb
      exact h (by rw [Proc.devRef_injective _ hb]; decide)

/-! ### The whole stretch -/

theorem feat_eq : (StableHlo.after hostOps0_5 V main_v23 : S640000x32.Idx → EReal)
    = concatenate S640000x32 1
        [⟨S640000x20, radialOf (V main_cst) (V main_v6) (V main_v7)⟩, ⟨S640000x8, (V main_arg4 : S640000x8.Idx → EReal)⟩,
          ⟨S640000x3, relOf (V main_v6) (V main_v7)⟩, ⟨S640000x1, distOf (V main_v6) (V main_v7)⟩]
        Gen.concatenates_S640000x20_S640000x8_S640000x3_S640000x1_S640000x32_d1 := by
  rw [hostOps0_5_parts, after_append, after_append, row_v23, radial_v22, radial_arg4, radial_v8, radial_v14, dist_v8,
    dist_v14, dist_cst, dist_arg4, radialFrom_dist]

theorem we1a_all : (StableHlo.after hostOps0_5 V main_v25 : S128x128.Idx → EReal)
    = extractStridedSlice S128x128 ![0, 0] (V main_arg5 : S284x128.Idx → EReal) Gen.slices_S284x128_S128x128_0_0 := by
  rw [hostOps0_5_parts, after_append, after_append, we1a_eq, pre_arg V main_arg5 (by decide)]
theorem we1b_all : (StableHlo.after hostOps0_5 V main_v27 : S128x128.Idx → EReal)
    = extractStridedSlice S128x128 ![128, 0] (V main_arg5 : S284x128.Idx → EReal) Gen.slices_S284x128_S128x128_128_0 := by
  rw [hostOps0_5_parts, after_append, after_append, we1b_eq, pre_arg V main_arg5 (by decide)]
theorem we1c_all : (StableHlo.after hostOps0_5 V main_v29 : S28x128.Idx → EReal)
    = extractStridedSlice S28x128 ![256, 0] (V main_arg5 : S284x128.Idx → EReal) Gen.slices_S284x128_S28x128_256_0 := by
  rw [hostOps0_5_parts, after_append, after_append, we1c_eq, pre_arg V main_arg5 (by decide)]
theorem we2_all : (StableHlo.after hostOps0_5 V main_v30 : S128x128.Idx → EReal) = V main_arg7 := by
  rw [hostOps0_5_parts, after_append, after_append, we2_eq, pre_arg V main_arg7 (by decide)]
theorem winf_all : (StableHlo.after hostOps0_5 V main_v31 : S128x1.Idx → EReal) = V main_arg9 := by
  rw [hostOps0_5_parts, after_append, after_append, winf_eq, pre_arg V main_arg9 (by decide)]
theorem wx1_all : (StableHlo.after hostOps0_5 V main_v32 : S128x128.Idx → EReal) = V main_arg11 := by
  rw [hostOps0_5_parts, after_append, after_append, wx1_eq, pre_arg V main_arg11 (by decide)]
theorem wx2_all : (StableHlo.after hostOps0_5 V main_v33 : S128x1.Idx → EReal) = V main_arg13 := by
  rw [hostOps0_5_parts, after_append, after_append, wx2_eq, pre_arg V main_arg13 (by decide)]

end Cert.KernelIdeal.Hand.Pre

end
-- ==== Proof.KI.HostPre.lean ====
/- What the host operations before the edge region leave in the arrays its windows read, entry by entry: the receivers'
   and the senders' feature rows (two row lookups), the feature row of 32 — twenty radial features of the distance between
   the receiver's and the sender's coordinate rows, the eight edge attributes, the coordinate difference and the distance —,
   the first layer's weight matrix in three row slices, and the other weights as launched. A lookup returns the row its
   index word names when the wrapped word is in range; the exports take that as a hypothesis per edge. -/
import proofs.«418897_j48576080117843_2_alg».proof.Proof.KI.Fold
import proofs.«418897_j48576080117843_2_alg».proof.Proof.KI.Args
import proofs.«418897_j48576080117843_2_alg».proof.Proof.KI.HostPreStages
import proofs.«418897_j48576080117843_2_alg».proof.Proof.KI.HostPreRow
import proofs.«418897_j48576080117843_2_alg».proof.Proof.Gen.KernelIdeal.Regions

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec Cert.Layer

variable (m : (ℓ : Loc nD τ sig) → Buf (Elt Ideal) ℓ) (ρ : Dev nD → PrngReg) (c : Dev nD)

namespace Pre

/-! ## What each stretch leaves unwritten -/

theorem W1_of (r : Ref sig .tc) (h : r ∉ hostOps0_W) : W1 m ρ c r = W0 m ρ c r :=
  StableHlo.after_of_writes_sub hostOps0 _ hostOps0_writes h
theorem W2_of (r : Ref sig .tc) (h : r ∉ hostOps0_1_W) : W2 m ρ c r = W1 m ρ c r :=
  StableHlo.after_of_writes_sub hostOps0_1 _ hostOps0_1_writes h
theorem W3_of (r : Ref sig .tc) (h : r ∉ hostOps0_2_W) : W3 m ρ c r = W2 m ρ c r :=
  StableHlo.after_of_writes_sub hostOps0_2 _ hostOps0_2_writes h
theorem W4_of (r : Ref sig .tc) (h : r ∉ hostOps0_3_W) : W4 m ρ c r = W3 m ρ c r :=
  StableHlo.after_of_writes_sub hostOps0_3 _ hostOps0_3_writes h
theorem W5_of (r : Ref sig .tc) (h : r ∉ hostOps0_4_W) : W5 m ρ c r = W4 m ρ c r :=
  StableHlo.after_of_writes_sub hostOps0_4 _ hostOps0_4_writes h
theorem W6_of (r : Ref sig .tc) (h : r ∉ hostOps0_5_W) : W6 m ρ c r = W5 m ρ c r :=
  StableHlo.after_of_writes_sub hostOps0_5 _ hostOps0_5_writes h

/-- An array the first five stretches do not write is, before the last, as launched. -/
theorem W5_arg (r : Ref sig .tc) (h1 : r ∉ hostOps0_W) (h2 : r ∉ hostOps0_1_W) (h3 : r ∉ hostOps0_2_W)
    (h4 : r ∉ hostOps0_3_W) (h5 : r ∉ hostOps0_4_W) : W5 m ρ c r = m ((c : Thread nD τ).loc r) :=
  (W5_of m ρ c r h5).trans <| (W4_of m ρ c r h4).trans <| (W3_of m ρ c r h3).trans <| (W2_of m ρ c r h2).trans <|
    (W1_of m ρ c r h1).trans rfl

/-- An array no stretch writes is, at the region's entry, as launched. -/
theorem W6_arg (r : Ref sig .tc) (h1 : r ∉ hostOps0_W) (h2 : r ∉ hostOps0_1_W) (h3 : r ∉ hostOps0_2_W)
    (h4 : r ∉ hostOps0_3_W) (h5 : r ∉ hostOps0_4_W) (h6 : r ∉ hostOps0_5_W) : W6 m ρ c r = m ((c : Thread nD τ).loc r) :=
  (W6_of m ρ c r h6).trans (W5_arg m ρ c r h1 h2 h3 h4 h5)

/-! ## The index words -/

/-- Edge e's sender word, after the first stretch. -/
theorem src_apply (e : Fin 640000) : (W1 m ρ c main_v1 : S640000.Idx → BitVec 32) (ix1 e) = srcW (argsOf m c) e := by
  refine (congrFun (src_eq (W0 m ρ c)) (ix1 e)).trans ?_
  rw [shapeCast_apply _ Gen.shapeCasts_S1x640000_S640000 (ix1 e) (ix2 0 e)
      (by rw [Shape.rowMajor_val_two, Shape.rowMajor_val_one]; show 0 * 640000 + e.val = e.val; omega),
    extractStridedSlice_apply ![0, 0] _ Gen.slices_S2x640000_S1x640000_0_0 (ix2 0 e) (ix2 0 e)
      (fun a => match a with | ⟨0, _⟩ => rfl | ⟨1, _⟩ => (Nat.zero_add _).symm)]
  rfl

/-- Edge e's receiver word, after the first stretch. -/
theorem dst_apply (e : Fin 640000) : (W1 m ρ c main_v3 : S640000.Idx → BitVec 32) (ix1 e) = dstW (argsOf m c) e := by
  refine (congrFun (dst_eq (W0 m ρ c)) (ix1 e)).trans ?_
  rw [shapeCast_apply _ Gen.shapeCasts_S1x640000_S640000 (ix1 e) (ix2 0 e)
      (by rw [Shape.rowMajor_val_two, Shape.rowMajor_val_one]; show 0 * 640000 + e.val = e.val; omega),
    extractStridedSlice_apply ![1, 0] _ Gen.slices_S2x640000_S1x640000_1_0 (ix2 0 e) (ix2 1 e)
      (fun a => match a with | ⟨0, _⟩ => rfl | ⟨1, _⟩ => (Nat.zero_add _).symm)]
  rfl

/-- The offset table, after the first stretch. -/
theorem off_apply (k : Fin 20) : (W1 m ρ c main_cst : S20.Idx → EReal) (ix1 k) = offK k :=
  congrFun (off_eq (W0 m ρ c)) (ix1 k)

/-! ## The four lookups -/

theorem hi_apply (e : Fin 640000) (k : Fin 128) (hd : InRange (wrapW (dstW (argsOf m c) e))) :
    (W2 m ρ c main_v4 : S640000x128.Idx → EReal) (ix2 e k) = hi (argsOf m c) e k := by
  refine (congrFun (hi_eq (W1 m ρ c)) (ix2 e k)).trans ?_
  rw [lookup128_apply _ _ e k (by rw [dst_apply]; exact hd), dst_apply, W1_of m ρ c main_arg0 (by decide)]
  rfl

theorem hj_apply (e : Fin 640000) (k : Fin 128) (hs : InRange (wrapW (srcW (argsOf m c) e))) :
    (W3 m ρ c main_v5 : S640000x128.Idx → EReal) (ix2 e k) = hj (argsOf m c) e k := by
  refine (congrFun (hj_eq (W2 m ρ c)) (ix2 e k)).trans ?_
  have hw : (W2 m ρ c main_v1 : S640000.Idx → BitVec 32) (ix1 e) = srcW (argsOf m c) e :=
    (congrFun (W2_of m ρ c main_v1 (by decide)) (ix1 e)).trans (src_apply m ρ c e)
  rw [lookup128_apply _ _ e k (by rw [hw]; exact hs), hw, W2_of m ρ c main_arg0 (by decide),
    W1_of m ρ c main_arg0 (by decide)]
  rfl

theorem xi_apply (e : Fin 640000) (d : Fin 3) (hd : InRange (wrapW (dstW (argsOf m c) e))) :
    (W4 m ρ c main_v6 : S640000x3.Idx → EReal) (ix2 e d) = xi (argsOf m c) e d := by
  refine (congrFun (xi_eq (W3 m ρ c)) (ix2 e d)).trans ?_
  have hw : (W3 m ρ c main_v3 : S640000.Idx → BitVec 32) (ix1 e) = dstW (argsOf m c) e :=
    (congrFun ((W3_of m ρ c main_v3 (by decide)).trans (W2_of m ρ c main_v3 (by decide))) (ix1 e)).trans
      (dst_apply m ρ c e)
  rw [lookup3_apply _ _ e d (by rw [hw]; exact hd), hw, W3_of m ρ c main_arg1 (by decide),
    W2_of m ρ c main_arg1 (by decide), W1_of m ρ c main_arg1 (by decide)]
  rfl

theorem xj_apply (e : Fin 640000) (d : Fin 3) (hs : InRange (wrapW (srcW (argsOf m c) e))) :
    (W5 m ρ c main_v7 : S640000x3.Idx → EReal) (ix2 e d) = xj (argsOf m c) e d := by
  refine (congrFun (xj_eq (W4 m ρ c)) (ix2 e d)).trans ?_
  have hw : (W4 m ρ c main_v1 : S640000.Idx → BitVec 32) (ix1 e) = srcW (argsOf m c) e :=
    (congrFun ((W4_of m ρ c main_v1 (by decide)).trans ((W3_of m ρ c main_v1 (by decide)).trans
      (W2_of m ρ c main_v1 (by decide)))) (ix1 e)).trans (src_apply m ρ c e)
  rw [lookup3_apply _ _ e d (by rw [hw]; exact hs), hw, W4_of m ρ c main_arg1 (by decide),
    W3_of m ρ c main_arg1 (by decide), W2_of m ρ c main_arg1 (by decide), W1_of m ρ c main_arg1 (by decide)]
  rfl

end Pre

/-! ## The exports -/

theorem V6_hi (e : Fin 640000) (k : Fin 128) (hd : Layer.InRange (Layer.wrapW (Layer.dstW (argsOf m c) e))) :
    V6 m ρ c main_v4 (ix2 e k) = Layer.hi (argsOf m c) e k :=
  (congrFun ((Pre.W6_of m ρ c main_v4 (by decide)).trans ((Pre.W5_of m ρ c main_v4 (by decide)).trans
    ((Pre.W4_of m ρ c main_v4 (by decide)).trans (Pre.W3_of m ρ c main_v4 (by decide))))) (ix2 e k)).trans
    (Pre.hi_apply m ρ c e k hd)

theorem V6_hj (e : Fin 640000) (k : Fin 128) (hs : Layer.InRange (Layer.wrapW (Layer.srcW (argsOf m c) e))) :
    V6 m ρ c main_v5 (ix2 e k) = Layer.hj (argsOf m c) e k :=
  (congrFun ((Pre.W6_of m ρ c main_v5 (by decide)).trans ((Pre.W5_of m ρ c main_v5 (by decide)).trans
    (Pre.W4_of m ρ c main_v5 (by decide)))) (ix2 e k)).trans (Pre.hj_apply m ρ c e k hs)

namespace Pre

/-! ## The feature row's pieces, at a column named by its value -/

section Row

variable (hcat : Shape.Concatenates [Feat.SE20, Feat.SE8, Feat.SE3, Feat.SE1] Feat.SE32 1)
  (a : Feat.SE20.Idx → EReal) (b : Feat.SE8.Idx → EReal) (r : Feat.SE3.Idx → EReal) (d : Feat.SE1.Idx → EReal)
  (e : Fin 640000) (j : Fin 32)

theorem row_at_radial (k : Fin 20) (hj : j.val = k.val) :
    concatenate Feat.SE32 1 [⟨Feat.SE20, a⟩, ⟨Feat.SE8, b⟩, ⟨Feat.SE3, r⟩, ⟨Feat.SE1, d⟩] hcat (ix2 e j) = a (ix2 e k) := by
  obtain rfl : j = ⟨k.val, Nat.lt_of_lt_of_le k.isLt (by decide)⟩ := Fin.ext hj
  exact Feat.row_radial hcat a b r d e k
theorem row_at_attr (k : Fin 8) (hj : j.val = 20 + k.val) :
    concatenate Feat.SE32 1 [⟨Feat.SE20, a⟩, ⟨Feat.SE8, b⟩, ⟨Feat.SE3, r⟩, ⟨Feat.SE1, d⟩] hcat (ix2 e j) = b (ix2 e k) := by
  obtain rfl : j = ⟨20 + k.val, Nat.lt_of_lt_of_le (Nat.add_lt_add_left k.isLt 20) (by decide)⟩ := Fin.ext hj
  exact Feat.row_attr hcat a b r d e k
theorem row_at_rel (k : Fin 3) (hj : j.val = 28 + k.val) :
    concatenate Feat.SE32 1 [⟨Feat.SE20, a⟩, ⟨Feat.SE8, b⟩, ⟨Feat.SE3, r⟩, ⟨Feat.SE1, d⟩] hcat (ix2 e j) = r (ix2 e k) := by
  obtain rfl : j = ⟨28 + k.val, Nat.lt_of_lt_of_le (Nat.add_lt_add_left k.isLt 28) (by decide)⟩ := Fin.ext hj
  exact Feat.row_rel hcat a b r d e k
theorem row_at_dist (hj : j.val = 31) :
    concatenate Feat.SE32 1 [⟨Feat.SE20, a⟩, ⟨Feat.SE8, b⟩, ⟨Feat.SE3, r⟩, ⟨Feat.SE1, d⟩] hcat (ix2 e j) = d (ix2 e 0) := by
  obtain rfl : j = ⟨31, by decide⟩ := Fin.ext hj
  exact Feat.row_dist hcat a b r d e

end Row

/-! ## What the last stretch finds -/

theorem v6_apply (e : Fin 640000) (d : Fin 3) (hd : InRange (wrapW (dstW (argsOf m c) e))) :
    (W5 m ρ c main_v6 : S640000x3.Idx → EReal) (ix2 e d) = xi (argsOf m c) e d :=
  (congrFun (W5_of m ρ c main_v6 (by decide)) (ix2 e d)).trans (xi_apply m ρ c e d hd)

theorem cst5_apply (k : Fin 20) : (W5 m ρ c main_cst : S20.Idx → EReal) (ix1 k) = offK k :=
  (congrFun ((W5_of m ρ c main_cst (by decide)).trans ((W4_of m ρ c main_cst (by decide)).trans
    ((W3_of m ρ c main_cst (by decide)).trans (W2_of m ρ c main_cst (by decide))))) (ix1 k)).trans (off_apply m ρ c k)

end Pre

theorem V6_feat_ef (e : Fin 640000) (k : Fin 28) (hd : Layer.InRange (Layer.wrapW (Layer.dstW (argsOf m c) e)))
    (hs : Layer.InRange (Layer.wrapW (Layer.srcW (argsOf m c) e))) :
    V6 m ρ c main_v23 (ix2 e ⟨k.val, by omega⟩) = Layer.ef (argsOf m c) offK e k := by
  refine (congrFun (Pre.feat_eq (W5 m ρ c)) _).trans ?_
  by_cases h : k.val < 20
  · refine (Pre.row_at_radial _ _ _ _ _ e _ ⟨k.val, h⟩ rfl).trans ?_
    refine (Feat.radial_apply _ _ _ _ _ _ _ _ _ _ _ (xi (argsOf m c) e) (xj (argsOf m c) e) e
      (fun d => Pre.v6_apply m ρ c e d hd) (fun d => Pre.xj_apply m ρ c e d hs) ⟨k.val, h⟩).trans ?_
    rw [show (fun k : Fin 20 => (W5 m ρ c main_cst : S20.Idx → EReal) (ix1 k)) = offK from
      funext (Pre.cst5_apply m ρ c)]
    unfold Layer.ef Spec.cat2
    rw [dif_pos h]
  · refine (Pre.row_at_attr _ _ _ _ _ e _ ⟨k.val - 20, by omega⟩ (by show k.val = 20 + (k.val - 20); omega)).trans ?_
    unfold Layer.ef Spec.cat2
    rw [dif_neg h]
    exact congrFun (Pre.W5_arg m ρ c main_arg4 (by decide) (by decide) (by decide) (by decide) (by decide)) _

theorem V6_feat_rel (e : Fin 640000) (d : Fin 3) (hd : Layer.InRange (Layer.wrapW (Layer.dstW (argsOf m c) e)))
    (hs : Layer.InRange (Layer.wrapW (Layer.srcW (argsOf m c) e))) :
    V6 m ρ c main_v23 (ix2 e ⟨28 + d.val, by omega⟩)
      = Spec.rel (Layer.xi (argsOf m c) e) (Layer.xj (argsOf m c) e) d := by
  refine (congrFun (Pre.feat_eq (W5 m ρ c)) _).trans ?_
  refine (Pre.row_at_rel _ _ _ _ _ e _ d rfl).trans ?_
  exact Feat.rel_apply _ _ _ _ e (fun d => Pre.v6_apply m ρ c e d hd) (fun d => Pre.xj_apply m ρ c e d hs) d

theorem V6_feat_dist (e : Fin 640000) (hd : Layer.InRange (Layer.wrapW (Layer.dstW (argsOf m c) e)))
    (hs : Layer.InRange (Layer.wrapW (Layer.srcW (argsOf m c) e))) :
    V6 m ρ c main_v23 (ix2 e ⟨31, by omega⟩) = Spec.dist (Layer.xi (argsOf m c) e) (Layer.xj (argsOf m c) e) := by
  refine (congrFun (Pre.feat_eq (W5 m ρ c)) _).trans ?_
  refine (Pre.row_at_dist _ _ _ _ _ e _ rfl).trans ?_
  exact Feat.dist_apply _ _ _ _ _ _ _ _ e (fun d => Pre.v6_apply m ρ c e d hd) (fun d => Pre.xj_apply m ρ c e d hs)

theorem V6_we1a (k j : Fin 128) : V6 m ρ c main_v25 (ix2 k j) = (argsOf m c).We1 (ix2 ⟨k.val, by omega⟩ j) := by
  refine (congrFun (Pre.we1a_all (W5 m ρ c)) _).trans ?_
  rw [extractStridedSlice_apply ![0, 0] _ Gen.slices_S284x128_S128x128_0_0 (ix2 k j) (ix2 ⟨k.val, by omega⟩ j)
    (fun a => match a with | ⟨0, _⟩ => (Nat.zero_add _).symm | ⟨1, _⟩ => (Nat.zero_add _).symm)]
  exact congrFun (Pre.W5_arg m ρ c main_arg5 (by decide) (by decide) (by decide) (by decide) (by decide)) _

theorem V6_we1b (k j : Fin 128) : V6 m ρ c main_v27 (ix2 k j) = (argsOf m c).We1 (ix2 ⟨128 + k.val, by omega⟩ j) := by
  refine (congrFun (Pre.we1b_all (W5 m ρ c)) _).trans ?_
  rw [extractStridedSlice_apply ![128, 0] _ Gen.slices_S284x128_S128x128_128_0 (ix2 k j) (ix2 ⟨128 + k.val, by omega⟩ j)
    (fun a => match a with | ⟨0, _⟩ => rfl | ⟨1, _⟩ => (Nat.zero_add _).symm)]
  exact congrFun (Pre.W5_arg m ρ c main_arg5 (by decide) (by decide) (by decide) (by decide) (by decide)) _

theorem V6_we1c (k : Fin 28) (j : Fin 128) :
    V6 m ρ c main_v29 (ix2 k j) = (argsOf m c).We1 (ix2 ⟨256 + k.val, by omega⟩ j) := by
  refine (congrFun (Pre.we1c_all (W5 m ρ c)) _).trans ?_
  rw [extractStridedSlice_apply ![256, 0] _ Gen.slices_S284x128_S28x128_256_0 (ix2 k j) (ix2 ⟨256 + k.val, by omega⟩ j)
    (fun a => match a with | ⟨0, _⟩ => rfl | ⟨1, _⟩ => (Nat.zero_add _).symm)]
  exact congrFun (Pre.W5_arg m ρ c main_arg5 (by decide) (by decide) (by decide) (by decide) (by decide)) _

theorem V6_we2 : V6 m ρ c main_v30 = (argsOf m c).We2 :=
  (Pre.we2_all (W5 m ρ c)).trans (Pre.W5_arg m ρ c main_arg7 (by decide) (by decide) (by decide) (by decide) (by decide))
theorem V6_winf : V6 m ρ c main_v31 = (argsOf m c).Winf :=
  (Pre.winf_all (W5 m ρ c)).trans (Pre.W5_arg m ρ c main_arg9 (by decide) (by decide) (by decide) (by decide) (by decide))
theorem V6_wx1 : V6 m ρ c main_v32 = (argsOf m c).Wx1 :=
  (Pre.wx1_all (W5 m ρ c)).trans (Pre.W5_arg m ρ c main_arg11 (by decide) (by decide) (by decide) (by decide) (by decide))
theorem V6_wx2 : V6 m ρ c main_v33 = (argsOf m c).Wx2 :=
  (Pre.wx2_all (W5 m ρ c)).trans (Pre.W5_arg m ρ c main_arg13 (by decide) (by decide) (by decide) (by decide) (by decide))

theorem V6_be1 : V6 m ρ c main_arg6 = (argsOf m c).be1 :=
  Pre.W6_arg m ρ c main_arg6 (by decide) (by decide) (by decide) (by decide) (by decide) (by decide)
theorem V6_be2 : V6 m ρ c main_arg8 = (argsOf m c).be2 :=
  Pre.W6_arg m ρ c main_arg8 (by decide) (by decide) (by decide) (by decide) (by decide) (by decide)
theorem V6_binf : V6 m ρ c main_arg10 = (argsOf m c).binf :=
  Pre.W6_arg m ρ c main_arg10 (by decide) (by decide) (by decide) (by decide) (by decide) (by decide)
theorem V6_bx1 : V6 m ρ c main_arg12 = (argsOf m c).bx1 :=
  Pre.W6_arg m ρ c main_arg12 (by decide) (by decide) (by decide) (by decide) (by decide) (by decide)

end Cert.KernelIdeal.Hand

end
-- ==== Proof.KI.HostMid.lean ====
/- What the host operations between the edge region and the node region leave, entry by entry, in the arrays the node
   region's windows read: the segment sum of the edge region's rows by receiver (a zero array, the receiver words as an
   index column, one accumulating scatter, two column slices), the two row slices of the first node weight, and the
   arguments that pass through unchanged. A change of float format is the identity here. -/
import proofs.«418897_j48576080117843_2_alg».proof.Proof.KI.Fold
import proofs.«418897_j48576080117843_2_alg».proof.Proof.KI.Args
import proofs.«418897_j48576080117843_2_alg».proof.Proof.Layer
import proofs.«418897_j48576080117843_2_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open Cert.ScatterGather
open scoped BigOperators

namespace Mid

/-! ## The operations, read at an index -/

/-- The accumulating scatter of rows, read at row n, column j: the operand there plus column j of the update rows whose
    index word names n. -/
theorem scat_apply (x : FVec Ideal S40000x131 .f32) (idx : IVec S640000x1 32) (upd : FVec Ideal S640000x131 .f32)
    (n : Fin 40000) (j : Fin 131) :
    Host.scatterAdd scatter_S40000x131_S640000x1_S640000x131_1_0_0_1 x idx upd (ix2 n j)
      = x (ix2 n j)
        + ∑ e ∈ Finset.univ.filter (fun e : Fin 640000 => tgtW 40000 (idx (ix2 e 0)) = some n), (upd (ix2 e j) : EReal) :=
  scatterAdd_rows_apply scatter_S40000x131_S640000x1_S640000x131_1_0_0_1 rfl rfl rfl rfl x idx upd n j

/-- The zero array holds the zero word everywhere. -/
theorem zeros_apply (n : Fin 40000) (j : Fin 131) :
    broadcastInDim S40000x131 ![] bcast_S_S40000x131 (constant (F := Ideal) S_ FTy.f32 0#32) (ix2 n j)
      = Ideal.ofBits .f32 0x00000000#32 := by
  rw [broadcastInDim_scalar_apply, constant_apply]

/-- The segment sum into the zero array, read at row n, column j: the zero word plus column j of the update rows whose
    index word names n. -/
theorem segsum_apply (idx : IVec S640000x1 32) (upd : FVec Ideal S640000x131 .f32) (n : Fin 40000) (j : Fin 131) :
    Host.scatterAdd scatter_S40000x131_S640000x1_S640000x131_1_0_0_1
        (broadcastInDim S40000x131 ![] bcast_S_S40000x131 (constant (F := Ideal) S_ FTy.f32 0#32)) idx upd (ix2 n j)
      = Ideal.ofBits .f32 0x00000000#32
        + ∑ e ∈ Finset.univ.filter (fun e : Fin 640000 => tgtW 40000 (idx (ix2 e 0)) = some n), (upd (ix2 e j) : EReal) :=
  (scat_apply _ idx upd n j).trans (congrArg (· + _) (zeros_apply n j))

/-- Its first 128 columns. -/
theorem segsum_feat (idx : IVec S640000x1 32) (upd : FVec Ideal S640000x131 .f32) (n : Fin 40000) (k : Fin 128) :
    extractStridedSlice S40000x128 ![0, 0]
      (Host.scatterAdd scatter_S40000x131_S640000x1_S640000x131_1_0_0_1
        (broadcastInDim S40000x131 ![] bcast_S_S40000x131 (constant (F := Ideal) S_ FTy.f32 0#32)) idx upd)
      slices_S40000x131_S40000x128_0_0 (ix2 n k)
    = Ideal.ofBits .f32 0x00000000#32
        + ∑ e ∈ Finset.univ.filter (fun e : Fin 640000 => tgtW 40000 (idx (ix2 e 0)) = some n),
            (upd (ix2 e ⟨k.val, by omega⟩) : EReal) := by
  rw [slice2_axis1_apply 0 _ slices_S40000x131_S40000x128_0_0 n k ⟨k.val, by omega⟩ (Nat.zero_add _).symm]
  exact segsum_apply idx upd n _

/-- Its last 3 columns. -/
theorem segsum_coord (idx : IVec S640000x1 32) (upd : FVec Ideal S640000x131 .f32) (n : Fin 40000) (d : Fin 3) :
    extractStridedSlice S40000x3 ![0, 128]
      (Host.scatterAdd scatter_S40000x131_S640000x1_S640000x131_1_0_0_1
        (broadcastInDim S40000x131 ![] bcast_S_S40000x131 (constant (F := Ideal) S_ FTy.f32 0#32)) idx upd)
      slices_S40000x131_S40000x3_0_128 (ix2 n d)
    = Ideal.ofBits .f32 0x00000000#32
        + ∑ e ∈ Finset.univ.filter (fun e : Fin 640000 => tgtW 40000 (idx (ix2 e 0)) = some n),
            (upd (ix2 e ⟨128 + d.val, by omega⟩) : EReal) := by
  rw [slice2_axis1_apply 128 _ slices_S40000x131_S40000x3_0_128 n d ⟨128 + d.val, by omega⟩ rfl]
  exact segsum_apply idx upd n _

/-- The index column: the receiver words, one per row. -/
theorem idxcol_apply (v : IVec S640000 32) (e : Fin 640000) :
    broadcastInDim S640000x1 ![0] bcast_S640000_S640000x1_0 v (ix2 e 0) = v (ix1 e) :=
  broadcastInDim_apply _ _ _ _ _ (fun a => match a with | ⟨0, _⟩ => rfl)

/-- Row 1 of the edge list, flattened, at e. -/
theorem recv_apply (ei : IVec S2x640000 32) (e : Fin 640000) :
    shapeCast S640000 (extractStridedSlice S1x640000 ![1, 0] ei slices_S2x640000_S1x640000_1_0) shapeCasts_S1x640000_S640000 (ix1 e)
      = ei (ix2 1 e) := by
  rw [shapeCast_apply _ shapeCasts_S1x640000_S640000 (ix1 e) (ix2 (0 : Fin 1) e) (by
    rw [Shape.rowMajor_val_two, Shape.rowMajor_val_one]; show 0 * 640000 + e.val = e.val; omega)]
  exact slice2_axis0_apply 1 _ slices_S2x640000_S1x640000_1_0 0 e 1 rfl

/-- Rows 0 … 127 of the first node weight, converted. -/
theorem wn1a_apply (W : FVec Ideal S256x128 .f32) (k j : Fin 128) :
    truncf FTy.bf16 (extractStridedSlice S128x128 ![0, 0] W slices_S256x128_S128x128_0_0) bitsLt_bf16_f32 (ix2 k j)
      = W (ix2 ⟨k.val, by omega⟩ j) := by
  rw [truncf_apply]
  exact slice2_axis0_apply 0 _ slices_S256x128_S128x128_0_0 k j ⟨k.val, by omega⟩ (Nat.zero_add _).symm

/-- Rows 128 … 255 of the first node weight, converted. -/
theorem wn1b_apply (W : FVec Ideal S256x128 .f32) (k j : Fin 128) :
    truncf FTy.bf16 (extractStridedSlice S128x128 ![128, 0] W slices_S256x128_S128x128_128_0) bitsLt_bf16_f32 (ix2 k j)
      = W (ix2 ⟨128 + k.val, by omega⟩ j) := by
  rw [truncf_apply]
  exact slice2_axis0_apply 128 _ slices_S256x128_S128x128_128_0 k j ⟨128 + k.val, by omega⟩ rfl

/-! ## Buffers that pass through -/

variable (m : (ℓ : Loc nD τ sig) → Buf (Elt Ideal) ℓ) (ρ : Dev nD → PrngReg) (c : Dev nD)

/-- A buffer that no stretch after the first and before the edge region writes holds at that region's entry what the
    first stretch left. -/
theorem W6_of_W1 (r : Ref sig .tc) (h1 : r ∉ hostOps0_1_W) (h2 : r ∉ hostOps0_2_W)
    (h3 : r ∉ hostOps0_3_W) (h4 : r ∉ hostOps0_4_W) (h5 : r ∉ hostOps0_5_W) :
    W6 m ρ c (Proc.devRef .tc r) = W1 m ρ c (Proc.devRef .tc r) :=
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1)

/-- A buffer that neither a stretch before the node region writes nor the edge region's windows cover holds at the
    node region's entry what it held at launch. -/
theorem W8_of_launch (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W)
    (h7 : ∀ w, Pipeline.arrRef spec0 w ≠ r) (h8 : r ∉ hostOps1_W) :
    W8 m ρ c (Proc.devRef .tc r) = m ((c : Thread nD τ).loc r) :=
  (StableHlo.after_of_writes_sub hostOps1 _ hostOps1_writes h8).trans <|
  (W7_of_ne m ρ c r h7).trans <|
  (W6_of_W1 m ρ c r h1 h2 h3 h4 h5).trans <|
  (StableHlo.after_of_writes_sub hostOps0 _ hostOps0_writes h0).trans rfl

/-- The first node weight as the stretch between the regions finds it. -/
theorem W7_wn1 : W7 m ρ c (Proc.devRef .tc main_arg14) = (argsOf m c).Wn1 :=
  (W7_of_ne m ρ c main_arg14 (by decide)).trans <|
  (W6_of_W1 m ρ c main_arg14 (by decide) (by decide) (by decide) (by decide) (by decide)).trans <|
  (StableHlo.after_of_writes_sub hostOps0 _ hostOps0_writes (by decide)).trans rfl
/-- The second node weight as the stretch between the regions finds it. -/
theorem W7_wn2 : W7 m ρ c (Proc.devRef .tc main_arg16) = (argsOf m c).Wn2 :=
  (W7_of_ne m ρ c main_arg16 (by decide)).trans <|
  (W6_of_W1 m ρ c main_arg16 (by decide) (by decide) (by decide) (by decide) (by decide)).trans <|
  (StableHlo.after_of_writes_sub hostOps0 _ hostOps0_writes (by decide)).trans rfl

/-! ## The receiver words -/

/-- The receiver words as the stretch between the regions finds them: row 1 of the edge list, word e that of edge e. -/
theorem W7_recv (e : Fin 640000) :
    (W7 m ρ c (Proc.devRef .tc main_v3) : IVec S640000 32) (ix1 e) = Layer.dstW (argsOf m c) e := by
  have h1 : W7 m ρ c (Proc.devRef .tc main_v3) = W1 m ρ c (Proc.devRef .tc main_v3) :=
    (W7_of_ne m ρ c main_v3 (by decide)).trans
      (W6_of_W1 m ρ c main_v3 (by decide) (by decide) (by decide) (by decide) (by decide))
  have e3 : (W1 m ρ c (Proc.devRef .tc main_v3) : IVec S640000 32)
      = shapeCast S640000 (extractStridedSlice S1x640000 ![1, 0] (W0 m ρ c (Proc.devRef .tc main_arg2))
          slices_S2x640000_S1x640000_1_0) shapeCasts_S1x640000_S640000 := by
    show StableHlo.after hostOps0 (W0 m ρ c) (Proc.devRef .tc main_v3) = _
    after_results <;> rfl
  rw [h1, e3, recv_apply]
  rfl

/-- The edges whose index-column word names n are the edges into n. -/
theorem into_eq (n : Fin 40000) :
    Finset.univ.filter (fun e : Fin 640000 => tgtW 40000
        (broadcastInDim S640000x1 ![0] bcast_S640000_S640000x1_0 (W7 m ρ c (Proc.devRef .tc main_v3)) (ix2 e 0)) = some n)
      = Layer.into (argsOf m c) n := by
  unfold Layer.into
  refine Finset.filter_congr fun e _ => ?_
  rw [idxcol_apply, W7_recv]

end Mid

open Mid

variable (m : (ℓ : Loc nD τ sig) → Buf (Elt Ideal) ℓ) (ρ : Dev nD → PrngReg) (c : Dev nD)

/-! ## The node region's arrays -/

theorem V8_mi (n : Fin 40000) (k : Fin 128) :
    V8 m ρ c main_v38 (ix2 n k) = Ideal.ofBits .f32 0x00000000#32
      + ∑ e ∈ Layer.into (argsOf m c) n, Spec.row (V7 m ρ c main_v34) e ⟨k.val, by omega⟩ := by
  have e38 : (V8 m ρ c main_v38 : FVec Ideal S40000x128 .f32)
      = extractStridedSlice S40000x128 ![0, 0]
          (Host.scatterAdd scatter_S40000x131_S640000x1_S640000x131_1_0_0_1
            (broadcastInDim S40000x131 ![] bcast_S_S40000x131 (constant (F := Ideal) S_ FTy.f32 0#32))
            (broadcastInDim S640000x1 ![0] bcast_S640000_S640000x1_0 (W7 m ρ c (Proc.devRef .tc main_v3)))
            (W7 m ρ c (Proc.devRef .tc main_v34)))
          slices_S40000x131_S40000x128_0_0 := by
    show StableHlo.after hostOps1 (W7 m ρ c) (Proc.devRef .tc main_v38) = _
    after_results <;> rfl
  refine (congrFun e38 (ix2 n k)).trans ?_
  refine (segsum_feat _ _ n k).trans ?_
  rw [into_eq]
  rfl

theorem V8_dx (n : Fin 40000) (d : Fin 3) :
    V8 m ρ c main_v39 (ix2 n d) = Ideal.ofBits .f32 0x00000000#32
      + ∑ e ∈ Layer.into (argsOf m c) n, Spec.row (V7 m ρ c main_v34) e ⟨128 + d.val, by omega⟩ := by
  have e39 : (V8 m ρ c main_v39 : FVec Ideal S40000x3 .f32)
      = extractStridedSlice S40000x3 ![0, 128]
          (Host.scatterAdd scatter_S40000x131_S640000x1_S640000x131_1_0_0_1
            (broadcastInDim S40000x131 ![] bcast_S_S40000x131 (constant (F := Ideal) S_ FTy.f32 0#32))
            (broadcastInDim S640000x1 ![0] bcast_S640000_S640000x1_0 (W7 m ρ c (Proc.devRef .tc main_v3)))
            (W7 m ρ c (Proc.devRef .tc main_v34)))
          slices_S40000x131_S40000x3_0_128 := by
    show StableHlo.after hostOps1 (W7 m ρ c) (Proc.devRef .tc main_v39) = _
    after_results <;> rfl
  refine (congrFun e39 (ix2 n d)).trans ?_
  refine (segsum_coord _ _ n d).trans ?_
  rw [into_eq]
  rfl

theorem V8_wn1a (k j : Fin 128) :
    V8 m ρ c main_v41 (ix2 k j) = (argsOf m c).Wn1 (ix2 ⟨k.val, by omega⟩ j) := by
  have e41 : (V8 m ρ c main_v41 : FVec Ideal S128x128 .bf16)
      = truncf (F := Ideal) FTy.bf16 (extractStridedSlice S128x128 ![0, 0] (W7 m ρ c (Proc.devRef .tc main_arg14))
          slices_S256x128_S128x128_0_0) bitsLt_bf16_f32 := by
    show StableHlo.after hostOps1 (W7 m ρ c) (Proc.devRef .tc main_v41) = _
    after_results <;> rfl
  refine (congrFun e41 (ix2 k j)).trans ?_
  rw [wn1a_apply, W7_wn1]

theorem V8_wn1b (k j : Fin 128) :
    V8 m ρ c main_v43 (ix2 k j) = (argsOf m c).Wn1 (ix2 ⟨128 + k.val, by omega⟩ j) := by
  have e43 : (V8 m ρ c main_v43 : FVec Ideal S128x128 .bf16)
      = truncf (F := Ideal) FTy.bf16 (extractStridedSlice S128x128 ![128, 0] (W7 m ρ c (Proc.devRef .tc main_arg14))
          slices_S256x128_S128x128_128_0) bitsLt_bf16_f32 := by
    show StableHlo.after hostOps1 (W7 m ρ c) (Proc.devRef .tc main_v43) = _
    after_results <;> rfl
  refine (congrFun e43 (ix2 k j)).trans ?_
  rw [wn1b_apply, W7_wn1]

theorem V8_wn2 : V8 m ρ c main_v44 = (argsOf m c).Wn2 := by
  have e44 : (V8 m ρ c main_v44 : FVec Ideal S128x128 .bf16)
      = truncf (F := Ideal) FTy.bf16 (W7 m ρ c (Proc.devRef .tc main_arg16)) bitsLt_bf16_f32 := by
    show StableHlo.after hostOps1 (W7 m ρ c) (Proc.devRef .tc main_v44) = _
    after_results <;> rfl
  refine e44.trans ?_
  exact W7_wn2 m ρ c

/-! ## The arguments that pass through -/

theorem V8_h : V8 m ρ c main_arg0 = (argsOf m c).h :=
  W8_of_launch m ρ c main_arg0 (by decide) (by decide) (by decide) (by decide) (by decide) (by decide) (by decide) (by decide)
theorem V8_x : V8 m ρ c main_arg1 = (argsOf m c).x :=
  W8_of_launch m ρ c main_arg1 (by decide) (by decide) (by decide) (by decide) (by decide) (by decide) (by decide) (by decide)
theorem V8_bn1 : V8 m ρ c main_arg15 = (argsOf m c).bn1 :=
  W8_of_launch m ρ c main_arg15 (by decide) (by decide) (by decide) (by decide) (by decide) (by decide) (by decide) (by decide)
theorem V8_bn2 : V8 m ρ c main_arg17 = (argsOf m c).bn2 :=
  W8_of_launch m ρ c main_arg17 (by decide) (by decide) (by decide) (by decide) (by decide) (by decide) (by decide) (by decide)

end Cert.KernelIdeal.Hand

end
-- ==== Proof.KI.Final.lean ====
/- The idealized kernel program's two results, entry by entry, as the layer's function of its arguments.

   Read back from the last boundary: the node region's output arrays are the node function of the arrays its windows read;
   those are the segment sums of the edge region's output rows, which for an edge whose two index words name rows are
   the edge network's message and coordinate contribution of the gathered rows. An edge the segment sum adds into a
   node has its receiver word in range by that very fact; the sender words are in range by the precondition. -/
import proofs.«418897_j48576080117843_2_alg».proof.Proof.KI.Fold
import proofs.«418897_j48576080117843_2_alg».proof.Proof.KI.Args
import proofs.«418897_j48576080117843_2_alg».proof.Proof.Layer
import proofs.«418897_j48576080117843_2_alg».proof.Proof.KI.EdgeValue
import proofs.«418897_j48576080117843_2_alg».proof.Proof.KI.NodeValue
import proofs.«418897_j48576080117843_2_alg».proof.Proof.KI.HostPre
import proofs.«418897_j48576080117843_2_alg».proof.Proof.KI.HostMid
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert
open scoped BigOperators

section Final

variable (m : (ℓ : Loc nD τ sig) → Buf (Elt Ideal) ℓ) (ρ : Dev nD → PrngReg) (c : Dev nD)

/-! ## Index words -/

/-- An edge that the segment sum adds into some node has its receiver word in range. -/
theorem inRange_of_tgt {w : BitVec 32} {n : Fin 40000} (h : ScatterGather.tgtW 40000 w = some n) : Layer.InRange w := by
  unfold ScatterGather.tgtW at h
  split at h
  · next hx => exact hx
  · exact absurd h (by simp)

/-- A word in range is not negative, so wrapping leaves it alone. -/
theorem wrapW_of_inRange {w : BitVec 32} (h : Layer.InRange w) : Layer.wrapW w = w := by
  have h0 : (0#32 : BitVec 32).toInt = 0 := by decide
  unfold Layer.wrapW
  rw [if_neg]
  simp only [BitVec.slt, h0, decide_eq_true_eq, not_lt]
  exact h.1

theorem inRange_wrapW {w : BitVec 32} (h : Layer.InRange w) : Layer.InRange (Layer.wrapW w) := by
  rw [wrapW_of_inRange h]; exact h

/-! ## The weights: the kernel's row slices are the reference's whole matrices -/

/-- Three row slices of a 284-row matrix, side by side along the contracted index, are the matrix. -/
theorem cat3_slices (W : Spec.Mat 284 128) (a3 a4 : Spec.Mat 128 128) (a5 : Spec.Mat 28 128)
    (h3 : ∀ (k j : Fin 128), a3 (ix2 k j) = W (ix2 ⟨k.val, by omega⟩ j))
    (h4 : ∀ (k j : Fin 128), a4 (ix2 k j) = W (ix2 ⟨128 + k.val, by omega⟩ j))
    (h5 : ∀ (k : Fin 28) (j : Fin 128), a5 (ix2 k j) = W (ix2 ⟨256 + k.val, by omega⟩ j))
    (k : Fin (128 + 128 + 28)) (j : Fin 128) :
    Spec.cat3 (fun k' => a3 (ix2 k' j)) (fun k' => a4 (ix2 k' j)) (fun k' => a5 (ix2 k' j)) k
      = W (ix2 (Fin.cast (by decide) k) j) := by
  unfold Spec.cat3 Spec.cat2
  split_ifs with h1 h2
  · dsimp only; rw [h3]; rfl
  · have h2' : ¬ k.val < 128 := h2
    dsimp only; rw [h4]; congr 2; apply Fin.ext; show 128 + (k.val - 128) = k.val; omega
  · dsimp only; rw [h5]; congr 2; apply Fin.ext; show 256 + (k.val - (128 + 128)) = k.val; omega

/-- Two row slices of a 256-row matrix, side by side, are the matrix. -/
theorem cat2_slices (W : Spec.Mat 256 128) (a4 a5 : Spec.Mat 128 128)
    (h4 : ∀ (k j : Fin 128), a4 (ix2 k j) = W (ix2 ⟨k.val, by omega⟩ j))
    (h5 : ∀ (k j : Fin 128), a5 (ix2 k j) = W (ix2 ⟨128 + k.val, by omega⟩ j))
    (k : Fin (128 + 128)) (j : Fin 128) :
    Spec.cat2 (fun k' => a4 (ix2 k' j)) (fun k' => a5 (ix2 k' j)) k = W (ix2 (Fin.cast (by decide) k) j) := by
  unfold Spec.cat2
  split_ifs with h1
  · dsimp only; rw [h4]; rfl
  · dsimp only; rw [h5]; congr 2; apply Fin.ext; show 128 + (k.val - 128) = k.val; omega

/-- The edge network's weights as the edge region's windows hold them are the layer's. -/
theorem edgeWK_eq :
    Spec.edgeWK (V6 m ρ c main_v25) (V6 m ρ c main_v27) (V6 m ρ c main_v29) (V6 m ρ c main_arg6) (V6 m ρ c main_v30)
      (V6 m ρ c main_arg8) (V6 m ρ c main_v31) (V6 m ρ c main_arg10) (V6 m ρ c main_v32) (V6 m ρ c main_arg12) (V6 m ρ c main_v33)
      = Layer.eW (argsOf m c) := by
  rw [V6_we2, V6_winf, V6_wx1, V6_wx2, V6_be1, V6_be2, V6_binf, V6_bx1]
  unfold Layer.eW Spec.edgeWK Spec.edgeWR
  congr 1
  funext k j
  exact cat3_slices (argsOf m c).We1 _ _ _ (V6_we1a m ρ c) (V6_we1b m ρ c) (V6_we1c m ρ c) k j

/-- The node network's weights as the node region's windows hold them are the layer's. -/
theorem nodeWK_eq :
    Spec.nodeWK (V8 m ρ c main_v41) (V8 m ρ c main_v43) (V8 m ρ c main_arg15) (V8 m ρ c main_v44) (V8 m ρ c main_arg17)
      = Layer.nW (argsOf m c) := by
  rw [V8_wn2, V8_bn1, V8_bn2]
  unfold Layer.nW Spec.nodeWK Spec.nodeWR
  congr 1
  funext k j
  exact cat2_slices (argsOf m c).Wn1 _ _ (V8_wn1a m ρ c) (V8_wn1b m ρ c) k j

/-! ## One edge's row of the edge region's output -/

/-- The edge region's output array is the edge function of its windows' arrays. -/
theorem V7_out : (V7 m ρ c main_v34 : FVec Ideal S640000x131 .f32)
    = edgeG (V6 m ρ c main_v4) (V6 m ρ c main_v5) (V6 m ρ c main_v23) (V6 m ρ c main_v25) (V6 m ρ c main_v27) (V6 m ρ c main_v29)
        (V6 m ρ c main_arg6) (V6 m ρ c main_v30) (V6 m ρ c main_arg8) (V6 m ρ c main_v31) (V6 m ρ c main_arg10) (V6 m ρ c main_v32)
        (V6 m ρ c main_arg12) (V6 m ρ c main_v33) :=
  (W7_arr m ρ c 14).trans (edge_final (V6 m ρ) c)

/-- With both index words in range, edge e's first 128 output entries are its gated message. -/
theorem edge_msg (e : Fin 640000) (j : Fin 128) (hd : Layer.InRange (Layer.wrapW (Layer.dstW (argsOf m c) e)))
    (hs : Layer.InRange (Layer.wrapW (Layer.srcW (argsOf m c) e))) :
    Spec.row (V7 m ρ c main_v34) e ⟨j.val, by omega⟩ = Layer.msgE (argsOf m c) offK e j := by
  unfold Spec.row
  rw [V7_out, edgeG_msg, edgeWK_eq]
  unfold Layer.msgE
  have e1 : Spec.row (V6 m ρ c main_v4) e = Layer.hi (argsOf m c) e := funext fun k => V6_hi m ρ c e k hd
  have e2 : Spec.row (V6 m ρ c main_v5) e = Layer.hj (argsOf m c) e := funext fun k => V6_hj m ρ c e k hs
  have e3 : (fun k : Fin 28 => (V6 m ρ c main_v23 : FVec Ideal S640000x32 .f32) (ix2 e ⟨k.val, by omega⟩)) = Layer.ef (argsOf m c) offK e :=
    funext fun k => V6_feat_ef m ρ c e k hd hs
  rw [e1, e2, e3]

/-- With both index words in range, edge e's last three output entries are its coordinate contribution. -/
theorem edge_xc (e : Fin 640000) (d : Fin 3) (hd : Layer.InRange (Layer.wrapW (Layer.dstW (argsOf m c) e)))
    (hs : Layer.InRange (Layer.wrapW (Layer.srcW (argsOf m c) e))) :
    Spec.row (V7 m ρ c main_v34) e ⟨128 + d.val, by omega⟩ = Layer.xcE (argsOf m c) offK e d := by
  unfold Spec.row
  rw [V7_out, edgeG_xc, edgeWK_eq]
  unfold Layer.xcE
  have e1 : Spec.row (V6 m ρ c main_v4) e = Layer.hi (argsOf m c) e := funext fun k => V6_hi m ρ c e k hd
  have e2 : Spec.row (V6 m ρ c main_v5) e = Layer.hj (argsOf m c) e := funext fun k => V6_hj m ρ c e k hs
  have e3 : (fun k : Fin 28 => (V6 m ρ c main_v23 : FVec Ideal S640000x32 .f32) (ix2 e ⟨k.val, by omega⟩)) = Layer.ef (argsOf m c) offK e :=
    funext fun k => V6_feat_ef m ρ c e k hd hs
  have e4 : (fun d' : Fin 3 => (V6 m ρ c main_v23 : FVec Ideal S640000x32 .f32) (ix2 e ⟨28 + d'.val, by omega⟩))
      = Spec.rel (Layer.xi (argsOf m c) e) (Layer.xj (argsOf m c) e) := funext fun d' => V6_feat_rel m ρ c e d' hd hs
  rw [e1, e2, e3, e4, V6_feat_dist m ρ c e hd hs]

/-! ## The two results -/

/-- The program's first result, entry by entry, when every sender word is in range. -/
theorem kernel_out0 (hsrc : ∀ e, Layer.InRange (Layer.srcW (argsOf m c) e)) (n : Fin 40000) (j : Fin 128) :
    (V9 m ρ c main_v45_0 : FVec Ideal S40000x128 .f32) (ix2 n j) = Layer.out0 (argsOf m c) offK n j := by
  have h9 : (V9 m ρ c main_v45_0 : FVec Ideal S40000x128 .f32)
      = nodeG9 (V8 m ρ c main_v38) (V8 m ρ c main_arg0) (V8 m ρ c main_v41) (V8 m ρ c main_v43) (V8 m ρ c main_arg15)
          (V8 m ρ c main_v44) (V8 m ρ c main_arg17) := (W9_arr m ρ c 9).trans (node_final9 (V8 m ρ) c)
  rw [h9, nodeG9_apply, nodeWK_eq]
  unfold Layer.out0
  have e1 : Spec.row (V8 m ρ c main_v38) n = Layer.mi (argsOf m c) offK n := by
    funext k
    show (V8 m ρ c main_v38 : FVec Ideal S40000x128 .f32) (ix2 n k) = _
    rw [V8_mi]
    unfold Layer.mi
    refine congrArg (HAdd.hAdd (Ideal.ofBits .f32 0x00000000#32 : EReal)) (Finset.sum_congr rfl fun e he => ?_)
    have ht := (Finset.mem_filter.mp he).2
    exact edge_msg m ρ c e k (inRange_wrapW (inRange_of_tgt ht)) (inRange_wrapW (hsrc e))
  have e2 : Spec.row (V8 m ρ c main_arg0) n = Spec.row (argsOf m c).h n := by rw [V8_h]
  rw [e1, e2]

/-- The program's second result, entry by entry, when every sender word is in range. -/
theorem kernel_out1 (hsrc : ∀ e, Layer.InRange (Layer.srcW (argsOf m c) e)) (n : Fin 40000) (d : Fin 3) :
    (V9 m ρ c main_v45_1 : FVec Ideal S40000x3 .f32) (ix2 n d) = Layer.out1 (argsOf m c) offK n d := by
  have h9 : (V9 m ρ c main_v45_1 : FVec Ideal S40000x3 .f32) = nodeG10 (V8 m ρ c main_arg1) (V8 m ρ c main_v39) :=
    (W9_arr m ρ c 10).trans (node_final10 (V8 m ρ) c)
  rw [h9, nodeG10_apply]
  unfold Layer.out1
  rw [V8_x, V8_dx]
  unfold Layer.dx
  refine congrArg (HAdd.hAdd ((argsOf m c).x (ix2 n d))) (congrArg (HAdd.hAdd (Ideal.ofBits .f32 0x00000000#32 : EReal)) (Finset.sum_congr rfl fun e he => ?_))
  have ht := (Finset.mem_filter.mp he).2
  exact edge_xc m ρ c e d (inRange_wrapW (inRange_of_tgt ht)) (inRange_wrapW (hsrc e))

end Final

end Cert.KernelIdeal.Hand

end
-- ==== Proof.Ref.Vals.lean ====
/- The reference program's values as pure terms of its argument arrays: one definition per stage, each the printed
   operation's function applied to the stages it reads, so that the two result buffers hold res84 and res101. -/
import proofs.«418897_j48576080117843_2_alg».proof.ReferenceIdeal
import proofs.«418897_j48576080117843_2_alg».proof.Proof.Gen.ReferenceIdeal
import Idealize.ShloMosaic.PureOps.Ideal

noncomputable section

namespace Cert.ReferenceIdeal.Hand

open Cert.ReferenceIdeal Cert.ReferenceIdeal.Gen Idealize.ShloMosaic Idealize.SL.Sem

/-- The radial offsets: the program's literal table. -/
def val_cst : FVec Ideal S20 .f32 := fun i => FloatOps.ofBits .f32 (lit0 (S20.rowMajor i))

/-- The sender words: row 0 of the edge index. -/
def val_v1 (a2 : IVec S2x640000 32) : IVec S640000 32 :=
  shapeCast S640000 (extractStridedSlice S1x640000 ![0, 0] a2 slices_S2x640000_S1x640000_0_0) shapeCasts_S1x640000_S640000

/-- The receiver words: row 1 of the edge index. -/
def val_v3 (a2 : IVec S2x640000 32) : IVec S640000 32 :=
  shapeCast S640000 (extractStridedSlice S1x640000 ![1, 0] a2 slices_S2x640000_S1x640000_1_0) shapeCasts_S1x640000_S640000

/-- A lookup's index column: a negative word has 40000 added. -/
def wrapIdx (w : IVec S640000 32) : IVec S640000x1 32 :=
  broadcastInDim S640000x1 ![0] bcast_S640000_S640000x1_0
    (select (cmpi .slt w (broadcastInDim S640000 ![] bcast_S_S640000 (constantI S_ 32 0#32)))
      (addi w (broadcastInDim S640000 ![] bcast_S_S640000 (constantI S_ 32 40000#32))) w)

/-- The receivers' feature rows. -/
def val_v10 (a0 : FVec Ideal S40000x128 .f32) (a2 : IVec S2x640000 32) : FVec Ideal S640000x128 .f32 :=
  Host.gather gather_S40000x128_S640000x1_S640000x128_1_0_n_n_0_1_1128 a0 (wrapIdx (val_v3 a2))

/-- The senders' feature rows. -/
def val_v17 (a0 : FVec Ideal S40000x128 .f32) (a2 : IVec S2x640000 32) : FVec Ideal S640000x128 .f32 :=
  Host.gather gather_S40000x128_S640000x1_S640000x128_1_0_n_n_0_1_1128 a0 (wrapIdx (val_v1 a2))

/-- The receivers' coordinate rows. -/
def val_v24 (a1 : FVec Ideal S40000x3 .f32) (a2 : IVec S2x640000 32) : FVec Ideal S640000x3 .f32 :=
  Host.gather gather_S40000x3_S640000x1_S640000x3_1_0_n_n_0_1_13 a1 (wrapIdx (val_v3 a2))

/-- The senders' coordinate rows. -/
def val_v31 (a1 : FVec Ideal S40000x3 .f32) (a2 : IVec S2x640000 32) : FVec Ideal S640000x3 .f32 :=
  Host.gather gather_S40000x3_S640000x1_S640000x3_1_0_n_n_0_1_13 a1 (wrapIdx (val_v1 a2))

/-- The coordinate differences. -/
def val_v32 (a1 : FVec Ideal S40000x3 .f32) (a2 : IVec S2x640000 32) : FVec Ideal S640000x3 .f32 :=
  subf (val_v24 a1 a2) (val_v31 a1 a2)

/-- The squared lengths. -/
def val_v34 (a1 : FVec Ideal S40000x3 .f32) (a2 : IVec S2x640000 32) : FVec Ideal S640000 .f32 :=
  Host.reduceAdd (mulf (val_v32 a1 a2) (val_v32 a1 a2)) (constant S_ .f32 0x00000000#32) reducesTo_S640000x3_S640000_d1 h_S_

/-- The regularised distances, as a column. -/
def val_v38 (a1 : FVec Ideal S40000x3 .f32) (a2 : IVec S2x640000 32) : FVec Ideal S640000x1 .f32 :=
  Host.sqrt (addf (broadcastInDim S640000x1 ![0] bcast_S640000_S640000x1_0 (val_v34 a1 a2))
    (broadcastInDim S640000x1 ![] bcast_S_S640000x1 (constant S_ .f32 0x322BCC77#32)))

/-- The distances minus the offsets. -/
def val_v42 (a1 : FVec Ideal S40000x3 .f32) (a2 : IVec S2x640000 32) : FVec Ideal S640000x20 .f32 :=
  subf (broadcastInDim S640000x20 ![0, 1] bcast_S640000x1_S640000x20_0_1 (val_v38 a1 a2))
    (broadcastInDim S640000x20 ![0, 1] bcast_S1x20_S640000x20_0_1 (broadcastInDim S1x20 ![1] bcast_S20_S1x20_1 val_cst))

/-- The radial features. -/
def val_v46 (a1 : FVec Ideal S40000x3 .f32) (a2 : IVec S2x640000 32) : FVec Ideal S640000x20 .f32 :=
  Host.exp (mulf (broadcastInDim S640000x20 ![] bcast_S_S640000x20 (constant S_ .f32 0xBF000000#32))
    (mulf (val_v42 a1 a2) (val_v42 a1 a2)))

/-- The edge features: the radial features, then the edge attributes. -/
def val_v47 (a1 : FVec Ideal S40000x3 .f32) (a2 : IVec S2x640000 32) (a4 : FVec Ideal S640000x8 .f32) :
    FVec Ideal S640000x28 .f32 :=
  concatenate S640000x28 1 [⟨S640000x20, val_v46 a1 a2⟩, ⟨S640000x8, a4⟩] concatenates_S640000x20_S640000x8_S640000x28_d1

/-- The first layer's input rows: receiver features, sender features, edge features. -/
def val_v48 (a0 : FVec Ideal S40000x128 .f32) (a1 : FVec Ideal S40000x3 .f32) (a2 : IVec S2x640000 32)
    (a4 : FVec Ideal S640000x8 .f32) : FVec Ideal S640000x284 .f32 :=
  concatenate S640000x284 1 [⟨S640000x128, val_v10 a0 a2⟩, ⟨S640000x128, val_v17 a0 a2⟩, ⟨S640000x28, val_v47 a1 a2 a4⟩]
    concatenates_S640000x128_S640000x128_S640000x28_S640000x284_d1

/-- x · 1 / (1 + exp (−x)) on the edge-sized arrays. -/
def siluE (x : FVec Ideal S640000x128 .f32) : FVec Ideal S640000x128 .f32 :=
  mulf x (Host.divf (broadcastInDim S640000x128 ![] bcast_S_S640000x128 (constant S_ .f32 0x3F800000#32))
    (addf (broadcastInDim S640000x128 ![] bcast_S_S640000x128 (constant S_ .f32 0x3F800000#32)) (Host.exp (Host.negf x))))

/-- x · 1 / (1 + exp (−x)) on the node-sized arrays. -/
def siluN (x : FVec Ideal S40000x128 .f32) : FVec Ideal S40000x128 .f32 :=
  mulf x (Host.divf (broadcastInDim S40000x128 ![] bcast_S_S40000x128 (constant S_ .f32 0x3F800000#32))
    (addf (broadcastInDim S40000x128 ![] bcast_S_S40000x128 (constant S_ .f32 0x3F800000#32)) (Host.exp (Host.negf x))))

/-- A bias row under every edge. -/
def biasE (b : FVec Ideal S128 .f32) : FVec Ideal S640000x128 .f32 :=
  broadcastInDim S640000x128 ![0, 1] bcast_S1x128_S640000x128_0_1 (broadcastInDim S1x128 ![1] bcast_S128_S1x128_1 b)

/-- A bias row under every node. -/
def biasN (b : FVec Ideal S128 .f32) : FVec Ideal S40000x128 .f32 :=
  broadcastInDim S40000x128 ![0, 1] bcast_S1x128_S40000x128_0_1 (broadcastInDim S1x128 ![1] bcast_S128_S1x128_1 b)

/-- The first hidden rows. -/
def val_v53 (a0 : FVec Ideal S40000x128 .f32) (a1 : FVec Ideal S40000x3 .f32) (a2 : IVec S2x640000 32)
    (a4 : FVec Ideal S640000x8 .f32) (a5 : FVec Ideal S284x128 .f32) (a6 : FVec Ideal S128 .f32) :
    FVec Ideal S640000x128 .f32 :=
  siluE (addf (Host.dotGeneral dot_S640000x284_S284x128_S640000x128_1_0_0_1_n_n none (val_v48 a0 a1 a2 a4) a5) (biasE a6))

/-- The message rows before the gate. -/
def val_v58 (a0 : FVec Ideal S40000x128 .f32) (a1 : FVec Ideal S40000x3 .f32) (a2 : IVec S2x640000 32)
    (a4 : FVec Ideal S640000x8 .f32) (a5 : FVec Ideal S284x128 .f32) (a6 : FVec Ideal S128 .f32)
    (a7 : FVec Ideal S128x128 .f32) (a8 : FVec Ideal S128 .f32) : FVec Ideal S640000x128 .f32 :=
  siluE (addf (Host.dotGeneral dot_S640000x128_S128x128_S640000x128_1_0_0_1_n_n none (val_v53 a0 a1 a2 a4 a5 a6) a7) (biasE a8))

/-- The gates' arguments, as a column. -/
def val_v62 (m : FVec Ideal S640000x128 .f32) (a9 : FVec Ideal S128x1 .f32) (a10 : FVec Ideal S1 .f32) :
    FVec Ideal S640000x1 .f32 :=
  addf (Host.dotGeneral dot_S640000x128_S128x1_S640000x1_1_0_0_1_n_n none m a9)
    (broadcastInDim S640000x1 ![0, 1] bcast_S1x1_S640000x1_0_1 (broadcastInDim S1x1 ![1] bcast_S1_S1x1_1 a10))

/-- The gates: 1 / (1 + exp (−·)). -/
def val_v68 (m : FVec Ideal S640000x128 .f32) (a9 : FVec Ideal S128x1 .f32) (a10 : FVec Ideal S1 .f32) :
    FVec Ideal S640000x1 .f32 :=
  Host.divf (broadcastInDim S640000x1 ![] bcast_S_S640000x1 (constant S_ .f32 0x3F800000#32))
    (addf (broadcastInDim S640000x1 ![] bcast_S_S640000x1 (constant S_ .f32 0x3F800000#32))
      (Host.exp (Host.negf (val_v62 m a9 a10))))

/-- The gated message rows. -/
def val_v70 (m : FVec Ideal S640000x128 .f32) (a9 : FVec Ideal S128x1 .f32) (a10 : FVec Ideal S1 .f32) :
    FVec Ideal S640000x128 .f32 :=
  mulf m (broadcastInDim S640000x128 ![0, 1] bcast_S640000x1_S640000x128_0_1 (val_v68 m a9 a10))

/-- The receiver words as a column. -/
def val_v72 (a2 : IVec S2x640000 32) : IVec S640000x1 32 :=
  broadcastInDim S640000x1 ![0] bcast_S640000_S640000x1_0 (val_v3 a2)

/-- The aggregated messages. -/
def val_v73 (a2 : IVec S2x640000 32) (m : FVec Ideal S640000x128 .f32) (a9 : FVec Ideal S128x1 .f32)
    (a10 : FVec Ideal S1 .f32) : FVec Ideal S40000x128 .f32 :=
  Host.scatterAdd scatter_S40000x128_S640000x1_S640000x128_1_0_0_1
    (broadcastInDim S40000x128 ![] bcast_S_S40000x128 (constant S_ .f32 0x00000000#32)) (val_v72 a2) (val_v70 m a9 a10)

/-- The node network on the aggregated messages beside the node features. -/
def val_v83 (a0 : FVec Ideal S40000x128 .f32) (agg : FVec Ideal S40000x128 .f32) (a14 : FVec Ideal S256x128 .f32)
    (a15 : FVec Ideal S128 .f32) (a16 : FVec Ideal S128x128 .f32) (a17 : FVec Ideal S128 .f32) :
    FVec Ideal S40000x128 .f32 :=
  addf (Host.dotGeneral dot_S40000x128_S128x128_S40000x128_1_0_0_1_n_n none
      (siluN (addf (Host.dotGeneral dot_S40000x256_S256x128_S40000x128_1_0_0_1_n_n none
          (concatenate S40000x256 1 [⟨S40000x128, agg⟩, ⟨S40000x128, a0⟩] concatenates_S40000x128_S40000x128_S40000x256_d1) a14)
        (biasN a15))) a16)
    (biasN a17)

/-- The first result: the new node features. -/
def res84 (a0 : FVec Ideal S40000x128 .f32) (a1 : FVec Ideal S40000x3 .f32) (a2 : IVec S2x640000 32)
    (a4 : FVec Ideal S640000x8 .f32) (a5 : FVec Ideal S284x128 .f32) (a6 : FVec Ideal S128 .f32)
    (a7 : FVec Ideal S128x128 .f32) (a8 : FVec Ideal S128 .f32) (a9 : FVec Ideal S128x1 .f32) (a10 : FVec Ideal S1 .f32)
    (a14 : FVec Ideal S256x128 .f32) (a15 : FVec Ideal S128 .f32) (a16 : FVec Ideal S128x128 .f32)
    (a17 : FVec Ideal S128 .f32) : FVec Ideal S40000x128 .f32 :=
  addf a0 (val_v83 a0 (val_v73 a2 (val_v58 a0 a1 a2 a4 a5 a6 a7 a8) a9 a10) a14 a15 a16 a17)

/-- The coordinate weights, as a column. -/
def val_v91 (m : FVec Ideal S640000x128 .f32) (a11 : FVec Ideal S128x128 .f32) (a12 : FVec Ideal S128 .f32)
    (a13 : FVec Ideal S128x1 .f32) : FVec Ideal S640000x1 .f32 :=
  Host.tanh (Host.dotGeneral dot_S640000x128_S128x1_S640000x1_1_0_0_1_n_n none
    (siluE (addf (Host.dotGeneral dot_S640000x128_S128x128_S640000x128_1_0_0_1_n_n none m a11) (biasE a12))) a13)

/-- The normalised coordinate differences. -/
def val_v95 (a1 : FVec Ideal S40000x3 .f32) (a2 : IVec S2x640000 32) : FVec Ideal S640000x3 .f32 :=
  Host.divf (val_v32 a1 a2) (broadcastInDim S640000x3 ![0, 1] bcast_S640000x1_S640000x3_0_1
    (addf (val_v38 a1 a2) (broadcastInDim S640000x1 ![] bcast_S_S640000x1 (constant S_ .f32 0x3F800000#32))))

/-- The coordinate contributions. -/
def val_v97 (a1 : FVec Ideal S40000x3 .f32) (a2 : IVec S2x640000 32) (m : FVec Ideal S640000x128 .f32)
    (a11 : FVec Ideal S128x128 .f32) (a12 : FVec Ideal S128 .f32) (a13 : FVec Ideal S128x1 .f32) :
    FVec Ideal S640000x3 .f32 :=
  mulf (val_v95 a1 a2) (broadcastInDim S640000x3 ![0, 1] bcast_S640000x1_S640000x3_0_1 (val_v91 m a11 a12 a13))

/-- The aggregated coordinate contributions. -/
def val_v100 (a1 : FVec Ideal S40000x3 .f32) (a2 : IVec S2x640000 32) (m : FVec Ideal S640000x128 .f32)
    (a11 : FVec Ideal S128x128 .f32) (a12 : FVec Ideal S128 .f32) (a13 : FVec Ideal S128x1 .f32) :
    FVec Ideal S40000x3 .f32 :=
  Host.scatterAdd scatter_S40000x3_S640000x1_S640000x3_1_0_0_1
    (broadcastInDim S40000x3 ![] bcast_S_S40000x3 (constant S_ .f32 0x00000000#32)) (val_v72 a2) (val_v97 a1 a2 m a11 a12 a13)

/-- The second result: the new node coordinates. -/
def res101 (a0 : FVec Ideal S40000x128 .f32) (a1 : FVec Ideal S40000x3 .f32) (a2 : IVec S2x640000 32)
    (a4 : FVec Ideal S640000x8 .f32) (a5 : FVec Ideal S284x128 .f32) (a6 : FVec Ideal S128 .f32)
    (a7 : FVec Ideal S128x128 .f32) (a8 : FVec Ideal S128 .f32) (a11 : FVec Ideal S128x128 .f32)
    (a12 : FVec Ideal S128 .f32) (a13 : FVec Ideal S128x1 .f32) : FVec Ideal S40000x3 .f32 :=
  addf a1 (val_v100 a1 a2 (val_v58 a0 a1 a2 a4 a5 a6 a7 a8) a11 a12 a13)

end Cert.ReferenceIdeal.Hand

end
-- ==== Proof.Ref.Run.lean ====
/- The idealized reference layer as a straight line of host operations, and its run: every weakly fair execution of
   the program ends with its two result arrays at the layer's stage functions of the argument arrays, the arguments unchanged. -/
import proofs.«418897_j48576080117843_2_alg».proof.Proof.Gen.ReferenceIdeal
import Idealize.ShloMosaic.Lib.StableHlo.Run
import Idealize.ShloMosaic.Lib.Pipeline.Frame
import Idealize.ShloMosaic.PureOps.Ideal
import proofs.«418897_j48576080117843_2_alg».proof.Proof.Ref.Vals

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The radial features beside the edge attributes, along the feature axis. -/
def joinEdge (a : (⟨S640000x20, .f32⟩ : BufTy).Contents (Elt F)) (b : (⟨S640000x8, .f32⟩ : BufTy).Contents (Elt F)) :
    (⟨S640000x28, .f32⟩ : BufTy).Contents (Elt F) :=
  concatenate S640000x28 1 [⟨S640000x20, a⟩, ⟨S640000x8, b⟩] concatenates_S640000x20_S640000x8_S640000x28_d1

/-- The receiver's features, the sender's features and the edge features, along the feature axis. -/
def joinIn (x y : (⟨S640000x128, .f32⟩ : BufTy).Contents (Elt F)) (z : (⟨S640000x28, .f32⟩ : BufTy).Contents (Elt F)) :
    (⟨S640000x284, .f32⟩ : BufTy).Contents (Elt F) :=
  concatenate S640000x284 1 [⟨S640000x128, x⟩, ⟨S640000x128, y⟩, ⟨S640000x28, z⟩]
    concatenates_S640000x128_S640000x128_S640000x28_S640000x284_d1

/-- The aggregated messages beside the node features, along the feature axis. -/
def joinNode (a b : (⟨S40000x128, .f32⟩ : BufTy).Contents (Elt F)) : (⟨S40000x256, .f32⟩ : BufTy).Contents (Elt F) :=
  concatenate S40000x256 1 [⟨S40000x128, a⟩, ⟨S40000x128, b⟩] concatenates_S40000x128_S40000x128_S40000x256_d1

/-- The edge stage's preparation: the two index rows, the four row lookups with wrapped indices, the distance, the radial features, and those joined to the edge attributes (60 operations). -/
abbrev ops0 : List (HloOp τ sig (Elt F)) :=
  [ nullary main_cst (fun i => FloatOps.ofBits .f32 (lit0 (S20.rowMajor i))),
    unary main_arg2 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg2 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v3 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 40000#32),
    unary main_c_0 main_v6 (broadcastInDim S640000 ![] bcast_S_S640000 : (⟨S_, .i32⟩ : BufTy).Contents (Elt F) → (⟨S640000, .i32⟩ : BufTy).Contents (Elt F)),
    binary main_v3 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v3 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    nullary main_c_1 (constantI S_ 32 0#32),
    unary main_c_1 main_v11 (broadcastInDim S640000 ![] bcast_S_S640000 : (⟨S_, .i32⟩ : BufTy).Contents (Elt F) → (⟨S640000, .i32⟩ : BufTy).Contents (Elt F)),
    binary main_v1 main_v11 main_v12 (cmpi .slt : (⟨S640000, .i32⟩ : BufTy).Contents (Elt F) → (⟨S640000, .i32⟩ : BufTy).Contents (Elt F) → (⟨S640000, .i1⟩ : BufTy).Contents (Elt F)),
    nullary main_c_2 (constantI S_ 32 40000#32),
    unary main_c_2 main_v13 (broadcastInDim S640000 ![] bcast_S_S640000 : (⟨S_, .i32⟩ : BufTy).Contents (Elt F) → (⟨S640000, .i32⟩ : BufTy).Contents (Elt F)),
    binary main_v1 main_v13 main_v14 (addi : (⟨S640000, .i32⟩ : BufTy).Contents (Elt F) → (⟨S640000, .i32⟩ : BufTy).Contents (Elt F) → (⟨S640000, .i32⟩ : BufTy).Contents (Elt F)),
    ternary main_v12 main_v14 main_v1 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v15 main_v16 (broadcastInDim S640000x1 ![0] bcast_S640000_S640000x1_0 : (⟨S640000, .i32⟩ : BufTy).Contents (Elt F) → (⟨S640000x1, .i32⟩ : BufTy).Contents (Elt F)),
    binary main_arg0 main_v16 main_v17 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    nullary main_c_3 (constantI S_ 32 0#32),
    unary main_c_3 main_v18 (broadcastInDim S640000 ![] bcast_S_S640000 : (⟨S_, .i32⟩ : BufTy).Contents (Elt F) → (⟨S640000, .i32⟩ : BufTy).Contents (Elt F)),
    binary main_v3 main_v18 main_v19 (cmpi .slt : (⟨S640000, .i32⟩ : BufTy).Contents (Elt F) → (⟨S640000, .i32⟩ : BufTy).Contents (Elt F) → (⟨S640000, .i1⟩ : BufTy).Contents (Elt F)),
    nullary main_c_4 (constantI S_ 32 40000#32),
    unary main_c_4 main_v20 (broadcastInDim S640000 ![] bcast_S_S640000 : (⟨S_, .i32⟩ : BufTy).Contents (Elt F) → (⟨S640000, .i32⟩ : BufTy).Contents (Elt F)),
    binary main_v3 main_v20 main_v21 (addi : (⟨S640000, .i32⟩ : BufTy).Contents (Elt F) → (⟨S640000, .i32⟩ : BufTy).Contents (Elt F) → (⟨S640000, .i32⟩ : BufTy).Contents (Elt F)),
    ternary main_v19 main_v21 main_v3 main_v22 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v22 main_v23 (broadcastInDim S640000x1 ![0] bcast_S640000_S640000x1_0 : (⟨S640000, .i32⟩ : BufTy).Contents (Elt F) → (⟨S640000x1, .i32⟩ : BufTy).Contents (Elt F)),
    binary main_arg1 main_v23 main_v24 ((fun x i => Host.gather gather_S40000x3_S640000x1_S640000x3_1_0_n_n_0_1_13 x i) : (⟨S40000x3, .f32⟩ : BufTy).Contents (Elt F) → (⟨S640000x1, .i32⟩ : BufTy).Contents (Elt F) → (⟨S640000x3, .f32⟩ : BufTy).Contents (Elt F)),
    nullary main_c_5 (constantI S_ 32 0#32),
    unary main_c_5 main_v25 (broadcastInDim S640000 ![] bcast_S_S640000 : (⟨S_, .i32⟩ : BufTy).Contents (Elt F) → (⟨S640000, .i32⟩ : BufTy).Contents (Elt F)),
    binary main_v1 main_v25 main_v26 (cmpi .slt : (⟨S640000, .i32⟩ : BufTy).Contents (Elt F) → (⟨S640000, .i32⟩ : BufTy).Contents (Elt F) → (⟨S640000, .i1⟩ : BufTy).Contents (Elt F)),
    nullary main_c_6 (constantI S_ 32 40000#32),
    unary main_c_6 main_v27 (broadcastInDim S640000 ![] bcast_S_S640000 : (⟨S_, .i32⟩ : BufTy).Contents (Elt F) → (⟨S640000, .i32⟩ : BufTy).Contents (Elt F)),
    binary main_v1 main_v27 main_v28 (addi : (⟨S640000, .i32⟩ : BufTy).Contents (Elt F) → (⟨S640000, .i32⟩ : BufTy).Contents (Elt F) → (⟨S640000, .i32⟩ : BufTy).Contents (Elt F)),
    ternary main_v26 main_v28 main_v1 main_v29 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v29 main_v30 (broadcastInDim S640000x1 ![0] bcast_S640000_S640000x1_0 : (⟨S640000, .i32⟩ : BufTy).Contents (Elt F) → (⟨S640000x1, .i32⟩ : BufTy).Contents (Elt F)),
    binary main_arg1 main_v30 main_v31 ((fun x i => Host.gather gather_S40000x3_S640000x1_S640000x3_1_0_n_n_0_1_13 x i) : (⟨S40000x3, .f32⟩ : BufTy).Contents (Elt F) → (⟨S640000x1, .i32⟩ : BufTy).Contents (Elt F) → (⟨S640000x3, .f32⟩ : BufTy).Contents (Elt F)),
    binary main_v24 main_v31 main_v32 (subf : (⟨S640000x3, .f32⟩ : BufTy).Contents (Elt F) → (⟨S640000x3, .f32⟩ : BufTy).Contents (Elt F) → (⟨S640000x3, .f32⟩ : BufTy).Contents (Elt F)),
    binary main_v32 main_v32 main_v33 (mulf : (⟨S640000x3, .f32⟩ : BufTy).Contents (Elt F) → (⟨S640000x3, .f32⟩ : BufTy).Contents (Elt F) → (⟨S640000x3, .f32⟩ : BufTy).Contents (Elt F)),
    nullary main_cst_7 (constant S_ .f32 0x00000000#32),
    binary main_v33 main_cst_7 main_v34 ((fun x v => Host.reduceAdd x v reducesTo_S640000x3_S640000_d1 h_S_) : (⟨S640000x3, .f32⟩ : BufTy).Contents (Elt F) → (⟨S_, .f32⟩ : BufTy).Contents (Elt F) → (⟨S640000, .f32⟩ : BufTy).Contents (Elt F)),
    unary main_v34 main_v35 (broadcastInDim S640000x1 ![0] bcast_S640000_S640000x1_0 : (⟨S640000, .f32⟩ : BufTy).Contents (Elt F) → (⟨S640000x1, .f32⟩ : BufTy).Contents (Elt F)),
    nullary main_cst_8 (constant S_ .f32 0x322BCC77#32),
    unary main_cst_8 main_v36 (broadcastInDim S640000x1 ![] bcast_S_S640000x1 : (⟨S_, .f32⟩ : BufTy).Contents (Elt F) → (⟨S640000x1, .f32⟩ : BufTy).Contents (Elt F)),
    binary main_v35 main_v36 main_v37 (addf : (⟨S640000x1, .f32⟩ : BufTy).Contents (Elt F) → (⟨S640000x1, .f32⟩ : BufTy).Contents (Elt F) → (⟨S640000x1, .f32⟩ : BufTy).Contents (Elt F)),
    unary main_v37 main_v38 (Host.sqrt : (⟨S640000x1, .f32⟩ : BufTy).Contents (Elt F) → (⟨S640000x1, .f32⟩ : BufTy).Contents (Elt F)),
    unary main_cst main_v39 (broadcastInDim S1x20 ![1] bcast_S20_S1x20_1 : (⟨S20, .f32⟩ : BufTy).Contents (Elt F) → (⟨S1x20, .f32⟩ : BufTy).Contents (Elt F)),
    unary main_v38 main_v40 (broadcastInDim S640000x20 ![0, 1] bcast_S640000x1_S640000x20_0_1 : (⟨S640000x1, .f32⟩ : BufTy).Contents (Elt F) → (⟨S640000x20, .f32⟩ : BufTy).Contents (Elt F)),
    unary main_v39 main_v41 (broadcastInDim S640000x20 ![0, 1] bcast_S1x20_S640000x20_0_1 : (⟨S1x20, .f32⟩ : BufTy).Contents (Elt F) → (⟨S640000x20, .f32⟩ : BufTy).Contents (Elt F)),
    binary main_v40 main_v41 main_v42 (subf : (⟨S640000x20, .f32⟩ : BufTy).Contents (Elt F) → (⟨S640000x20, .f32⟩ : BufTy).Contents (Elt F) → (⟨S640000x20, .f32⟩ : BufTy).Contents (Elt F)),
    binary main_v42 main_v42 main_v43 (mulf : (⟨S640000x20, .f32⟩ : BufTy).Contents (Elt F) → (⟨S640000x20, .f32⟩ : BufTy).Contents (Elt F) → (⟨S640000x20, .f32⟩ : BufTy).Contents (Elt F)),
    nullary main_cst_9 (constant S_ .f32 0xBF000000#32),
    unary main_cst_9 main_v44 (broadcastInDim S640000x20 ![] bcast_S_S640000x20 : (⟨S_, .f32⟩ : BufTy).Contents (Elt F) → (⟨S640000x20, .f32⟩ : BufTy).Contents (Elt F)),
    binary main_v44 main_v43 main_v45 (mulf : (⟨S640000x20, .f32⟩ : BufTy).Contents (Elt F) → (⟨S640000x20, .f32⟩ : BufTy).Contents (Elt F) → (⟨S640000x20, .f32⟩ : BufTy).Contents (Elt F)),
    unary main_v45 main_v46 (Host.exp : (⟨S640000x20, .f32⟩ : BufTy).Contents (Elt F) → (⟨S640000x20, .f32⟩ : BufTy).Contents (Elt F)),
    binary main_v46 main_arg4 main_v47 joinEdge ]

/-- The edge network's two layers: the 284 joined features through the first layer and its gate function, then the second layer and its gate function (27 operations, each gate function's nine in its place). -/
abbrev ops1a : List (HloOp τ sig (Elt F)) :=
  [ nary ![main_v10, main_v17, main_v47] main_v48 (fun u => joinIn (u 0) (u 1) (u 2)),
    binary main_v48 main_arg5 main_v49 ((fun l r => Host.dotGeneral dot_S640000x284_S284x128_S640000x128_1_0_0_1_n_n none l r) : (⟨S640000x284, .f32⟩ : BufTy).Contents (Elt F) → (⟨S284x128, .f32⟩ : BufTy).Contents (Elt F) → (⟨S640000x128, .f32⟩ : BufTy).Contents (Elt F)),
    unary main_arg6 main_v50 (broadcastInDim S1x128 ![1] bcast_S128_S1x128_1 : (⟨S128, .f32⟩ : BufTy).Contents (Elt F) → (⟨S1x128, .f32⟩ : BufTy).Contents (Elt F)),
    unary main_v50 main_v51 (broadcastInDim S640000x128 ![0, 1] bcast_S1x128_S640000x128_0_1 : (⟨S1x128, .f32⟩ : BufTy).Contents (Elt F) → (⟨S640000x128, .f32⟩ : BufTy).Contents (Elt F)),
    binary main_v49 main_v51 main_v52 (addf : (⟨S640000x128, .f32⟩ : BufTy).Contents (Elt F) → (⟨S640000x128, .f32⟩ : BufTy).Contents (Elt F) → (⟨S640000x128, .f32⟩ : BufTy).Contents (Elt F)),
    TRef.unary (TRef.of (T := ⟨S640000x128, .f32⟩) main_v52) main_call0.v0 Host.negf,
    TRef.unary main_call0.v0 main_call0.v1 Host.exp,
    TRef.nullary main_call0.cst (constant S_ .f32 0x3F800000#32),
    TRef.unary main_call0.cst main_call0.v2 (broadcastInDim S640000x128 ![] bcast_S_S640000x128),
    TRef.binary main_call0.v2 main_call0.v1 main_call0.v3 addf,
    TRef.nullary main_call0.cst_0 (constant S_ .f32 0x3F800000#32),
    TRef.unary main_call0.cst_0 main_call0.v4 (broadcastInDim S640000x128 ![] bcast_S_S640000x128),
    TRef.binary main_call0.v4 main_call0.v3 main_call0.v5 Host.divf,
    TRef.binary (TRef.of (T := ⟨S640000x128, .f32⟩) main_v52) main_call0.v5 main_call0.v6 mulf,
    binary main_v53 main_arg7 main_v54 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg8 main_v55 (broadcastInDim S1x128 ![1] bcast_S128_S1x128_1 : (⟨S128, .f32⟩ : BufTy).Contents (Elt F) → (⟨S1x128, .f32⟩ : BufTy).Contents (Elt F)),
    unary main_v55 main_v56 (broadcastInDim S640000x128 ![0, 1] bcast_S1x128_S640000x128_0_1 : (⟨S1x128, .f32⟩ : BufTy).Contents (Elt F) → (⟨S640000x128, .f32⟩ : BufTy).Contents (Elt F)),
    binary main_v54 main_v56 main_v57 (addf : (⟨S640000x128, .f32⟩ : BufTy).Contents (Elt F) → (⟨S640000x128, .f32⟩ : BufTy).Contents (Elt F) → (⟨S640000x128, .f32⟩ : BufTy).Contents (Elt F)),
    TRef.unary (TRef.of (T := ⟨S640000x128, .f32⟩) main_v57) main_call1.v0 Host.negf,
    TRef.unary main_call1.v0 main_call1.v1 Host.exp,
    TRef.nullary main_call1.cst (constant S_ .f32 0x3F800000#32),
    TRef.unary main_call1.cst main_call1.v2 (broadcastInDim S640000x128 ![] bcast_S_S640000x128),
    TRef.binary main_call1.v2 main_call1.v1 main_call1.v3 addf,
    TRef.nullary main_call1.cst_0 (constant S_ .f32 0x3F800000#32),
    TRef.unary main_call1.cst_0 main_call1.v4 (broadcastInDim S640000x128 ![] bcast_S_S640000x128),
    TRef.binary main_call1.v4 main_call1.v3 main_call1.v5 Host.divf,
    TRef.binary (TRef.of (T := ⟨S640000x128, .f32⟩) main_v57) main_call1.v5 main_call1.v6 mulf ]

/-- The message gate and the segment sum of the gated messages over the receiver row (18 operations). -/
abbrev ops1b : List (HloOp τ sig (Elt F)) :=
  [ binary main_v58 main_arg9 main_v59 ((fun l r => Host.dotGeneral dot_S640000x128_S128x1_S640000x1_1_0_0_1_n_n none l r) : (⟨S640000x128, .f32⟩ : BufTy).Contents (Elt F) → (⟨S128x1, .f32⟩ : BufTy).Contents (Elt F) → (⟨S640000x1, .f32⟩ : BufTy).Contents (Elt F)),
    unary main_arg10 main_v60 (broadcastInDim S1x1 ![1] bcast_S1_S1x1_1 : (⟨S1, .f32⟩ : BufTy).Contents (Elt F) → (⟨S1x1, .f32⟩ : BufTy).Contents (Elt F)),
    unary main_v60 main_v61 (broadcastInDim S640000x1 ![0, 1] bcast_S1x1_S640000x1_0_1 : (⟨S1x1, .f32⟩ : BufTy).Contents (Elt F) → (⟨S640000x1, .f32⟩ : BufTy).Contents (Elt F)),
    binary main_v59 main_v61 main_v62 (addf : (⟨S640000x1, .f32⟩ : BufTy).Contents (Elt F) → (⟨S640000x1, .f32⟩ : BufTy).Contents (Elt F) → (⟨S640000x1, .f32⟩ : BufTy).Contents (Elt F)),
    unary main_v62 main_v63 (Host.negf : (⟨S640000x1, .f32⟩ : BufTy).Contents (Elt F) → (⟨S640000x1, .f32⟩ : BufTy).Contents (Elt F)),
    unary main_v63 main_v64 (Host.exp : (⟨S640000x1, .f32⟩ : BufTy).Contents (Elt F) → (⟨S640000x1, .f32⟩ : BufTy).Contents (Elt F)),
    nullary main_cst_10 (constant S_ .f32 0x3F800000#32),
    unary main_cst_10 main_v65 (broadcastInDim S640000x1 ![] bcast_S_S640000x1 : (⟨S_, .f32⟩ : BufTy).Contents (Elt F) → (⟨S640000x1, .f32⟩ : BufTy).Contents (Elt F)),
    binary main_v65 main_v64 main_v66 (addf : (⟨S640000x1, .f32⟩ : BufTy).Contents (Elt F) → (⟨S640000x1, .f32⟩ : BufTy).Contents (Elt F) → (⟨S640000x1, .f32⟩ : BufTy).Contents (Elt F)),
    nullary main_cst_11 (constant S_ .f32 0x3F800000#32),
    unary main_cst_11 main_v67 (broadcastInDim S640000x1 ![] bcast_S_S640000x1 : (⟨S_, .f32⟩ : BufTy).Contents (Elt F) → (⟨S640000x1, .f32⟩ : BufTy).Contents (Elt F)),
    binary main_v67 main_v66 main_v68 (Host.divf : (⟨S640000x1, .f32⟩ : BufTy).Contents (Elt F) → (⟨S640000x1, .f32⟩ : BufTy).Contents (Elt F) → (⟨S640000x1, .f32⟩ : BufTy).Contents (Elt F)),
    unary main_v68 main_v69 (broadcastInDim S640000x128 ![0, 1] bcast_S640000x1_S640000x128_0_1 : (⟨S640000x1, .f32⟩ : BufTy).Contents (Elt F) → (⟨S640000x128, .f32⟩ : BufTy).Contents (Elt F)),
    binary main_v58 main_v69 main_v70 (mulf : (⟨S640000x128, .f32⟩ : BufTy).Contents (Elt F) → (⟨S640000x128, .f32⟩ : BufTy).Contents (Elt F) → (⟨S640000x128, .f32⟩ : BufTy).Contents (Elt F)),
    nullary main_cst_12 (constant S_ .f32 0x00000000#32),
    unary main_cst_12 main_v71 (broadcastInDim S40000x128 ![] bcast_S_S40000x128 : (⟨S_, .f32⟩ : BufTy).Contents (Elt F) → (⟨S40000x128, .f32⟩ : BufTy).Contents (Elt F)),
    unary main_v3 main_v72 (broadcastInDim S640000x1 ![0] bcast_S640000_S640000x1_0 : (⟨S640000, .i32⟩ : BufTy).Contents (Elt F) → (⟨S640000x1, .i32⟩ : BufTy).Contents (Elt F)),
    ternary main_v71 main_v72 main_v70 main_v73 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)) ]

/-- The node network on the aggregated messages joined to the node features, and the first result (19 operations, the gate function's nine in their place). -/
abbrev ops1c : List (HloOp τ sig (Elt F)) :=
  [ binary main_v73 main_arg0 main_v74 joinNode,
    binary main_v74 main_arg14 main_v75 ((fun l r => Host.dotGeneral dot_S40000x256_S256x128_S40000x128_1_0_0_1_n_n none l r) : (⟨S40000x256, .f32⟩ : BufTy).Contents (Elt F) → (⟨S256x128, .f32⟩ : BufTy).Contents (Elt F) → (⟨S40000x128, .f32⟩ : BufTy).Contents (Elt F)),
    unary main_arg15 main_v76 (broadcastInDim S1x128 ![1] bcast_S128_S1x128_1 : (⟨S128, .f32⟩ : BufTy).Contents (Elt F) → (⟨S1x128, .f32⟩ : BufTy).Contents (Elt F)),
    unary main_v76 main_v77 (broadcastInDim S40000x128 ![0, 1] bcast_S1x128_S40000x128_0_1 : (⟨S1x128, .f32⟩ : BufTy).Contents (Elt F) → (⟨S40000x128, .f32⟩ : BufTy).Contents (Elt F)),
    binary main_v75 main_v77 main_v78 (addf : (⟨S40000x128, .f32⟩ : BufTy).Contents (Elt F) → (⟨S40000x128, .f32⟩ : BufTy).Contents (Elt F) → (⟨S40000x128, .f32⟩ : BufTy).Contents (Elt F)),
    TRef.unary (TRef.of (T := ⟨S40000x128, .f32⟩) main_v78) main_call2.v0 Host.negf,
    TRef.unary main_call2.v0 main_call2.v1 Host.exp,
    TRef.nullary main_call2.cst (constant S_ .f32 0x3F800000#32),
    TRef.unary main_call2.cst main_call2.v2 (broadcastInDim S40000x128 ![] bcast_S_S40000x128),
    TRef.binary main_call2.v2 main_call2.v1 main_call2.v3 addf,
    TRef.nullary main_call2.cst_0 (constant S_ .f32 0x3F800000#32),
    TRef.unary main_call2.cst_0 main_call2.v4 (broadcastInDim S40000x128 ![] bcast_S_S40000x128),
    TRef.binary main_call2.v4 main_call2.v3 main_call2.v5 Host.divf,
    TRef.binary (TRef.of (T := ⟨S40000x128, .f32⟩) main_v78) main_call2.v5 main_call2.v6 mulf,
    binary main_v79 main_arg16 main_v80 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg17 main_v81 (broadcastInDim S1x128 ![1] bcast_S128_S1x128_1 : (⟨S128, .f32⟩ : BufTy).Contents (Elt F) → (⟨S1x128, .f32⟩ : BufTy).Contents (Elt F)),
    unary main_v81 main_v82 (broadcastInDim S40000x128 ![0, 1] bcast_S1x128_S40000x128_0_1 : (⟨S1x128, .f32⟩ : BufTy).Contents (Elt F) → (⟨S40000x128, .f32⟩ : BufTy).Contents (Elt F)),
    binary main_v80 main_v82 main_v83 (addf : (⟨S40000x128, .f32⟩ : BufTy).Contents (Elt F) → (⟨S40000x128, .f32⟩ : BufTy).Contents (Elt F) → (⟨S40000x128, .f32⟩ : BufTy).Contents (Elt F)),
    binary main_arg0 main_v83 main_v84 (addf : (⟨S40000x128, .f32⟩ : BufTy).Contents (Elt F) → (⟨S40000x128, .f32⟩ : BufTy).Contents (Elt F) → (⟨S40000x128, .f32⟩ : BufTy).Contents (Elt F)) ]

/-- The coordinate network, the normalized relative positions, their segment sum, and the second result (27 operations, the gate function's nine in their place). -/
abbrev ops1d : List (HloOp τ sig (Elt F)) :=
  [ binary main_v58 main_arg11 main_v85 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg12 main_v86 (broadcastInDim S1x128 ![1] bcast_S128_S1x128_1 : (⟨S128, .f32⟩ : BufTy).Contents (Elt F) → (⟨S1x128, .f32⟩ : BufTy).Contents (Elt F)),
    unary main_v86 main_v87 (broadcastInDim S640000x128 ![0, 1] bcast_S1x128_S640000x128_0_1 : (⟨S1x128, .f32⟩ : BufTy).Contents (Elt F) → (⟨S640000x128, .f32⟩ : BufTy).Contents (Elt F)),
    binary main_v85 main_v87 main_v88 (addf : (⟨S640000x128, .f32⟩ : BufTy).Contents (Elt F) → (⟨S640000x128, .f32⟩ : BufTy).Contents (Elt F) → (⟨S640000x128, .f32⟩ : BufTy).Contents (Elt F)),
    TRef.unary (TRef.of (T := ⟨S640000x128, .f32⟩) main_v88) main_call3.v0 Host.negf,
    TRef.unary main_call3.v0 main_call3.v1 Host.exp,
    TRef.nullary main_call3.cst (constant S_ .f32 0x3F800000#32),
    TRef.unary main_call3.cst main_call3.v2 (broadcastInDim S640000x128 ![] bcast_S_S640000x128),
    TRef.binary main_call3.v2 main_call3.v1 main_call3.v3 addf,
    TRef.nullary main_call3.cst_0 (constant S_ .f32 0x3F800000#32),
    TRef.unary main_call3.cst_0 main_call3.v4 (broadcastInDim S640000x128 ![] bcast_S_S640000x128),
    TRef.binary main_call3.v4 main_call3.v3 main_call3.v5 Host.divf,
    TRef.binary (TRef.of (T := ⟨S640000x128, .f32⟩) main_v88) main_call3.v5 main_call3.v6 mulf,
    binary main_v89 main_arg13 main_v90 ((fun l r => Host.dotGeneral dot_S640000x128_S128x1_S640000x1_1_0_0_1_n_n none l r) : (⟨S640000x128, .f32⟩ : BufTy).Contents (Elt F) → (⟨S128x1, .f32⟩ : BufTy).Contents (Elt F) → (⟨S640000x1, .f32⟩ : BufTy).Contents (Elt F)),
    unary main_v90 main_v91 (Host.tanh : (⟨S640000x1, .f32⟩ : BufTy).Contents (Elt F) → (⟨S640000x1, .f32⟩ : BufTy).Contents (Elt F)),
    nullary main_cst_13 (constant S_ .f32 0x3F800000#32),
    unary main_cst_13 main_v92 (broadcastInDim S640000x1 ![] bcast_S_S640000x1 : (⟨S_, .f32⟩ : BufTy).Contents (Elt F) → (⟨S640000x1, .f32⟩ : BufTy).Contents (Elt F)),
    binary main_v38 main_v92 main_v93 (addf : (⟨S640000x1, .f32⟩ : BufTy).Contents (Elt F) → (⟨S640000x1, .f32⟩ : BufTy).Contents (Elt F) → (⟨S640000x1, .f32⟩ : BufTy).Contents (Elt F)),
    unary main_v93 main_v94 (broadcastInDim S640000x3 ![0, 1] bcast_S640000x1_S640000x3_0_1 : (⟨S640000x1, .f32⟩ : BufTy).Contents (Elt F) → (⟨S640000x3, .f32⟩ : BufTy).Contents (Elt F)),
    binary main_v32 main_v94 main_v95 (Host.divf : (⟨S640000x3, .f32⟩ : BufTy).Contents (Elt F) → (⟨S640000x3, .f32⟩ : BufTy).Contents (Elt F) → (⟨S640000x3, .f32⟩ : BufTy).Contents (Elt F)),
    unary main_v91 main_v96 (broadcastInDim S640000x3 ![0, 1] bcast_S640000x1_S640000x3_0_1 : (⟨S640000x1, .f32⟩ : BufTy).Contents (Elt F) → (⟨S640000x3, .f32⟩ : BufTy).Contents (Elt F)),
    binary main_v95 main_v96 main_v97 (mulf : (⟨S640000x3, .f32⟩ : BufTy).Contents (Elt F) → (⟨S640000x3, .f32⟩ : BufTy).Contents (Elt F) → (⟨S640000x3, .f32⟩ : BufTy).Contents (Elt F)),
    nullary main_cst_14 (constant S_ .f32 0x00000000#32),
    unary main_cst_14 main_v98 (broadcastInDim S40000x3 ![] bcast_S_S40000x3 : (⟨S_, .f32⟩ : BufTy).Contents (Elt F) → (⟨S40000x3, .f32⟩ : BufTy).Contents (Elt F)),
    unary main_v3 main_v99 (broadcastInDim S640000x1 ![0] bcast_S640000_S640000x1_0 : (⟨S640000, .i32⟩ : BufTy).Contents (Elt F) → (⟨S640000x1, .i32⟩ : BufTy).Contents (Elt F)),
    ternary main_v98 main_v99 main_v97 main_v100 ((fun x i u => Host.scatterAdd scatter_S40000x3_S640000x1_S640000x3_1_0_0_1 x i u) : (⟨S40000x3, .f32⟩ : BufTy).Contents (Elt F) → (⟨S640000x1, .i32⟩ : BufTy).Contents (Elt F) → (⟨S640000x3, .f32⟩ : BufTy).Contents (Elt F) → (⟨S40000x3, .f32⟩ : BufTy).Contents (Elt F)),
    binary main_arg1 main_v100 main_v101 (addf : (⟨S40000x3, .f32⟩ : BufTy).Contents (Elt F) → (⟨S40000x3, .f32⟩ : BufTy).Contents (Elt F) → (⟨S40000x3, .f32⟩ : BufTy).Contents (Elt F)) ]

/-- The second window's 91 operations. -/
abbrev ops1 : List (HloOp τ sig (Elt F)) := ops1a ++ (ops1b ++ (ops1c ++ ops1d))
/-- The whole program's 151 operations, in order (a called gate function's nine stand in its call's place). -/
abbrev ops : List (HloOp τ sig (Elt F)) := ops0 ++ ops1

set_option maxRecDepth 8192 in
set_option maxHeartbeats 4000000 in
theorem main_part0_eq (c : Dev nD) : main_part0 (F := F) c = seq ops0 := rfl

set_option maxRecDepth 8192 in
set_option maxHeartbeats 4000000 in
/-- The second window is its straight line: the gate functions' definitions unfolded at their four calls, and sequencing reassociated. -/
theorem main_part1_eq (c : Dev nD) : main_part1 (F := F) c = seq ops1 := by
  simp only [main_part1, fn_silu.body, fn_silu_0.body, ops1, seq_append, seq, bind_assoc, pure_bind]
  rfl

theorem main_eq (c : Dev nD) : main (F := F) c = seq ops := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., nullary_bufs_sub .., unary_bufs_sub .., binary_bufs_sub .., unary_bufs_sub .., binary_bufs_sub ..⟩

set_option maxRecDepth 8192 in
theorem ops1a_sub : (ops1a : List (HloOp τ sig (Elt F))).Forall fun op => op.bufs ⊆ tcRefs τ sig :=
  ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

set_option maxRecDepth 8192 in
theorem ops1b_sub : (ops1b : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub ..⟩

set_option maxRecDepth 8192 in
theorem ops1c_sub : (ops1c : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub ..⟩

set_option maxRecDepth 8192 in
theorem ops1d_sub : (ops1d : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., unary_bufs_sub .., binary_bufs_sub .., unary_bufs_sub .., binary_bufs_sub .., nullary_bufs_sub .., unary_bufs_sub .., unary_bufs_sub .., ternary_bufs_sub .., binary_bufs_sub ..⟩

theorem ops_sub : (ops : List (HloOp τ sig (Elt F))).Forall fun op => op.bufs ⊆ tcRefs τ sig :=
  List.forall_iff_forall_mem.mpr fun op h => by
    simp only [ops, ops1, List.mem_append] at h
    rcases h with h | h | h | h | h
    exacts [List.forall_iff_forall_mem.mp ops0_sub op h, List.forall_iff_forall_mem.mp ops1a_sub op h,
      List.forall_iff_forall_mem.mp ops1b_sub op h, List.forall_iff_forall_mem.mp ops1c_sub op h,
      List.forall_iff_forall_mem.mp ops1d_sub op h]

/-- The buffers that `ops0` writes. -/
abbrev ops0_W : List (Ref sig .tc) := [main_cst, main_v0, main_v1, main_v2, main_v3, main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24, main_c_5, main_v25, main_v26, main_c_6, main_v27, main_v28, main_v29, main_v30, main_v31, main_v32, main_v33, main_cst_7, main_v34, main_v35, main_cst_8, main_v36, main_v37, main_v38, main_v39, main_v40, main_v41, main_v42, main_v43, main_cst_9, main_v44, main_v45, main_v46, main_v47]
set_option maxRecDepth 8192 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `ops0` does not write keeps its contents through it. -/
theorem ops0_keep (V : Valuation τ sig (Elt F)) (r : Ref sig .tc) (h : r ∉ ops0_W) :
    after ops0 V (no_index (Proc.devRef .tc r)) = V (Proc.devRef .tc r) :=
  after_of_writes_sub ops0 V ops0_writes h
set_option maxRecDepth 8192 in
theorem ops0_fresh : ∀ op ∈ (ops0 : List (HloOp τ sig (Elt F))), op.fresh = ∅ := by
  intro _ h; (repeat (cases h with | head => rfl | tail _ h => ?_)); exact nomatch h

/-- The buffers that `ops1a` writes. -/
abbrev ops1a_W : List (Ref sig .tc) := [main_v48, main_v49, main_v50, main_v51, main_v52, main_call0_v0, main_call0_v1, main_call0_cst, main_call0_v2, main_call0_v3, main_call0_cst_0, main_call0_v4, main_call0_v5, main_v53, main_v54, main_v55, main_v56, main_v57, main_call1_v0, main_call1_v1, main_call1_cst, main_call1_v2, main_call1_v3, main_call1_cst_0, main_call1_v4, main_call1_v5, main_v58]
set_option maxRecDepth 8192 in
theorem ops1a_writes : (ops1a : List (HloOp τ sig (Elt F))).Forall fun op => op.writes ⊆ (ops1a_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `ops1a` does not write keeps its contents through it. -/
theorem ops1a_keep (V : Valuation τ sig (Elt F)) (r : Ref sig .tc) (h : r ∉ ops1a_W) :
    after ops1a V (no_index (Proc.devRef .tc r)) = V (Proc.devRef .tc r) :=
  after_of_writes_sub ops1a V ops1a_writes h
set_option maxRecDepth 8192 in
theorem ops1a_fresh : ∀ op ∈ (ops1a : List (HloOp τ sig (Elt F))), op.fresh = ∅ := by
  intro _ h; (repeat (cases h with | head => rfl | tail _ h => ?_)); exact nomatch h

/-- The buffers that `ops1b` writes. -/
abbrev ops1b_W : List (Ref sig .tc) := [main_v59, main_v60, main_v61, main_v62, main_v63, main_v64, main_cst_10, main_v65, main_v66, main_cst_11, main_v67, main_v68, main_v69, main_v70, main_cst_12, main_v71, main_v72, main_v73]
set_option maxRecDepth 8192 in
theorem ops1b_writes : (ops1b : List (HloOp τ sig (Elt F))).Forall fun op => op.writes ⊆ (ops1b_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `ops1b` does not write keeps its contents through it. -/
theorem ops1b_keep (V : Valuation τ sig (Elt F)) (r : Ref sig .tc) (h : r ∉ ops1b_W) :
    after ops1b V (no_index (Proc.devRef .tc r)) = V (Proc.devRef .tc r) :=
  after_of_writes_sub ops1b V ops1b_writes h
set_option maxRecDepth 8192 in
theorem ops1b_fresh : ∀ op ∈ (ops1b : List (HloOp τ sig (Elt F))), op.fresh = ∅ := by
  intro _ h; (repeat (cases h with | head => rfl | tail _ h => ?_)); exact nomatch h

/-- The buffers that `ops1c` writes. -/
abbrev ops1c_W : List (Ref sig .tc) := [main_v74, main_v75, main_v76, main_v77, main_v78, main_call2_v0, main_call2_v1, main_call2_cst, main_call2_v2, main_call2_v3, main_call2_cst_0, main_call2_v4, main_call2_v5, main_v79, main_v80, main_v81, main_v82, main_v83, main_v84]
set_option maxRecDepth 8192 in
theorem ops1c_writes : (ops1c : List (HloOp τ sig (Elt F))).Forall fun op => op.writes ⊆ (ops1c_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `ops1c` does not write keeps its contents through it. -/
theorem ops1c_keep (V : Valuation τ sig (Elt F)) (r : Ref sig .tc) (h : r ∉ ops1c_W) :
    after ops1c V (no_index (Proc.devRef .tc r)) = V (Proc.devRef .tc r) :=
  after_of_writes_sub ops1c V ops1c_writes h
set_option maxRecDepth 8192 in
theorem ops1c_fresh : ∀ op ∈ (ops1c : List (HloOp τ sig (Elt F))), op.fresh = ∅ := by
  intro _ h; (repeat (cases h with | head => rfl | tail _ h => ?_)); exact nomatch h

/-- The buffers that `ops1d` writes. -/
abbrev ops1d_W : List (Ref sig .tc) := [main_v85, main_v86, main_v87, main_v88, main_call3_v0, main_call3_v1, main_call3_cst, main_call3_v2, main_call3_v3, main_call3_cst_0, main_call3_v4, main_call3_v5, main_v89, main_v90, main_v91, main_cst_13, main_v92, main_v93, main_v94, main_v95, main_v96, main_v97, main_cst_14, main_v98, main_v99, main_v100, main_v101]
set_option maxRecDepth 8192 in
theorem ops1d_writes : (ops1d : List (HloOp τ sig (Elt F))).Forall fun op => op.writes ⊆ (ops1d_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `ops1d` does not write keeps its contents through it. -/
theorem ops1d_keep (V : Valuation τ sig (Elt F)) (r : Ref sig .tc) (h : r ∉ ops1d_W) :
    after ops1d V (no_index (Proc.devRef .tc r)) = V (Proc.devRef .tc r) :=
  after_of_writes_sub ops1d V ops1d_writes h
set_option maxRecDepth 8192 in
theorem ops1d_fresh : ∀ op ∈ (ops1d : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, ops1, List.mem_append] at h
  rcases h with h | h | h | h | h
  exacts [ops0_fresh op h, ops1a_fresh op h, ops1b_fresh op h, ops1c_fresh op h, ops1d_fresh op h]

/-! ## The contents after each stretch -/

/-- The device's buffer contents after `ops0`, from contents `V`. -/
def run0 (V : Valuation τ sig (Elt F)) : Valuation τ sig (Elt F) := after ops0 V
/-- A buffer that `ops0` does not write keeps its contents through it. -/
theorem run0_keep (V : Valuation τ sig (Elt F)) (r : Ref sig .tc) (h : r ∉ ops0_W) :
    run0 V (no_index (Proc.devRef .tc r)) = V (Proc.devRef .tc r) := ops0_keep V r h
/-- The device's buffer contents after `ops1a`, from contents `V`. -/
def run1a (V : Valuation τ sig (Elt F)) : Valuation τ sig (Elt F) := after ops1a V
/-- A buffer that `ops1a` does not write keeps its contents through it. -/
theorem run1a_keep (V : Valuation τ sig (Elt F)) (r : Ref sig .tc) (h : r ∉ ops1a_W) :
    run1a V (no_index (Proc.devRef .tc r)) = V (Proc.devRef .tc r) := ops1a_keep V r h
/-- The device's buffer contents after `ops1b`, from contents `V`. -/
def run1b (V : Valuation τ sig (Elt F)) : Valuation τ sig (Elt F) := after ops1b V
/-- A buffer that `ops1b` does not write keeps its contents through it. -/
theorem run1b_keep (V : Valuation τ sig (Elt F)) (r : Ref sig .tc) (h : r ∉ ops1b_W) :
    run1b V (no_index (Proc.devRef .tc r)) = V (Proc.devRef .tc r) := ops1b_keep V r h
/-- The device's buffer contents after `ops1c`, from contents `V`. -/
def run1c (V : Valuation τ sig (Elt F)) : Valuation τ sig (Elt F) := after ops1c V
/-- A buffer that `ops1c` does not write keeps its contents through it. -/
theorem run1c_keep (V : Valuation τ sig (Elt F)) (r : Ref sig .tc) (h : r ∉ ops1c_W) :
    run1c V (no_index (Proc.devRef .tc r)) = V (Proc.devRef .tc r) := ops1c_keep V r h
/-- The device's buffer contents after `ops1d`, from contents `V`. -/
def run1d (V : Valuation τ sig (Elt F)) : Valuation τ sig (Elt F) := after ops1d V
/-- A buffer that `ops1d` does not write keeps its contents through it. -/
theorem run1d_keep (V : Valuation τ sig (Elt F)) (r : Ref sig .tc) (h : r ∉ ops1d_W) :
    run1d V (no_index (Proc.devRef .tc r)) = V (Proc.devRef .tc r) := ops1d_keep V r h

/-- The whole line is its five stretches, one after the other. -/
theorem after_ops (V : Valuation τ sig (Elt F)) : after ops V = run1d (run1c (run1b (run1a (run0 V)))) := by
  show after (ops0 ++ (ops1a ++ (ops1b ++ (ops1c ++ ops1d)))) V = _
  rw [after_append, after_append, after_append, after_append]
  rfl

/-- A buffer that no stretch writes keeps its contents through the whole line. -/
theorem ops_keep (V : Valuation τ sig (Elt F)) (r : Ref sig .tc) (h0 : r ∉ ops0_W) (h1 : r ∉ ops1a_W) (h2 : r ∉ ops1b_W)
    (h3 : r ∉ ops1c_W) (h4 : r ∉ ops1d_W) : after ops V (Proc.devRef .tc r) = V (Proc.devRef .tc r) := by
  rw [after_ops]
  exact (run1d_keep _ r h4).trans ((run1c_keep _ r h3).trans ((run1b_keep _ r h2).trans ((run1a_keep _ r h1).trans (run0_keep _ r h0))))

/-! ## What each stretch computes, from any contents -/

set_option maxRecDepth 8192 in
set_option maxHeartbeats 4000000 in
theorem run0_v3 (V : Valuation τ sig (Elt Ideal)) :
    run0 V (no_index (Proc.devRef .tc main_v3)) = val_v3 (V (Proc.devRef .tc main_arg2) : IVec S2x640000 32) := by
  unfold run0
  after_results_simp
  rfl
set_option maxRecDepth 8192 in
set_option maxHeartbeats 4000000 in
theorem run0_v10 (V : Valuation τ sig (Elt Ideal)) :
    run0 V (no_index (Proc.devRef .tc main_v10)) = val_v10 (V (Proc.devRef .tc main_arg0) : FVec Ideal S40000x128 .f32) (V (Proc.devRef .tc main_arg2) : IVec S2x640000 32) := by
  unfold run0
  after_results_simp
  rfl
set_option maxRecDepth 8192 in
set_option maxHeartbeats 4000000 in
theorem run0_v17 (V : Valuation τ sig (Elt Ideal)) :
    run0 V (no_index (Proc.devRef .tc main_v17)) = val_v17 (V (Proc.devRef .tc main_arg0) : FVec Ideal S40000x128 .f32) (V (Proc.devRef .tc main_arg2) : IVec S2x640000 32) := by
  unfold run0
  after_results_simp
  rfl
set_option maxRecDepth 8192 in
set_option maxHeartbeats 4000000 in
theorem run0_v32 (V : Valuation τ sig (Elt Ideal)) :
    run0 V (no_index (Proc.devRef .tc main_v32)) = val_v32 (V (Proc.devRef .tc main_arg1) : FVec Ideal S40000x3 .f32) (V (Proc.devRef .tc main_arg2) : IVec S2x640000 32) := by
  unfold run0
  after_results_simp
  rfl
set_option maxRecDepth 8192 in
set_option maxHeartbeats 4000000 in
theorem run0_v38 (V : Valuation τ sig (Elt Ideal)) :
    run0 V (no_index (Proc.devRef .tc main_v38)) = val_v38 (V (Proc.devRef .tc main_arg1) : FVec Ideal S40000x3 .f32) (V (Proc.devRef .tc main_arg2) : IVec S2x640000 32) := by
  unfold run0
  after_results_simp
  rfl
set_option maxRecDepth 8192 in
set_option maxHeartbeats 4000000 in
theorem run0_v47 (V : Valuation τ sig (Elt Ideal)) :
    run0 V (no_index (Proc.devRef .tc main_v47)) = joinEdge (val_v46 (V (Proc.devRef .tc main_arg1) : FVec Ideal S40000x3 .f32) (V (Proc.devRef .tc main_arg2) : IVec S2x640000 32)) (V (Proc.devRef .tc main_arg4) : FVec Ideal S640000x8 .f32) := by
  unfold run0
  after_results_simp
  rfl
set_option maxRecDepth 8192 in
set_option maxHeartbeats 4000000 in
theorem run1a_v58 (V : Valuation τ sig (Elt Ideal)) :
    run1a V (no_index (Proc.devRef .tc main_v58)) = siluE (addf (Host.dotGeneral (φ₁ := .f32) (φ₂ := .f32) dot_S640000x128_S128x128_S640000x128_1_0_0_1_n_n none
        (siluE (addf (Host.dotGeneral (φ₁ := .f32) (φ₂ := .f32) dot_S640000x284_S284x128_S640000x128_1_0_0_1_n_n none
          (joinIn (V (Proc.devRef .tc main_v10) : FVec Ideal S640000x128 .f32) (V (Proc.devRef .tc main_v17) : FVec Ideal S640000x128 .f32) (V (Proc.devRef .tc main_v47) : FVec Ideal S640000x28 .f32)) (V (Proc.devRef .tc main_arg5) : FVec Ideal S284x128 .f32)) (biasE (V (Proc.devRef .tc main_arg6) : FVec Ideal S128 .f32))))
        (V (Proc.devRef .tc main_arg7) : FVec Ideal S128x128 .f32)) (biasE (V (Proc.devRef .tc main_arg8) : FVec Ideal S128 .f32))) := by
  unfold run1a
  after_results_simp
  rfl
set_option maxRecDepth 8192 in
set_option maxHeartbeats 4000000 in
theorem run1b_v73 (V : Valuation τ sig (Elt Ideal)) :
    run1b V (no_index (Proc.devRef .tc main_v73)) = Host.scatterAdd scatter_S40000x128_S640000x1_S640000x128_1_0_0_1 (broadcastInDim S40000x128 ![] bcast_S_S40000x128 (constant S_ .f32 0x00000000#32))
        (broadcastInDim S640000x1 ![0] bcast_S640000_S640000x1_0 (V (Proc.devRef .tc main_v3) : IVec S640000 32)) (val_v70 (V (Proc.devRef .tc main_v58) : FVec Ideal S640000x128 .f32) (V (Proc.devRef .tc main_arg9) : FVec Ideal S128x1 .f32) (V (Proc.devRef .tc main_arg10) : FVec Ideal S1 .f32)) := by
  unfold run1b
  after_results_simp
  rfl
set_option maxRecDepth 8192 in
set_option maxHeartbeats 4000000 in
theorem run1c_v84 (V : Valuation τ sig (Elt Ideal)) :
    run1c V (no_index (Proc.devRef .tc main_v84)) = addf (V (Proc.devRef .tc main_arg0) : FVec Ideal S40000x128 .f32) (val_v83 (V (Proc.devRef .tc main_arg0) : FVec Ideal S40000x128 .f32) (V (Proc.devRef .tc main_v73) : FVec Ideal S40000x128 .f32) (V (Proc.devRef .tc main_arg14) : FVec Ideal S256x128 .f32) (V (Proc.devRef .tc main_arg15) : FVec Ideal S128 .f32) (V (Proc.devRef .tc main_arg16) : FVec Ideal S128x128 .f32) (V (Proc.devRef .tc main_arg17) : FVec Ideal S128 .f32)) := by
  unfold run1c
  after_results_simp
  rfl
set_option maxRecDepth 8192 in
set_option maxHeartbeats 4000000 in
theorem run1d_v101 (V : Valuation τ sig (Elt Ideal)) :
    run1d V (no_index (Proc.devRef .tc main_v101)) = addf (V (Proc.devRef .tc main_arg1) : FVec Ideal S40000x3 .f32) (Host.scatterAdd scatter_S40000x3_S640000x1_S640000x3_1_0_0_1 (broadcastInDim S40000x3 ![] bcast_S_S40000x3 (constant S_ .f32 0x00000000#32))
        (broadcastInDim S640000x1 ![0] bcast_S640000_S640000x1_0 (V (Proc.devRef .tc main_v3) : IVec S640000 32))
        (mulf (Host.divf (V (Proc.devRef .tc main_v32) : FVec Ideal S640000x3 .f32) (broadcastInDim S640000x3 ![0, 1] bcast_S640000x1_S640000x3_0_1
            (addf (V (Proc.devRef .tc main_v38) : FVec Ideal S640000x1 .f32) (broadcastInDim S640000x1 ![] bcast_S_S640000x1 (constant S_ .f32 0x3F800000#32)))))
          (broadcastInDim S640000x3 ![0, 1] bcast_S640000x1_S640000x3_0_1 (val_v91 (V (Proc.devRef .tc main_v58) : FVec Ideal S640000x128 .f32) (V (Proc.devRef .tc main_arg11) : FVec Ideal S128x128 .f32) (V (Proc.devRef .tc main_arg12) : FVec Ideal S128 .f32) (V (Proc.devRef .tc main_arg13) : FVec Ideal S128x1 .f32))))) := by
  unfold run1d
  after_results_simp
  rfl
/-! ## The two results, from any contents -/

set_option maxRecDepth 8192 in
set_option maxHeartbeats 4000000 in
/-- The first result buffer after the whole line: the new node features. -/
theorem after_v84 (V : Valuation τ sig (Elt Ideal)) :
    after (ops (F := Ideal)) V (Proc.devRef .tc main_v84)
      = res84 (V (Proc.devRef .tc main_arg0) : FVec Ideal S40000x128 .f32) (V (Proc.devRef .tc main_arg1) : FVec Ideal S40000x3 .f32) (V (Proc.devRef .tc main_arg2) : IVec S2x640000 32) (V (Proc.devRef .tc main_arg4) : FVec Ideal S640000x8 .f32) (V (Proc.devRef .tc main_arg5) : FVec Ideal S284x128 .f32) (V (Proc.devRef .tc main_arg6) : FVec Ideal S128 .f32) (V (Proc.devRef .tc main_arg7) : FVec Ideal S128x128 .f32) (V (Proc.devRef .tc main_arg8) : FVec Ideal S128 .f32) (V (Proc.devRef .tc main_arg9) : FVec Ideal S128x1 .f32) (V (Proc.devRef .tc main_arg10) : FVec Ideal S1 .f32) (V (Proc.devRef .tc main_arg14) : FVec Ideal S256x128 .f32) (V (Proc.devRef .tc main_arg15) : FVec Ideal S128 .f32) (V (Proc.devRef .tc main_arg16) : FVec Ideal S128x128 .f32) (V (Proc.devRef .tc main_arg17) : FVec Ideal S128 .f32) := by
  rw [after_ops]
  simp (disch := decide) only [run1c_v84, run1b_v73, run1a_v58, run0_v3, run0_v10, run0_v17, run0_v47, run0_keep, run1a_keep, run1b_keep, run1c_keep, run1d_keep]
  rfl

set_option maxRecDepth 8192 in
set_option maxHeartbeats 4000000 in
/-- The second result buffer after the whole line: the new node coordinates. -/
theorem after_v101 (V : Valuation τ sig (Elt Ideal)) :
    after (ops (F := Ideal)) V (Proc.devRef .tc main_v101)
      = res101 (V (Proc.devRef .tc main_arg0) : FVec Ideal S40000x128 .f32) (V (Proc.devRef .tc main_arg1) : FVec Ideal S40000x3 .f32) (V (Proc.devRef .tc main_arg2) : IVec S2x640000 32) (V (Proc.devRef .tc main_arg4) : FVec Ideal S640000x8 .f32) (V (Proc.devRef .tc main_arg5) : FVec Ideal S284x128 .f32) (V (Proc.devRef .tc main_arg6) : FVec Ideal S128 .f32) (V (Proc.devRef .tc main_arg7) : FVec Ideal S128x128 .f32) (V (Proc.devRef .tc main_arg8) : FVec Ideal S128 .f32) (V (Proc.devRef .tc main_arg11) : FVec Ideal S128x128 .f32) (V (Proc.devRef .tc main_arg12) : FVec Ideal S128 .f32) (V (Proc.devRef .tc main_arg13) : FVec Ideal S128x1 .f32) := by
  rw [after_ops]
  simp (disch := decide) only [run1d_v101, run1a_v58, run0_v3, run0_v10, run0_v17, run0_v32, run0_v38, run0_v47, run0_keep, run1a_keep, run1b_keep, run1c_keep, run1d_keep]
  rfl

/-! ## The run -/

/-- From any memory with zero counters, every weakly fair execution of the idealized reference terminates with the
    two results at the layer's stage functions of the argument arrays, and every argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v84)
          = res84 (m ((c.tc : Thread nD τ).loc main_arg0) : FVec Ideal S40000x128 .f32) (m ((c.tc : Thread nD τ).loc main_arg1) : FVec Ideal S40000x3 .f32) (m ((c.tc : Thread nD τ).loc main_arg2) : IVec S2x640000 32) (m ((c.tc : Thread nD τ).loc main_arg4) : FVec Ideal S640000x8 .f32) (m ((c.tc : Thread nD τ).loc main_arg5) : FVec Ideal S284x128 .f32) (m ((c.tc : Thread nD τ).loc main_arg6) : FVec Ideal S128 .f32) (m ((c.tc : Thread nD τ).loc main_arg7) : FVec Ideal S128x128 .f32) (m ((c.tc : Thread nD τ).loc main_arg8) : FVec Ideal S128 .f32) (m ((c.tc : Thread nD τ).loc main_arg9) : FVec Ideal S128x1 .f32) (m ((c.tc : Thread nD τ).loc main_arg10) : FVec Ideal S1 .f32) (m ((c.tc : Thread nD τ).loc main_arg14) : FVec Ideal S256x128 .f32) (m ((c.tc : Thread nD τ).loc main_arg15) : FVec Ideal S128 .f32) (m ((c.tc : Thread nD τ).loc main_arg16) : FVec Ideal S128x128 .f32) (m ((c.tc : Thread nD τ).loc main_arg17) : FVec Ideal S128 .f32)
        ∧ r.2.mem ((c.tc : Thread nD τ).loc main_v101)
          = res101 (m ((c.tc : Thread nD τ).loc main_arg0) : FVec Ideal S40000x128 .f32) (m ((c.tc : Thread nD τ).loc main_arg1) : FVec Ideal S40000x3 .f32) (m ((c.tc : Thread nD τ).loc main_arg2) : IVec S2x640000 32) (m ((c.tc : Thread nD τ).loc main_arg4) : FVec Ideal S640000x8 .f32) (m ((c.tc : Thread nD τ).loc main_arg5) : FVec Ideal S284x128 .f32) (m ((c.tc : Thread nD τ).loc main_arg6) : FVec Ideal S128 .f32) (m ((c.tc : Thread nD τ).loc main_arg7) : FVec Ideal S128x128 .f32) (m ((c.tc : Thread nD τ).loc main_arg8) : FVec Ideal S128 .f32) (m ((c.tc : Thread nD τ).loc main_arg11) : FVec Ideal S128x128 .f32) (m ((c.tc : Thread nD τ).loc main_arg12) : FVec Ideal S128 .f32) (m ((c.tc : Thread nD τ).loc main_arg13) : FVec Ideal S128x1 .f32))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17))) :=
  (θ_run defs _ _).mono (fun _ h c => ⟨⟨(h c main_v84).trans (after_v84 (launchContents m c)),
        (h c main_v101).trans (after_v101 (launchContents m c))⟩,
      (h c main_arg0).trans (ops_keep _ main_arg0 (by decide) (by decide) (by decide) (by decide) (by decide)),
      (h c main_arg1).trans (ops_keep _ main_arg1 (by decide) (by decide) (by decide) (by decide) (by decide)),
      (h c main_arg2).trans (ops_keep _ main_arg2 (by decide) (by decide) (by decide) (by decide) (by decide)),
      (h c main_arg3).trans (ops_keep _ main_arg3 (by decide) (by decide) (by decide) (by decide) (by decide)),
      (h c main_arg4).trans (ops_keep _ main_arg4 (by decide) (by decide) (by decide) (by decide) (by decide)),
      (h c main_arg5).trans (ops_keep _ main_arg5 (by decide) (by decide) (by decide) (by decide) (by decide)),
      (h c main_arg6).trans (ops_keep _ main_arg6 (by decide) (by decide) (by decide) (by decide) (by decide)),
      (h c main_arg7).trans (ops_keep _ main_arg7 (by decide) (by decide) (by decide) (by decide) (by decide)),
      (h c main_arg8).trans (ops_keep _ main_arg8 (by decide) (by decide) (by decide) (by decide) (by decide)),
      (h c main_arg9).trans (ops_keep _ main_arg9 (by decide) (by decide) (by decide) (by decide) (by decide)),
      (h c main_arg10).trans (ops_keep _ main_arg10 (by decide) (by decide) (by decide) (by decide) (by decide)),
      (h c main_arg11).trans (ops_keep _ main_arg11 (by decide) (by decide) (by decide) (by decide) (by decide)),
      (h c main_arg12).trans (ops_keep _ main_arg12 (by decide) (by decide) (by decide) (by decide) (by decide)),
      (h c main_arg13).trans (ops_keep _ main_arg13 (by decide) (by decide) (by decide) (by decide) (by decide)),
      (h c main_arg14).trans (ops_keep _ main_arg14 (by decide) (by decide) (by decide) (by decide) (by decide)),
      (h c main_arg15).trans (ops_keep _ main_arg15 (by decide) (by decide) (by decide) (by decide) (by decide)),
      (h c main_arg16).trans (ops_keep _ main_arg16 (by decide) (by decide) (by decide) (by decide) (by decide)),
      (h c main_arg17).trans (ops_keep _ main_arg17 (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.Ref.ReadOps.lean ====
/- The reference's operations read at one index: the index words, the wrapped lookups, the row gathers, the broadcast
   biases, the logistic expansions and the matrix products as plain sums. -/
import proofs.«418897_j48576080117843_2_alg».proof.Proof.Ref.Vals
import proofs.«418897_j48576080117843_2_alg».proof.Proof.Layer
import Idealize.ShloMosaic.Lib.Pipeline.Value
import Idealize.ShloMosaic.Lib.IdealHost
import Idealize.ShloMosaic.Lib.StackMember

noncomputable section

namespace Cert.ReferenceIdeal.Hand

open Cert.ReferenceIdeal Idealize.ShloMosaic Idealize.ShloMosaic.ValueIdx Idealize.SL.Sem Cert.ScatterGather
open scoped BigOperators

/-! ## The index words -/

/-- Edge e's sender word is entry (0, e) of the edge index. -/
theorem val_v1_apply (a2 : IVec S2x640000 32) (e : Fin 640000) : val_v1 a2 (ix1 e) = a2 (ix2 0 e) := by
  unfold val_v1
  rw [shapeCast_apply _ _ (ix1 e) (ix2 (0 : Fin 1) e) (by
        rw [Shape.rowMajor_val_two, Shape.rowMajor_val_one]
        show (0 : Nat) * 640000 + e.val = e.val
        omega)]
  refine extractStridedSlice_apply _ _ _ _ (ix2 (0 : Fin 2) e) fun a => ?_
  match a with
  | ⟨0, _⟩ => rfl
  | ⟨1, _⟩ => show e.val = 0 + e.val; omega

/-- Edge e's receiver word is entry (1, e) of the edge index. -/
theorem val_v3_apply (a2 : IVec S2x640000 32) (e : Fin 640000) : val_v3 a2 (ix1 e) = a2 (ix2 1 e) := by
  unfold val_v3
  rw [shapeCast_apply _ _ (ix1 e) (ix2 (0 : Fin 1) e) (by
        rw [Shape.rowMajor_val_two, Shape.rowMajor_val_one]
        show (0 : Nat) * 640000 + e.val = e.val
        omega)]
  refine extractStridedSlice_apply _ _ _ _ (ix2 (1 : Fin 2) e) fun a => ?_
  match a with
  | ⟨0, _⟩ => rfl
  | ⟨1, _⟩ => show e.val = 0 + e.val; omega

/-- One lane of the wrap: the select on "the word is negative" is the if. -/
theorem wrap_lane (w : BitVec 32) :
    Scalar.select (IntOp.cmpi .slt w 0#32) (IntOp.addi w 40000#32) w = Cert.Layer.wrapW w := by
  unfold Cert.Layer.wrapW Scalar.select IntOp.cmpi IntOp.addi
  cases h : w.slt 0#32 <;> simp [h]

/-- The index column at edge e is the wrapped word. -/
theorem wrapIdx_apply (w : IVec S640000 32) (e : Fin 640000) :
    wrapIdx w (ix2 e 0) = Cert.Layer.wrapW (w (ix1 e)) := by
  unfold wrapIdx
  rw [broadcastInDim_apply _ _ _ (ix2 e 0) (ix1 e) (fun a => by match a with | ⟨0, _⟩ => rfl)]
  exact wrap_lane (w (ix1 e))

/-! ## The row gathers -/

/-- A feature-row lookup by the index column: the row the wrapped word names. -/
theorem gather128_apply (x : FVec Ideal S40000x128 .f32) (w : IVec S640000 32) (e : Fin 640000) (k : Fin 128) :
    Host.gather gather_S40000x128_S640000x1_S640000x128_1_0_n_n_0_1_1128 x (wrapIdx w) (ix2 e k)
      = x (ix2 (Cert.Layer.rowOf (w (ix1 e))) k) := by
  rw [gather_rows_apply (by decide : 0 < 40000) _ rfl rfl rfl rfl rfl rfl rfl x (wrapIdx w) e k, wrapIdx_apply]
  rfl

/-- A coordinate-row lookup by the index column. -/
theorem gather3_apply (x : FVec Ideal S40000x3 .f32) (w : IVec S640000 32) (e : Fin 640000) (d : Fin 3) :
    Host.gather gather_S40000x3_S640000x1_S640000x3_1_0_n_n_0_1_13 x (wrapIdx w) (ix2 e d)
      = x (ix2 (Cert.Layer.rowOf (w (ix1 e))) d) := by
  rw [gather_rows_apply (by decide : 0 < 40000) _ rfl rfl rfl rfl rfl rfl rfl x (wrapIdx w) e d, wrapIdx_apply]
  rfl

/-! ## Broadcasts -/

/-- A bias row under every edge reads its column's entry. -/
theorem biasE_apply (b : FVec Ideal S128 .f32) (e : Fin 640000) (j : Fin 128) : biasE b (ix2 e j) = b (ix1 j) := by
  unfold biasE
  rw [broadcastInDim_apply _ _ _ (ix2 e j) (ix2 (0 : Fin 1) j) (fun a => by match a with | ⟨0, _⟩ => rfl | ⟨1, _⟩ => rfl),
    broadcastInDim_apply _ _ _ (ix2 (0 : Fin 1) j) (ix1 j) (fun a => by match a with | ⟨0, _⟩ => rfl)]

/-- A bias row under every node reads its column's entry. -/
theorem biasN_apply (b : FVec Ideal S128 .f32) (n : Fin 40000) (j : Fin 128) : biasN b (ix2 n j) = b (ix1 j) := by
  unfold biasN
  rw [broadcastInDim_apply _ _ _ (ix2 n j) (ix2 (0 : Fin 1) j) (fun a => by match a with | ⟨0, _⟩ => rfl | ⟨1, _⟩ => rfl),
    broadcastInDim_apply _ _ _ (ix2 (0 : Fin 1) j) (ix1 j) (fun a => by match a with | ⟨0, _⟩ => rfl)]

/-- A column spread over 128 lanes reads the column. -/
theorem colE128_apply (x : FVec Ideal S640000x1 .f32) (e : Fin 640000) (j : Fin 128) :
    broadcastInDim S640000x128 ![0, 1] Gen.bcast_S640000x1_S640000x128_0_1 x (ix2 e j) = x (ix2 e 0) :=
  broadcastInDim_apply _ _ _ (ix2 e j) (ix2 e 0) (fun a => by match a with | ⟨0, _⟩ => rfl | ⟨1, _⟩ => rfl)

/-- A column spread over 3 lanes reads the column. -/
theorem colE3_apply (x : FVec Ideal S640000x1 .f32) (e : Fin 640000) (d : Fin 3) :
    broadcastInDim S640000x3 ![0, 1] Gen.bcast_S640000x1_S640000x3_0_1 x (ix2 e d) = x (ix2 e 0) :=
  broadcastInDim_apply _ _ _ (ix2 e d) (ix2 e 0) (fun a => by match a with | ⟨0, _⟩ => rfl | ⟨1, _⟩ => rfl)

/-- A column spread over 20 lanes reads the column. -/
theorem colE20_apply (x : FVec Ideal S640000x1 .f32) (e : Fin 640000) (k : Fin 20) :
    broadcastInDim S640000x20 ![0, 1] Gen.bcast_S640000x1_S640000x20_0_1 x (ix2 e k) = x (ix2 e 0) :=
  broadcastInDim_apply _ _ _ (ix2 e k) (ix2 e 0) (fun a => by match a with | ⟨0, _⟩ => rfl | ⟨1, _⟩ => rfl)

/-- A vector put on a column reads the vector. -/
theorem toCol_apply {α : Type} (x : S640000.Idx → α) (e : Fin 640000) :
    broadcastInDim S640000x1 ![0] Gen.bcast_S640000_S640000x1_0 x (ix2 e 0) = x (ix1 e) :=
  broadcastInDim_apply _ _ _ (ix2 e 0) (ix1 e) (fun a => by match a with | ⟨0, _⟩ => rfl)

/-- The offset table under every edge reads the table. -/
theorem offs_apply (t : FVec Ideal S20 .f32) (e : Fin 640000) (k : Fin 20) :
    broadcastInDim S640000x20 ![0, 1] Gen.bcast_S1x20_S640000x20_0_1 (broadcastInDim S1x20 ![1] Gen.bcast_S20_S1x20_1 t) (ix2 e k)
      = t (ix1 k) := by
  rw [broadcastInDim_apply _ _ _ (ix2 e k) (ix2 (0 : Fin 1) k) (fun a => by match a with | ⟨0, _⟩ => rfl | ⟨1, _⟩ => rfl),
    broadcastInDim_apply _ _ _ (ix2 (0 : Fin 1) k) (ix1 k) (fun a => by match a with | ⟨0, _⟩ => rfl)]

/-- The gate's bias under every edge reads the one entry. -/
theorem bias1_apply (b : FVec Ideal S1 .f32) (e : Fin 640000) :
    broadcastInDim S640000x1 ![0, 1] Gen.bcast_S1x1_S640000x1_0_1 (broadcastInDim S1x1 ![1] Gen.bcast_S1_S1x1_1 b) (ix2 e 0)
      = b (ix1 0) := by
  rw [broadcastInDim_apply _ _ _ (ix2 e 0) (ix2 (0 : Fin 1) (0 : Fin 1)) (fun a => by match a with | ⟨0, _⟩ => rfl | ⟨1, _⟩ => rfl),
    broadcastInDim_apply _ _ _ (ix2 (0 : Fin 1) (0 : Fin 1)) (ix1 0) (fun a => by match a with | ⟨0, _⟩ => rfl)]

/-! ## The logistic expansions -/

/-- 1 / (1 + exp (−v)) with the ones as their words is the logistic function. -/
theorem logistic_words (v : EReal) :
    Ideal.div (Ideal.ofBits .f32 0x3F800000#32) (Ideal.ofBits .f32 0x3F800000#32 + Ideal.exp (-v)) = Ideal.logistic v := by
  rw [Ideal.ofBits_one_f32]
  rfl

/-- The outlined activation on the edge-sized arrays at an index. -/
theorem siluE_apply (x : FVec Ideal S640000x128 .f32) (i : S640000x128.Idx) : siluE x i = Cert.Spec.silu (x i) := by
  show x i * Ideal.div (Ideal.ofBits .f32 0x3F800000#32) (Ideal.ofBits .f32 0x3F800000#32 + Ideal.exp (-(x i))) = _
  rw [logistic_words]
  rfl

/-- The outlined activation on the node-sized arrays at an index. -/
theorem siluN_apply (x : FVec Ideal S40000x128 .f32) (i : S40000x128.Idx) : siluN x i = Cert.Spec.silu (x i) := by
  show x i * Ideal.div (Ideal.ofBits .f32 0x3F800000#32) (Ideal.ofBits .f32 0x3F800000#32 + Ideal.exp (-(x i))) = _
  rw [logistic_words]
  rfl

/-! ## The matrix products as sums -/

theorem dot284_apply (l : FVec Ideal S640000x284 .f32) (r : FVec Ideal S284x128 .f32) (e : Fin 640000) (j : Fin 128) :
    Host.dotGeneral dot_S640000x284_S284x128_S640000x128_1_0_0_1_n_n none l r (ix2 e j)
      = ∑ k : Fin 284, l (ix2 e k) * r (ix2 k j) :=
  StackMember.dotGeneral_plain_apply (m := 640000) (n := 128) (k := 284) none l r e j

theorem dotE128_apply (l : FVec Ideal S640000x128 .f32) (r : FVec Ideal S128x128 .f32) (e : Fin 640000) (j : Fin 128) :
    Host.dotGeneral dot_S640000x128_S128x128_S640000x128_1_0_0_1_n_n none l r (ix2 e j)
      = ∑ k : Fin 128, l (ix2 e k) * r (ix2 k j) :=
  StackMember.dotGeneral_plain_apply (m := 640000) (n := 128) (k := 128) none l r e j

theorem dotE1_apply (l : FVec Ideal S640000x128 .f32) (r : FVec Ideal S128x1 .f32) (e : Fin 640000) :
    Host.dotGeneral dot_S640000x128_S128x1_S640000x1_1_0_0_1_n_n none l r (ix2 e 0)
      = ∑ k : Fin 128, l (ix2 e k) * r (ix2 k 0) :=
  StackMember.dotGeneral_plain_apply (m := 640000) (n := 1) (k := 128) none l r e 0

theorem dotN256_apply (l : FVec Ideal S40000x256 .f32) (r : FVec Ideal S256x128 .f32) (n : Fin 40000) (j : Fin 128) :
    Host.dotGeneral dot_S40000x256_S256x128_S40000x128_1_0_0_1_n_n none l r (ix2 n j)
      = ∑ k : Fin 256, l (ix2 n k) * r (ix2 k j) :=
  StackMember.dotGeneral_plain_apply (m := 40000) (n := 128) (k := 256) none l r n j

theorem dotN128_apply (l : FVec Ideal S40000x128 .f32) (r : FVec Ideal S128x128 .f32) (n : Fin 40000) (j : Fin 128) :
    Host.dotGeneral dot_S40000x128_S128x128_S40000x128_1_0_0_1_n_n none l r (ix2 n j)
      = ∑ k : Fin 128, l (ix2 n k) * r (ix2 k j) :=
  StackMember.dotGeneral_plain_apply (m := 40000) (n := 128) (k := 128) none l r n j

end Cert.ReferenceIdeal.Hand

end
-- ==== Proof.Ref.Args.lean ====
/- The layer's argument arrays as the idealized reference program's memory holds them on core c. -/
import proofs.«418897_j48576080117843_2_alg».proof.ReferenceIdeal
import proofs.«418897_j48576080117843_2_alg».proof.Proof.Layer

noncomputable section

namespace Cert.ReferenceIdeal.Hand

open Idealize.ShloMosaic Idealize.ShloMosaic.TcCoe Idealize.SL.Sem
open Cert.ReferenceIdeal

/-- The argument arrays in the memory m on core c. -/
def argsOf (m : (ℓ : Loc nD τ sig) → Buf (Elt Ideal) ℓ) (c : Dev nD) : Cert.Layer.Args where
  h := m ((c : Thread nD τ).loc main_arg0)
  x := m ((c : Thread nD τ).loc main_arg1)
  ei := m ((c : Thread nD τ).loc main_arg2)
  ea := m ((c : Thread nD τ).loc main_arg4)
  We1 := m ((c : Thread nD τ).loc main_arg5)
  be1 := m ((c : Thread nD τ).loc main_arg6)
  We2 := m ((c : Thread nD τ).loc main_arg7)
  be2 := m ((c : Thread nD τ).loc main_arg8)
  Winf := m ((c : Thread nD τ).loc main_arg9)
  binf := m ((c : Thread nD τ).loc main_arg10)
  Wx1 := m ((c : Thread nD τ).loc main_arg11)
  bx1 := m ((c : Thread nD τ).loc main_arg12)
  Wx2 := m ((c : Thread nD τ).loc main_arg13)
  Wn1 := m ((c : Thread nD τ).loc main_arg14)
  bn1 := m ((c : Thread nD τ).loc main_arg15)
  Wn2 := m ((c : Thread nD τ).loc main_arg16)
  bn2 := m ((c : Thread nD τ).loc main_arg17)

/-- The offset table of the radial features, as the program's literal table spells it. -/
def offR (k : Fin 20) : EReal := Ideal.ofBits .f32 (lit0 (S20.rowMajor (Idealize.ShloMosaic.ValueIdx.ix1 k)))

end Cert.ReferenceIdeal.Hand

end
-- ==== Proof.Ref.ReadEdge.lean ====
/- The reference's per-edge values read at an index: the rows, the distance features, the two hidden layers, the gate,
   the message and the coordinate contribution, as the layer's mathematics names them. -/
import proofs.«418897_j48576080117843_2_alg».proof.Proof.Ref.ReadOps
import proofs.«418897_j48576080117843_2_alg».proof.Proof.Ref.Args

noncomputable section

namespace Cert.ReferenceIdeal.Hand

open Cert.ReferenceIdeal Idealize.ShloMosaic Idealize.ShloMosaic.ValueIdx Idealize.SL.Sem Cert.ScatterGather
open scoped BigOperators

open Cert.Layer Cert.Spec

/-! ## The host's pointwise operations at an index -/

section Pointwise
variable {s : Shape}

theorem hostSqrt_apply (a : FVec Ideal s .f32) (i : s.Idx) : Host.sqrt a i = Ideal.sqrt (a i) := rfl
theorem hostExp_apply (a : FVec Ideal s .f32) (i : s.Idx) : Host.exp a i = Ideal.exp (a i) := rfl
theorem hostNegf_apply (a : FVec Ideal s .f32) (i : s.Idx) : Host.negf a i = -(a i) := rfl
theorem hostTanh_apply (a : FVec Ideal s .f32) (i : s.Idx) : Host.tanh a i = Ideal.tanh (a i) := rfl

/-- A constant word spread over a shape reads the word's value. -/
theorem splat_apply {T : Shape} (h : S_.BroadcastsInDim T ![]) (b : BitVec 32) (j : T.Idx) :
    broadcastInDim T ![] h (constant (F := Ideal) S_ .f32 b) j = Ideal.ofBits .f32 b := rfl

end Pointwise

/-- The reduced index e with coordinate d put back is (e, d). -/
theorem lift_row3 (h : S640000x3.Reduces [1] S640000) (e : Fin 640000) (d : Fin (S640000x3.size 1)) :
    h.lift (ix1 e) d = ix2 e (⟨d.val, d.isLt⟩ : Fin 3) := by
  funext c; apply Fin.ext
  fin_cases c <;> rfl

/-- The sum over a coordinate row, from the zero word. -/
theorem rowSum3_apply (x : FVec Ideal S640000x3 .f32) (e : Fin 640000) :
    Host.reduceAdd x (constant S_ .f32 0x00000000#32) Gen.reducesTo_S640000x3_S640000_d1 Gen.h_S_ (ix1 e)
      = Ideal.ofBits .f32 0x00000000#32 + ∑ d : Fin 3, x (ix2 e d) := by
  have h : S640000x3.Reduces [1] S640000 := by decide
  rw [hostReduceAdd_apply, Ideal.hostReduceAdd_single _ h, constant_apply]
  exact congrArg _ (Finset.sum_congr rfl fun d _ => congrArg x (lift_row3 h e d))

/-! ## One edge's rows and distances -/

variable (A : Cert.Layer.Args) (e : Fin 640000)

/-- The offsets table read at k. -/
theorem val_cst_apply (k : Fin 20) : val_cst (ix1 k) = offR k := rfl

theorem val_v10_apply (k : Fin 128) : val_v10 A.h A.ei (ix2 e k) = hi A e k := by
  unfold val_v10
  rw [gather128_apply, val_v3_apply]
  rfl

theorem val_v17_apply (k : Fin 128) : val_v17 A.h A.ei (ix2 e k) = hj A e k := by
  unfold val_v17
  rw [gather128_apply, val_v1_apply]
  rfl

theorem val_v24_apply (d : Fin 3) : val_v24 A.x A.ei (ix2 e d) = xi A e d := by
  unfold val_v24
  rw [gather3_apply, val_v3_apply]
  rfl

theorem val_v31_apply (d : Fin 3) : val_v31 A.x A.ei (ix2 e d) = xj A e d := by
  unfold val_v31
  rw [gather3_apply, val_v1_apply]
  rfl

theorem val_v32_apply (d : Fin 3) : val_v32 A.x A.ei (ix2 e d) = rel (xi A e) (xj A e) d := by
  unfold val_v32
  rw [subf_apply, val_v24_apply, val_v31_apply]
  rfl

theorem val_v34_apply : val_v34 A.x A.ei (ix1 e) = dsq (xi A e) (xj A e) := by
  unfold val_v34
  rw [rowSum3_apply]
  simp only [mulf_apply, val_v32_apply]
  rfl

theorem val_v38_apply : val_v38 A.x A.ei (ix2 e 0) = dist (xi A e) (xj A e) := by
  unfold val_v38
  rw [hostSqrt_apply, addf_apply, splat_apply, toCol_apply, val_v34_apply]
  rfl

theorem val_v42_apply (k : Fin 20) : val_v42 A.x A.ei (ix2 e k) = dist (xi A e) (xj A e) - offR k := by
  unfold val_v42
  rw [subf_apply, colE20_apply, offs_apply, val_v38_apply, val_cst_apply]

theorem val_v46_apply (k : Fin 20) : val_v46 A.x A.ei (ix2 e k) = dfeat offR (xi A e) (xj A e) k := by
  unfold val_v46
  rw [hostExp_apply, mulf_apply, mulf_apply, splat_apply, val_v42_apply]
  rfl

/-! ## Rows side by side -/

section Cat
variable {Na Nb Nc : Nat} (a : Fin Na → EReal) (b : Fin Nb → EReal) (c : Fin Nc → EReal)

theorem cat2_lo (k : Fin (Na + Nb)) (h : k.val < Na) : cat2 a b k = a ⟨k.val, h⟩ := by
  unfold cat2
  exact dif_pos h

theorem cat2_hi (k : Fin (Na + Nb)) (h : ¬ k.val < Na) : cat2 a b k = b ⟨k.val - Na, by omega⟩ := by
  unfold cat2
  exact dif_neg h

theorem cat3_lo (k : Fin (Na + Nb + Nc)) (h : k.val < Na) : cat3 a b c k = a ⟨k.val, h⟩ := by
  unfold cat3
  rw [cat2_lo _ _ k (by omega), cat2_lo a b _ h]

theorem cat3_mid (k : Fin (Na + Nb + Nc)) (h1 : ¬ k.val < Na) (h2 : k.val < Na + Nb) :
    cat3 a b c k = b ⟨k.val - Na, by omega⟩ := by
  unfold cat3
  rw [cat2_lo _ _ k h2, cat2_hi a b _ h1]

theorem cat3_hi (k : Fin (Na + Nb + Nc)) (h : ¬ k.val < Na + Nb) :
    cat3 a b c k = c ⟨k.val - (Na + Nb), by omega⟩ := by
  unfold cat3
  exact cat2_hi _ _ k h

end Cat

/-- The edge features at entry k: a radial feature, then an edge attribute. -/
theorem val_v47_apply (k : Fin 28) : val_v47 A.x A.ei A.ea (ix2 e k) = ef A offR e k := by
  have hk := k.isLt
  unfold val_v47 Cert.Layer.ef
  by_cases h : k.val < 20
  · rw [cat2_lo (dfeat offR (xi A e) (xj A e)) (row A.ea e) k h, concatenate_pair_apply_left (t := S640000x28) (s₁ := S640000x20) (s₂ := S640000x8) _ _ _ _ (ix2 e k) rfl (ix2 e (⟨k.val, h⟩ : Fin 20))
        (fun b => by match b with | ⟨0, _⟩ => rfl | ⟨1, _⟩ => rfl), val_v46_apply]
  · rw [cat2_hi (dfeat offR (xi A e) (xj A e)) (row A.ea e) k h, concatenate_pair_apply_right (t := S640000x28) (s₁ := S640000x20) (s₂ := S640000x8) _ _ _ _ (ix2 e k) rfl rfl (ix2 e (⟨k.val - 20, by omega⟩ : Fin 8))
        (fun b hb => by
          match b, hb with
          | ⟨0, _⟩, _ => rfl
          | ⟨1, _⟩, hb => exact absurd rfl hb)
        (by show (k.val - 20) + 20 = k.val; omega)]
    rfl

/-- The first layer's input at entry k: receiver features, sender features, edge features. -/
theorem val_v48_apply (k : Fin 284) :
    val_v48 A.h A.x A.ei A.ea (ix2 e k) = cat3 (hi A e) (hj A e) (ef A offR e) k := by
  have hk := k.isLt
  unfold val_v48
  by_cases h1 : k.val < 128
  · rw [cat3_lo (hi A e) (hj A e) (ef A offR e) k h1,
      concatenate_apply_piece _ _ _ (ix2 e k) 0 (by show 0 < 3; omega) S640000x128 (val_v10 A.h A.ei) rfl rfl 0 rfl
        (ix2 e (⟨k.val, h1⟩ : Fin 128))
        (fun b hb => by
          match b, hb with
          | ⟨0, _⟩, _ => rfl
          | ⟨1, _⟩, hb => exact absurd rfl hb)
        (by show 0 + k.val = k.val; omega), val_v10_apply]
  · by_cases h2 : k.val < 128 + 128
    · rw [cat3_mid (hi A e) (hj A e) (ef A offR e) k h1 h2,
        concatenate_apply_piece _ _ _ (ix2 e k) 1 (by show 1 < 3; omega) S640000x128 (val_v17 A.h A.ei) rfl rfl 128 rfl
          (ix2 e (⟨k.val - 128, by omega⟩ : Fin 128))
          (fun b hb => by
            match b, hb with
            | ⟨0, _⟩, _ => rfl
            | ⟨1, _⟩, hb => exact absurd rfl hb)
          (by show 128 + (k.val - 128) = k.val; omega), val_v17_apply]
    · rw [cat3_hi (hi A e) (hj A e) (ef A offR e) k h2,
        concatenate_apply_piece _ _ _ (ix2 e k) 2 (by show 2 < 3; omega) S640000x28 (val_v47 A.x A.ei A.ea) rfl rfl 256 rfl
          (ix2 e (⟨k.val - (128 + 128), by omega⟩ : Fin 28))
          (fun b hb => by
            match b, hb with
            | ⟨0, _⟩, _ => rfl
            | ⟨1, _⟩, hb => exact absurd rfl hb)
          (by show 256 + (k.val - (128 + 128)) = k.val; omega), val_v47_apply]

/-! ## The edge network -/

/-- One dense layer with the activation over the edge-sized arrays, at an index. -/
theorem denseE_apply (x : FVec Ideal S640000x128 .f32) (W : FVec Ideal S128x128 .f32) (b : FVec Ideal S128 .f32)
    (e : Fin 640000) (j : Fin 128) :
    siluE (addf (Host.dotGeneral dot_S640000x128_S128x128_S640000x128_1_0_0_1_n_n none x W) (biasE b)) (ix2 e j)
      = silu (lin (fun k => x (ix2 e k)) (fun k j => W (ix2 k j)) (fun j => b (ix1 j)) j) := by
  rw [siluE_apply, addf_apply, dotE128_apply, biasE_apply]
  rfl

/-- The first hidden row. -/
theorem val_v53_apply (j : Fin 128) :
    val_v53 A.h A.x A.ei A.ea A.We1 A.be1 (ix2 e j) = h1 (eW A) (hi A e) (hj A e) (ef A offR e) j := by
  unfold val_v53
  rw [siluE_apply, addf_apply, dot284_apply, biasE_apply]
  simp only [val_v48_apply]
  rfl

/-- The message row before the gate. -/
theorem val_v58_apply (j : Fin 128) :
    val_v58 A.h A.x A.ei A.ea A.We1 A.be1 A.We2 A.be2 (ix2 e j) = mij (eW A) (hi A e) (hj A e) (ef A offR e) j := by
  unfold val_v58
  rw [denseE_apply]
  simp only [val_v53_apply]
  rfl

/-- The gate of a message row. -/
theorem val_v68_apply (m : FVec Ideal S640000x128 .f32) (a9 : FVec Ideal S128x1 .f32) (a10 : FVec Ideal S1 .f32)
    (e : Fin 640000) :
    val_v68 m a9 a10 (ix2 e 0) = Ideal.logistic ((∑ k : Fin 128, m (ix2 e k) * a9 (ix2 k 0)) + a10 (ix1 0)) := by
  unfold val_v68 val_v62
  rw [hostDivf_apply, addf_apply, splat_apply, hostExp_apply, hostNegf_apply, addf_apply, dotE1_apply, bias1_apply,
    logistic_words]

/-- The gated message row. -/
theorem val_v70_apply (m : FVec Ideal S640000x128 .f32) (a9 : FVec Ideal S128x1 .f32) (a10 : FVec Ideal S1 .f32)
    (e : Fin 640000) (j : Fin 128) :
    val_v70 m a9 a10 (ix2 e j)
      = m (ix2 e j) * Ideal.logistic ((∑ k : Fin 128, m (ix2 e k) * a9 (ix2 k 0)) + a10 (ix1 0)) := by
  unfold val_v70
  rw [mulf_apply, colE128_apply, val_v68_apply]

/-- Edge e's gated message. -/
theorem msg_read (j : Fin 128) :
    val_v70 (val_v58 A.h A.x A.ei A.ea A.We1 A.be1 A.We2 A.be2) A.Winf A.binf (ix2 e j) = msgE A offR e j := by
  rw [val_v70_apply]
  simp only [val_v58_apply]
  rfl

/-- The coordinate weight of a message row. -/
theorem val_v91_apply (m : FVec Ideal S640000x128 .f32) (a11 : FVec Ideal S128x128 .f32) (a12 : FVec Ideal S128 .f32)
    (a13 : FVec Ideal S128x1 .f32) (e : Fin 640000) :
    val_v91 m a11 a12 a13 (ix2 e 0)
      = Ideal.tanh (∑ k : Fin 128,
          silu (lin (fun k' => m (ix2 e k')) (fun k' j => a11 (ix2 k' j)) (fun j => a12 (ix1 j)) k) * a13 (ix2 k 0)) := by
  unfold val_v91
  rw [hostTanh_apply, dotE1_apply]
  simp only [denseE_apply]

/-- The normalised coordinate difference. -/
theorem val_v95_apply (d : Fin 3) :
    val_v95 A.x A.ei (ix2 e d)
      = Ideal.div (rel (xi A e) (xj A e) d) (dist (xi A e) (xj A e) + Ideal.ofBits .f32 0x3F800000#32) := by
  unfold val_v95
  rw [hostDivf_apply, colE3_apply, addf_apply, splat_apply, val_v32_apply, val_v38_apply]

/-- Edge e's coordinate contribution. -/
theorem xc_read (d : Fin 3) :
    val_v97 A.x A.ei (val_v58 A.h A.x A.ei A.ea A.We1 A.be1 A.We2 A.be2) A.Wx1 A.bx1 A.Wx2 (ix2 e d) = xcE A offR e d := by
  unfold val_v97
  rw [mulf_apply, colE3_apply, val_v95_apply, val_v91_apply]
  simp only [val_v58_apply]
  rfl

end Cert.ReferenceIdeal.Hand

end
-- ==== Proof.Ref.Read.lean ====
/- The reference's two results read entry by entry: the aggregated messages and coordinate contributions, the node
   network, and the results as the layer's function of the argument arrays in the reference's memory. -/
import proofs.«418897_j48576080117843_2_alg».proof.Proof.Ref.ReadEdge

noncomputable section

namespace Cert.ReferenceIdeal.Hand

open Cert.ReferenceIdeal Idealize.ShloMosaic Idealize.ShloMosaic.ValueIdx Idealize.SL.Sem Cert.ScatterGather
open scoped BigOperators

open Cert.Layer Cert.Spec Idealize.ShloMosaic.TcCoe

/-! ## The aggregation -/

/-- The scatter's index column at edge e is the receiver word. -/
theorem val_v72_apply (a2 : IVec S2x640000 32) (e : Fin 640000) : val_v72 a2 (ix2 e 0) = a2 (ix2 1 e) := by
  unfold val_v72
  rw [toCol_apply, val_v3_apply]

/-- The host's accumulating row scatter at an entry: the operand's entry plus the update rows whose index word names
    the entry's row. -/
theorem hostScatterAdd_rows_apply {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : FVec Ideal ⟨2, ![N, H]⟩ .f32) (idx : IVec ⟨2, ![E, 1]⟩ w) (upd : FVec Ideal ⟨2, ![E, H]⟩ .f32)
    (i : Fin N) (j : Fin H) :
    Host.scatterAdd d x idx upd (ix2 i j)
      = x (ix2 i j) + ∑ e ∈ Finset.univ.filter (fun e : Fin E => tgtW N (idx (ix2 e 0)) = some i), upd (ix2 e j) :=
  scatterAdd_rows_apply d hu hi hs hv x idx upd i j

variable (A : Cert.Layer.Args) (n : Fin 40000)

/-- Node n's aggregated messages. -/
theorem val_v73_apply (j : Fin 128) :
    val_v73 A.ei (val_v58 A.h A.x A.ei A.ea A.We1 A.be1 A.We2 A.be2) A.Winf A.binf (ix2 n j) = mi A offR n j := by
  unfold val_v73
  rw [hostScatterAdd_rows_apply (N := 40000) (H := 128) (E := 640000) _ rfl rfl rfl rfl, splat_apply]
  unfold Cert.Layer.mi Cert.Layer.into
  refine congrArg (fun s => Ideal.ofBits .f32 0x00000000#32 + s) ?_
  refine Finset.sum_congr (Finset.filter_congr fun e _ => ?_) fun e _ => msg_read A e j
  rw [val_v72_apply]
  exact Iff.rfl

/-- Node n's aggregated coordinate contributions. -/
theorem val_v100_apply (d : Fin 3) :
    val_v100 A.x A.ei (val_v58 A.h A.x A.ei A.ea A.We1 A.be1 A.We2 A.be2) A.Wx1 A.bx1 A.Wx2 (ix2 n d) = dx A offR n d := by
  unfold val_v100
  rw [hostScatterAdd_rows_apply (N := 40000) (H := 3) (E := 640000) _ rfl rfl rfl rfl, splat_apply]
  unfold Cert.Layer.dx Cert.Layer.into
  refine congrArg (fun s => Ideal.ofBits .f32 0x00000000#32 + s) ?_
  refine Finset.sum_congr (Finset.filter_congr fun e _ => ?_) fun e _ => xc_read A e d
  rw [val_v72_apply]
  exact Iff.rfl

/-! ## The node network -/

/-- The node network's input at entry k: aggregated messages, then the node's features. -/
theorem nodeCat_apply (agg a0 : FVec Ideal S40000x128 .f32) (n : Fin 40000) (k : Fin 256) :
    concatenate S40000x256 1 [⟨S40000x128, agg⟩, ⟨S40000x128, a0⟩] Gen.concatenates_S40000x128_S40000x128_S40000x256_d1 (ix2 n k)
      = cat2 (fun k' : Fin 128 => agg (ix2 n k')) (fun k' : Fin 128 => a0 (ix2 n k')) k := by
  have hk := k.isLt
  by_cases h : k.val < 128
  · rw [cat2_lo (fun k' : Fin 128 => agg (ix2 n k')) (fun k' : Fin 128 => a0 (ix2 n k')) k h,
      concatenate_pair_apply_left (t := S40000x256) (s₁ := S40000x128) (s₂ := S40000x128) _ _ _ _ (ix2 n k) rfl
        (ix2 n (⟨k.val, h⟩ : Fin 128)) (fun b => by match b with | ⟨0, _⟩ => rfl | ⟨1, _⟩ => rfl)]
  · rw [cat2_hi (fun k' : Fin 128 => agg (ix2 n k')) (fun k' : Fin 128 => a0 (ix2 n k')) k h,
      concatenate_pair_apply_right (t := S40000x256) (s₁ := S40000x128) (s₂ := S40000x128) _ _ _ _ (ix2 n k) rfl rfl
        (ix2 n (⟨k.val - 128, by omega⟩ : Fin 128))
        (fun b hb => by
          match b, hb with
          | ⟨0, _⟩, _ => rfl
          | ⟨1, _⟩, hb => exact absurd rfl hb)
        (by show (k.val - 128) + 128 = k.val; omega)]

/-- The node network's output row. -/
theorem val_v83_apply (a0 agg : FVec Ideal S40000x128 .f32) (a14 : FVec Ideal S256x128 .f32) (a15 : FVec Ideal S128 .f32)
    (a16 : FVec Ideal S128x128 .f32) (a17 : FVec Ideal S128 .f32) (n : Fin 40000) (j : Fin 128) :
    val_v83 a0 agg a14 a15 a16 a17 (ix2 n j)
      = lin (nh1 (nodeWR a14 a15 a16 a17) (fun k => agg (ix2 n k)) (fun k => a0 (ix2 n k)))
          (nodeWR a14 a15 a16 a17).Wn2 (nodeWR a14 a15 a16 a17).bn2 j := by
  unfold val_v83
  rw [addf_apply, dotN128_apply, biasN_apply]
  simp only [siluN_apply, addf_apply, dotN256_apply, biasN_apply, nodeCat_apply]
  rfl

/-! ## The two results -/

/-- The first result at (n, j) is node n's new feature j. -/
theorem res84_read (j : Fin 128) :
    res84 A.h A.x A.ei A.ea A.We1 A.be1 A.We2 A.be2 A.Winf A.binf A.Wn1 A.bn1 A.Wn2 A.bn2 (ix2 n j) = out0 A offR n j := by
  unfold res84
  rw [addf_apply, val_v83_apply]
  simp only [val_v73_apply]
  rfl

/-- The second result at (n, d) is node n's new coordinate d. -/
theorem res101_read (d : Fin 3) :
    res101 A.h A.x A.ei A.ea A.We1 A.be1 A.We2 A.be2 A.Wx1 A.bx1 A.Wx2 (ix2 n d) = out1 A offR n d := by
  unfold res101
  rw [addf_apply, val_v100_apply]
  rfl

/-! ## On the reference's memory -/

variable (m : (ℓ : Loc nD τ sig) → Buf (Elt Ideal) ℓ) (c : Dev nD)

theorem res84_apply (n : Fin 40000) (j : Fin 128) :
    res84 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg14)) (m ((c : Thread nD τ).loc main_arg15))
        (m ((c : Thread nD τ).loc main_arg16)) (m ((c : Thread nD τ).loc main_arg17)) (ix2 n j)
      = Cert.Layer.out0 (argsOf m c) offR n j :=
  res84_read (argsOf m c) n j

theorem res101_apply (n : Fin 40000) (d : Fin 3) :
    res101 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg11))
        (m ((c : Thread nD τ).loc main_arg12)) (m ((c : Thread nD τ).loc main_arg13)) (ix2 n d)
      = Cert.Layer.out1 (argsOf m c) offR n d :=
  res101_read (argsOf m c) n d

end Cert.ReferenceIdeal.Hand

end
-- ==== Proof.PreDecode.lean ====
/- The precondition's last conjunct, decoded: every sender word edge_index[0, e], read signed, names a node row.

   The precondition ends in an "and" of the finiteness conjuncts with the all-reduction of the lane-wise
   test 0 ≤ w ∧ w < 40000 over the 640000 sender words (row 0 of the 2 × 640000 index table, sliced and flattened).
   The predicate being 1 makes the reduction 1, so every lane's test is 1, and the two signed comparisons against
   the broadcast constants say what the word is as an integer. -/
import proofs.«418897_j48576080117843_2_alg».proof.Defs
import proofs.«418897_j48576080117843_2_alg».proof.Proof.Gen.Pre_finite_inputs
import proofs.«418897_j48576080117843_2_alg».proof.Proof.KI.Args
import proofs.«418897_j48576080117843_2_alg».proof.Proof.Layer
import Idealize.ShloMosaic.Lib.ReduceAll
import Idealize.ShloMosaic.Lib.Pipeline.Value

noncomputable section

namespace Cert.PreDecode

open Idealize.ShloMosaic Idealize.ShloMosaic.ValueIdx Idealize.SL.Sem
open Cert.Pre_finite_inputs

/-- The scalar shape has one index. -/
instance : Subsingleton S_.Idx := ⟨fun a b => funext fun d => d.elim0⟩

/-- The tail of the predicate: if it is 1, then at every lane the carried lower-bound test is 1 and the word is
    signed-below the upper-bound word. -/
theorem tail_lane [Facts] {F : FTy → Type} [FloatOps F] (p : IVec S_ 1) (ge : IVec S640000 1) (w hi : IVec S640000 32)
    (h : fn_part5 (F := F) p ge w hi ix0 = 1#1) (e : Fin 640000) :
    ge (ix1 e) = 1#1 ∧ IntOp.cmpi .slt (w (ix1 e)) (hi (ix1 e)) = 1#1 := by
  have hall : Host.reduce IntOp.andi (andi ge (cmpi .slt w hi)) (constantI S_ 1 1#1)
      Facts.reducesTo_S640000_S_d0 Facts.h_S_ ix0 = 1#1 := (IntOp.andi_eq_one.1 h).2
  exact IntOp.andi_eq_one.1 (Host.reduce_andi_all _ _ _ _ _ hall (ix1 e))

/-- Lane e of the flattened row 0 of the index table is the table at (0, e). -/
theorem row0_lane [Facts] (ei : IVec S2x640000 32) (e : Fin 640000) :
    shapeCast S640000 (extractStridedSlice S1x640000 ![0, 0] ei Facts.slices_S2x640000_S1x640000_0_0)
      Facts.shapeCasts_S1x640000_S640000 (ix1 e) = ei (ix2 0 e) := by
  refine (shapeCast_apply _ Facts.shapeCasts_S1x640000_S640000 (ix1 e) (ix2 (0 : Fin 1) e) ?_).trans ?_
  · rw [Shape.rowMajor_val_two, Shape.rowMajor_val_one]
    show (0 : Nat) * 640000 + e.val = e.val
    omega
  · refine extractStridedSlice_apply _ ei Facts.slices_S2x640000_S1x640000_0_0 (ix2 (0 : Fin 1) e) (ix2 (0 : Fin 2) e) ?_
    intro a
    match a with
    | ⟨0, _⟩ => rfl
    | ⟨1, _⟩ => show e.val = 0 + e.val; omega

/-- The last stretch of the predicate, read at edge e: the sender word is a node row. -/
theorem part4_lane [Facts] {F : FTy → Type} [FloatOps F] (ei : IVec S2x640000 32) (a16 : FVec F S128x128 .f32)
    (a17 : FVec F S128 .f32) (p q : IVec S_ 1) (h : fn_part4 (F := F) ei a16 a17 p q ix0 = 1#1) (e : Fin 640000) :
    0 ≤ (ei (ix2 0 e)).toInt ∧ (ei (ix2 0 e)).toInt < 40000 := by
  obtain ⟨hge, hlt⟩ := tail_lane (F := F) _ _ _ _ h e
  have hge' : IntOp.cmpi .sge (shapeCast S640000 (extractStridedSlice S1x640000 ![0, 0] ei Facts.slices_S2x640000_S1x640000_0_0)
      Facts.shapeCasts_S1x640000_S640000 (ix1 e)) 0#32 = 1#1 := hge
  have hlt' : IntOp.cmpi .slt (shapeCast S640000 (extractStridedSlice S1x640000 ![0, 0] ei Facts.slices_S2x640000_S1x640000_0_0)
      Facts.shapeCasts_S1x640000_S640000 (ix1 e)) 40000#32 = 1#1 := hlt
  rw [row0_lane] at hge' hlt'
  have h0 : (0#32 : BitVec 32).toInt = 0 := by decide
  have h4 : (40000#32 : BitVec 32).toInt = 40000 := by decide
  have a := IntOp.cmpi_sge.1 hge'
  have b := IntOp.cmpi_slt.1 hlt'
  rw [h0] at a
  rw [h4] at b
  exact ⟨a, b⟩

/-- Under the precondition every sender word of the idealized kernel's index table names a node row. -/
theorem src_inRange (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (e : Fin 640000) :
    Cert.Layer.InRange (Cert.Layer.srcW (Cert.KernelIdeal.Hand.argsOf m c) e) := by
  have h := congrFun (hpre c) ix0
  exact part4_lane (F := Ideal) (m ((c.tc : Thread Cert.KernelIdeal.nD Cert.KernelIdeal.τ).loc Cert.KernelIdeal.main_arg2)) _ _ _ _ h e

end Cert.PreDecode

end
-- ==== Proof.lean ====
/- The certificate of the message-passing layer.

   Both idealized programs compute, for every node n, hout(mi n, h n) and x n + dx n, where mi and dx sum over the edges
   whose receiver index is n the gated message and the coordinate contribution of the edge network; the kernel program
   computes the edge network in blocks of 4000 edges with the first layer's weight matrix in three row slices and writes
   message and contribution side by side into one array that a single segment sum aggregates; the reference computes it
   on whole arrays with two segment sums. They agree wherever every sender index names a row: outside that range the
   reference's row lookup clamps while the kernel program's marks the row invalid. A receiver index out of range is
   dropped by the segment sum on both sides, so nothing is asked of it. The three frame claims are the programs' runs. -/
import proofs.«418897_j48576080117843_2_alg».proof.Defs
import proofs.«418897_j48576080117843_2_alg».proof.Proof.Gen.Kernel
import proofs.«418897_j48576080117843_2_alg».proof.Proof.Gen.KernelIdeal
import proofs.«418897_j48576080117843_2_alg».proof.Proof.Gen.ReferenceIdeal
import proofs.«418897_j48576080117843_2_alg».proof.Proof.Gen.Pre_finite_inputs
import proofs.«418897_j48576080117843_2_alg».proof.Proof.KB.Run
import proofs.«418897_j48576080117843_2_alg».proof.Proof.KI.Run
import proofs.«418897_j48576080117843_2_alg».proof.Proof.KI.Final
import proofs.«418897_j48576080117843_2_alg».proof.Proof.Ref.Run
import proofs.«418897_j48576080117843_2_alg».proof.Proof.Ref.Read
import proofs.«418897_j48576080117843_2_alg».proof.Proof.PreDecode

set_option maxRecDepth 16384

noncomputable section

namespace Cert.Proof

open Idealize.ShloMosaic Idealize.ShloMosaic.ValueIdx Idealize.SL.Sem

/-- The two programs spell the radial offsets with the same table of words. -/
theorem off_eq : Cert.ReferenceIdeal.Hand.offR = Cert.KernelIdeal.Hand.offK := by
  have hl : ∀ i : Fin 20, Cert.ReferenceIdeal.lit0 i = Cert.KernelIdeal.lit0 i := by decide
  funext k
  unfold Cert.ReferenceIdeal.Hand.offR Cert.KernelIdeal.Hand.offK
  exact congrArg (Ideal.ofBits .f32) (hl _)

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run m ρ)

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.KernelIdeal.Hand.V9 m ρ c Cert.KernelIdeal.main_v45_0, fun c => Cert.KernelIdeal.Hand.V9 m ρ c Cert.KernelIdeal.main_v45_1, ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v45_0 (by decide)), h c _ (Cert.KernelIdeal.Hand.mem_uc Cert.KernelIdeal.main_v45_1 (by decide)),
        (h c _ (Cert.KernelIdeal.Hand.mem_uc Cert.KernelIdeal.main_arg0 (by decide))).trans (Cert.KernelIdeal.Hand.W9_main_arg0 m ρ c),
        (h c _ (Cert.KernelIdeal.Hand.mem_uc Cert.KernelIdeal.main_arg1 (by decide))).trans (Cert.KernelIdeal.Hand.W9_main_arg1 m ρ c),
        (h c _ (Cert.KernelIdeal.Hand.mem_uc Cert.KernelIdeal.main_arg2 (by decide))).trans (Cert.KernelIdeal.Hand.W9_main_arg2 m ρ c),
        (h c _ (Cert.KernelIdeal.Hand.mem_uc Cert.KernelIdeal.main_arg3 (by decide))).trans (Cert.KernelIdeal.Hand.W9_main_arg3 m ρ c),
        (h c _ (Cert.KernelIdeal.Hand.mem_uc Cert.KernelIdeal.main_arg4 (by decide))).trans (Cert.KernelIdeal.Hand.W9_main_arg4 m ρ c),
        (h c _ (Cert.KernelIdeal.Hand.mem_uc Cert.KernelIdeal.main_arg5 (by decide))).trans (Cert.KernelIdeal.Hand.W9_main_arg5 m ρ c),
        (h c _ (Cert.KernelIdeal.Hand.mem_uc Cert.KernelIdeal.main_arg6 (by decide))).trans (Cert.KernelIdeal.Hand.W9_main_arg6 m ρ c),
        (h c _ (Cert.KernelIdeal.Hand.mem_uc Cert.KernelIdeal.main_arg7 (by decide))).trans (Cert.KernelIdeal.Hand.W9_main_arg7 m ρ c),
        (h c _ (Cert.KernelIdeal.Hand.mem_uc Cert.KernelIdeal.main_arg8 (by decide))).trans (Cert.KernelIdeal.Hand.W9_main_arg8 m ρ c),
        (h c _ (Cert.KernelIdeal.Hand.mem_uc Cert.KernelIdeal.main_arg9 (by decide))).trans (Cert.KernelIdeal.Hand.W9_main_arg9 m ρ c),
        (h c _ (Cert.KernelIdeal.Hand.mem_uc Cert.KernelIdeal.main_arg10 (by decide))).trans (Cert.KernelIdeal.Hand.W9_main_arg10 m ρ c),
        (h c _ (Cert.KernelIdeal.Hand.mem_uc Cert.KernelIdeal.main_arg11 (by decide))).trans (Cert.KernelIdeal.Hand.W9_main_arg11 m ρ c),
        (h c _ (Cert.KernelIdeal.Hand.mem_uc Cert.KernelIdeal.main_arg12 (by decide))).trans (Cert.KernelIdeal.Hand.W9_main_arg12 m ρ c),
        (h c _ (Cert.KernelIdeal.Hand.mem_uc Cert.KernelIdeal.main_arg13 (by decide))).trans (Cert.KernelIdeal.Hand.W9_main_arg13 m ρ c),
        (h c _ (Cert.KernelIdeal.Hand.mem_uc Cert.KernelIdeal.main_arg14 (by decide))).trans (Cert.KernelIdeal.Hand.W9_main_arg14 m ρ c),
        (h c _ (Cert.KernelIdeal.Hand.mem_uc Cert.KernelIdeal.main_arg15 (by decide))).trans (Cert.KernelIdeal.Hand.W9_main_arg15 m ρ c),
        (h c _ (Cert.KernelIdeal.Hand.mem_uc Cert.KernelIdeal.main_arg16 (by decide))).trans (Cert.KernelIdeal.Hand.W9_main_arg16 m ρ c),
        (h c _ (Cert.KernelIdeal.Hand.mem_uc Cert.KernelIdeal.main_arg17 (by decide))).trans (Cert.KernelIdeal.Hand.W9_main_arg17 m ρ c)⟩
  · refine (θ_run Cert.ReferenceIdeal.defs _ _).mono (fun r h c => ?_) (Cert.ReferenceIdeal.Hand.run m' ρ')
    have hA : Cert.ReferenceIdeal.Hand.argsOf m' c = Cert.KernelIdeal.Hand.argsOf m c := by
      obtain ⟨h0, h1, h2, h3, h4, h5, h6, h7, h8, h9, h10, h11, h12, h13, h14, h15, h16, h17⟩ := hagree c
      unfold Cert.ReferenceIdeal.Hand.argsOf Cert.KernelIdeal.Hand.argsOf
      congr 1
    have hsrc := fun e => Cert.PreDecode.src_inRange m hpre c e
    refine ⟨(h c).1.1.trans ?_, (h c).1.2.trans ?_, (h c).2⟩
    · funext i
      obtain ⟨n, j, rfl⟩ : ∃ (n : Fin 40000) (j : Fin 128), i = ix2 n j := ⟨i 0, i 1, eq_ix2 i⟩
      rw [Cert.ReferenceIdeal.Hand.res84_apply, hA, off_eq]
      exact (Cert.KernelIdeal.Hand.kernel_out0 m ρ c hsrc n j).symm
    · funext i
      obtain ⟨n, d, rfl⟩ : ∃ (n : Fin 40000) (d : Fin 3), i = ix2 n d := ⟨i 0, i 1, eq_ix2 i⟩
      rw [Cert.ReferenceIdeal.Hand.res101_apply, hA, off_eq]
      exact (Cert.KernelIdeal.Hand.kernel_out1 m ρ c hsrc n d).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
